-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S64 .f32) (main_arg13 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg8 : FVec F S64x64 .f32) (main_arg9 : FVec F S64 .f32) (main_arg10 : FVec F S64x64 .f32) (main_arg11 : FVec F S64 .f32) (main_arg12 : FVec F S64 .f32) (main_arg13 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S64 .f32) (main_arg6 : FVec F S64 .f32) (main_arg7 : FVec F S64 .f32) (main_arg8 : FVec F S64x64 .f32) (main_arg9 : FVec F S64 .f32) (main_arg10 : FVec F S64x64 .f32) (main_arg11 : FVec F S64 .f32) (main_arg12 : FVec F S64 .f32) (main_arg13 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x64 .f32) (main_arg1 : IVec S2x3200000 32) (main_arg2 : FVec F S64x64 .f32) (main_arg3 : FVec F S64 .f32) (main_arg4 : FVec F S64x64 .f32) (main_arg5 : FVec F S64 .f32) (main_arg6 : FVec F S64 .f32) (main_arg7 : FVec F S64 .f32) (main_arg8 : FVec F S64x64 .f32) (main_arg9 : FVec F S64 .f32) (main_arg10 : FVec F S64x64 .f32) (main_arg11 : FVec F S64 .f32) (main_arg12 : FVec F S64 .f32) (main_arg13 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_v13 main_v16
-- ==== Kernel.lean ====
abbrev S100000x64 : Shape := ⟨2, ![100000, 64]⟩
abbrev S2x3200000 : Shape := ⟨2, ![2, 3200000]⟩
abbrev S64x64 : Shape := ⟨2, ![64, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S3300000x64 : Shape := ⟨2, ![3300000, 64]⟩
abbrev S1x64 : Shape := ⟨2, ![1, 64]⟩
abbrev S10000x64 : Shape := ⟨2, ![10000, 64]⟩

abbrev nBuf : Space → Nat
  | .hbm => 124
  | .vmem => 44
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S100000, .i32⟩
  | .hbm, ⟨15, _⟩ => ⟨S1x3200000, .i32⟩
  | .hbm, ⟨16, _⟩ => ⟨S3200000, .i32⟩
  | .hbm, ⟨17, _⟩ => ⟨S3300000, .i32⟩
  | .hbm, ⟨18, _⟩ => ⟨S1x3200000, .i32⟩
  | .hbm, ⟨19, _⟩ => ⟨S3200000, .i32⟩
  | .hbm, ⟨20, _⟩ => ⟨S3300000, .i32⟩
  | .hbm, ⟨21, _⟩ => ⟨S_, .f32⟩
  | .hbm, ⟨22, _⟩ => ⟨S3300000, .f32⟩
  | .hbm, ⟨23, _⟩ => ⟨S_, .f32⟩
  | .hbm, ⟨24, _⟩ => ⟨S100000, .f32⟩
  | .hbm, ⟨25, _⟩ => ⟨S3300000x1, .i32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x64, .f32⟩
  | .hbm, ⟨30, _⟩ => ⟨S100000x64, .f32⟩
  | .hbm, ⟨31, _⟩ => ⟨S100000x64, .bf16⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000x64, .bf16⟩
  | .hbm, ⟨41, _⟩ => ⟨S3300000x64, .f32⟩
  | .hbm, ⟨42, _⟩ => ⟨S_, .f32⟩
  | .hbm, ⟨43, _⟩ => ⟨S100000x64, .f32⟩
  | .hbm, ⟨44, _⟩ => ⟨S3300000x1, .i32⟩
  | .hbm, ⟨45, _⟩ => ⟨S100000x64, .f32⟩
  | .hbm, ⟨46, _⟩ => ⟨S100000x1, .f32⟩
  | .hbm, ⟨47, _⟩ => ⟨S100000x64, .f32⟩
  | .hbm, ⟨48, _⟩ => ⟨S100000x64, .f32⟩
  | .hbm, ⟨49, _⟩ => ⟨S1x64, .f32⟩
  | .hbm, ⟨50, _⟩ => ⟨S1x64, .f32⟩
  | .hbm, ⟨51, _⟩ => ⟨S100000x64, .f32⟩
  | .hbm, ⟨52, _⟩ => ⟨S1x64, .f32⟩
  | .hbm, ⟨53, _⟩ => ⟨S1x64, .f32⟩
  | .hbm, ⟨54, _⟩ => ⟨S64, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S64, .f32⟩
  | .hbm, ⟨59, _⟩ => ⟨S_, .f32⟩
  | .hbm, ⟨60, _⟩ => ⟨S64, .f32⟩
  | .hbm, ⟨61, _⟩ => ⟨S64, .f32⟩
  | .hbm, ⟨62, _⟩ => ⟨S64, .f32⟩
  | .hbm, ⟨63, _⟩ => ⟨S64, .f32⟩
  | .hbm, ⟨64, _⟩ => ⟨S_, .f32⟩
  | .hbm, ⟨65, _⟩ => ⟨S64, .f32⟩
  | .hbm, ⟨66, _⟩ => ⟨S64, .f32⟩
  | .hbm, ⟨67, _⟩ => ⟨S_, .f32⟩
  | .hbm, ⟨68, _⟩ => ⟨S64, .f32⟩
  | .hbm, ⟨69, _⟩ => ⟨S64, .f32⟩
  | .hbm, ⟨70, _⟩ => ⟨S64, .f32⟩
  | .hbm, ⟨71, _⟩ => ⟨S1x64, .f32⟩
  | .hbm, ⟨72, _⟩ => ⟨S1x64, .f32⟩
  | .hbm, ⟨73, _⟩ => ⟨S1x64, .f32⟩
  | .hbm, ⟨74, _⟩ => ⟨S1x64, .f32⟩
  | .hbm, ⟨75, _⟩ => ⟨S100000x64, .f32⟩
  | .hbm, ⟨76, _⟩ => ⟨S100000x1, .f32⟩
  | .hbm, ⟨77, _⟩ => ⟨S100000x64, .f32⟩
  | .hbm, ⟨78, _⟩ => ⟨S100000x64, .f32⟩
  | .hbm, ⟨79, _⟩ => ⟨S100000x64, .bf16⟩
  | .hbm, ⟨80, _⟩ => ⟨S_, .i32⟩
  | .hbm, ⟨81, _⟩ => ⟨S3300000, .i32⟩
  | .hbm, ⟨82, _⟩ => ⟨S3300000, .i1⟩
  | .hbm, ⟨83, _⟩ => ⟨S_, .i32⟩
  | .hbm, ⟨84, _⟩ => ⟨S3300000, .i32⟩
  | .hbm, ⟨85, _⟩ => ⟨S3300000, .i32⟩
  | .hbm, ⟨86, _⟩ => ⟨S3300000, .i32⟩
  | .hbm, ⟨87, _⟩ => ⟨S3300000x1, .i32⟩
  | .hbm, ⟨88, _⟩ => ⟨S3300000x64, .bf16⟩
  | .hbm, ⟨89, _⟩ => ⟨S3300000x64, .f32⟩
  | .hbm, ⟨90, _⟩ => ⟨S_, .f32⟩
  | .hbm, ⟨91, _⟩ => ⟨S100000x64, .f32⟩
  | .hbm, ⟨92, _⟩ => ⟨S3300000x1, .i32⟩
  | .hbm, ⟨93, _⟩ => ⟨S100000x64, .f32⟩
  | .hbm, ⟨94, _⟩ => ⟨S100000x1, .f32⟩
  | .hbm, ⟨95, _⟩ => ⟨S100000x64, .f32⟩
  | .hbm, ⟨96, _⟩ => ⟨S100000x64, .f32⟩
  | .hbm, ⟨97, _⟩ => ⟨S1x64, .f32⟩
  | .hbm, ⟨98, _⟩ => ⟨S1x64, .f32⟩
  | .hbm, ⟨99, _⟩ => ⟨S100000x64, .f32⟩
  | .hbm, ⟨100, _⟩ => ⟨S1x64, .f32⟩
  | .hbm, ⟨101, _⟩ => ⟨S1x64, .f32⟩
  | .hbm, ⟨102, _⟩ => ⟨S64, .f32⟩
  | .hbm, ⟨103, _⟩ => ⟨S_, .f32⟩
  | .hbm, ⟨104, _⟩ => ⟨S64, .f32⟩
  | .hbm, ⟨105, _⟩ => ⟨S64, .f32⟩
  | .hbm, ⟨106, _⟩ => ⟨S64, .f32⟩
  | .hbm, ⟨107, _⟩ => ⟨S_, .f32⟩
  | .hbm, ⟨108, _⟩ => ⟨S64, .f32⟩
  | .hbm, ⟨109, _⟩ => ⟨S64, .f32⟩
  | .hbm, ⟨110, _⟩ => ⟨S64, .f32⟩
  | .hbm, ⟨111, _⟩ => ⟨S64, .f32⟩
  | .hbm, ⟨112, _⟩ => ⟨S_, .f32⟩
  | .hbm, ⟨113, _⟩ => ⟨S64, .f32⟩
  | .hbm, ⟨114, _⟩ => ⟨S64, .f32⟩
  | .hbm, ⟨115, _⟩ => ⟨S_, .f32⟩
  | .hbm, ⟨116, _⟩ => ⟨S64, .f32⟩
  | .hbm, ⟨117, _⟩ => ⟨S64, .f32⟩
  | .hbm, ⟨118, _⟩ => ⟨S64, .f32⟩
  | .hbm, ⟨119, _⟩ => ⟨S1x64, .f32⟩
  | .hbm, ⟨120, _⟩ => ⟨S1x64, .f32⟩
  | .hbm, ⟨121, _⟩ => ⟨S1x64, .f32⟩
  | .hbm, ⟨122, _⟩ => ⟨S1x64, .f32⟩
  | .hbm, ⟨123, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .bf16⟩
  | .local _ .vmem, ⟨4, _⟩ => ⟨S10000x64, .bf16⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S1x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S64x64, .f32⟩
  | .local _ .vmem, ⟨25, _⟩ => ⟨S10000x64, .bf16⟩
  | .local _ .vmem, ⟨26, _⟩ => ⟨S10000x64, .bf16⟩
  | .local _ .vmem, ⟨27, _⟩ => ⟨S10000x64, .f32⟩
  | .local _ .vmem, ⟨28, _⟩ => ⟨S10000x64, .f32⟩
  | .local _ .vmem, ⟨29, _⟩ => ⟨S1x64, .f32⟩
  | .local _ .vmem, ⟨30, _⟩ => ⟨S64x64, .f32⟩
  | .local _ .vmem, ⟨31, _⟩ => ⟨S1x64, .f32⟩
  | .local _ .vmem, ⟨32, _⟩ => ⟨S10000x64, .f32⟩
  | .local _ .vmem, ⟨33, _⟩ => ⟨S10000x64, .f32⟩
  | .local _ .vmem, ⟨34, _⟩ => ⟨S1x64, .f32⟩
  | .local _ .vmem, ⟨35, _⟩ => ⟨S1x64, .f32⟩
  | .local _ .vmem, ⟨36, _⟩ => ⟨S10000x64, .f32⟩
  | .local _ .vmem, ⟨37, _⟩ => ⟨S10000x64, .f32⟩
  | .local _ .vmem, ⟨38, _⟩ => ⟨S1x64, .f32⟩
  | .local _ .vmem, ⟨39, _⟩ => ⟨S1x64, .f32⟩
  | .local _ .vmem, ⟨40, _⟩ => ⟨S1x64, .f32⟩
  | .local _ .vmem, ⟨41, _⟩ => ⟨S1x64, .f32⟩
  | .local _ .vmem, ⟨42, _⟩ => ⟨S10000x64, .f32⟩
  | .local _ .vmem, ⟨43, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_cst : Ref sig .tc := ⟨.hbm, 21, rfl⟩
abbrev main_call0_v7 : Ref sig .tc := ⟨.hbm, 22, rfl⟩
abbrev main_call0_cst_0 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_c : Ref sig .tc := ⟨.hbm, 32, rfl⟩
abbrev main_call0_v16 : Ref sig .tc := ⟨.hbm, 33, rfl⟩
abbrev main_call0_v17 : Ref sig .tc := ⟨.hbm, 34, rfl⟩
abbrev main_call0_c_1 : Ref sig .tc := ⟨.hbm, 35, rfl⟩
abbrev main_call0_v18 : Ref sig .tc := ⟨.hbm, 36, rfl⟩
abbrev main_call0_v19 : Ref sig .tc := ⟨.hbm, 37, rfl⟩
abbrev main_call0_v20 : Ref sig .tc := ⟨.hbm, 38, rfl⟩
abbrev main_call0_v21 : Ref sig .tc := ⟨.hbm, 39, rfl⟩
abbrev main_call0_v22 : Ref sig .tc := ⟨.hbm, 40, rfl⟩
abbrev main_call0_v23 : Ref sig .tc := ⟨.hbm, 41, rfl⟩
abbrev main_call0_cst_2 : Ref sig .tc := ⟨.hbm, 42, rfl⟩
abbrev main_call0_v24 : Ref sig .tc := ⟨.hbm, 43, rfl⟩
abbrev main_call0_v25 : Ref sig .tc := ⟨.hbm, 44, rfl⟩
abbrev main_call0_v26 : Ref sig .tc := ⟨.hbm, 45, rfl⟩
abbrev main_call0_v27 : Ref sig .tc := ⟨.hbm, 46, rfl⟩
abbrev main_call0_v28 : Ref sig .tc := ⟨.hbm, 47, rfl⟩
abbrev main_call0_v29 : Ref sig .tc := ⟨.hbm, 48, rfl⟩
abbrev main_call0_v30 : Ref sig .tc := ⟨.hbm, 49, rfl⟩
abbrev main_call0_v31 : Ref sig .tc := ⟨.hbm, 50, rfl⟩
abbrev main_call0_v32_0 : Ref sig .tc := ⟨.hbm, 51, rfl⟩
abbrev main_call0_v32_1 : Ref sig .tc := ⟨.hbm, 52, rfl⟩
abbrev main_call0_v32_2 : Ref sig .tc := ⟨.hbm, 53, rfl⟩
abbrev main_call0_v33 : Ref sig .tc := ⟨.hbm, 54, rfl⟩
abbrev main_call0_cst_3 : Ref sig .tc := ⟨.hbm, 55, rfl⟩
abbrev main_call0_v34 : Ref sig .tc := ⟨.hbm, 56, rfl⟩
abbrev main_call0_v35 : Ref sig .tc := ⟨.hbm, 57, rfl⟩
abbrev main_call0_v36 : Ref sig .tc := ⟨.hbm, 58, rfl⟩
abbrev main_call0_cst_4 : Ref sig .tc := ⟨.hbm, 59, rfl⟩
abbrev main_call0_v37 : Ref sig .tc := ⟨.hbm, 60, rfl⟩
abbrev main_call0_v38 : Ref sig .tc := ⟨.hbm, 61, rfl⟩
abbrev main_call0_v39 : Ref sig .tc := ⟨.hbm, 62, rfl⟩
abbrev main_call0_v40 : Ref sig .tc := ⟨.hbm, 63, rfl⟩
abbrev main_call0_cst_5 : Ref sig .tc := ⟨.hbm, 64, rfl⟩
abbrev main_call0_v41 : Ref sig .tc := ⟨.hbm, 65, rfl⟩
abbrev main_call0_v42 : Ref sig .tc := ⟨.hbm, 66, rfl⟩
abbrev main_call0_cst_6 : Ref sig .tc := ⟨.hbm, 67, rfl⟩
abbrev main_call0_v43 : Ref sig .tc := ⟨.hbm, 68, rfl⟩
abbrev main_call0_v44 : Ref sig .tc := ⟨.hbm, 69, rfl⟩
abbrev main_call0_v45 : Ref sig .tc := ⟨.hbm, 70, rfl⟩
abbrev main_call0_v46 : Ref sig .tc := ⟨.hbm, 71, rfl⟩
abbrev main_call0_v47 : Ref sig .tc := ⟨.hbm, 72, rfl⟩
abbrev main_call0_v48 : Ref sig .tc := ⟨.hbm, 73, rfl⟩
abbrev main_call0_v49 : Ref sig .tc := ⟨.hbm, 74, rfl⟩
abbrev main_call0_v50 : Ref sig .tc := ⟨.hbm, 75, rfl⟩
abbrev main_call0_v51 : Ref sig .tc := ⟨.hbm, 76, rfl⟩
abbrev main_call0_v52 : Ref sig .tc := ⟨.hbm, 77, rfl⟩
abbrev main_call0_v53 : Ref sig .tc := ⟨.hbm, 78, rfl⟩
abbrev main_call0_v54 : Ref sig .tc := ⟨.hbm, 79, rfl⟩
abbrev main_call0_c_7 : Ref sig .tc := ⟨.hbm, 80, rfl⟩
abbrev main_call0_v55 : Ref sig .tc := ⟨.hbm, 81, rfl⟩
abbrev main_call0_v56 : Ref sig .tc := ⟨.hbm, 82, rfl⟩
abbrev main_call0_c_8 : Ref sig .tc := ⟨.hbm, 83, rfl⟩
abbrev main_call0_v57 : Ref sig .tc := ⟨.hbm, 84, rfl⟩
abbrev main_call0_v58 : Ref sig .tc := ⟨.hbm, 85, rfl⟩
abbrev main_call0_v59 : Ref sig .tc := ⟨.hbm, 86, rfl⟩
abbrev main_call0_v60 : Ref sig .tc := ⟨.hbm, 87, rfl⟩
abbrev main_call0_v61 : Ref sig .tc := ⟨.hbm, 88, rfl⟩
abbrev main_call0_v62 : Ref sig .tc := ⟨.hbm, 89, rfl⟩
abbrev main_call0_cst_9 : Ref sig .tc := ⟨.hbm, 90, rfl⟩
abbrev main_call0_v63 : Ref sig .tc := ⟨.hbm, 91, rfl⟩
abbrev main_call0_v64 : Ref sig .tc := ⟨.hbm, 92, rfl⟩
abbrev main_call0_v65 : Ref sig .tc := ⟨.hbm, 93, rfl⟩
abbrev main_call0_v66 : Ref sig .tc := ⟨.hbm, 94, rfl⟩
abbrev main_call0_v67 : Ref sig .tc := ⟨.hbm, 95, rfl⟩
abbrev main_call0_v68 : Ref sig .tc := ⟨.hbm, 96, rfl⟩
abbrev main_call0_v69 : Ref sig .tc := ⟨.hbm, 97, rfl⟩
abbrev main_call0_v70 : Ref sig .tc := ⟨.hbm, 98, rfl⟩
abbrev main_call0_v71_0 : Ref sig .tc := ⟨.hbm, 99, rfl⟩
abbrev main_call0_v71_1 : Ref sig .tc := ⟨.hbm, 100, rfl⟩
abbrev main_call0_v71_2 : Ref sig .tc := ⟨.hbm, 101, rfl⟩
abbrev main_call0_v72 : Ref sig .tc := ⟨.hbm, 102, rfl⟩
abbrev main_call0_cst_10 : Ref sig .tc := ⟨.hbm, 103, rfl⟩
abbrev main_call0_v73 : Ref sig .tc := ⟨.hbm, 104, rfl⟩
abbrev main_call0_v74 : Ref sig .tc := ⟨.hbm, 105, rfl⟩
abbrev main_call0_v75 : Ref sig .tc := ⟨.hbm, 106, rfl⟩
abbrev main_call0_cst_11 : Ref sig .tc := ⟨.hbm, 107, rfl⟩
abbrev main_call0_v76 : Ref sig .tc := ⟨.hbm, 108, rfl⟩
abbrev main_call0_v77 : Ref sig .tc := ⟨.hbm, 109, rfl⟩
abbrev main_call0_v78 : Ref sig .tc := ⟨.hbm, 110, rfl⟩
abbrev main_call0_v79 : Ref sig .tc := ⟨.hbm, 111, rfl⟩
abbrev main_call0_cst_12 : Ref sig .tc := ⟨.hbm, 112, rfl⟩
abbrev main_call0_v80 : Ref sig .tc := ⟨.hbm, 113, rfl⟩
abbrev main_call0_v81 : Ref sig .tc := ⟨.hbm, 114, rfl⟩
abbrev main_call0_cst_13 : Ref sig .tc := ⟨.hbm, 115, rfl⟩
abbrev main_call0_v82 : Ref sig .tc := ⟨.hbm, 116, rfl⟩
abbrev main_call0_v83 : Ref sig .tc := ⟨.hbm, 117, rfl⟩
abbrev main_call0_v84 : Ref sig .tc := ⟨.hbm, 118, rfl⟩
abbrev main_call0_v85 : Ref sig .tc := ⟨.hbm, 119, rfl⟩
abbrev main_call0_v86 : Ref sig .tc := ⟨.hbm, 120, rfl⟩
abbrev main_call0_v87 : Ref sig .tc := ⟨.hbm, 121, rfl⟩
abbrev main_call0_v88 : Ref sig .tc := ⟨.hbm, 122, rfl⟩
abbrev main_v0 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg6_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg4_1 : Ref sig .tc := ⟨.vmem, 33, rfl⟩
abbrev cc4_stg5_0 : Ref sig .tc := ⟨.vmem, 34, rfl⟩
abbrev cc4_stg6_0 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg5_0 : Ref sig .tc := ⟨.vmem, 42, rfl⟩
abbrev cc5_stg5_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem6_0 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem3_0 : DmaSem sig := 31
abbrev cc4_sem4_0 : DmaSem sig := 32
abbrev cc4_sem4_1 : DmaSem sig := 33
abbrev cc4_sem5_0 : DmaSem sig := 34
abbrev cc4_sem6_0 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem5_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bitsLt_bf16_f32 : FTy.bits .bf16 < FTy.bits .f32
  bcast_S_S100000x64 : S_.BroadcastsInDim S100000x64 (![] : Fin 0 → Fin S100000x64.rank)
  shapeCasts_S64_S1x64 : S64.ShapeCasts S1x64
  shapeCasts_S1x64_S64 : S1x64.ShapeCasts S64
  bcast_S_S64 : S_.BroadcastsInDim S64 (![] : Fin 0 → Fin S64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  packedbf16_S10000x64_S10000x64_0_0 : (Rect.unit (s := S10000x64) ![0, 0] S10000x64.size inb_S10000x64_S10000x64_0_0).PackedRows (EltTy.packing .bf16)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S64 : S10000x64.Reduces [0] S64
  scatter_S100000_S3300000x1_S3300000_n_0_0_1_wf : ScatterDims.WF S100000 S3300000x1 S3300000 [] [0] [0] 1
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .bf16 = 32 ∨ (Rect.block (s := S100000x64) S10000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .bf16 = 32 ∨ (Rect.block (s := S100000x64) S10000x64.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x64.size a ≤ S100000x64.size a
  hwx4_4 : ∀ i : grid4.Coords, EltTy.bits .f32 = 32 ∨ (Rect.block (s := S100000x64) S10000x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S100000x64.size a
  hwx5_5 : ∀ i : grid5.Coords, EltTy.bits .f32 = 32 ∨ (Rect.block (s := S100000x64) S10000x64.size (cc5_transform_5 i) (hinb5_5 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_call0_v14) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v15) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v29) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v30) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v31) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v32_0) S10000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_call0_v32_1) S1x64.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v32_2) S1x64.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_call0_v32_0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v46) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v47) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v48) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v49) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v50) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_call0_v53) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v54) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_call0_v68) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_call0_v69) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_call0_v70) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_call0_v71_0) S10000x64.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_call0_v71_1) S1x64.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_call0_v71_2) S1x64.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_call0_v71_0) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_call0_v85) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_call0_v86) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_call0_v87) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_call0_v88) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v0) S10000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x3200000 : Shape := ⟨2, ![2, 3200000]⟩
abbrev S64x64 : Shape := ⟨2, ![64, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩

abbrev nBuf : Space → Nat
  | .hbm => 180
  | .vmem => 0
  | .smem => 0
  | _ => 0

abbrev hbmTy0_0 (i : Nat) : BufTy := match i % 128 with
  | 0 => ⟨S100000x64, .f32⟩
  | 1 => ⟨S2x3200000, .i32⟩
  | 2 => ⟨S64x64, .f32⟩
  | 3 => ⟨S64, .f32⟩
  | 4 => ⟨S64x64, .f32⟩
  | 5 => ⟨S64, .f32⟩
  | 6 => ⟨S64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64, .f32⟩
  | 13 => ⟨S64, .f32⟩
  | 14 => ⟨S100000, .i32⟩
  | 15 => ⟨S1x3200000, .i32⟩
  | 16 => ⟨S3200000, .i32⟩
  | 17 => ⟨S3300000, .i32⟩
  | 18 => ⟨S1x3200000, .i32⟩
  | 19 => ⟨S3200000, .i32⟩
  | 20 => ⟨S3300000, .i32⟩
  | 21 => ⟨S_, .f32⟩
  | 22 => ⟨S3300000, .f32⟩
  | 23 => ⟨S_, .f32⟩
  | 24 => ⟨S100000, .f32⟩
  | 25 => ⟨S3300000x1, .i32⟩
  | 26 => ⟨S100000, .f32⟩
  | 27 => ⟨S100000, .f32⟩
  | 28 => ⟨S100000x64, .f32⟩
  | 29 => ⟨S_, .i32⟩
  | 30 => ⟨S3300000, .i32⟩
  | 31 => ⟨S3300000, .i1⟩
  | 32 => ⟨S_, .i32⟩
  | 33 => ⟨S3300000, .i32⟩
  | 34 => ⟨S3300000, .i32⟩
  | 35 => ⟨S3300000, .i32⟩
  | 36 => ⟨S3300000x1, .i32⟩
  | 37 => ⟨S3300000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S3300000, .f32⟩
  | 48 => ⟨S3300000x1, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x64, .f32⟩
  | 58 => ⟨S3300000x64, .f32⟩
  | 59 => ⟨S3300000x64, .f32⟩
  | 60 => ⟨S_, .f32⟩
  | 61 => ⟨S100000x64, .f32⟩
  | 62 => ⟨S3300000x1, .i32⟩
  | 63 => ⟨S100000x64, .f32⟩
  | 64 => ⟨S1x64, .f32⟩
  | 65 => ⟨S100000x64, .f32⟩
  | 66 => ⟨S100000x64, .f32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S64, .f32⟩
  | 73 => ⟨S_, .f32⟩
  | 74 => ⟨S64, .f32⟩
  | 75 => ⟨S64, .f32⟩
  | 76 => ⟨S1x64, .f32⟩
  | 77 => ⟨S100000x64, .f32⟩
  | 78 => ⟨S100000x64, .f32⟩
  | 79 => ⟨S100000x64, .f32⟩
  | 80 => ⟨S_, .f32⟩
  | 81 => ⟨S64, .f32⟩
  | 82 => ⟨S_, .f32⟩
  | 83 => ⟨S64, .f32⟩
  | 84 => ⟨S64, .f32⟩
  | 85 => ⟨S1x64, .f32⟩
  | 86 => ⟨S100000x64, .f32⟩
  | 87 => ⟨S100000x64, .f32⟩
  | 88 => ⟨S_, .f32⟩
  | 89 => ⟨S64, .f32⟩
  | 90 => ⟨S64, .f32⟩
  | 91 => ⟨S64, .f32⟩
  | 92 => ⟨S1x64, .f32⟩
  | 93 => ⟨S100000x64, .f32⟩
  | 94 => ⟨S100000x64, .f32⟩
  | 95 => ⟨S1x64, .f32⟩
  | 96 => ⟨S100000x64, .f32⟩
  | 97 => ⟨S100000x64, .f32⟩
  | 98 => ⟨S1x64, .f32⟩
  | 99 => ⟨S100000x64, .f32⟩
  | 100 => ⟨S100000x64, .f32⟩
  | 101 => ⟨S_, .f32⟩
  | 102 => ⟨S100000x64, .f32⟩
  | 103 => ⟨S100000x64, .f32⟩
  | 104 => ⟨S100000x64, .f32⟩
  | 105 => ⟨S_, .i32⟩
  | 106 => ⟨S3300000, .i32⟩
  | 107 => ⟨S3300000, .i1⟩
  | 108 => ⟨S_, .i32⟩
  | 109 => ⟨S3300000, .i32⟩
  | 110 => ⟨S3300000, .i32⟩
  | 111 => ⟨S3300000, .i32⟩
  | 112 => ⟨S3300000x1, .i32⟩
  | 113 => ⟨S3300000, .f32⟩
  | 114 => ⟨S_, .i32⟩
  | 115 => ⟨S3300000, .i32⟩
  | 116 => ⟨S3300000, .i1⟩
  | 117 => ⟨S_, .i32⟩
  | 118 => ⟨S3300000, .i32⟩
  | 119 => ⟨S3300000, .i32⟩
  | 120 => ⟨S3300000, .i32⟩
  | 121 => ⟨S3300000x1, .i32⟩
  | 122 => ⟨S3300000, .f32⟩
  | 123 => ⟨S3300000, .f32⟩
  | 124 => ⟨S3300000x1, .f32⟩
  | 125 => ⟨S_, .i32⟩
  | 126 => ⟨S3300000, .i32⟩
  | 127 => ⟨S3300000, .i1⟩
  | _ => ⟨S100000x64, .f32⟩

abbrev hbmTy0_1 (i : Nat) : BufTy := match i % 128 with
  | 0 => ⟨S_, .i32⟩
  | 1 => ⟨S3300000, .i32⟩
  | 2 => ⟨S3300000, .i32⟩
  | 3 => ⟨S3300000, .i32⟩
  | 4 => ⟨S3300000x1, .i32⟩
  | 5 => ⟨S3300000x64, .f32⟩
  | 6 => ⟨S3300000x64, .f32⟩
  | 7 => ⟨S3300000x64, .f32⟩
  | 8 => ⟨S_, .f32⟩
  | 9 => ⟨S100000x64, .f32⟩
  | 10 => ⟨S3300000x1, .i32⟩
  | 11 => ⟨S100000x64, .f32⟩
  | 12 => ⟨S1x64, .f32⟩
  | 13 => ⟨S100000x64, .f32⟩
  | 14 => ⟨S100000x64, .f32⟩
  | 15 => ⟨S100000x64, .f32⟩
  | 16 => ⟨S1x64, .f32⟩
  | 17 => ⟨S100000x64, .f32⟩
  | 18 => ⟨S100000x64, .f32⟩
  | 19 => ⟨S_, .f32⟩
  | 20 => ⟨S64, .f32⟩
  | 21 => ⟨S_, .f32⟩
  | 22 => ⟨S64, .f32⟩
  | 23 => ⟨S64, .f32⟩
  | 24 => ⟨S1x64, .f32⟩
  | 25 => ⟨S100000x64, .f32⟩
  | 26 => ⟨S100000x64, .f32⟩
  | 27 => ⟨S100000x64, .f32⟩
  | 28 => ⟨S_, .f32⟩
  | 29 => ⟨S64, .f32⟩
  | 30 => ⟨S_, .f32⟩
  | 31 => ⟨S64, .f32⟩
  | 32 => ⟨S64, .f32⟩
  | 33 => ⟨S1x64, .f32⟩
  | 34 => ⟨S100000x64, .f32⟩
  | 35 => ⟨S100000x64, .f32⟩
  | 36 => ⟨S_, .f32⟩
  | 37 => ⟨S64, .f32⟩
  | 38 => ⟨S64, .f32⟩
  | 39 => ⟨S64, .f32⟩
  | 40 => ⟨S1x64, .f32⟩
  | 41 => ⟨S100000x64, .f32⟩
  | 42 => ⟨S100000x64, .f32⟩
  | 43 => ⟨S1x64, .f32⟩
  | 44 => ⟨S100000x64, .f32⟩
  | 45 => ⟨S100000x64, .f32⟩
  | 46 => ⟨S1x64, .f32⟩
  | 47 => ⟨S100000x64, .f32⟩
  | 48 => ⟨S100000x64, .f32⟩
  | 49 => ⟨S_, .f32⟩
  | 50 => ⟨S100000x64, .f32⟩
  | 51 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_2 : Ref sig .tc := ⟨.hbm, 38, rfl⟩
abbrev main_v20 : Ref sig .tc := ⟨.hbm, 39, rfl⟩
abbrev main_v21 : Ref sig .tc := ⟨.hbm, 40, rfl⟩
abbrev main_c_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_4 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_7 : Ref sig .tc := ⟨.hbm, 71, rfl⟩
abbrev main_v48 : Ref sig .tc := ⟨.hbm, 72, rfl⟩
abbrev main_cst_8 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_call0_cst : Ref sig .tc := ⟨.hbm, 101, rfl⟩
abbrev main_call0_v0 : Ref sig .tc := ⟨.hbm, 102, rfl⟩
abbrev main_v73 : Ref sig .tc := ⟨.hbm, 103, rfl⟩
abbrev main_v74 : Ref sig .tc := ⟨.hbm, 104, rfl⟩
abbrev main_c_12 : Ref sig .tc := ⟨.hbm, 105, rfl⟩
abbrev main_v75 : Ref sig .tc := ⟨.hbm, 106, rfl⟩
abbrev main_v76 : Ref sig .tc := ⟨.hbm, 107, rfl⟩
abbrev main_c_13 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_c_14 : Ref sig .tc := ⟨.hbm, 114, rfl⟩
abbrev main_v82 : Ref sig .tc := ⟨.hbm, 115, rfl⟩
abbrev main_v83 : Ref sig .tc := ⟨.hbm, 116, rfl⟩
abbrev main_c_15 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_c_16 : Ref sig .tc := ⟨.hbm, 125, rfl⟩
abbrev main_v91 : Ref sig .tc := ⟨.hbm, 126, rfl⟩
abbrev main_v92 : Ref sig .tc := ⟨.hbm, 127, rfl⟩
abbrev main_c_17 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_18 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_cst_19 : Ref sig .tc := ⟨.hbm, 147, rfl⟩
abbrev main_v110 : Ref sig .tc := ⟨.hbm, 148, rfl⟩
abbrev main_cst_20 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_21 : Ref sig .tc := ⟨.hbm, 156, rfl⟩
abbrev main_v117 : Ref sig .tc := ⟨.hbm, 157, rfl⟩
abbrev main_cst_22 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_cst_23 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_call1_cst : Ref sig .tc := ⟨.hbm, 177, rfl⟩
abbrev main_call1_v0 : Ref sig .tc := ⟨.hbm, 178, rfl⟩
abbrev main_v135 : Ref sig .tc := ⟨.hbm, 179, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  scatter_S100000_S3300000x1_S3300000_n_0_0_1_wf : ScatterDims.WF S100000 S3300000x1 S3300000 [] [0] [0] 1
  dot_S100000x64_S64x64_S100000x64_1_0_0_1_n_n_wf : DotDims.WF S100000x64 S64x64 S100000x64 [1] [0] [0] [1] [] []
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.GcnSpec.lean ====
/-
  Two graph-convolution layers, each followed by a linear map, a batch normalisation over the node axis and a
  rectifier, written over the extended reals in two arrangements.

  The graph is a list of 3,300,000 directed edges over 100,000 nodes. Each edge carries a source row, a target row
  (as the gathers read them) and the signed target word (where a segment sum lands it: an edge whose word is not a
  node number lands nowhere). `dinv` is the inverse square root of a node's in-degree.

  ARRANGEMENT R normalises each message on its edge: the message of edge `e` is
  `(dinv (src e) * dinv (dstRow e)) * (X W) (src e)`, summed over the edges whose target word is the node.
  ARRANGEMENT K scales the rows of `X` by `dinv` before the product with `W`, sums the unscaled gathered rows, and
  scales the node's sum by `dinv` afterwards. Over real entries the two agree, because a target word that is a node
  number `n` reads target row `n`, and because a real factor moves in and out of a finite sum.

  The batch normalisation of R takes the variance as the mean of the squared deviations; that of K as the mean of the
  squares minus the squared mean, clamped at zero. Over real entries both are the same non-negative number.
-/
import Idealize.ShloMosaic.PureOps.Ideal.Laws

noncomputable section

open scoped BigOperators
open Idealize.ShloMosaic

namespace Cert.GcnSpec

/-- The number of nodes, of features, and of edges (the self loops included). -/
abbrev NN : Nat := 100000
abbrev DD : Nat := 64
abbrev EE : Nat := 3300000

abbrev Mat (a b : Nat) := Fin a → Fin b → EReal
abbrev Row (b : Nat) := Fin b → EReal

/-- Every entry is a real number. -/
def Real2 {a b : Nat} (X : Mat a b) : Prop := ∀ i j, ∃ r : ℝ, X i j = (r : EReal)
def Real1 {b : Nat} (v : Row b) : Prop := ∀ j, ∃ r : ℝ, v j = (r : EReal)

/-- The graph as the two arrangements read it. -/
structure Edges where
  /-- the row a gather by the edge's source word reads -/
  src : Fin EE → Fin NN
  /-- the row a gather by the edge's target word reads -/
  dstRow : Fin EE → Fin NN
  /-- the edge's target word, signed: the node a segment sum adds the edge's message to, if it is one -/
  dstWord : Fin EE → ℤ
  /-- the inverse square root of the in-degree -/
  dinv : Fin NN → EReal

/-- A target word that is a node number reads that node's row, and the normaliser is real. -/
def Edges.Ok (G : Edges) : Prop :=
  (∀ (e : Fin EE) (n : Fin NN), G.dstWord e = (n.val : ℤ) → G.dstRow e = n) ∧ Real1 G.dinv

/-- The matrix product with a 64 x 64 weight. -/
def mm (X : Mat NN DD) (W : Mat DD DD) : Mat NN DD := fun n d => ∑ k : Fin DD, X n k * W k d

/-- The segment sum: node `n` collects the messages of the edges whose target word is `n`. -/
def segSum (G : Edges) (M : Fin EE → Fin DD → EReal) : Mat NN DD :=
  fun n d => ∑ e ∈ Finset.univ.filter (fun e : Fin EE => G.dstWord e = (n.val : ℤ)), M e d

/-- Arrangement R's aggregation: each message normalised on its edge. -/
def aggR (G : Edges) (X : Mat NN DD) (W : Mat DD DD) : Mat NN DD :=
  segSum G fun e d => (G.dinv (G.src e) * G.dinv (G.dstRow e)) * mm X W (G.src e) d

/-- Arrangement K's aggregation: rows scaled before the product, the node's sum scaled after. -/
def aggK (G : Edges) (X : Mat NN DD) (W : Mat DD DD) : Mat NN DD :=
  fun n d => segSum G (fun e d' => mm (fun n' k => X n' k * G.dinv n') W (G.src e) d') n d * G.dinv n

/-- The bias, the linear map and its bias. -/
def fc (A : Mat NN DD) (b : Row DD) (fw : Mat DD DD) (fb : Row DD) : Mat NN DD :=
  fun n d => (∑ k : Fin DD, (A n k + b k) * fw k d) + fb d

/-- The sum of a column over the nodes. -/
def colSum (Y : Mat NN DD) : Row DD := fun d => ∑ n : Fin NN, Y n d

/-- The column mean: the column sum divided by the count `cN`. -/
def meanOf (cN : EReal) (Y : Mat NN DD) : Row DD := fun d => Ideal.div (colSum Y d) cN

/-- Arrangement R's variance: the mean of the squared deviations from the mean. -/
def varR (cN : EReal) (Y : Mat NN DD) : Row DD :=
  fun d => Ideal.div (colSum (fun n d' => (Y n d' - meanOf cN Y d') * (Y n d' - meanOf cN Y d')) d) cN

/-- Arrangement K's variance: the mean of the squares minus the squared mean, clamped at zero. -/
def varK (cN : EReal) (Y : Mat NN DD) : Row DD :=
  fun d => max (Ideal.div (colSum (fun n d' => Y n d' * Y n d') d) cN - meanOf cN Y d * meanOf cN Y d) 0

/-- Centre, scale by a per-column factor, apply gain and offset, rectify. -/
def normRelu (Y : Mat NN DD) (mu inv g bt : Row DD) : Mat NN DD :=
  fun n d => max ((((Y n d - mu d) * inv d) * g d) + bt d) 0

def bnR (cN eps : EReal) (Y : Mat NN DD) (g bt : Row DD) : Mat NN DD :=
  normRelu Y (meanOf cN Y) (fun d => Ideal.rsqrt (varR cN Y d + eps)) g bt

def bnK (cN eps : EReal) (Y : Mat NN DD) (g bt : Row DD) : Mat NN DD :=
  normRelu Y (meanOf cN Y) (fun d => Ideal.rsqrt (varK cN Y d + eps)) g bt

/-- One layer in each arrangement. -/
def layerR (G : Edges) (cN eps : EReal) (X : Mat NN DD) (W : Mat DD DD) (b : Row DD) (fw : Mat DD DD) (fb g bt : Row DD) :
    Mat NN DD := bnR cN eps (fc (aggR G X W) b fw fb) g bt

def layerK (G : Edges) (cN eps : EReal) (X : Mat NN DD) (W : Mat DD DD) (b : Row DD) (fw : Mat DD DD) (fb g bt : Row DD) :
    Mat NN DD := bnK cN eps (fc (aggK G X W) b fw fb) g bt

/-- The count is the real 100000 and the variance's offset a positive real. -/
def ConstsOk (cN eps : EReal) : Prop := cN = ((100000 : ℝ) : EReal) ∧ ∃ r : ℝ, 0 < r ∧ eps = (r : EReal)

/-! ### Coercions pushed outwards -/

/-- A finite sum of coerced reals is the coercion of the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The larger of two coerced reals is the coercion of the larger real. -/
theorem coe_max (a b : ℝ) : max (a : EReal) (b : EReal) = ((max a b : ℝ) : EReal) :=
  (EReal.coe_strictMono.monotone.map_max).symm

/-- The inverse square root of a positive real is a real. -/
theorem rsqrt_pos (r : ℝ) (h : 0 < r) : Ideal.rsqrt (r : EReal) = (((Real.sqrt r)⁻¹ : ℝ) : EReal) := by
  rw [Ideal.rsqrt_coe, if_neg (not_lt.mpr h.le), if_neg h.ne']

/-- A column sum of coerced reals divided by the count is the real sum times the reciprocal of the count. -/
theorem div_colSum_coe (z : Fin NN → Fin DD → ℝ) (d : Fin DD) :
    Ideal.div (colSum (fun n d' => ((z n d' : ℝ) : EReal)) d) ((100000 : ℝ) : EReal)
      = (((∑ n : Fin NN, z n d) * (1 / 100000) : ℝ) : EReal) := by
  rw [Ideal.div_coe (by norm_num : (100000 : ℝ) ≠ 0)]
  simp only [colSum, coe_sum, ← EReal.coe_mul]

/-- The column mean of coerced reals. -/
theorem meanOf_coe (y : Fin NN → Fin DD → ℝ) (d : Fin DD) :
    meanOf ((100000 : ℝ) : EReal) (fun n d' => ((y n d' : ℝ) : EReal)) d
      = (((∑ n : Fin NN, y n d) * (1 / 100000) : ℝ) : EReal) :=
  div_colSum_coe y d

/-- The mean of the squared deviations equals the mean of the squares minus the squared mean, when the factor c is
    the reciprocal of the number of terms. -/
theorem real_var {ι : Type} [Fintype ι] (y : ι → ℝ) (c : ℝ) (hc : c * (Fintype.card ι : ℝ) = 1) :
    (∑ n, (y n - (∑ m, y m) * c) * (y n - (∑ m, y m) * c)) * c
      = (∑ n, y n * y n) * c - ((∑ m, y m) * c) * ((∑ m, y m) * c) := by
  set S : ℝ := ∑ m, y m with hS
  have h1 : ∑ n, (y n - S * c) * (y n - S * c)
      = (∑ n, y n * y n) - 2 * (S * c) * S + (Fintype.card ι : ℝ) * ((S * c) * (S * c)) := by
    have : ∀ n, (y n - S * c) * (y n - S * c) = y n * y n - 2 * (S * c) * y n + (S * c) * (S * c) := fun n => by ring
    simp only [this]
    rw [Finset.sum_add_distrib, Finset.sum_sub_distrib, ← Finset.mul_sum, Finset.sum_const, Finset.card_univ,
      nsmul_eq_mul]
  rw [h1]
  linear_combination (S * S * c * c) * hc

/-- The number of rows, as a real. -/
theorem card_rows : ((1 / 100000 : ℝ)) * (Fintype.card (Fin NN) : ℝ) = 1 := by
  rw [Fintype.card_fin]
  norm_num

/-- Arrangement R's variance of coerced reals is a non-negative real. -/
theorem varR_coe (y : Fin NN → Fin DD → ℝ) (d : Fin DD) :
    varR ((100000 : ℝ) : EReal) (fun n d' => ((y n d' : ℝ) : EReal)) d
      = (((∑ n : Fin NN, (y n d - (∑ m : Fin NN, y m d) * (1 / 100000)) * (y n d - (∑ m : Fin NN, y m d) * (1 / 100000)))
          * (1 / 100000) : ℝ) : EReal) := by
  simp only [varR, meanOf_coe, ← EReal.coe_sub, ← EReal.coe_mul, div_colSum_coe]

theorem varR_real_nonneg (y : Fin NN → Fin DD → ℝ) (d : Fin DD) :
    0 ≤ (∑ n : Fin NN, (y n d - (∑ m : Fin NN, y m d) * (1 / 100000)) * (y n d - (∑ m : Fin NN, y m d) * (1 / 100000)))
          * (1 / 100000 : ℝ) :=
  mul_nonneg (Finset.sum_nonneg fun n _ => mul_self_nonneg _) (by norm_num)

/-- Arrangement K's variance of coerced reals. -/
theorem varK_coe (y : Fin NN → Fin DD → ℝ) (d : Fin DD) :
    varK ((100000 : ℝ) : EReal) (fun n d' => ((y n d' : ℝ) : EReal)) d
      = ((max ((∑ n : Fin NN, y n d * y n d) * (1 / 100000)
          - ((∑ m : Fin NN, y m d) * (1 / 100000)) * ((∑ m : Fin NN, y m d) * (1 / 100000))) 0 : ℝ) : EReal) := by
  simp only [varK, meanOf_coe, ← EReal.coe_sub, ← EReal.coe_mul, div_colSum_coe]
  rw [← EReal.coe_zero, coe_max]

/-- Real entries as a real matrix. -/
theorem Real2.witness {a b : Nat} {X : Mat a b} (h : Real2 X) :
    ∃ x : Fin a → Fin b → ℝ, X = fun i j => ((x i j : ℝ) : EReal) := by
  choose x hx using h
  exact ⟨x, funext fun i => funext fun j => hx i j⟩

theorem Real1.witness {b : Nat} {v : Row b} (h : Real1 v) : ∃ x : Fin b → ℝ, v = fun j => ((x j : ℝ) : EReal) := by
  choose x hx using h
  exact ⟨x, funext fun j => hx j⟩

/-- Over real entries the two aggregations agree. -/
theorem agg_eq (G : Edges) (hG : G.Ok) (X : Mat NN DD) (W : Mat DD DD) (hX : Real2 X) (hW : Real2 W) :
    aggR G X W = aggK G X W := by
  obtain ⟨hrow, hdinv⟩ := hG
  choose dv hdv using hdinv
  choose x hx using hX
  choose w hw using hW
  funext n d
  simp only [aggR, aggK, segSum, mm, hdv, hx, hw, ← EReal.coe_mul, coe_sum]
  refine congrArg Real.toEReal ?_
  rw [Finset.sum_mul]
  refine Finset.sum_congr rfl fun e he => ?_
  have he' : G.dstRow e = n := hrow e n (Finset.mem_filter.mp he).2
  rw [he', Finset.mul_sum, Finset.sum_mul]
  refine Finset.sum_congr rfl fun k _ => ?_
  ring

/-- The aggregation of real entries is real. -/
theorem aggR_real (G : Edges) (hG : G.Ok) (X : Mat NN DD) (W : Mat DD DD) (hX : Real2 X) (hW : Real2 W) :
    Real2 (aggR G X W) := by
  obtain ⟨_, hdinv⟩ := hG
  choose dv hdv using hdinv
  choose x hx using hX
  choose w hw using hW
  intro n d
  simp only [aggR, segSum, mm, hdv, hx, hw, ← EReal.coe_mul, coe_sum]
  exact ⟨_, rfl⟩

/-- The linear map of real entries is real. -/
theorem fc_real (A : Mat NN DD) (b : Row DD) (fw : Mat DD DD) (fb : Row DD) (hA : Real2 A) (hb : Real1 b)
    (hfw : Real2 fw) (hfb : Real1 fb) : Real2 (fc A b fw fb) := by
  choose a ha using hA
  choose b' hb' using hb
  choose w hw using hfw
  choose c hc using hfb
  intro n d
  simp only [fc, ha, hb', hw, hc, ← EReal.coe_add, ← EReal.coe_mul, coe_sum]
  exact ⟨_, rfl⟩

/-- Over real entries, with the count the number of rows, the two variances agree. -/
theorem var_eq (cN : EReal) (hN : cN = ((100000 : ℝ) : EReal)) (Y : Mat NN DD) (hY : Real2 Y) : varR cN Y = varK cN Y := by
  obtain ⟨y, rfl⟩ := hY.witness
  subst hN
  funext d
  rw [varR_coe, varK_coe, real_var (fun n => y n d) (1 / 100000) card_rows]
  rw [max_eq_left]
  rw [← real_var (fun n => y n d) (1 / 100000) card_rows]
  exact varR_real_nonneg y d

/-- The normalised, rectified layer output of real entries is real. -/
theorem bnR_real (cN eps : EReal) (hc : ConstsOk cN eps) (Y : Mat NN DD) (g bt : Row DD) (hY : Real2 Y) (hg : Real1 g)
    (hbt : Real1 bt) : Real2 (bnR cN eps Y g bt) := by
  obtain ⟨hN, r, hr, rfl⟩ := hc
  obtain ⟨y, rfl⟩ := hY.witness
  subst hN
  choose g' hg' using hg
  choose t ht using hbt
  intro n d
  have hpos : 0 < (∑ n : Fin NN, (y n d - (∑ m : Fin NN, y m d) * (1 / 100000)) * (y n d - (∑ m : Fin NN, y m d) * (1 / 100000)))
          * (1 / 100000 : ℝ) + r := add_pos_of_nonneg_of_pos (varR_real_nonneg y d) hr
  simp only [bnR, normRelu, meanOf_coe, varR_coe, hg', ht, ← EReal.coe_add, rsqrt_pos _ hpos, ← EReal.coe_sub,
    ← EReal.coe_mul]
  rw [← EReal.coe_zero, coe_max]
  exact ⟨_, rfl⟩

/-- The aggregation of real entries, second arrangement, is real. -/
theorem aggK_real (G : Edges) (hG : G.Ok) (X : Mat NN DD) (W : Mat DD DD) (hX : Real2 X) (hW : Real2 W) :
    Real2 (aggK G X W) := by
  rw [← agg_eq G hG X W hX hW]
  exact aggR_real G hG X W hX hW

/-- ONE LAYER: over real entries the two arrangements agree. -/
theorem layer_eq (G : Edges) (hG : G.Ok) (cN eps : EReal) (hc : ConstsOk cN eps) (X : Mat NN DD) (W : Mat DD DD) (b : Row DD)
    (fw : Mat DD DD) (fb g bt : Row DD) (hX : Real2 X) (hW : Real2 W) (hb : Real1 b) (hfw : Real2 fw) (hfb : Real1 fb) :
    layerR G cN eps X W b fw fb g bt = layerK G cN eps X W b fw fb g bt := by
  unfold layerR layerK bnR bnK
  rw [agg_eq G hG X W hX hW,
    var_eq cN hc.1 (fc (aggK G X W) b fw fb) (fc_real _ b fw fb (aggK_real G hG X W hX hW) hb hfw hfb)]

/-- ONE LAYER of real entries is real. -/
theorem layerR_real (G : Edges) (hG : G.Ok) (cN eps : EReal) (hc : ConstsOk cN eps) (X : Mat NN DD) (W : Mat DD DD) (b : Row DD)
    (fw : Mat DD DD) (fb g bt : Row DD) (hX : Real2 X) (hW : Real2 W) (hb : Real1 b) (hfw : Real2 fw) (hfb : Real1 fb)
    (hg : Real1 g) (hbt : Real1 bt) : Real2 (layerR G cN eps X W b fw fb g bt) :=
  bnR_real cN eps hc _ g bt (fc_real _ b fw fb (aggR_real G hG X W hX hW) hb hfw hfb) hg hbt

/-- TWO LAYERS: the second layer's input is the first layer's output. -/
theorem two_eq (G : Edges) (hG : G.Ok) (cN eps : EReal) (hc : ConstsOk cN eps) (X : Mat NN DD)
    (W1 : Mat DD DD) (b1 : Row DD) (fw1 : Mat DD DD) (fb1 g1 bt1 : Row DD)
    (W2 : Mat DD DD) (b2 : Row DD) (fw2 : Mat DD DD) (fb2 g2 bt2 : Row DD)
    (hX : Real2 X) (hW1 : Real2 W1) (hb1 : Real1 b1) (hfw1 : Real2 fw1) (hfb1 : Real1 fb1) (hg1 : Real1 g1) (hbt1 : Real1 bt1)
    (hW2 : Real2 W2) (hb2 : Real1 b2) (hfw2 : Real2 fw2) (hfb2 : Real1 fb2) :
    layerR G cN eps (layerR G cN eps X W1 b1 fw1 fb1 g1 bt1) W2 b2 fw2 fb2 g2 bt2
      = layerK G cN eps (layerK G cN eps X W1 b1 fw1 fb1 g1 bt1) W2 b2 fw2 fb2 g2 bt2 := by
  rw [← layer_eq G hG cN eps hc X W1 b1 fw1 fb1 g1 bt1 hX hW1 hb1 hfw1 hfb1]
  exact layer_eq G hG cN eps hc _ W2 b2 fw2 fb2 g2 bt2
    (layerR_real G hG cN eps hc X W1 b1 fw1 fb1 g1 bt1 hX hW1 hb1 hfw1 hfb1 hg1 hbt1) hW2 hb2 hfw2 hfb2

end Cert.GcnSpec

end
-- ==== Proof.LibScatterSum.lean ====
/-
  AN ACCUMULATING SCATTER ALONG ONE AXIS, READ AT AN INDEX. At the ideal instance a host scatter with an add body is, at
  each operand index, the operand's element plus the sum of the updates whose result index is that index; the start
  index is read signed and not clamped, and an update that lands outside the operand adds nothing. For three layouts
  with ONE index word per update (scatter indices `[E, 1]`) — updates `[C, E]` into `[C, N]` along axis 1, updates
  `[E, K]` into `[N, K]` along axis 0, updates `[E]` into `[N]` — the scatter at an index is the operand's element
  plus the plain sum, over the updates `e` whose index word read signed equals the scattered coordinate `n`, of the
  update element on the same window coordinate. Each layout: the start and the window coordinate on each operand axis,
  then when an update lands on a given index, then the sum re-indexed by coordinates.
-/
import Idealize.ShloMosaic.PureOps.Ideal
import Idealize.ShloMosaic.Lib.ValueIdx

noncomputable section

open Idealize.ShloMosaic Idealize.ShloMosaic.ValueIdx
open scoped BigOperators

namespace Cert.LibScatterSum

section Cols
variable {C N E w : Nat}
  (h : ScatterDims.WF (⟨2, ![C, N]⟩ : Shape) (⟨2, ![E, 1]⟩ : Shape) (⟨2, ![C, E]⟩ : Shape) [0] [1] [1] 1)

/-- The dimension numbers: update window axis 0, inserted operand axis 1, start indices for operand axis 1, the index
    vector on the scatter indices' axis 1. -/
abbrev colsDims : ScatterDims (⟨2, ![C, N]⟩ : Shape) (⟨2, ![E, 1]⟩ : Shape) (⟨2, ![C, E]⟩ : Shape) := ⟨[0], [1], [1], 1, h⟩

/-- No start index names operand axis 0: the window starts at 0 there. -/
theorem cols_start0 (j : (⟨2, ![C, E]⟩ : Shape).Idx) (idx : IVec (⟨2, ![E, 1]⟩ : Shape) w) (h0) :
    (colsDims h).start j idx ⟨0, h0⟩ = 0 := by
  have hm : (⟨0, h0⟩ : Fin (⟨2, ![C, N]⟩ : Shape).rank) ∉ (colsDims h).scatterDimsToOperandDims := by
    show (0 : Fin 2) ∉ ([1] : List (Fin 2)); decide
  unfold ScatterDims.start
  rw [dif_neg hm]

/-- Update `j` reads its one start-index component at `(j 1, 0)` of the scatter indices. -/
theorem cols_siIdx (j : (⟨2, ![C, E]⟩ : Shape).Idx) (c : Fin (colsDims h).scatterDimsToOperandDims.length) :
    (colsDims h).siIdx j c = ix2 (j 1) (0 : Fin 1) := by
  funext b; refine Fin.ext ?_
  match b with
  | ⟨0, _⟩ => rfl
  | ⟨1, _⟩ =>
    show c.val = 0
    have : c.val < 1 := c.isLt
    omega

/-- On operand axis 1 the window starts at the index word of update column `j 1`, read signed. -/
theorem cols_start1 (j : (⟨2, ![C, E]⟩ : Shape).Idx) (idx : IVec (⟨2, ![E, 1]⟩ : Shape) w) (h1) :
    (colsDims h).start j idx ⟨1, h1⟩ = (idx (ix2 (j 1) (0 : Fin 1))).toInt := by
  have hm : (⟨1, h1⟩ : Fin (⟨2, ![C, N]⟩ : Shape).rank) ∈ (colsDims h).scatterDimsToOperandDims := by
    show (1 : Fin 2) ∈ ([1] : List (Fin 2)); decide
  unfold ScatterDims.start
  rw [dif_pos hm, cols_siIdx h j]
  rfl

/-- On operand axis 0 the window coordinate is the update's row. -/
theorem cols_window0 (j : (⟨2, ![C, E]⟩ : Shape).Idx) (h0) : (colsDims h).window j ⟨0, h0⟩ = (j 0).val := by
  have hm : (⟨0, h0⟩ : Fin (⟨2, ![C, N]⟩ : Shape).rank) ∈ (colsDims h).sKept := by
    show (0 : Fin 2) ∈ (List.finRange 2).filter (· ∉ ([1] : List (Fin 2))); decide
  unfold ScatterDims.window
  rw [dif_pos hm]
  rfl

/-- Operand axis 1 is inserted: window coordinate 0. -/
theorem cols_window1 (j : (⟨2, ![C, E]⟩ : Shape).Idx) (h1) : (colsDims h).window j ⟨1, h1⟩ = 0 := by
  have hm : (⟨1, h1⟩ : Fin (⟨2, ![C, N]⟩ : Shape).rank) ∉ (colsDims h).sKept := by
    show (1 : Fin 2) ∉ (List.finRange 2).filter (· ∉ ([1] : List (Fin 2))); decide
  unfold ScatterDims.window
  rw [dif_neg hm]

/-- Update `j` lands on `(c, n)` exactly when its row is `c` and its column's index word, read signed, is `n`. -/
theorem cols_resultIdx_iff (j : (⟨2, ![C, E]⟩ : Shape).Idx) (idx : IVec (⟨2, ![E, 1]⟩ : Shape) w)
    (c : Fin C) (n : Fin N) :
    (colsDims h).resultIdx? j idx = some (ix2 c n) ↔
      j 0 = c ∧ (idx (ix2 (j 1) (0 : Fin 1))).toInt = (n.val : ℤ) := by
  unfold ScatterDims.resultIdx?
  split
  · rename_i hb
    rw [Option.some.injEq]
    constructor
    · intro he
      have e0 := congrArg Fin.val (congrFun he ⟨0, Nat.zero_lt_two⟩)
      have e1 := congrArg Fin.val (congrFun he ⟨1, Nat.one_lt_two⟩)
      have b1 := (hb ⟨1, Nat.one_lt_two⟩).1
      simp only [cols_start0, cols_start1, cols_window0, cols_window1] at e0 e1 b1
      refine ⟨Fin.ext ?_, ?_⟩
      · change _ = c.val at e0; omega
      · change _ = n.val at e1; omega
    · rintro ⟨hc, hn⟩
      funext a; refine Fin.ext ?_
      match a with
      | ⟨0, h0⟩ =>
        show ((colsDims h).start j idx ⟨0, h0⟩ + ((colsDims h).window j ⟨0, h0⟩ : ℕ)).toNat = c.val
        rw [cols_start0, cols_window0, hc]; omega
      | ⟨1, h1⟩ =>
        show ((colsDims h).start j idx ⟨1, h1⟩ + ((colsDims h).window j ⟨1, h1⟩ : ℕ)).toNat = n.val
        rw [cols_start1, cols_window1, hn]; omega
  · rename_i hb
    constructor
    · intro he; cases he
    · rintro ⟨hc, hn⟩
      exfalso; apply hb
      intro a
      match a with
      | ⟨0, _⟩ =>
        show 0 ≤ _ ∧ _ < ((C : ℕ) : ℤ)
        rw [cols_start0, cols_window0, hc]; have := c.isLt; omega
      | ⟨1, _⟩ =>
        show 0 ≤ _ ∧ _ < ((N : ℕ) : ℤ)
        rw [cols_start1, cols_window1, hn]; have := n.isLt; omega

/-- The scatter at `(c, n)`, over the named dimension numbers. -/
theorem cols_sum (x : (⟨2, ![C, N]⟩ : Shape).Idx → EReal) (idx : IVec (⟨2, ![E, 1]⟩ : Shape) w)
    (upd : (⟨2, ![C, E]⟩ : Shape).Idx → EReal) (c : Fin C) (n : Fin N) :
    Ideal.hostScatterAdd (colsDims h) x idx upd (ix2 c n)
      = x (ix2 c n) + ∑ e ∈ Finset.univ.filter (fun e : Fin E => (idx (ix2 e (0 : Fin 1))).toInt = (n.val : ℤ)), upd (ix2 c e) := by
  unfold Ideal.hostScatterAdd
  congr 1
  rw [Finset.sum_filter, Finset.sum_filter, sum_idx2, Finset.sum_comm]
  refine Finset.sum_congr rfl fun e _ => ?_
  have hiff : ∀ a : Fin C, ((colsDims h).resultIdx? (ix2 a e) idx = some (ix2 c n)) ↔
      (a = c ∧ (idx (ix2 e (0 : Fin 1))).toInt = (n.val : ℤ)) := fun a => cols_resultIdx_iff h (ix2 a e) idx c n
  simp only [hiff]
  by_cases hp : (idx (ix2 e (0 : Fin 1))).toInt = (n.val : ℤ)
  · simp only [hp, and_true, if_true, Finset.sum_ite_eq', Finset.mem_univ]
  · simp only [hp, and_false, if_false, Finset.sum_const_zero]
end Cols

section Rows
variable {N K E w : Nat}
  (h : ScatterDims.WF (⟨2, ![N, K]⟩ : Shape) (⟨2, ![E, 1]⟩ : Shape) (⟨2, ![E, K]⟩ : Shape) [1] [0] [0] 1)

/-- The dimension numbers: update window axis 1, inserted operand axis 0, start indices for operand axis 0, the index
    vector on the scatter indices' axis 1. -/
abbrev rowsDims : ScatterDims (⟨2, ![N, K]⟩ : Shape) (⟨2, ![E, 1]⟩ : Shape) (⟨2, ![E, K]⟩ : Shape) := ⟨[1], [0], [0], 1, h⟩

/-- Update `j` reads its one start-index component at `(j 0, 0)` of the scatter indices. -/
theorem rows_siIdx (j : (⟨2, ![E, K]⟩ : Shape).Idx) (c : Fin (rowsDims h).scatterDimsToOperandDims.length) :
    (rowsDims h).siIdx j c = ix2 (j 0) (0 : Fin 1) := by
  funext b; refine Fin.ext ?_
  match b with
  | ⟨0, _⟩ => rfl
  | ⟨1, _⟩ =>
    show c.val = 0
    have : c.val < 1 := c.isLt
    omega

/-- On operand axis 0 the window starts at the index word of update row `j 0`, read signed. -/
theorem rows_start0 (j : (⟨2, ![E, K]⟩ : Shape).Idx) (idx : IVec (⟨2, ![E, 1]⟩ : Shape) w) (h0) :
    (rowsDims h).start j idx ⟨0, h0⟩ = (idx (ix2 (j 0) (0 : Fin 1))).toInt := by
  have hm : (⟨0, h0⟩ : Fin (⟨2, ![N, K]⟩ : Shape).rank) ∈ (rowsDims h).scatterDimsToOperandDims := by
    show (0 : Fin 2) ∈ ([0] : List (Fin 2)); decide
  unfold ScatterDims.start
  rw [dif_pos hm, rows_siIdx h j]
  rfl

/-- No start index names operand axis 1: the window starts at 0 there. -/
theorem rows_start1 (j : (⟨2, ![E, K]⟩ : Shape).Idx) (idx : IVec (⟨2, ![E, 1]⟩ : Shape) w) (h1) :
    (rowsDims h).start j idx ⟨1, h1⟩ = 0 := by
  have hm : (⟨1, h1⟩ : Fin (⟨2, ![N, K]⟩ : Shape).rank) ∉ (rowsDims h).scatterDimsToOperandDims := by
    show (1 : Fin 2) ∉ ([0] : List (Fin 2)); decide
  unfold ScatterDims.start
  rw [dif_neg hm]

/-- Operand axis 0 is inserted: window coordinate 0. -/
theorem rows_window0 (j : (⟨2, ![E, K]⟩ : Shape).Idx) (h0) : (rowsDims h).window j ⟨0, h0⟩ = 0 := by
  have hm : (⟨0, h0⟩ : Fin (⟨2, ![N, K]⟩ : Shape).rank) ∉ (rowsDims h).sKept := by
    show (0 : Fin 2) ∉ (List.finRange 2).filter (· ∉ ([0] : List (Fin 2))); decide
  unfold ScatterDims.window
  rw [dif_neg hm]

/-- On operand axis 1 the window coordinate is the update's column. -/
theorem rows_window1 (j : (⟨2, ![E, K]⟩ : Shape).Idx) (h1) : (rowsDims h).window j ⟨1, h1⟩ = (j 1).val := by
  have hm : (⟨1, h1⟩ : Fin (⟨2, ![N, K]⟩ : Shape).rank) ∈ (rowsDims h).sKept := by
    show (1 : Fin 2) ∈ (List.finRange 2).filter (· ∉ ([0] : List (Fin 2))); decide
  unfold ScatterDims.window
  rw [dif_pos hm]
  rfl

/-- Update `j` lands on `(n, k)` exactly when its row's index word, read signed, is `n` and its column is `k`. -/
theorem rows_resultIdx_iff (j : (⟨2, ![E, K]⟩ : Shape).Idx) (idx : IVec (⟨2, ![E, 1]⟩ : Shape) w)
    (n : Fin N) (k : Fin K) :
    (rowsDims h).resultIdx? j idx = some (ix2 n k) ↔
      (idx (ix2 (j 0) (0 : Fin 1))).toInt = (n.val : ℤ) ∧ j 1 = k := by
  unfold ScatterDims.resultIdx?
  split
  · rename_i hb
    rw [Option.some.injEq]
    constructor
    · intro he
      have e0 := congrArg Fin.val (congrFun he ⟨0, Nat.zero_lt_two⟩)
      have e1 := congrArg Fin.val (congrFun he ⟨1, Nat.one_lt_two⟩)
      have b0 := (hb ⟨0, Nat.zero_lt_two⟩).1
      simp only [rows_start0, rows_start1, rows_window0, rows_window1] at e0 e1 b0
      refine ⟨?_, Fin.ext ?_⟩
      · change _ = n.val at e0; omega
      · change _ = k.val at e1; omega
    · rintro ⟨hn, hk⟩
      funext a; refine Fin.ext ?_
      match a with
      | ⟨0, h0⟩ =>
        show ((rowsDims h).start j idx ⟨0, h0⟩ + ((rowsDims h).window j ⟨0, h0⟩ : ℕ)).toNat = n.val
        rw [rows_start0, rows_window0, hn]; omega
      | ⟨1, h1⟩ =>
        show ((rowsDims h).start j idx ⟨1, h1⟩ + ((rowsDims h).window j ⟨1, h1⟩ : ℕ)).toNat = k.val
        rw [rows_start1, rows_window1, hk]; omega
  · rename_i hb
    constructor
    · intro he; cases he
    · rintro ⟨hn, hk⟩
      exfalso; apply hb
      intro a
      match a with
      | ⟨0, _⟩ =>
        show 0 ≤ _ ∧ _ < ((N : ℕ) : ℤ)
        rw [rows_start0, rows_window0, hn]; have := n.isLt; omega
      | ⟨1, _⟩ =>
        show 0 ≤ _ ∧ _ < ((K : ℕ) : ℤ)
        rw [rows_start1, rows_window1, hk]; have := k.isLt; omega

/-- The scatter at `(n, k)`, over the named dimension numbers. -/
theorem rows_sum (x : (⟨2, ![N, K]⟩ : Shape).Idx → EReal) (idx : IVec (⟨2, ![E, 1]⟩ : Shape) w)
    (upd : (⟨2, ![E, K]⟩ : Shape).Idx → EReal) (n : Fin N) (k : Fin K) :
    Ideal.hostScatterAdd (rowsDims h) x idx upd (ix2 n k)
      = x (ix2 n k) + ∑ e ∈ Finset.univ.filter (fun e : Fin E => (idx (ix2 e (0 : Fin 1))).toInt = (n.val : ℤ)), upd (ix2 e k) := by
  unfold Ideal.hostScatterAdd
  congr 1
  rw [Finset.sum_filter, Finset.sum_filter, sum_idx2]
  refine Finset.sum_congr rfl fun e _ => ?_
  have hiff : ∀ b : Fin K, ((rowsDims h).resultIdx? (ix2 e b) idx = some (ix2 n k)) ↔
      ((idx (ix2 e (0 : Fin 1))).toInt = (n.val : ℤ) ∧ b = k) := fun b => rows_resultIdx_iff h (ix2 e b) idx n k
  simp only [hiff]
  by_cases hp : (idx (ix2 e (0 : Fin 1))).toInt = (n.val : ℤ)
  · simp only [hp, true_and, if_true, Finset.sum_ite_eq', Finset.mem_univ]
  · simp only [hp, false_and, if_false, Finset.sum_const_zero]
end Rows

section Vec
variable {N E w : Nat}
  (h : ScatterDims.WF (⟨1, ![N]⟩ : Shape) (⟨2, ![E, 1]⟩ : Shape) (⟨1, ![E]⟩ : Shape) [] [0] [0] 1)

/-- The dimension numbers: no update window axis, inserted operand axis 0, start indices for operand axis 0, the index
    vector on the scatter indices' axis 1. -/
abbrev vecDims : ScatterDims (⟨1, ![N]⟩ : Shape) (⟨2, ![E, 1]⟩ : Shape) (⟨1, ![E]⟩ : Shape) := ⟨[], [0], [0], 1, h⟩

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Update `j` reads its one start-index component at `(j 0, 0)` of the scatter indices. -/
theorem vec_siIdx (j : (⟨1, ![E]⟩ : Shape).Idx) (c : Fin (vecDims h).scatterDimsToOperandDims.length) :
    (vecDims h).siIdx j c = ix2 (j 0) (0 : Fin 1) := by
  funext b; refine Fin.ext ?_
  match b with
  | ⟨0, _⟩ => rfl
  | ⟨1, _⟩ =>
    show c.val = 0
    have : c.val < 1 := c.isLt
    omega

/-- On the operand's one axis the window starts at the index word of update `j 0`, read signed. -/
theorem vec_start0 (j : (⟨1, ![E]⟩ : Shape).Idx) (idx : IVec (⟨2, ![E, 1]⟩ : Shape) w) (h0) :
    (vecDims h).start j idx ⟨0, h0⟩ = (idx (ix2 (j 0) (0 : Fin 1))).toInt := by
  have hm : (⟨0, h0⟩ : Fin (⟨1, ![N]⟩ : Shape).rank) ∈ (vecDims h).scatterDimsToOperandDims := by
    show (0 : Fin 1) ∈ ([0] : List (Fin 1)); decide
  unfold ScatterDims.start
  rw [dif_pos hm, vec_siIdx h j]
  rfl

/-- The operand's one axis is inserted: window coordinate 0. -/
theorem vec_window0 (j : (⟨1, ![E]⟩ : Shape).Idx) (h0) : (vecDims h).window j ⟨0, h0⟩ = 0 := by
  have hm : (⟨0, h0⟩ : Fin (⟨1, ![N]⟩ : Shape).rank) ∉ (vecDims h).sKept := by
    show (0 : Fin 1) ∉ (List.finRange 1).filter (· ∉ ([0] : List (Fin 1))); decide
  unfold ScatterDims.window
  rw [dif_neg hm]

/-- Update `j` lands on `n` exactly when its index word, read signed, is `n`. -/
theorem vec_resultIdx_iff (j : (⟨1, ![E]⟩ : Shape).Idx) (idx : IVec (⟨2, ![E, 1]⟩ : Shape) w) (n : Fin N) :
    (vecDims h).resultIdx? j idx = some (ix1 n) ↔ (idx (ix2 (j 0) (0 : Fin 1))).toInt = (n.val : ℤ) := by
  unfold ScatterDims.resultIdx?
  split
  · rename_i hb
    rw [Option.some.injEq]
    constructor
    · intro he
      have e0 := congrArg Fin.val (congrFun he ⟨0, Nat.zero_lt_one⟩)
      have b0 := (hb ⟨0, Nat.zero_lt_one⟩).1
      simp only [vec_start0, vec_window0] at e0 b0
      change _ = n.val at e0; omega
    · intro hn
      funext a; refine Fin.ext ?_
      match a with
      | ⟨0, h0⟩ =>
        show ((vecDims h).start j idx ⟨0, h0⟩ + ((vecDims h).window j ⟨0, h0⟩ : ℕ)).toNat = n.val
        rw [vec_start0, vec_window0, hn]; omega
  · rename_i hb
    constructor
    · intro he; cases he
    · intro hn
      exfalso; apply hb
      intro a
      match a with
      | ⟨0, _⟩ =>
        show 0 ≤ _ ∧ _ < ((N : ℕ) : ℤ)
        rw [vec_start0, vec_window0, hn]; have := n.isLt; omega

/-- The scatter at `n`, over the named dimension numbers. -/
theorem vec_sum (x : (⟨1, ![N]⟩ : Shape).Idx → EReal) (idx : IVec (⟨2, ![E, 1]⟩ : Shape) w)
    (upd : (⟨1, ![E]⟩ : Shape).Idx → EReal) (n : Fin N) :
    Ideal.hostScatterAdd (vecDims h) x idx upd (ix1 n)
      = x (ix1 n) + ∑ e ∈ Finset.univ.filter (fun e : Fin E => (idx (ix2 e (0 : Fin 1))).toInt = (n.val : ℤ)), upd (ix1 e) := by
  unfold Ideal.hostScatterAdd
  congr 1
  rw [Finset.sum_filter, Finset.sum_filter, sum_idx1]
  refine Finset.sum_congr rfl fun e _ => ?_
  have hiff : ((vecDims h).resultIdx? (ix1 e) idx = some (ix1 n)) ↔
      ((idx (ix2 e (0 : Fin 1))).toInt = (n.val : ℤ)) := vec_resultIdx_iff h (ix1 e) idx n
  simp only [hiff]
end Vec

/-! ## The three layouts, over their literal dimension numbers -/

/-- An accumulating scatter whose window axis is axis 0 and whose scattered axis is axis 1 (operand `[C, N]`,
    one index word per update column in `[E, 1]`, updates `[C, E]`), read at `(c, n)`: the operand's element plus
    the sum of the updates `(c, e)` over the columns `e` whose index word, read signed, is `n`. -/
theorem scatterAdd_cols {C N E w : Nat}
    (h : ScatterDims.WF (⟨2, ![C, N]⟩ : Shape) (⟨2, ![E, 1]⟩ : Shape) (⟨2, ![C, E]⟩ : Shape) [0] [1] [1] 1)
    (x : (⟨2, ![C, N]⟩ : Shape).Idx → EReal) (idx : IVec (⟨2, ![E, 1]⟩ : Shape) w) (upd : (⟨2, ![C, E]⟩ : Shape).Idx → EReal)
    (c : Fin C) (n : Fin N) :
    Ideal.hostScatterAdd (⟨[0], [1], [1], 1, h⟩ : ScatterDims (⟨2, ![C, N]⟩ : Shape) (⟨2, ![E, 1]⟩ : Shape) (⟨2, ![C, E]⟩ : Shape)) x idx upd (ix2 c n)
      = x (ix2 c n) + ∑ e ∈ Finset.univ.filter (fun e : Fin E => (idx (ix2 e (0 : Fin 1))).toInt = (n.val : ℤ)), upd (ix2 c e) := by
  exact cols_sum h x idx upd c n

/-- An accumulating scatter whose scattered axis is axis 0 and whose window axis is axis 1 (operand `[N, K]`,
    one index word per update row in `[E, 1]`, updates `[E, K]`), read at `(n, k)`: the operand's element plus
    the sum of the updates `(e, k)` over the rows `e` whose index word, read signed, is `n`. -/
theorem scatterAdd_rows {N K E w : Nat}
    (h : ScatterDims.WF (⟨2, ![N, K]⟩ : Shape) (⟨2, ![E, 1]⟩ : Shape) (⟨2, ![E, K]⟩ : Shape) [1] [0] [0] 1)
    (x : (⟨2, ![N, K]⟩ : Shape).Idx → EReal) (idx : IVec (⟨2, ![E, 1]⟩ : Shape) w) (upd : (⟨2, ![E, K]⟩ : Shape).Idx → EReal)
    (n : Fin N) (k : Fin K) :
    Ideal.hostScatterAdd (⟨[1], [0], [0], 1, h⟩ : ScatterDims (⟨2, ![N, K]⟩ : Shape) (⟨2, ![E, 1]⟩ : Shape) (⟨2, ![E, K]⟩ : Shape)) x idx upd (ix2 n k)
      = x (ix2 n k) + ∑ e ∈ Finset.univ.filter (fun e : Fin E => (idx (ix2 e (0 : Fin 1))).toInt = (n.val : ℤ)), upd (ix2 e k) := by
  exact rows_sum h x idx upd n k

/-- An accumulating scatter into a vector (operand `[N]`, one index word per update in `[E, 1]`, updates `[E]`,
    no window axis), read at `n`: the operand's element plus the sum of the updates `e` whose index word, read
    signed, is `n`. -/
theorem scatterAdd_vec {N E w : Nat}
    (h : ScatterDims.WF (⟨1, ![N]⟩ : Shape) (⟨2, ![E, 1]⟩ : Shape) (⟨1, ![E]⟩ : Shape) [] [0] [0] 1)
    (x : (⟨1, ![N]⟩ : Shape).Idx → EReal) (idx : IVec (⟨2, ![E, 1]⟩ : Shape) w) (upd : (⟨1, ![E]⟩ : Shape).Idx → EReal)
    (n : Fin N) :
    Ideal.hostScatterAdd (⟨[], [0], [0], 1, h⟩ : ScatterDims (⟨1, ![N]⟩ : Shape) (⟨2, ![E, 1]⟩ : Shape) (⟨1, ![E]⟩ : Shape)) x idx upd (ix1 n)
      = x (ix1 n) + ∑ e ∈ Finset.univ.filter (fun e : Fin E => (idx (ix2 e (0 : Fin 1))).toInt = (n.val : ℤ)), upd (ix1 e) := by
  exact vec_sum h x idx upd n

end Cert.LibScatterSum

end
-- ==== Proof.GcnEdges.lean ====
/-
  The graph both programs compute from the edge list, as the record the specification reads.

  The edge list `ei` is a 2 x 3,200,000 array of 32-bit words: row 0 the sources, row 1 the targets. Both programs
  append one self loop per node (the words 0, 1, ..., 99999) to each row, giving 3,300,000 source words and as many
  target words. A gather reads an index word after adding 100000 to a negative word, and clamps what it gets into
  [0, 99999]; a segment sum reads the target word as it is, signed, and drops an edge whose word is not a node
  number. The in-degree of node `n` is the number of target words equal to `n`; the self loop makes it at least one,
  so its inverse square root is a positive real.

  Every term below is spelled as the two programs print it; the programs' own shape facts are the fields of `Facts`.
-/
import Idealize.ShloMosaic.PureOps.Ideal.Laws
import Idealize.ShloMosaic.Lib.ValueIdx
import Idealize.ShloMosaic.Lib.Pipeline.Value
import Idealize.ShloMosaic.Lib.IdealHost
import Idealize.ShloMosaic.Lib.StableHlo.Predicate
import proofs.«416678_j48155173322920_3_alg».proof.Proof.GcnSpec
import proofs.«416678_j48155173322920_3_alg».proof.Proof.LibScatterSum

noncomputable section

open scoped BigOperators
open Idealize.ShloMosaic Idealize.ShloMosaic.ValueIdx

namespace Cert.GcnEdges

open Cert.GcnSpec

abbrev S0 : Shape := ⟨0, ![]⟩
abbrev SN : Shape := ⟨1, ![100000]⟩
abbrev SE : Shape := ⟨1, ![3300000]⟩
abbrev SE1 : Shape := ⟨2, ![3300000, 1]⟩
abbrev SP : Shape := ⟨1, ![3200000]⟩
abbrev S1P : Shape := ⟨2, ![1, 3200000]⟩
abbrev S2P : Shape := ⟨2, ![2, 3200000]⟩

/-- The shape facts the printed terms cite. -/
structure Facts : Prop where
  sl0 : S2P.Slices ![0, 0] S1P
  sl1 : S2P.Slices ![1, 0] S1P
  sc : S1P.ShapeCasts SP
  cc : Shape.Concatenates [SP, SN] SE 0
  b0E : S0.BroadcastsInDim SE ![]
  b0N : S0.BroadcastsInDim SN ![]
  bE1 : SE.BroadcastsInDim SE1 ![0]
  sdv : ScatterDims.WF SN SE1 SE [] [0] [0] 1

variable (H : Facts)

/-- The source words: row 0 of the edge list, then one self loop per node. -/
def srcWords (ei : IVec S2P 32) : IVec SE 32 :=
  concatenate SE 0 [⟨SP, shapeCast SP (extractStridedSlice S1P ![0, 0] ei H.sl0) H.sc⟩, ⟨SN, iotaInDim SN 32 0⟩] H.cc

/-- The target words: row 1 of the edge list, then one self loop per node. -/
def dstWords (ei : IVec S2P 32) : IVec SE 32 :=
  concatenate SE 0 [⟨SP, shapeCast SP (extractStridedSlice S1P ![1, 0] ei H.sl1) H.sc⟩, ⟨SN, iotaInDim SN 32 0⟩] H.cc

/-- A negative index word counted from the end: 100000 added to it. -/
def wrapWords (w : IVec SE 32) : IVec SE 32 :=
  select (cmpi .slt w (broadcastInDim SE ![] H.b0E (constantI S0 32 0#32)))
    (addi w (broadcastInDim SE ![] H.b0E (constantI S0 32 100000#32))) w

/-- The words as one column, the layout a gather's or a scatter's indices take. -/
def col (w : IVec SE 32) : IVec SE1 32 := broadcastInDim SE1 ![0] H.bE1 w

/-- The in-degrees: a one added at every edge's target word, from zero. -/
def degArr (ei : IVec S2P 32) : SN.Idx → EReal :=
  Host.scatterAdd (F := Ideal) (⟨[], [0], [0], 1, H.sdv⟩ : ScatterDims SN SE1 SE)
    (broadcastInDim SN ![] H.b0N (constant (F := Ideal) S0 .f32 0x00000000#32)) (col H (dstWords H ei))
    (broadcastInDim SE ![] H.b0E (constant (F := Ideal) S0 .f32 0x3F800000#32))

/-- The normaliser: the inverse square root of the in-degree. -/
def dinvArr (ei : IVec S2P 32) : SN.Idx → EReal := Host.rsqrt (F := Ideal) (φ := .f32) (degArr H ei)

/-- The row a gather reads for edge `e`: its index word, signed, as a natural number, clamped to the last row. -/
def rowOf (idx : IVec SE1 32) (e : Fin 3300000) : Fin 100000 :=
  ⟨min (idx (ix2 e (0 : Fin 1))).toInt.toNat (100000 - 1), by omega⟩

/-- The graph as the specification reads it. -/
def graph (ei : IVec S2P 32) : Edges where
  src := rowOf (col H (wrapWords H (srcWords H ei)))
  dstRow := rowOf (col H (wrapWords H (dstWords H ei)))
  dstWord := fun e => (col H (dstWords H ei) (ix2 e (0 : Fin 1))).toInt
  dinv := fun n => dinvArr H ei (ix1 n)

/-! ### The printed terms read at an index -/

/-- The column layout at row e reads the word of edge e. -/
theorem col_apply (w : IVec SE 32) (e : Fin 3300000) : col H w (ix2 e (0 : Fin 1)) = w (ix1 e) := by
  unfold col
  exact broadcastInDim_apply _ H.bE1 w _ (ix1 e) (fun a => match a with
    | ⟨0, _⟩ => by
      show e.val = if (3300000 : Nat) = 1 then 0 else e.val
      rw [if_neg (by decide)])

/-- The wrapped word at an index: the word itself unless it is negative, then 100000 more. -/
theorem wrapWords_apply (w : IVec SE 32) (i : SE.Idx) :
    wrapWords H w i = Scalar.select (IntOp.cmpi .slt (w i) 0#32) (IntOp.addi (w i) 100000#32) (w i) := rfl

/-- A word that reads non-negative is not wrapped. -/
theorem wrap_nonneg (w : BitVec 32) (h : 0 ≤ w.toInt) :
    Scalar.select (IntOp.cmpi .slt w 0#32) (IntOp.addi w 100000#32) w = w := by
  have hc : IntOp.cmpi .slt w 0#32 = 0#1 := by
    have hs : w.slt 0#32 = false := by
      rw [BitVec.slt]
      exact decide_eq_false (by rw [BitVec.toInt_zero]; omega)
    show BitVec.ofBool (w.slt 0#32) = 0#1
    rw [hs]; rfl
  rw [hc, select_zero]

/-- A target word that is a node number reads that node's row. -/
theorem row_of_word (ei : IVec S2P 32) (e : Fin 3300000) (n : Fin 100000)
    (h : (col H (dstWords H ei) (ix2 e (0 : Fin 1))).toInt = (n.val : ℤ)) :
    rowOf (col H (wrapWords H (dstWords H ei))) e = n := by
  rw [col_apply] at h
  refine Fin.ext ?_
  show min (col H (wrapWords H (dstWords H ei)) (ix2 e (0 : Fin 1))).toInt.toNat (100000 - 1) = n.val
  rw [col_apply, wrapWords_apply, wrap_nonneg _ (by rw [h]; omega), h]
  have := n.isLt
  omega

/-- The self loop of node n: the target word at position 3200000 + n is n. -/
theorem dstWords_loop (ei : IVec S2P 32) (n : Fin 100000) (hlt : 3200000 + n.val < 3300000) :
    dstWords H ei (ix1 ⟨3200000 + n.val, hlt⟩) = BitVec.ofNat 32 n.val := by
  unfold dstWords
  rw [concatenate_pair_apply_right (0 : Fin SE.rank) _ (iotaInDim SN 32 0) H.cc (ix1 ⟨3200000 + n.val, hlt⟩) rfl rfl (ix1 n)
    (fun b hb => absurd (Subsingleton.elim _ _) hb)
    (by show n.val + 3200000 = 3200000 + n.val; omega)]
  rfl

/-- The host's inverse square root at an index. -/
theorem hostRsqrt_apply {s : Shape} (x : FVec Ideal s .f32) (i : s.Idx) :
    Host.rsqrt (F := Ideal) (φ := .f32) x i = Ideal.rsqrt (x i) := rfl

/-- An accumulating scatter into a vector, read at an index: the operand's element plus the sum of the updates whose
    index word, read signed, is that index. -/
theorem hostScatterAdd_vec {N E w : Nat}
    (h : ScatterDims.WF (⟨1, ![N]⟩ : Shape) (⟨2, ![E, 1]⟩ : Shape) (⟨1, ![E]⟩ : Shape) [] [0] [0] 1)
    (x : FVec Ideal (⟨1, ![N]⟩ : Shape) .f32) (idx : IVec (⟨2, ![E, 1]⟩ : Shape) w)
    (upd : FVec Ideal (⟨1, ![E]⟩ : Shape) .f32) (n : Fin N) :
    Host.scatterAdd (F := Ideal)
        (⟨[], [0], [0], 1, h⟩ : ScatterDims (⟨1, ![N]⟩ : Shape) (⟨2, ![E, 1]⟩ : Shape) (⟨1, ![E]⟩ : Shape)) x idx upd (ix1 n)
      = x (ix1 n) + ∑ e ∈ Finset.univ.filter (fun e : Fin E => (idx (ix2 e (0 : Fin 1))).toInt = (n.val : ℤ)), upd (ix1 e) :=
  Cert.LibScatterSum.scatterAdd_vec h x idx upd n

/-- The splat of the zero pattern reads zero everywhere. -/
theorem zeros_apply (i : SN.Idx) :
    broadcastInDim SN ![] H.b0N (constant (F := Ideal) S0 .f32 0x00000000#32) i = 0 := by
  rw [broadcastInDim_scalar_apply, constant_apply, Ideal.ofBits_zero_f32]

/-- The splat of the pattern of one reads one everywhere. -/
theorem ones_apply (i : SE.Idx) :
    broadcastInDim SE ![] H.b0E (constant (F := Ideal) S0 .f32 0x3F800000#32) i = ((1 : ℝ) : EReal) := by
  rw [broadcastInDim_scalar_apply, constant_apply, Ideal.ofBits_one_f32, EReal.coe_one]

/-- The in-degree of a node: zero plus a one for every edge whose target word is the node. -/
theorem degArr_sum (ei : IVec S2P 32) (n : Fin 100000) :
    degArr H ei (ix1 n)
      = broadcastInDim SN ![] H.b0N (constant (F := Ideal) S0 .f32 0x00000000#32) (ix1 n)
        + ∑ e ∈ Finset.univ.filter (fun e : Fin 3300000 =>
            (col H (dstWords H ei) (ix2 e (0 : Fin 1))).toInt = (n.val : ℤ)),
          broadcastInDim SE ![] H.b0E (constant (F := Ideal) S0 .f32 0x3F800000#32) (ix1 e) := by
  unfold degArr
  exact hostScatterAdd_vec H.sdv _ _ _ n

/-- The in-degree of a node is the number of edges whose target word is the node, as a real. -/
theorem degArr_apply (ei : IVec S2P 32) (n : Fin 100000) :
    degArr H ei (ix1 n) = (((Finset.univ.filter (fun e : Fin 3300000 =>
      (col H (dstWords H ei) (ix2 e (0 : Fin 1))).toInt = (n.val : ℤ))).card : ℝ) : EReal) := by
  rw [degArr_sum H, zeros_apply H, zero_add]
  simp only [ones_apply H]
  rw [Cert.GcnSpec.coe_sum, Finset.sum_const, nsmul_eq_mul, mul_one]

/-- Every in-degree is at least one: the self loop. -/
theorem deg_pos (ei : IVec S2P 32) (n : Fin 100000) :
    0 < (Finset.univ.filter (fun e : Fin 3300000 =>
      (col H (dstWords H ei) (ix2 e (0 : Fin 1))).toInt = (n.val : ℤ))).card := by
  have hlt : 3200000 + n.val < 3300000 := by have := n.isLt; omega
  refine Finset.card_pos.mpr ⟨⟨3200000 + n.val, hlt⟩, Finset.mem_filter.mpr ⟨Finset.mem_univ _, ?_⟩⟩
  rw [col_apply, dstWords_loop H ei n hlt]
  exact StableHlo.Predicate.toInt_ofNat_small n.val (by have := n.isLt; omega)

/-- The normaliser of a node is a real. -/
theorem dinv_real (ei : IVec S2P 32) (n : Fin 100000) : ∃ r : ℝ, dinvArr H ei (ix1 n) = (r : EReal) := by
  unfold dinvArr
  rw [hostRsqrt_apply, degArr_apply H, Cert.GcnSpec.rsqrt_pos _ (Nat.cast_pos.mpr (deg_pos H ei n))]
  exact ⟨_, rfl⟩

/-- A target word that is a node number reads that node's row, and every in-degree is at least one, so the
    normaliser is real. -/
theorem graph_ok (ei : IVec S2P 32) : (graph H ei).Ok := by
  exact ⟨fun e n h => row_of_word H ei e n h, fun n => dinv_real H ei n⟩

end Cert.GcnEdges

end
-- ==== Proof.LibGatherRows.lean ====
/-
  A GATHER OF WHOLE ROWS, READ AT AN INDEX.

  A gather of an operand `[N, K]` at start indices `[E, 1]` with offset axis 1, collapsed operand axis 0, start index map
  `[0]`, the index vector on axis 1 of the start indices and slices `[1, K]` produces a result `[E, K]`. Its operand index
  for the result index `(e, k)` is, axis by axis, "clamped start + batching coordinate + offset coordinate":

    * on axis 0, which is in the start index map, the start is the word `idx (e, 0)` read signed, as a natural number,
      clamped to `N − 1` (the size `N` minus the slice size `1`); there is no batching axis, and axis 0 is collapsed, so
      the other two summands are `0`;
    * on axis 1, which is not in the start index map, the start is `0`; there is no batching axis; axis 1 is the only kept
      operand axis, it is read by the only offset axis of the result, axis 1, so the offset coordinate is `k`.

  Hence the result at `(e, k)` is the operand at `(min (idx (e, 0)).toInt.toNat (N − 1), k)`.
-/
import Idealize.ShloMosaic.PureOps.Ideal
import Idealize.ShloMosaic.Lib.ValueIdx

noncomputable section

open Idealize.ShloMosaic Idealize.ShloMosaic.ValueIdx

namespace Cert.LibGatherRows

/-- The dimension numbers of a row gather: operand `[N, K]`, one start-index word per result row in `[E, 1]`, result
    `[E, K]`; offset axis 1, collapsed operand axis 0, start indices for operand axis 0, the index vector on the start
    indices' axis 1, slices of one whole row. -/
abbrev rowsDims {N K E : Nat}
    (wf : GatherDims.WF (⟨2, ![N, K]⟩ : Shape) (⟨2, ![E, 1]⟩ : Shape) (⟨2, ![E, K]⟩ : Shape) [1] [0] [] [0] [] 1 ![1, K]) :
    GatherDims (⟨2, ![N, K]⟩ : Shape) (⟨2, ![E, 1]⟩ : Shape) (⟨2, ![E, K]⟩ : Shape) where
  offsetDims := [1]
  collapsedSliceDims := [0]
  operandBatchingDims := []
  startIndicesBatchingDims := []
  startIndexMap := [0]
  indexVectorDim := 1
  sliceSizes := ![1, K]
  wf := wf

/-- The start-indices index at which the result index `(e, k)` reads the only component of its start index is `(e, 0)`:
    the batch coordinate `e` on axis 0 and the component number `0` on the index vector's axis 1. -/
theorem rows_siIdx {N K E : Nat}
    (wf : GatherDims.WF (⟨2, ![N, K]⟩ : Shape) (⟨2, ![E, 1]⟩ : Shape) (⟨2, ![E, K]⟩ : Shape) [1] [0] [] [0] [] 1 ![1, K])
    (e : Fin E) (k : Fin K) (h : List.idxOf (0 : Fin 2) (rowsDims wf).startIndexMap < (rowsDims wf).startIndexMap.length) :
    (rowsDims wf).siIdx (ix2 e k) ⟨List.idxOf (0 : Fin 2) (rowsDims wf).startIndexMap, h⟩ = ix2 e (0 : Fin 1) := by
  funext b
  refine Fin.ext ?_
  match b with
  | ⟨0, _⟩ => rfl
  | ⟨1, _⟩ => rfl

/-- On operand axis 0 the row gather's operand index for `(e, k)` is the start-index word of `e` read signed and clamped
    to `N − 1`: axis 0 is in the start index map with slice size 1, it is no batching axis, and it is collapsed. -/
theorem rows_coord0 {N K E w : Nat}
    (wf : GatherDims.WF (⟨2, ![N, K]⟩ : Shape) (⟨2, ![E, 1]⟩ : Shape) (⟨2, ![E, K]⟩ : Shape) [1] [0] [] [0] [] 1 ![1, K])
    (idx : IVec (⟨2, ![E, 1]⟩ : Shape) w) (e : Fin E) (k : Fin K) :
    (rowsDims wf).start (ix2 e k) idx 0 + (rowsDims wf).batchCoord (ix2 e k) 0 + (rowsDims wf).offCoord (ix2 e k) 0
      = min (idx (ix2 e (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims wf).startIndexMap from List.mem_singleton.mpr rfl)]
  rw [rows_siIdx wf e k]
  rfl

/-- On operand axis 1 the row gather's operand index for `(e, k)` is `k`: axis 1 is not in the start index map (start 0),
    it is no batching axis, and it is the kept operand axis the result's offset axis 1 reads. -/
theorem rows_coord1 {N K E w : Nat}
    (wf : GatherDims.WF (⟨2, ![N, K]⟩ : Shape) (⟨2, ![E, 1]⟩ : Shape) (⟨2, ![E, K]⟩ : Shape) [1] [0] [] [0] [] 1 ![1, K])
    (idx : IVec (⟨2, ![E, 1]⟩ : Shape) w) (e : Fin E) (k : Fin K) :
    (rowsDims wf).start (ix2 e k) idx 1 + (rowsDims wf).batchCoord (ix2 e k) 1 + (rowsDims wf).offCoord (ix2 e k) 1
      = k.val := by
  rw [GatherDims.batchCoord_eq_zero _ _ _ List.not_mem_nil]
  have hs : (rowsDims wf).start (ix2 e k) idx 1 = 0 := by
    unfold GatherDims.start
    rw [dif_neg (show ¬ (1 : Fin 2) ∈ (rowsDims wf).startIndexMap from (by decide : (1 : Fin 2) ∉ ([0] : List (Fin 2))))]
  rw [hs]
  simp only [Nat.add_zero, Nat.zero_add]
  unfold GatherDims.offCoord
  rw [dif_pos (show (1 : Fin 2) ∈ (rowsDims wf).sKept from
    (GatherDims.mem_sKept _ _).mpr ⟨(by decide : (1 : Fin 2) ∉ ([0] : List (Fin 2))), List.not_mem_nil⟩)]
  rfl

/-- THE ROW GATHER READ AT `(e, k)`: the operand's row at the start-index word of `e`, read signed and clamped into
    `[0, N − 1]`, at column `k`. -/
theorem gather_rows_apply {α : Type} {N K E w : Nat} (hN : 0 < N)
    (wf : GatherDims.WF (⟨2, ![N, K]⟩ : Shape) (⟨2, ![E, 1]⟩ : Shape) (⟨2, ![E, K]⟩ : Shape) [1] [0] [] [0] [] 1 ![1, K])
    (x : (⟨2, ![N, K]⟩ : Shape).Idx → α) (idx : IVec (⟨2, ![E, 1]⟩ : Shape) w) (e : Fin E) (k : Fin K) :
    Host.gather (rowsDims wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ => exact rows_coord0 wf idx e k
  | ⟨1, _⟩ => exact rows_coord1 wf idx e k

end Cert.LibGatherRows

end
-- ==== Proof.LibPlainRows.lean ====
/-
  Plain matrix products, a bias row, and the leaky rectifier, read one entry at a time at the ideal values.

  * A product of an m×k by a k×n matrix that contracts the left operand's last axis with the right operand's
    first, read at (a, b), is the sum over c of left (a, c) · right (c, b) — for the host's product and for a
    kernel's product accumulated into the zero splat alike (`dotGeneral_rows_apply`, `matmul_zero_rows_apply`).
    The dimension record is any one that EQUALS the plain record; at a literal record that equation is `rfl`.
  * A vector of n entries laid along every row of an m×n matrix, read at (p, q), is the vector's entry q: the
    kernel spells it as a broadcast of the vector's one-row cast (`rowCast_broadcast_apply`), the host as two
    broadcasts in dimensions (`rowBroadcast_apply`).
  * The leaky rectifier `h ↦ h` where the test holds, `slope · h` elsewhere, gives the same value whether the test
    is `h > 0` or `h ≥ 0`: the two tests differ at `h = 0` only, where `slope · 0 = 0 = h`. No finiteness is used:
    at `⊤` and `⊥` both tests agree.
-/
import Idealize.ShloMosaic.Lib.StackMember

noncomputable section

namespace Idealize.ShloMosaic.PlainRows

open Idealize.ShloMosaic Idealize.ShloMosaic.ValueIdx

/-! ## Products -/

/-- The host's product over a record equal to the plain one, at (a, b): the sum over the contracted coordinate. -/
theorem dotGeneral_rows_apply {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd
  exact StackMember.dotGeneral_plain_apply prec A B a b

/-- A kernel's product into the zero splat over such a record, at (a, b): the same sum. -/
theorem matmul_zero_rows_apply {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul d prec A B (constant ⟨2, ![m, n]⟩ .f32 0x00000000#32) (ix2 a b) = ∑ c : Fin k, A (ix2 a c) * B (ix2 c b) := by
  rw [matmul_zero_eq_dotGeneral]
  exact dotGeneral_rows_apply d hd prec A B a b

/-! ## A vector along every row -/

section Rows
variable {α : Type}

/-- The kernel's spelling: the vector cast to one row, broadcast down m rows; at (p, q) it is entry q. -/
theorem rowCast_broadcast_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have e1 := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have := q.isLt; omega
      · rfl)
  have e2 := shapeCast_apply x h1 (ix2 (0 : Fin 1) q) (ix1 q) (by
    rw [Shape.rowMajor_val_two, Shape.rowMajor_val_one]; show q.val = 0 * n + q.val; omega)
  exact e1.trans e2

/-- The host's spelling: the vector broadcast along axis 1 into one row, that row broadcast down m rows; at
    (p, q) it is entry q. -/
theorem rowBroadcast_apply {m n : Nat} (x : (⟨1, ![n]⟩ : Shape).Idx → α)
    (hd : (⟨1, ![n]⟩ : Shape).BroadcastsInDim ⟨2, ![1, n]⟩ ![1])
    (hbc : (⟨2, ![1, n]⟩ : Shape).BroadcastsInDim ⟨2, ![m, n]⟩ ![0, 1]) (p : Fin m) (q : Fin n) :
    broadcastInDim ⟨2, ![m, n]⟩ ![0, 1] hbc (broadcastInDim ⟨2, ![1, n]⟩ ![1] hd x) (ix2 p q) = x (ix1 q) := by
  rw [broadcastInDim_oneRow_apply hbc _ p q]
  refine broadcastInDim_apply ![1] hd x (ix2 (0 : Fin 1) q) (ix1 q) ?_
  intro a
  match a with
  | ⟨0, _⟩ =>
    show q.val = if n = 1 then 0 else q.val
    split
    · have := q.isLt; omega
    · rfl

end Rows

/-! ## The leaky rectifier -/

/-- The leaky rectifier with the STRICT test: `h` above zero, `s · h` elsewhere. -/
def leaky (s h : EReal) : EReal := if 0 < h then h else s * h

/-- With the test `0 ≤ h` the value is the same: at `h = 0` the other branch is `s · 0 = 0`. -/
theorem leaky_of_le_test (s h : EReal) : (if 0 ≤ h then h else s * h) = leaky s h := by
  unfold leaky
  by_cases h0 : 0 < h
  · rw [if_pos h0, if_pos h0.le]
  · by_cases h1 : 0 ≤ h
    · have e : h = 0 := le_antisymm (not_lt.mp h0) h1
      rw [if_pos h1, if_neg h0, e, mul_zero]
    · rw [if_neg h1, if_neg h0]

/-- A select on the ordered comparison `h > z`, for a pattern `z` that denotes zero. -/
theorem select_ogt {φ : FTy} (z : BitVec φ.bits) (hz : Ideal.ofBits φ z = 0) (h a b : Ideal φ) :
    Scalar.select (FloatOps.cmpf .ogt h (Scalar.ofBits (F := Ideal) φ z)) a b = if 0 < h then a else b := by
  show Scalar.select (Ideal.cmp .ogt h (Ideal.ofBits φ z)) a b = _
  rw [hz]
  unfold Scalar.select Ideal.cmp
  by_cases h0 : (0 : EReal) < h <;> simp [h0]

/-- A select on the ordered comparison `h ≥ z`, for a pattern `z` that denotes zero. -/
theorem select_oge {φ : FTy} (z : BitVec φ.bits) (hz : Ideal.ofBits φ z = 0) (h a b : Ideal φ) :
    Scalar.select (FloatOps.cmpf .oge h (Scalar.ofBits (F := Ideal) φ z)) a b = if 0 ≤ h then a else b := by
  show Scalar.select (Ideal.cmp .oge h (Ideal.ofBits φ z)) a b = _
  rw [hz]
  unfold Scalar.select Ideal.cmp
  by_cases h0 : (0 : EReal) ≤ h <;> simp [h0]

/-- The kernel's rectifier at one entry: a select on `h > 0` between `h` and `s · h`. -/
theorem select_ogt_leaky (s : BitVec 32) (h : Ideal .f32) :
    Scalar.select (FloatOps.cmpf .ogt h (Scalar.ofBits (F := Ideal) .f32 0x00000000#32)) h
      (Scalar.ofBits (F := Ideal) .f32 s * h) = leaky (Ideal.ofBits .f32 s) h :=
  select_ogt _ Ideal.ofBits_zero_f32 h _ _

/-- The host's rectifier at one entry: a select on `h ≥ 0` between `h` and `s · h`: the same value. -/
theorem select_oge_leaky (s : BitVec 32) (h : Ideal .f32) :
    Scalar.select (FloatOps.cmpf .oge h (Scalar.ofBits (F := Ideal) .f32 0x00000000#32)) h
      (Scalar.ofBits (F := Ideal) .f32 s * h) = leaky (Ideal.ofBits .f32 s) h :=
  (select_oge _ Ideal.ofBits_zero_f32 h _ _).trans (leaky_of_le_test _ h)

end Idealize.ShloMosaic.PlainRows

end
-- ==== Proof.GcnHost.lean ====
/-
  The host operations around the pallas_calls, read one entry at a time at the ideal values.

  * A matrix whose row `n` is scaled by entry `n` of a vector: the vector is laid down a column, the column along
    every row, and the two are multiplied entry by entry.
  * A gather of whole rows by one index word per result row reads, for result row `e`, the operand's row
    `rowOf idx e`: the word, signed, clamped into the operand.
  * A segment sum into a zero array adds the update row `e` to the row its index word names, so the array at
    (n, d) is the sum of the updates (e, d) over the rows `e` whose word is `n`.
  * A vector of 64 entries recast as one row of 64, and back, keeps entry `k` at column `k`.
  * The two float constants the normalisation uses: the count 100000.0 is the real 100000, and the variance's
    offset is a positive real.
-/
import Idealize.ShloMosaic.PureOps.Ideal.Laws
import Idealize.ShloMosaic.Lib.ValueIdx
import Idealize.ShloMosaic.Lib.ValueLayout
import Idealize.ShloMosaic.Lib.Pipeline.Value
import proofs.«416678_j48155173322920_3_alg».proof.Proof.GcnSpec
import proofs.«416678_j48155173322920_3_alg».proof.Proof.GcnEdges
import proofs.«416678_j48155173322920_3_alg».proof.Proof.LibScatterSum
import proofs.«416678_j48155173322920_3_alg».proof.Proof.LibGatherRows
import proofs.«416678_j48155173322920_3_alg».proof.Proof.LibPlainRows

noncomputable section

open scoped BigOperators
open Idealize.ShloMosaic Idealize.ShloMosaic.ValueIdx

namespace Cert.GcnHost

open Cert.GcnSpec Cert.GcnEdges

abbrev SND : Shape := ⟨2, ![100000, 64]⟩
abbrev SN1 : Shape := ⟨2, ![100000, 1]⟩
abbrev SED : Shape := ⟨2, ![3300000, 64]⟩
abbrev SD : Shape := ⟨1, ![64]⟩
abbrev S1D : Shape := ⟨2, ![1, 64]⟩

/-- The shape facts the printed host operations cite. -/
structure Facts : Prop where
  bNN1 : SN.BroadcastsInDim SN1 ![0]
  bN1ND : SN1.BroadcastsInDim SND ![0, 1]
  b0ND : S0.BroadcastsInDim SND ![]
  b0D : S0.BroadcastsInDim SD ![]
  gdr : GatherDims.WF SND SE1 SED [1] [0] [] [0] [] 1 ![1, 64]
  sdr : ScatterDims.WF SND SE1 SED [1] [0] [0] 1
  cD1D : SD.ShapeCasts S1D
  c1DD : S1D.ShapeCasts SD

/-- An array of 100000 x 64, of 64 x 64, of 64 entries, by coordinates. -/
def toMat (A : SND.Idx → EReal) : Mat NN DD := fun n k => A (ix2 n k)
def toMatD (A : (⟨2, ![64, 64]⟩ : Shape).Idx → EReal) : Mat DD DD := fun k d => A (ix2 k d)
def toRow (v : SD.Idx → EReal) : Row DD := fun k => v (ix1 k)

/-- The count 100000.0 and the variance's offset, as the programs spell them. -/
abbrev cN : EReal := Ideal.ofBits .f32 0x47C35000#32
abbrev eps : EReal := Ideal.ofBits .f32 0x3727C5AC#32

variable (K : Facts)

/-- A vector laid down a column and along every row, at (n, k): its entry `n`. -/
theorem colBroadcast_apply (v : SN.Idx → EReal) (n : Fin 100000) (k : Fin 64) :
    broadcastInDim SND ![0, 1] K.bN1ND (broadcastInDim SN1 ![0] K.bNN1 v) (ix2 n k) = v (ix1 n) := by
  have e1 := broadcastInDim_apply ![0, 1] K.bN1ND (broadcastInDim SN1 ![0] K.bNN1 v) (ix2 n k) (ix2 n (0 : Fin 1)) (by
    intro a
    match a with
    | ⟨0, _⟩ => show n.val = if (100000 : Nat) = 1 then 0 else n.val; rw [if_neg (by decide)]
    | ⟨1, _⟩ => show (0 : Nat) = if (1 : Nat) = 1 then 0 else k.val; rw [if_pos rfl])
  have e2 := broadcastInDim_apply ![0] K.bNN1 v (ix2 n (0 : Fin 1)) (ix1 n) (by
    intro a
    match a with
    | ⟨0, _⟩ => show n.val = if (100000 : Nat) = 1 then 0 else n.val; rw [if_neg (by decide)])
  exact e1.trans e2

/-- Rows scaled by a vector, the matrix on the left: entry (n, k) times the vector's entry `n`. -/
theorem scaleRows_apply (X : SND.Idx → EReal) (v : SN.Idx → EReal) (n : Fin 100000) (k : Fin 64) :
    mulf (F := Ideal) (φ := .f32) X (broadcastInDim SND ![0, 1] K.bN1ND (broadcastInDim SN1 ![0] K.bNN1 v)) (ix2 n k)
      = X (ix2 n k) * v (ix1 n) := by
  show X (ix2 n k) * _ = _
  rw [colBroadcast_apply K]

/-- A gather of whole rows at (e, d): the operand's row `rowOf idx e`, column `d`. -/
theorem gatherRows_apply {φ : FTy} (x : SND.Idx → Ideal φ) (idx : IVec SE1 32) (e : Fin 3300000) (d : Fin 64) :
    Host.gather (⟨[1], [0], [], [], [0], 1, ![1, 64], K.gdr⟩ : GatherDims SND SE1 SED) x idx (ix2 e d)
      = x (ix2 (rowOf idx e) d) := by
  exact Cert.LibGatherRows.gather_rows_apply (by decide) K.gdr x idx e d

/-- A segment sum of rows into any array at (n, d): the array's entry plus the sum of the updates (e, d) over the rows
    `e` whose index word, signed, is `n`. -/
theorem scatterRows_apply (x : SND.Idx → EReal) (idx : IVec SE1 32) (upd : SED.Idx → EReal) (n : Fin 100000) (d : Fin 64) :
    Host.scatterAdd (F := Ideal) (φ := .f32) (⟨[1], [0], [0], 1, K.sdr⟩ : ScatterDims SND SE1 SED) x idx upd (ix2 n d)
      = x (ix2 n d)
        + ∑ e ∈ Finset.univ.filter (fun e : Fin 3300000 => (idx (ix2 e (0 : Fin 1))).toInt = (n.val : ℤ)), upd (ix2 e d) :=
  Cert.LibScatterSum.scatterAdd_rows K.sdr x idx upd n d

/-- The zero array, at any entry. -/
theorem zeros_apply (i : SND.Idx) :
    broadcastInDim SND ![] K.b0ND (constant (F := Ideal) S0 .f32 0x00000000#32) i = 0 := by
  rw [broadcastInDim_apply ![] K.b0ND _ i ix0 (fun a => a.elim0)]
  exact Ideal.ofBits_zero_f32

/-- A segment sum of rows into the zero array at (n, d): the sum of the updates (e, d) over the rows `e` whose index
    word, signed, is `n`. -/
theorem segmentSum_apply (idx : IVec SE1 32) (upd : SED.Idx → EReal) (n : Fin 100000) (d : Fin 64) :
    Host.scatterAdd (F := Ideal) (⟨[1], [0], [0], 1, K.sdr⟩ : ScatterDims SND SE1 SED)
        (broadcastInDim SND ![] K.b0ND (constant (F := Ideal) S0 .f32 0x00000000#32)) idx upd (ix2 n d)
      = ∑ e ∈ Finset.univ.filter (fun e : Fin 3300000 => (idx (ix2 e (0 : Fin 1))).toInt = (n.val : ℤ)), upd (ix2 e d) := by
  rw [scatterRows_apply K, zeros_apply K, zero_add]

/-- A vector of 64 entries recast as one row: column `k` is entry `k`. -/
theorem rowCast_apply {α : Type} (v : SD.Idx → α) (k : Fin 64) :
    shapeCast S1D v K.cD1D (ix2 (0 : Fin 1) k) = v (ix1 k) := by
  refine shapeCast_apply v K.cD1D (ix2 (0 : Fin 1) k) (ix1 k) ?_
  rw [Shape.rowMajor_val_two, Shape.rowMajor_val_one]
  show k.val = 0 * 64 + k.val
  omega

/-- One row of 64 entries recast as a vector: entry `k` is column `k`. -/
theorem vecCast_apply {α : Type} (r : S1D.Idx → α) (k : Fin 64) :
    shapeCast SD r K.c1DD (ix1 k) = r (ix2 (0 : Fin 1) k) := by
  refine shapeCast_apply r K.c1DD (ix1 k) (ix2 (0 : Fin 1) k) ?_
  rw [Shape.rowMajor_val_two, Shape.rowMajor_val_one]
  show 0 * 64 + k.val = k.val
  omega

/-- A constant spread over 64 entries. -/
theorem splat64_apply (b : BitVec 32) (k : Fin 64) :
    broadcastInDim SD ![] K.b0D (constant (F := Ideal) S0 .f32 b) (ix1 k) = Ideal.ofBits .f32 b := by
  rw [broadcastInDim_apply ![] K.b0D _ (ix1 k) ix0 (fun a => a.elim0)]
  rfl

/-- The count 100000.0 denotes the real 100000. -/
theorem cN_eq : cN = ((100000 : ℝ) : EReal) := by
  show Ideal.ofBits .f32 0x47C35000#32 = ((100000 : ℝ) : EReal)
  simp [Ideal.ofBits, Ideal.ieee, -EReal.coe_mul]; norm_num

/-- The variance's offset denotes a positive real: a normal number with a clear sign bit, (2²³ + fraction) · 2^(exponent − 150). -/
theorem eps_pos : ∃ r : ℝ, 0 < r ∧ eps = (r : EReal) := by
  have h1 : ((0x3727C5AC#32 : BitVec 32).extractLsb' 23 8).toNat = 110 := by decide
  have h2 : ((0x3727C5AC#32 : BitVec 32).extractLsb' 0 23).toNat = 2606508 := by decide
  have h3 : ((0x3727C5AC#32 : BitVec 32).extractLsb' (8 + 23) 1 == 1#1) = false := by decide
  refine ⟨(1 : ℝ) * ((2 ^ 23 + 2606508 : ℕ) : ℝ) * (2 : ℝ) ^ (((110 : ℕ) : ℤ) - (2 ^ (8 - 1) - 1) - ((23 : ℕ) : ℤ)), by positivity, ?_⟩
  show Ideal.ieee 8 23 (0x3727C5AC#32 : BitVec 32) = _
  unfold Ideal.ieee
  simp only [h1, h2, h3]
  rw [if_neg (show ¬ ((110 : ℕ) = 2 ^ 8 - 1) by decide), if_neg (show ¬ ((110 : ℕ) = 0) by decide),
    if_neg (show ¬ (false = true) by decide)]

/-- The count and the variance's offset, as the specification wants them. -/
theorem consts_ok : ConstsOk cN eps := ⟨cN_eq, eps_pos⟩

end Cert.GcnHost

end
-- ==== Proof.KDefs.lean ====
/-
  THE KERNEL PROGRAM'S RESULT: what it is to be (two layers of arrangement K), and what stays put along the run.

  The run is a fold through twelve segments: six stretches of host operations and six pallas_calls. The first stretch
  computes the source and target words, the in-degrees' inverse square roots, and the input's rows scaled by them. Then,
  per layer: a row-tiled product with the weight; the gather of the product's rows by source word, their segment sum by
  target word, the sum's rows scaled again; the linear map with its column sums; the mean, the clamped variance and the
  inverse deviation from those sums; the normalise-and-rectify pass. The second layer reads the first layer's output.
  The words, the normaliser and the weights are written once and never again, so every later segment finds them as the
  first stretch (or the launch) left them.
-/
import proofs.«416678_j48155173322920_3_alg».proof.Proof.Gen.KernelIdeal.Frame
import proofs.«416678_j48155173322920_3_alg».proof.Proof.GcnSpec
import proofs.«416678_j48155173322920_3_alg».proof.Proof.GcnEdges
import proofs.«416678_j48155173322920_3_alg».proof.Proof.GcnHost
import Idealize.ShloMosaic.Lib.StableHlo.Run
import Idealize.ShloMosaic.Lib.ValueIdx

set_option maxRecDepth 16384

noncomputable section

open scoped BigOperators
open Idealize.ShloMosaic Idealize.ShloMosaic.TcCoe Idealize.ShloMosaic.ValueIdx Idealize.ShloMosaic.StableHlo Idealize.SL.Sem

namespace Cert.KernelIdeal.Val

open Cert.KernelIdeal Cert.KernelIdeal.Gen Cert.GcnSpec Cert.GcnEdges Cert.GcnHost

/-- The program's shape facts, as the shared modules take them. -/
theorem hE : Cert.GcnEdges.Facts :=
  ⟨Gen.slices_S2x3200000_S1x3200000_0_0, Gen.slices_S2x3200000_S1x3200000_1_0, Gen.shapeCasts_S1x3200000_S3200000,
    Gen.concatenates_S3200000_S100000_S3300000_d0, Gen.bcast_S_S3300000, Gen.bcast_S_S100000, Gen.bcast_S3300000_S3300000x1_0,
    Gen.scatter_S100000_S3300000x1_S3300000_n_0_0_1_wf⟩

theorem hK : Cert.GcnHost.Facts :=
  ⟨Gen.bcast_S100000_S100000x1_0, Gen.bcast_S100000x1_S100000x64_0_1, Gen.bcast_S_S100000x64, Gen.bcast_S_S64,
    Gen.gather_S100000x64_S3300000x1_S3300000x64_1_0_n_n_0_1_164_wf, Gen.scatter_S100000x64_S3300000x1_S3300000x64_1_0_0_1_wf,
    Gen.shapeCasts_S64_S1x64, Gen.shapeCasts_S1x64_S64⟩

variable (m : (ℓ : Loc nD τ sig) → Buf (Elt Ideal) ℓ) (ρ : Dev nD → PrngReg)

/-! ## The arguments, each at its literal type, and as the specification reads them -/

abbrev xA (c : Dev nD) : S100000x64.Idx → EReal := m ((c : Thread nD τ).loc main_arg0)
abbrev eiA (c : Dev nD) : IVec S2x3200000 32 := m ((c : Thread nD τ).loc main_arg1)
abbrev w1A (c : Dev nD) : S64x64.Idx → EReal := m ((c : Thread nD τ).loc main_arg2)
abbrev b1A (c : Dev nD) : S64.Idx → EReal := m ((c : Thread nD τ).loc main_arg3)
abbrev fw1A (c : Dev nD) : S64x64.Idx → EReal := m ((c : Thread nD τ).loc main_arg4)
abbrev fb1A (c : Dev nD) : S64.Idx → EReal := m ((c : Thread nD τ).loc main_arg5)
abbrev g1A (c : Dev nD) : S64.Idx → EReal := m ((c : Thread nD τ).loc main_arg6)
abbrev bt1A (c : Dev nD) : S64.Idx → EReal := m ((c : Thread nD τ).loc main_arg7)
abbrev w2A (c : Dev nD) : S64x64.Idx → EReal := m ((c : Thread nD τ).loc main_arg8)
abbrev b2A (c : Dev nD) : S64.Idx → EReal := m ((c : Thread nD τ).loc main_arg9)
abbrev fw2A (c : Dev nD) : S64x64.Idx → EReal := m ((c : Thread nD τ).loc main_arg10)
abbrev fb2A (c : Dev nD) : S64.Idx → EReal := m ((c : Thread nD τ).loc main_arg11)
abbrev g2A (c : Dev nD) : S64.Idx → EReal := m ((c : Thread nD τ).loc main_arg12)
abbrev bt2A (c : Dev nD) : S64.Idx → EReal := m ((c : Thread nD τ).loc main_arg13)

/-- The graph of the launch's edge list. -/
def G (c : Dev nD) : Edges := graph hE (eiA m c)

/-- The first layer's output and the second's, in arrangement K. -/
def out1 (c : Dev nD) : Mat NN DD :=
  layerK (G m c) cN eps (toMat (xA m c)) (toMatD (w1A m c)) (toRow (b1A m c)) (toMatD (fw1A m c)) (toRow (fb1A m c))
    (toRow (g1A m c)) (toRow (bt1A m c))
def out2 (c : Dev nD) : Mat NN DD :=
  layerK (G m c) cN eps (out1 m c) (toMatD (w2A m c)) (toRow (b2A m c)) (toMatD (fw2A m c)) (toRow (fb2A m c))
    (toRow (g2A m c)) (toRow (bt2A m c))

/-! ## What stays put -/

/-- At a boundary with contents `W`: the source words, the target words, the normaliser and the twelve parameter
    arrays are as the first stretch and the launch left them. -/
structure Live (c : Dev nD) (W : Valuation τ sig (Elt Ideal)) : Prop where
  src : (W (Proc.devRef .tc main_call0_v3) : IVec S3300000 32) = srcWords hE (eiA m c)
  dst : (W (Proc.devRef .tc main_call0_v6) : IVec S3300000 32) = dstWords hE (eiA m c)
  dinv : (W (Proc.devRef .tc main_call0_v11) : S100000.Idx → EReal) = dinvArr hE (eiA m c)
  w1 : (W (Proc.devRef .tc main_arg2) : S64x64.Idx → EReal) = w1A m c
  b1 : (W (Proc.devRef .tc main_arg3) : S64.Idx → EReal) = b1A m c
  fw1 : (W (Proc.devRef .tc main_arg4) : S64x64.Idx → EReal) = fw1A m c
  fb1 : (W (Proc.devRef .tc main_arg5) : S64.Idx → EReal) = fb1A m c
  g1 : (W (Proc.devRef .tc main_arg6) : S64.Idx → EReal) = g1A m c
  bt1 : (W (Proc.devRef .tc main_arg7) : S64.Idx → EReal) = bt1A m c
  w2 : (W (Proc.devRef .tc main_arg8) : S64x64.Idx → EReal) = w2A m c
  b2 : (W (Proc.devRef .tc main_arg9) : S64.Idx → EReal) = b2A m c
  fw2 : (W (Proc.devRef .tc main_arg10) : S64x64.Idx → EReal) = fw2A m c
  fb2 : (W (Proc.devRef .tc main_arg11) : S64.Idx → EReal) = fb2A m c
  g2 : (W (Proc.devRef .tc main_arg12) : S64.Idx → EReal) = g2A m c
  bt2 : (W (Proc.devRef .tc main_arg13) : S64.Idx → EReal) = bt2A m c

end Cert.KernelIdeal.Val

end
-- ==== Proof.KRegionMM.lean ====
/-
  THE ROW-TILED MATRIX PRODUCT (the first and the fourth pallas_call), read off its frame at the ideal values.

  The call tiles the 100000 rows of its left operand into ten blocks of 10000 rows, multiplies each block by the
  whole 64 x 64 right operand into a zero accumulator, and writes the block of the result back; block `t` holds the
  rows 10000 t .. 10000 t + 9999, and the ten blocks cover the result. A change of float format is the identity at
  the ideal values, so the result array, at row `n` and column `d`, is the sum over `k` of left (n, k) · right (k, d),
  whatever the buffers held when the call was entered (`V`).
-/
import proofs.«416678_j48155173322920_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«416678_j48155173322920_3_alg».proof.Proof.LibPlainRows

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.RegionMM

open Cert.KernelIdeal Cert.KernelIdeal.Gen

variable (V : (c : Dev nD) → (b : Ref sig .tc) → Buf (Elt Ideal) ((c : Thread nD τ).loc b))

/-- The first product's operands as the call finds them, and its result array after the call. -/
abbrev lhs0 (c : Dev nD) : S100000x64.Idx → EReal := V c main_call0_v14
abbrev rhs0 (c : Dev nD) : S64x64.Idx → EReal := V c main_arg2
abbrev res0 (c : Dev nD) : S100000x64.Idx → EReal := (dat0 (F := Ideal) V c).arrAt 2 cfg0.N

/-- The second product's. -/
abbrev lhs3 (c : Dev nD) : S100000x64.Idx → EReal := V c main_call0_v53
abbrev rhs3 (c : Dev nD) : S64x64.Idx → EReal := V c main_arg8
abbrev res3 (c : Dev nD) : S100000x64.Idx → EReal := (dat3 (F := Ideal) V c).arrAt 2 cfg3.N

/-! ## The first product -/

/-- The zero offsets of a whole block, however they are spelt. -/
theorem zero_offsets : (![0, 0] : Fin 2 → Nat) = fun _ => 0 :=
  funext fun a => by match a with | ⟨0, _⟩ => rfl | ⟨1, _⟩ => rfl

/-- One block's product at an entry: the changes of float format are the identity, and the product into the zero
    accumulator at (r, d) is the sum over k of left (r, k) · right (k, d). -/
theorem blockProduct0_apply (x0 : FVec Ideal S10000x64 .f32) (x1 : FVec Ideal S64x64 .f32) (r : Fin 10000) (d : Fin 64) :
    (k0_pay1 (F := Ideal) x0 x1) (ix2 r d) = ∑ k : Fin 64, x0 (ix2 r k) * x1 (ix2 k d) := by
  unfold k0_pay1
  rw [shapeCast_self]
  exact PlainRows.matmul_zero_rows_apply dot_S10000x64_S64x64_S10000x64_1_0_0_1_n_n rfl none _ _ r d

/-- The printed index maps over the grid: point t's left block and result block are block (t, 0); the right operand's
    is always block (0, 0). -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t, and the right operand's, at their literal types. -/
abbrev lblk0 (c : Dev nD) (t : Fin cfg0.N) : FVec Ideal S10000x64 .f32 := iblk0 V c 0 t
abbrev rblk0 (c : Dev nD) (t : Fin cfg0.N) : FVec Ideal S64x64 .f32 := iblk0 V c 1 t

/-- Row r of the left block at point t is row 10000 t + r of the left operand. -/
theorem lblk0_apply (c : Dev nD) (t : Fin cfg0.N) (x : S10000x64.Idx) (i : S100000x64.Idx)
    (h0 : (i 0).val = t.val * 10000 + (x 0).val) (h1 : (i 1).val = (x 1).val) :
    lblk0 V c t x = lhs0 V c i := by
  obtain ⟨e0, e1, -⟩ := blockIndex0 t
  show V c main_call0_v14 (((cfg0.win 0).blk t).view.emb x) = V c main_call0_v14 i
  congr 1
  funext a
  apply Fin.ext
  match a with
  | ⟨0, _⟩ => show win0_0.index t (0 : Fin 2) * 10000 + 1 * (x 0).val = (i 0).val; rw [e0, h0]; omega
  | ⟨1, _⟩ => show win0_0.index t (1 : Fin 2) * 64 + 1 * (x 1).val = (i 1).val; rw [e1, h1]; omega

/-- The right block at every point is the whole right operand. -/
theorem rblk0_apply (c : Dev nD) (t : Fin cfg0.N) (x : S64x64.Idx) :
    rblk0 V c t x = rhs0 V c x := by
  obtain ⟨-, -, e0, e1, -⟩ := blockIndex0 t
  show V c main_arg2 (((cfg0.win 1).blk t).view.emb x) = V c main_arg2 x
  congr 1
  funext a
  apply Fin.ext
  match a with
  | ⟨0, _⟩ => show win0_1.index t (0 : Fin 2) * 64 + 1 * (x 0).val = (x 0).val; rw [e0]; omega
  | ⟨1, _⟩ => show win0_1.index t (1 : Fin 2) * 64 + 1 * (x 1).val = (x 1).val; rw [e1]; omega

/-- The product of the two whole operands, entry by entry. -/
abbrev prod0 (c : Dev nD) : S100000x64.Idx → EReal :=
  fun i => ∑ k : Fin 64, lhs0 V c (ix2 (i 0) k) * rhs0 V c (ix2 k (i 1))

/-- What point t writes back is block t of the whole product: row r of the block's product uses row 10000 t + r of the
    left operand and the whole right operand. -/
theorem flushed0_eq (c : Dev nD) (t : Fin cfg0.N) :
    (dat0 (F := Ideal) V c).flushed 2 t = ((cfg0.win 2).blk t).view.read (Elt Ideal) (prod0 V c) := by
  show (cfg0.win 2).cut (grid0.coords t) ((dat0 V c).after 2 t) = _
  rw [after0_2]
  unfold out0_2
  rw [View.canon_unit_zero zero_offsets]
  simp only [View.ld_unit_zero (S := S10000x64) zero_offsets, View.ld_unit_zero (S := S64x64) zero_offsets]
  obtain ⟨-, -, -, -, e0, e1⟩ := blockIndex0 t
  funext j
  obtain ⟨r, d, rfl⟩ : ∃ (r : Fin 10000) (d : Fin 64), j = ix2 r d := ⟨j 0, j 1, eq_ix2 j⟩
  show k0_pay1 (F := Ideal) (lblk0 V c t) (rblk0 V c t) (ix2 r d) = prod0 V c (((cfg0.win 2).blk t).view.emb (ix2 r d))
  refine (blockProduct0_apply (lblk0 V c t) (rblk0 V c t) r d).trans ?_
  have hcol : ((((cfg0.win 2).blk t).view.emb (ix2 r d)) 1 : Fin 64) = d :=
    Fin.ext (by show win0_2.index t (1 : Fin 2) * 64 + 1 * d.val = d.val; rw [e1]; omega)
  refine Finset.sum_congr rfl fun k _ => ?_
  rw [rblk0_apply V c t (ix2 k d)]
  rw [lblk0_apply V c t (ix2 r k) (ix2 ((((cfg0.win 2).blk t).view.emb (ix2 r d)) 0) k)
    (by show win0_2.index t (0 : Fin 2) * 10000 + 1 * r.val = t.val * 10000 + r.val; rw [e0]; omega) rfl]
  exact congrArg (fun q : Fin 64 => lhs0 V c (ix2 ((((cfg0.win 2).blk t).view.emb (ix2 r d)) 0) k) * rhs0 V c (ix2 k q)) hcol.symm

/-- An entry of the result array lies in point t's block exactly when each coordinate lies in the block's range. -/
theorem mem_resultBlock0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_call0_v15).slice (win0_2.rect t)).set ↔ _
  rw [View.set_slice_whole, Rect.mem_set_unit]
  exact Iff.rfl

/-- Row n of the result lies in the block of point n / 10000, and every point writes its block back. -/
theorem resultCovered0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  have ht : (i 0).val / 10000 < cfg0.N := by rw [hN]; omega
  obtain ⟨-, -, -, -, e0, e1⟩ := blockIndex0 ⟨(i 0).val / 10000, ht⟩
  refine ⟨⟨(i 0).val / 10000, ht⟩, flush0_2 _, ?_⟩
  rw [mem_resultBlock0]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win0_2.index ⟨(i 0).val / 10000, ht⟩ (1 : Fin 2) * 64 ≤ (i 1).val
      ∧ (i 1).val < win0_2.index ⟨(i 0).val / 10000, ht⟩ (1 : Fin 2) * 64 + 64
    rw [e1]; omega

/-- So the result array after the call is the whole product. -/
theorem result0_eq (c : Dev nD) : res0 V c = prod0 V c :=
  (dat0 (F := Ideal) V c).arrAt_eq_of_cover 2 (prod0 V c) (fun t _ => flushed0_eq V c t) resultCovered0

/-- The first product's result array after its call. -/
theorem matmul0 (c : Dev nD) (n : Fin 100000) (d : Fin 64) :
    res0 V c (ix2 n d) = ∑ k : Fin 64, lhs0 V c (ix2 n k) * rhs0 V c (ix2 k d) :=
  congrFun (result0_eq V c) (ix2 n d)

/-! ## The second product -/

/-- One block's product at an entry, for the second call's body: again the changes of float format are the identity,
    and the product into the zero accumulator at (r, d) is the sum over k of left (r, k) · right (k, d). -/
theorem blockProduct3_apply (x0 : FVec Ideal S10000x64 .f32) (x1 : FVec Ideal S64x64 .f32) (r : Fin 10000) (d : Fin 64) :
    (k3_pay1 (F := Ideal) x0 x1) (ix2 r d) = ∑ k : Fin 64, x0 (ix2 r k) * x1 (ix2 k d) := by
  unfold k3_pay1
  rw [shapeCast_self]
  exact PlainRows.matmul_zero_rows_apply dot_S10000x64_S64x64_S10000x64_1_0_0_1_n_n rfl none _ _ r d

/-- The second call's printed index maps over its grid: point t's left block and result block are block (t, 0); the
    right operand's is always block (0, 0). -/
theorem blockIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The second call's left block at point t, and its right block, at their literal types. -/
abbrev lblk3 (c : Dev nD) (t : Fin cfg3.N) : FVec Ideal S10000x64 .f32 := iblk3 V c 0 t
abbrev rblk3 (c : Dev nD) (t : Fin cfg3.N) : FVec Ideal S64x64 .f32 := iblk3 V c 1 t

/-- Row r of the second call's left block at point t is row 10000 t + r of its left operand. -/
theorem lblk3_apply (c : Dev nD) (t : Fin cfg3.N) (x : S10000x64.Idx) (i : S100000x64.Idx)
    (h0 : (i 0).val = t.val * 10000 + (x 0).val) (h1 : (i 1).val = (x 1).val) :
    lblk3 V c t x = lhs3 V c i := by
  obtain ⟨e0, e1, -⟩ := blockIndex3 t
  show V c main_call0_v53 (((cfg3.win 0).blk t).view.emb x) = V c main_call0_v53 i
  congr 1
  funext a
  apply Fin.ext
  match a with
  | ⟨0, _⟩ => show win3_0.index t (0 : Fin 2) * 10000 + 1 * (x 0).val = (i 0).val; rw [e0, h0]; omega
  | ⟨1, _⟩ => show win3_0.index t (1 : Fin 2) * 64 + 1 * (x 1).val = (i 1).val; rw [e1, h1]; omega

/-- The second call's right block at every point is its whole right operand. -/
theorem rblk3_apply (c : Dev nD) (t : Fin cfg3.N) (x : S64x64.Idx) :
    rblk3 V c t x = rhs3 V c x := by
  obtain ⟨-, -, e0, e1, -⟩ := blockIndex3 t
  show V c main_arg8 (((cfg3.win 1).blk t).view.emb x) = V c main_arg8 x
  congr 1
  funext a
  apply Fin.ext
  match a with
  | ⟨0, _⟩ => show win3_1.index t (0 : Fin 2) * 64 + 1 * (x 0).val = (x 0).val; rw [e0]; omega
  | ⟨1, _⟩ => show win3_1.index t (1 : Fin 2) * 64 + 1 * (x 1).val = (x 1).val; rw [e1]; omega

/-- The product of the second call's two whole operands, entry by entry. -/
abbrev prod3 (c : Dev nD) : S100000x64.Idx → EReal :=
  fun i => ∑ k : Fin 64, lhs3 V c (ix2 (i 0) k) * rhs3 V c (ix2 k (i 1))

/-- What point t of the second call writes back is block t of that product: row r of the block's product uses row
    10000 t + r of the left operand and the whole right operand. -/
theorem flushed3_eq (c : Dev nD) (t : Fin cfg3.N) :
    (dat3 (F := Ideal) V c).flushed 2 t = ((cfg3.win 2).blk t).view.read (Elt Ideal) (prod3 V c) := by
  show (cfg3.win 2).cut (grid3.coords t) ((dat3 V c).after 2 t) = _
  rw [after3_2]
  unfold out3_2
  rw [View.canon_unit_zero zero_offsets]
  simp only [View.ld_unit_zero (S := S10000x64) zero_offsets, View.ld_unit_zero (S := S64x64) zero_offsets]
  obtain ⟨-, -, -, -, e0, e1⟩ := blockIndex3 t
  funext j
  obtain ⟨r, d, rfl⟩ : ∃ (r : Fin 10000) (d : Fin 64), j = ix2 r d := ⟨j 0, j 1, eq_ix2 j⟩
  show k3_pay1 (F := Ideal) (lblk3 V c t) (rblk3 V c t) (ix2 r d) = prod3 V c (((cfg3.win 2).blk t).view.emb (ix2 r d))
  refine (blockProduct3_apply (lblk3 V c t) (rblk3 V c t) r d).trans ?_
  have hcol : ((((cfg3.win 2).blk t).view.emb (ix2 r d)) 1 : Fin 64) = d :=
    Fin.ext (by show win3_2.index t (1 : Fin 2) * 64 + 1 * d.val = d.val; rw [e1]; omega)
  refine Finset.sum_congr rfl fun k _ => ?_
  rw [rblk3_apply V c t (ix2 k d)]
  rw [lblk3_apply V c t (ix2 r k) (ix2 ((((cfg3.win 2).blk t).view.emb (ix2 r d)) 0) k)
    (by show win3_2.index t (0 : Fin 2) * 10000 + 1 * r.val = t.val * 10000 + r.val; rw [e0]; omega) rfl]
  exact congrArg (fun q : Fin 64 => lhs3 V c (ix2 ((((cfg3.win 2).blk t).view.emb (ix2 r d)) 0) k) * rhs3 V c (ix2 k q)) hcol.symm

/-- An entry of the second result array lies in point t's block exactly when each coordinate lies in the block's range. -/
theorem mem_resultBlock3 (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_call0_v54).slice (win3_2.rect t)).set ↔ _
  rw [View.set_slice_whole, Rect.mem_set_unit]
  exact Iff.rfl

/-- Row n of the second result lies in the block of point n / 10000, and every point writes its block back. -/
theorem resultCovered3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  have ht : (i 0).val / 10000 < cfg3.N := by rw [hN]; omega
  obtain ⟨-, -, -, -, e0, e1⟩ := blockIndex3 ⟨(i 0).val / 10000, ht⟩
  refine ⟨⟨(i 0).val / 10000, ht⟩, flush3_2 _, ?_⟩
  rw [mem_resultBlock3]
  intro a
  match a with
  | ⟨0, _⟩ =>
    show win3_2.index ⟨(i 0).val / 10000, ht⟩ (0 : Fin 2) * 10000 ≤ (i 0).val
      ∧ (i 0).val < win3_2.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win3_2.index ⟨(i 0).val / 10000, ht⟩ (1 : Fin 2) * 64 ≤ (i 1).val
      ∧ (i 1).val < win3_2.index ⟨(i 0).val / 10000, ht⟩ (1 : Fin 2) * 64 + 64
    rw [e1]; omega

/-- So the second result array after its call is the whole product. -/
theorem result3_eq (c : Dev nD) : res3 V c = prod3 V c :=
  (dat3 (F := Ideal) V c).arrAt_eq_of_cover 2 (prod3 V c) (fun t _ => flushed3_eq V c t) resultCovered3

/-- The second product's result array after its call. -/
theorem matmul3 (c : Dev nD) (n : Fin 100000) (d : Fin 64) :
    res3 V c (ix2 n d) = ∑ k : Fin 64, lhs3 V c (ix2 n k) * rhs3 V c (ix2 k d) :=
  congrFun (result3_eq V c) (ix2 n d)

end Cert.KernelIdeal.RegionMM

end
-- ==== Proof.KRegionFC.lean ====
/-
  THE LINEAR MAP WITH ITS COLUMN SUMS (the second and the fifth pallas_call), read off its frame at the ideal values.

  The call tiles the 100000 rows of its input into ten blocks of 10000 rows. At every block it adds the bias row, multiplies
  by the whole 64 x 64 weight into a zero accumulator, adds the second bias row, and writes that block of `y` back. Two
  one-row outputs are carried from block to block: at the first block they are reset to zero, and at every block the
  column sums of the block of `y`, and of its squares, are added to them; their one block is written back after the last
  point. So `y` at row `n`, column `d` is (∑ₖ (a (n,k) + b k) · fw (k,d)) + fb d, and the two carried rows end as the sums
  of `y` and of `y²` over all 100000 rows: ten block sums added in order from zero are the sum over all rows, addition of
  extended reals being associative and commutative.
-/
import proofs.«416678_j48155173322920_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«416678_j48155173322920_3_alg».proof.Proof.LibPlainRows

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.RegionFC

open Cert.KernelIdeal Cert.KernelIdeal.Gen

variable (V : (c : Dev nD) → (b : Ref sig .tc) → Buf (Elt Ideal) ((c : Thread nD τ).loc b))

namespace Body

/-! ## What each case of the body leaves, as the payloads of its covering stores -/

section Pieces
variable {F : FTy → Type} [FloatOps F]

/-- The zero offsets of a whole-block rectangle, as the constant function. -/
theorem zeroOff : (![0, 0] : Fin 2 → Nat) = fun _ => 0 := funext fun a => by fin_cases a <;> rfl

/-- At a later point the body's one store to `y`'s staging buffer is its block of `y`, computed from the four operand blocks it loads whole. -/
theorem piece1_B_y (c : Dev nD) (i : grid1.Coords) (m1 : Memref sig .tc .vmem S10000x64 .f32) (w1 : m1.IsWhole) (m2 : Memref sig .tc .vmem S1x64 .f32) (w2 : m2.IsWhole) (m3 : Memref sig .tc .vmem S64x64 .f32) (w3 : m3.IsWhole) (m4 : Memref sig .tc .vmem S1x64 .f32) (w4 : m4.IsWhole) (m5 : Memref sig .tc .vmem S10000x64 .f32) (w5 : m5.IsWhole) (m6 : Memref sig .tc .vmem S1x64 .f32) (w6 : m6.IsWhole) (m7 : Memref sig .tc .vmem S1x64 .f32) (w7 : m7.IsWhole) (hc : ¬cond1_0 i)
    (x0 : Vec F S10000x64 .f32) (x1 : Vec F S1x64 .f32) (x2 : Vec F S64x64 .f32) (x3 : Vec F S1x64 .f32) (xo5 : Vec F S1x64 .f32) (xo6 : Vec F S1x64 .f32) :
    out1_B_4 c i m1 w1 m2 w2 m3 w3 m4 w4 m5 w5 m6 w6 m7 w7 hc x0 x1 x2 x3 xo5 xo6 = k1_pay3 x0 x1 x2 x3 := by
  unfold out1_B_4
  rw [View.read_writes_eq_canon _ _ _ (cover1_B_4 c i m1 w1 m2 w2 m3 w3 m4 w4 m5 w5 m6 w6 m7 w7 hc x0 x1 x2 x3 xo5 xo6)]
  unfold kernelRun1_B
  dsimp only
  sl_unfold_words
  rw [View.canon_unit_zero (S := S10000x64) zeroOff]
  simp only [View.readAt_eq_ld, w1.read_unread, w2.read_unread, w3.read_unread, w4.read_unread, w6.read_unread, w7.read_unread,
    View.ld_unit_zero (S := S10000x64) zeroOff, View.ld_unit_zero (S := S64x64) zeroOff, View.ld_unit_zero (S := S1x64) zeroOff]

/-- At a later point the one store to the row of sums is the update of what the row held (`xo5`) by this block. -/
theorem piece1_B_sum (c : Dev nD) (i : grid1.Coords) (m1 : Memref sig .tc .vmem S10000x64 .f32) (w1 : m1.IsWhole) (m2 : Memref sig .tc .vmem S1x64 .f32) (w2 : m2.IsWhole) (m3 : Memref sig .tc .vmem S64x64 .f32) (w3 : m3.IsWhole) (m4 : Memref sig .tc .vmem S1x64 .f32) (w4 : m4.IsWhole) (m5 : Memref sig .tc .vmem S10000x64 .f32) (w5 : m5.IsWhole) (m6 : Memref sig .tc .vmem S1x64 .f32) (w6 : m6.IsWhole) (m7 : Memref sig .tc .vmem S1x64 .f32) (w7 : m7.IsWhole) (hc : ¬cond1_0 i)
    (x0 : Vec F S10000x64 .f32) (x1 : Vec F S1x64 .f32) (x2 : Vec F S64x64 .f32) (x3 : Vec F S1x64 .f32) (xo5 : Vec F S1x64 .f32) (xo6 : Vec F S1x64 .f32) :
    out1_B_5 c i m1 w1 m2 w2 m3 w3 m4 w4 m5 w5 m6 w6 m7 w7 hc x0 x1 x2 x3 xo5 xo6 = k1_pay4 x0 x1 x2 x3 xo5 := by
  unfold out1_B_5
  rw [View.read_writes_eq_canon _ _ _ (cover1_B_5 c i m1 w1 m2 w2 m3 w3 m4 w4 m5 w5 m6 w6 m7 w7 hc x0 x1 x2 x3 xo5 xo6)]
  unfold kernelRun1_B
  dsimp only
  sl_unfold_words
  rw [View.canon_unit_zero (S := S1x64) zeroOff]
  simp only [View.readAt_eq_ld, w1.read_unread, w2.read_unread, w3.read_unread, w4.read_unread, w6.read_unread, w7.read_unread,
    View.ld_unit_zero (S := S10000x64) zeroOff, View.ld_unit_zero (S := S64x64) zeroOff, View.ld_unit_zero (S := S1x64) zeroOff]

/-- At a later point the one store to the row of sums of squares is the update of what the row held (`xo6`) by this block. -/
theorem piece1_B_sumsq (c : Dev nD) (i : grid1.Coords) (m1 : Memref sig .tc .vmem S10000x64 .f32) (w1 : m1.IsWhole) (m2 : Memref sig .tc .vmem S1x64 .f32) (w2 : m2.IsWhole) (m3 : Memref sig .tc .vmem S64x64 .f32) (w3 : m3.IsWhole) (m4 : Memref sig .tc .vmem S1x64 .f32) (w4 : m4.IsWhole) (m5 : Memref sig .tc .vmem S10000x64 .f32) (w5 : m5.IsWhole) (m6 : Memref sig .tc .vmem S1x64 .f32) (w6 : m6.IsWhole) (m7 : Memref sig .tc .vmem S1x64 .f32) (w7 : m7.IsWhole) (hc : ¬cond1_0 i)
    (x0 : Vec F S10000x64 .f32) (x1 : Vec F S1x64 .f32) (x2 : Vec F S64x64 .f32) (x3 : Vec F S1x64 .f32) (xo5 : Vec F S1x64 .f32) (xo6 : Vec F S1x64 .f32) :
    out1_B_6 c i m1 w1 m2 w2 m3 w3 m4 w4 m5 w5 m6 w6 m7 w7 hc x0 x1 x2 x3 xo5 xo6 = k1_pay5 x0 x1 x2 x3 xo6 := by
  unfold out1_B_6
  rw [View.read_writes_eq_canon _ _ _ (cover1_B_6 c i m1 w1 m2 w2 m3 w3 m4 w4 m5 w5 m6 w6 m7 w7 hc x0 x1 x2 x3 xo5 xo6)]
  unfold kernelRun1_B
  dsimp only
  sl_unfold_words
  rw [View.canon_unit_zero (S := S1x64) zeroOff]
  simp only [View.readAt_eq_ld, w1.read_unread, w2.read_unread, w3.read_unread, w4.read_unread, w6.read_unread, w7.read_unread,
    View.ld_unit_zero (S := S10000x64) zeroOff, View.ld_unit_zero (S := S64x64) zeroOff, View.ld_unit_zero (S := S1x64) zeroOff]

/-- At the first point likewise: the one store to `y`'s staging buffer is its block of `y`. -/
theorem piece1_A_y (c : Dev nD) (i : grid1.Coords) (m1 : Memref sig .tc .vmem S10000x64 .f32) (w1 : m1.IsWhole) (m2 : Memref sig .tc .vmem S1x64 .f32) (w2 : m2.IsWhole) (m3 : Memref sig .tc .vmem S64x64 .f32) (w3 : m3.IsWhole) (m4 : Memref sig .tc .vmem S1x64 .f32) (w4 : m4.IsWhole) (m5 : Memref sig .tc .vmem S10000x64 .f32) (w5 : m5.IsWhole) (m6 : Memref sig .tc .vmem S1x64 .f32) (w6 : m6.IsWhole) (m7 : Memref sig .tc .vmem S1x64 .f32) (w7 : m7.IsWhole) (hc : cond1_0 i)
    (x0 : Vec F S10000x64 .f32) (x1 : Vec F S1x64 .f32) (x2 : Vec F S64x64 .f32) (x3 : Vec F S1x64 .f32) :
    out1_A_4 c i m1 w1 m2 w2 m3 w3 m4 w4 m5 w5 m6 w6 m7 w7 hc x0 x1 x2 x3 = k1_pay3 x0 x1 x2 x3 := by
  unfold out1_A_4
  rw [View.read_writes_eq_canon _ _ _ (cover1_A_4 c i m1 w1 m2 w2 m3 w3 m4 w4 m5 w5 m6 w6 m7 w7 hc x0 x1 x2 x3)]
  unfold kernelRun1_A
  dsimp only
  sl_unfold_words
  rw [View.canon_unit_zero (S := S10000x64) zeroOff]
  simp only [View.readAt_eq_ld, w1.read_unread, w2.read_unread, w3.read_unread, w4.read_unread, w6.read_unread, w7.read_unread,
    View.ld_unit_zero (S := S10000x64) zeroOff, View.ld_unit_zero (S := S64x64) zeroOff, View.ld_unit_zero (S := S1x64) zeroOff]

/-- At the first point the row of sums is stored twice: the reset to zero, then the update, which reads the reset row back. The later store covers the row, so the row ends as the update of the zero row. -/
theorem piece1_A_sum (c : Dev nD) (i : grid1.Coords) (m1 : Memref sig .tc .vmem S10000x64 .f32) (w1 : m1.IsWhole) (m2 : Memref sig .tc .vmem S1x64 .f32) (w2 : m2.IsWhole) (m3 : Memref sig .tc .vmem S64x64 .f32) (w3 : m3.IsWhole) (m4 : Memref sig .tc .vmem S1x64 .f32) (w4 : m4.IsWhole) (m5 : Memref sig .tc .vmem S10000x64 .f32) (w5 : m5.IsWhole) (m6 : Memref sig .tc .vmem S1x64 .f32) (w6 : m6.IsWhole) (m7 : Memref sig .tc .vmem S1x64 .f32) (w7 : m7.IsWhole) (hc : cond1_0 i)
    (x0 : Vec F S10000x64 .f32) (x1 : Vec F S1x64 .f32) (x2 : Vec F S64x64 .f32) (x3 : Vec F S1x64 .f32) :
    out1_A_5 c i m1 w1 m2 w2 m3 w3 m4 w4 m5 w5 m6 w6 m7 w7 hc x0 x1 x2 x3 = k1_pay4 x0 x1 x2 x3 (k1_pay1 (F := F)) := by
  unfold out1_A_5
  rw [View.read_writes_eq_canon _ _ _ (cover1_A_5 c i m1 w1 m2 w2 m3 w3 m4 w4 m5 w5 m6 w6 m7 w7 hc x0 x1 x2 x3)]
  unfold kernelRun1_A
  dsimp only
  sl_unfold_words
  rw [View.canon_cons_unit_zero (S := S1x64) zeroOff]
  simp only [View.readAt_eq_ld, w1.read_unread, w2.read_unread, w3.read_unread, w4.read_unread,
    View.ld_unit_zero (S := S10000x64) zeroOff, View.ld_unit_zero (S := S64x64) zeroOff, View.ld_unit_zero (S := S1x64) zeroOff,
    View.readCov_unit_zero (S := S1x64) _ zeroOff]

/-- At the first point the row of sums of squares likewise ends as the update of the zero row. -/
theorem piece1_A_sumsq (c : Dev nD) (i : grid1.Coords) (m1 : Memref sig .tc .vmem S10000x64 .f32) (w1 : m1.IsWhole) (m2 : Memref sig .tc .vmem S1x64 .f32) (w2 : m2.IsWhole) (m3 : Memref sig .tc .vmem S64x64 .f32) (w3 : m3.IsWhole) (m4 : Memref sig .tc .vmem S1x64 .f32) (w4 : m4.IsWhole) (m5 : Memref sig .tc .vmem S10000x64 .f32) (w5 : m5.IsWhole) (m6 : Memref sig .tc .vmem S1x64 .f32) (w6 : m6.IsWhole) (m7 : Memref sig .tc .vmem S1x64 .f32) (w7 : m7.IsWhole) (hc : cond1_0 i)
    (x0 : Vec F S10000x64 .f32) (x1 : Vec F S1x64 .f32) (x2 : Vec F S64x64 .f32) (x3 : Vec F S1x64 .f32) :
    out1_A_6 c i m1 w1 m2 w2 m3 w3 m4 w4 m5 w5 m6 w6 m7 w7 hc x0 x1 x2 x3 = k1_pay5 x0 x1 x2 x3 (k1_pay2 (F := F)) := by
  unfold out1_A_6
  rw [View.read_writes_eq_canon _ _ _ (cover1_A_6 c i m1 w1 m2 w2 m3 w3 m4 w4 m5 w5 m6 w6 m7 w7 hc x0 x1 x2 x3)]
  unfold kernelRun1_A
  dsimp only
  sl_unfold_words
  rw [View.canon_cons_unit_zero (S := S1x64) zeroOff]
  simp only [View.readAt_eq_ld, w1.read_unread, w2.read_unread, w3.read_unread, w4.read_unread,
    View.ld_unit_zero (S := S10000x64) zeroOff, View.ld_unit_zero (S := S64x64) zeroOff, View.ld_unit_zero (S := S1x64) zeroOff,
    View.readCov_unit_zero (S := S1x64) _ zeroOff]

/-! The fifth call's cases, read the same way. -/

/-- At a later point the body's one store to `y`'s staging buffer is its block of `y`, computed from the four operand blocks it loads whole. -/
theorem piece4_B_y (c : Dev nD) (i : grid4.Coords) (m1 : Memref sig .tc .vmem S10000x64 .f32) (w1 : m1.IsWhole) (m2 : Memref sig .tc .vmem S1x64 .f32) (w2 : m2.IsWhole) (m3 : Memref sig .tc .vmem S64x64 .f32) (w3 : m3.IsWhole) (m4 : Memref sig .tc .vmem S1x64 .f32) (w4 : m4.IsWhole) (m5 : Memref sig .tc .vmem S10000x64 .f32) (w5 : m5.IsWhole) (m6 : Memref sig .tc .vmem S1x64 .f32) (w6 : m6.IsWhole) (m7 : Memref sig .tc .vmem S1x64 .f32) (w7 : m7.IsWhole) (hc : ¬cond4_0 i)
    (x0 : Vec F S10000x64 .f32) (x1 : Vec F S1x64 .f32) (x2 : Vec F S64x64 .f32) (x3 : Vec F S1x64 .f32) (xo5 : Vec F S1x64 .f32) (xo6 : Vec F S1x64 .f32) :
    out4_B_4 c i m1 w1 m2 w2 m3 w3 m4 w4 m5 w5 m6 w6 m7 w7 hc x0 x1 x2 x3 xo5 xo6 = k4_pay3 x0 x1 x2 x3 := by
  unfold out4_B_4
  rw [View.read_writes_eq_canon _ _ _ (cover4_B_4 c i m1 w1 m2 w2 m3 w3 m4 w4 m5 w5 m6 w6 m7 w7 hc x0 x1 x2 x3 xo5 xo6)]
  unfold kernelRun4_B
  dsimp only
  sl_unfold_words
  rw [View.canon_unit_zero (S := S10000x64) zeroOff]
  simp only [View.readAt_eq_ld, w1.read_unread, w2.read_unread, w3.read_unread, w4.read_unread, w6.read_unread, w7.read_unread,
    View.ld_unit_zero (S := S10000x64) zeroOff, View.ld_unit_zero (S := S64x64) zeroOff, View.ld_unit_zero (S := S1x64) zeroOff]

/-- At a later point the one store to the row of sums is the update of what the row held (`xo5`) by this block. -/
theorem piece4_B_sum (c : Dev nD) (i : grid4.Coords) (m1 : Memref sig .tc .vmem S10000x64 .f32) (w1 : m1.IsWhole) (m2 : Memref sig .tc .vmem S1x64 .f32) (w2 : m2.IsWhole) (m3 : Memref sig .tc .vmem S64x64 .f32) (w3 : m3.IsWhole) (m4 : Memref sig .tc .vmem S1x64 .f32) (w4 : m4.IsWhole) (m5 : Memref sig .tc .vmem S10000x64 .f32) (w5 : m5.IsWhole) (m6 : Memref sig .tc .vmem S1x64 .f32) (w6 : m6.IsWhole) (m7 : Memref sig .tc .vmem S1x64 .f32) (w7 : m7.IsWhole) (hc : ¬cond4_0 i)
    (x0 : Vec F S10000x64 .f32) (x1 : Vec F S1x64 .f32) (x2 : Vec F S64x64 .f32) (x3 : Vec F S1x64 .f32) (xo5 : Vec F S1x64 .f32) (xo6 : Vec F S1x64 .f32) :
    out4_B_5 c i m1 w1 m2 w2 m3 w3 m4 w4 m5 w5 m6 w6 m7 w7 hc x0 x1 x2 x3 xo5 xo6 = k4_pay4 x0 x1 x2 x3 xo5 := by
  unfold out4_B_5
  rw [View.read_writes_eq_canon _ _ _ (cover4_B_5 c i m1 w1 m2 w2 m3 w3 m4 w4 m5 w5 m6 w6 m7 w7 hc x0 x1 x2 x3 xo5 xo6)]
  unfold kernelRun4_B
  dsimp only
  sl_unfold_words
  rw [View.canon_unit_zero (S := S1x64) zeroOff]
  simp only [View.readAt_eq_ld, w1.read_unread, w2.read_unread, w3.read_unread, w4.read_unread, w6.read_unread, w7.read_unread,
    View.ld_unit_zero (S := S10000x64) zeroOff, View.ld_unit_zero (S := S64x64) zeroOff, View.ld_unit_zero (S := S1x64) zeroOff]

/-- At a later point the one store to the row of sums of squares is the update of what the row held (`xo6`) by this block. -/
theorem piece4_B_sumsq (c : Dev nD) (i : grid4.Coords) (m1 : Memref sig .tc .vmem S10000x64 .f32) (w1 : m1.IsWhole) (m2 : Memref sig .tc .vmem S1x64 .f32) (w2 : m2.IsWhole) (m3 : Memref sig .tc .vmem S64x64 .f32) (w3 : m3.IsWhole) (m4 : Memref sig .tc .vmem S1x64 .f32) (w4 : m4.IsWhole) (m5 : Memref sig .tc .vmem S10000x64 .f32) (w5 : m5.IsWhole) (m6 : Memref sig .tc .vmem S1x64 .f32) (w6 : m6.IsWhole) (m7 : Memref sig .tc .vmem S1x64 .f32) (w7 : m7.IsWhole) (hc : ¬cond4_0 i)
    (x0 : Vec F S10000x64 .f32) (x1 : Vec F S1x64 .f32) (x2 : Vec F S64x64 .f32) (x3 : Vec F S1x64 .f32) (xo5 : Vec F S1x64 .f32) (xo6 : Vec F S1x64 .f32) :
    out4_B_6 c i m1 w1 m2 w2 m3 w3 m4 w4 m5 w5 m6 w6 m7 w7 hc x0 x1 x2 x3 xo5 xo6 = k4_pay5 x0 x1 x2 x3 xo6 := by
  unfold out4_B_6
  rw [View.read_writes_eq_canon _ _ _ (cover4_B_6 c i m1 w1 m2 w2 m3 w3 m4 w4 m5 w5 m6 w6 m7 w7 hc x0 x1 x2 x3 xo5 xo6)]
  unfold kernelRun4_B
  dsimp only
  sl_unfold_words
  rw [View.canon_unit_zero (S := S1x64) zeroOff]
  simp only [View.readAt_eq_ld, w1.read_unread, w2.read_unread, w3.read_unread, w4.read_unread, w6.read_unread, w7.read_unread,
    View.ld_unit_zero (S := S10000x64) zeroOff, View.ld_unit_zero (S := S64x64) zeroOff, View.ld_unit_zero (S := S1x64) zeroOff]

/-- At the first point likewise: the one store to `y`'s staging buffer is its block of `y`. -/
theorem piece4_A_y (c : Dev nD) (i : grid4.Coords) (m1 : Memref sig .tc .vmem S10000x64 .f32) (w1 : m1.IsWhole) (m2 : Memref sig .tc .vmem S1x64 .f32) (w2 : m2.IsWhole) (m3 : Memref sig .tc .vmem S64x64 .f32) (w3 : m3.IsWhole) (m4 : Memref sig .tc .vmem S1x64 .f32) (w4 : m4.IsWhole) (m5 : Memref sig .tc .vmem S10000x64 .f32) (w5 : m5.IsWhole) (m6 : Memref sig .tc .vmem S1x64 .f32) (w6 : m6.IsWhole) (m7 : Memref sig .tc .vmem S1x64 .f32) (w7 : m7.IsWhole) (hc : cond4_0 i)
    (x0 : Vec F S10000x64 .f32) (x1 : Vec F S1x64 .f32) (x2 : Vec F S64x64 .f32) (x3 : Vec F S1x64 .f32) :
    out4_A_4 c i m1 w1 m2 w2 m3 w3 m4 w4 m5 w5 m6 w6 m7 w7 hc x0 x1 x2 x3 = k4_pay3 x0 x1 x2 x3 := by
  unfold out4_A_4
  rw [View.read_writes_eq_canon _ _ _ (cover4_A_4 c i m1 w1 m2 w2 m3 w3 m4 w4 m5 w5 m6 w6 m7 w7 hc x0 x1 x2 x3)]
  unfold kernelRun4_A
  dsimp only
  sl_unfold_words
  rw [View.canon_unit_zero (S := S10000x64) zeroOff]
  simp only [View.readAt_eq_ld, w1.read_unread, w2.read_unread, w3.read_unread, w4.read_unread, w6.read_unread, w7.read_unread,
    View.ld_unit_zero (S := S10000x64) zeroOff, View.ld_unit_zero (S := S64x64) zeroOff, View.ld_unit_zero (S := S1x64) zeroOff]

/-- At the first point the row of sums is stored twice: the reset to zero, then the update, which reads the reset row back. The later store covers the row, so the row ends as the update of the zero row. -/
theorem piece4_A_sum (c : Dev nD) (i : grid4.Coords) (m1 : Memref sig .tc .vmem S10000x64 .f32) (w1 : m1.IsWhole) (m2 : Memref sig .tc .vmem S1x64 .f32) (w2 : m2.IsWhole) (m3 : Memref sig .tc .vmem S64x64 .f32) (w3 : m3.IsWhole) (m4 : Memref sig .tc .vmem S1x64 .f32) (w4 : m4.IsWhole) (m5 : Memref sig .tc .vmem S10000x64 .f32) (w5 : m5.IsWhole) (m6 : Memref sig .tc .vmem S1x64 .f32) (w6 : m6.IsWhole) (m7 : Memref sig .tc .vmem S1x64 .f32) (w7 : m7.IsWhole) (hc : cond4_0 i)
    (x0 : Vec F S10000x64 .f32) (x1 : Vec F S1x64 .f32) (x2 : Vec F S64x64 .f32) (x3 : Vec F S1x64 .f32) :
    out4_A_5 c i m1 w1 m2 w2 m3 w3 m4 w4 m5 w5 m6 w6 m7 w7 hc x0 x1 x2 x3 = k4_pay4 x0 x1 x2 x3 (k4_pay1 (F := F)) := by
  unfold out4_A_5
  rw [View.read_writes_eq_canon _ _ _ (cover4_A_5 c i m1 w1 m2 w2 m3 w3 m4 w4 m5 w5 m6 w6 m7 w7 hc x0 x1 x2 x3)]
  unfold kernelRun4_A
  dsimp only
  sl_unfold_words
  rw [View.canon_cons_unit_zero (S := S1x64) zeroOff]
  simp only [View.readAt_eq_ld, w1.read_unread, w2.read_unread, w3.read_unread, w4.read_unread,
    View.ld_unit_zero (S := S10000x64) zeroOff, View.ld_unit_zero (S := S64x64) zeroOff, View.ld_unit_zero (S := S1x64) zeroOff,
    View.readCov_unit_zero (S := S1x64) _ zeroOff]

/-- At the first point the row of sums of squares likewise ends as the update of the zero row. -/
theorem piece4_A_sumsq (c : Dev nD) (i : grid4.Coords) (m1 : Memref sig .tc .vmem S10000x64 .f32) (w1 : m1.IsWhole) (m2 : Memref sig .tc .vmem S1x64 .f32) (w2 : m2.IsWhole) (m3 : Memref sig .tc .vmem S64x64 .f32) (w3 : m3.IsWhole) (m4 : Memref sig .tc .vmem S1x64 .f32) (w4 : m4.IsWhole) (m5 : Memref sig .tc .vmem S10000x64 .f32) (w5 : m5.IsWhole) (m6 : Memref sig .tc .vmem S1x64 .f32) (w6 : m6.IsWhole) (m7 : Memref sig .tc .vmem S1x64 .f32) (w7 : m7.IsWhole) (hc : cond4_0 i)
    (x0 : Vec F S10000x64 .f32) (x1 : Vec F S1x64 .f32) (x2 : Vec F S64x64 .f32) (x3 : Vec F S1x64 .f32) :
    out4_A_6 c i m1 w1 m2 w2 m3 w3 m4 w4 m5 w5 m6 w6 m7 w7 hc x0 x1 x2 x3 = k4_pay5 x0 x1 x2 x3 (k4_pay2 (F := F)) := by
  unfold out4_A_6
  rw [View.read_writes_eq_canon _ _ _ (cover4_A_6 c i m1 w1 m2 w2 m3 w3 m4 w4 m5 w5 m6 w6 m7 w7 hc x0 x1 x2 x3)]
  unfold kernelRun4_A
  dsimp only
  sl_unfold_words
  rw [View.canon_cons_unit_zero (S := S1x64) zeroOff]
  simp only [View.readAt_eq_ld, w1.read_unread, w2.read_unread, w3.read_unread, w4.read_unread,
    View.ld_unit_zero (S := S10000x64) zeroOff, View.ld_unit_zero (S := S64x64) zeroOff, View.ld_unit_zero (S := S1x64) zeroOff,
    View.readCov_unit_zero (S := S1x64) _ zeroOff]

end Pieces

/-! ## The body's arithmetic at one entry, at the ideal values -/

section Payload

/-- The block of `y`: row `r`, column `d` is the bias-shifted row of the input block times column `d` of the
    weight, plus the second bias. The two roundings to bf16 in front of the product are the identity on extended reals,
    and a product into the zero accumulator is the plain sum over the contracted coordinate. -/
theorem pay3_apply (x0 : Vec Ideal S10000x64 .f32) (x1 : Vec Ideal S1x64 .f32) (x2 : Vec Ideal S64x64 .f32)
    (x3 : Vec Ideal S1x64 .f32) (r : Fin 10000) (d : Fin 64) :
    k1_pay3 x0 x1 x2 x3 (ix2 r d)
      = (∑ k : Fin 64, (x0 (ix2 r k) + x1 (ix2 (0 : Fin 1) k)) * x2 (ix2 k d)) + x3 (ix2 (0 : Fin 1) d) := by
  unfold k1_pay3
  refine (addf_apply _ _ _).trans ?_
  refine congrArg₂ (· + ·) ?_ ?_
  · refine (PlainRows.matmul_zero_rows_apply dot_S10000x64_S64x64_S10000x64_1_0_0_1_n_n rfl none _ _ r d).trans ?_
    refine Finset.sum_congr rfl fun k _ => ?_
    refine congrArg₂ (· * ·) ?_ rfl
    refine (truncf_apply (φ := .f32) (ψ := .bf16) _ _ _).trans ?_
    refine (addf_apply _ _ _).trans ?_
    refine congrArg₂ (· + ·) ?_ ?_
    · exact congrFun (shapeCast_self _ _) _
    · refine (broadcastTo_1b_ab_apply _ _ r k).trans ?_
      exact congrFun (shapeCast_self _ _) _
  · refine (broadcastTo_1b_ab_apply _ _ r d).trans ?_
    exact congrFun (shapeCast_self _ _) _

/-- The index a sum over the rows of a `[10000, 64]` block inserts at column `d`, row `r`. -/
theorem lift_rows (d : Fin 64) (r : Fin 10000) : reduces_S10000x64_S64.lift (ix1 d) r = ix2 r d := by
  funext a
  match a with
  | ⟨0, _⟩ => rfl
  | ⟨1, _⟩ => rfl

/-- The carried row of column sums after a block: what it held plus the block's column sum. -/
theorem pay4_apply (x0 : Vec Ideal S10000x64 .f32) (x1 : Vec Ideal S1x64 .f32) (x2 : Vec Ideal S64x64 .f32)
    (x3 : Vec Ideal S1x64 .f32) (acc : Vec Ideal S1x64 .f32) (d : Fin 64) :
    k1_pay4 x0 x1 x2 x3 acc (ix2 (0 : Fin 1) d)
      = acc (ix2 (0 : Fin 1) d) + ∑ r : Fin 10000, k1_pay3 x0 x1 x2 x3 (ix2 r d) := by
  unfold k1_pay4
  refine (addf_apply _ _ _).trans ?_
  refine congrArg₂ (· + ·) ?_ ?_
  · exact congrFun (shapeCast_self _ _) _
  · refine (shapeCast_a_1a_apply _ _ (0 : Fin 1) d).trans ?_
    refine (Ideal.multiReduction_add_single (k1_pay3 x0 x1 x2 x3) 0x00000000#32 reduces_S10000x64_S64 _ _ (ix1 d)).trans ?_
    exact Finset.sum_congr rfl fun r _ => congrArg _ (lift_rows d r)

/-- The carried row of column sums of squares after a block: what it held plus the block's column sum of squares. -/
theorem pay5_apply (x0 : Vec Ideal S10000x64 .f32) (x1 : Vec Ideal S1x64 .f32) (x2 : Vec Ideal S64x64 .f32)
    (x3 : Vec Ideal S1x64 .f32) (acc : Vec Ideal S1x64 .f32) (d : Fin 64) :
    k1_pay5 x0 x1 x2 x3 acc (ix2 (0 : Fin 1) d)
      = acc (ix2 (0 : Fin 1) d) + ∑ r : Fin 10000, k1_pay3 x0 x1 x2 x3 (ix2 r d) * k1_pay3 x0 x1 x2 x3 (ix2 r d) := by
  unfold k1_pay5
  refine (addf_apply _ _ _).trans ?_
  refine congrArg₂ (· + ·) ?_ ?_
  · exact congrFun (shapeCast_self _ _) _
  · refine (shapeCast_a_1a_apply _ _ (0 : Fin 1) d).trans ?_
    refine (Ideal.multiReduction_add_single (mulf (k1_pay3 x0 x1 x2 x3) (k1_pay3 x0 x1 x2 x3)) 0x00000000#32 reduces_S10000x64_S64 _ _ (ix1 d)).trans ?_
    exact Finset.sum_congr rfl fun r _ => (congrArg _ (lift_rows d r)).trans (mulf_apply _ _ _)

/-- The reset rows are zero. -/
theorem pay1_apply (j : S1x64.Idx) : k1_pay1 (F := Ideal) j = 0 := Ideal.ofBits_zero_f32
theorem pay2_apply (j : S1x64.Idx) : k1_pay2 (F := Ideal) j = 0 := Ideal.ofBits_zero_f32

end Payload

/-! ## The fifth call's arithmetic is the second's, under other names -/

section PayloadFifth

/-- The fifth call's body is printed from the same kernel as the second's: its payloads are the same terms, so each
    reading of the second's at an entry is a reading of the fifth's. -/
theorem pay3_apply' (x0 : Vec Ideal S10000x64 .f32) (x1 : Vec Ideal S1x64 .f32) (x2 : Vec Ideal S64x64 .f32)
    (x3 : Vec Ideal S1x64 .f32) (r : Fin 10000) (d : Fin 64) :
    k4_pay3 x0 x1 x2 x3 (ix2 r d)
      = (∑ k : Fin 64, (x0 (ix2 r k) + x1 (ix2 (0 : Fin 1) k)) * x2 (ix2 k d)) + x3 (ix2 (0 : Fin 1) d) :=
  pay3_apply x0 x1 x2 x3 r d

theorem pay4_apply' (x0 : Vec Ideal S10000x64 .f32) (x1 : Vec Ideal S1x64 .f32) (x2 : Vec Ideal S64x64 .f32)
    (x3 : Vec Ideal S1x64 .f32) (acc : Vec Ideal S1x64 .f32) (d : Fin 64) :
    k4_pay4 x0 x1 x2 x3 acc (ix2 (0 : Fin 1) d)
      = acc (ix2 (0 : Fin 1) d) + ∑ r : Fin 10000, k4_pay3 x0 x1 x2 x3 (ix2 r d) :=
  pay4_apply x0 x1 x2 x3 acc d

theorem pay5_apply' (x0 : Vec Ideal S10000x64 .f32) (x1 : Vec Ideal S1x64 .f32) (x2 : Vec Ideal S64x64 .f32)
    (x3 : Vec Ideal S1x64 .f32) (acc : Vec Ideal S1x64 .f32) (d : Fin 64) :
    k4_pay5 x0 x1 x2 x3 acc (ix2 (0 : Fin 1) d)
      = acc (ix2 (0 : Fin 1) d) + ∑ r : Fin 10000, k4_pay3 x0 x1 x2 x3 (ix2 r d) * k4_pay3 x0 x1 x2 x3 (ix2 r d) :=
  pay5_apply x0 x1 x2 x3 acc d

theorem pay1_apply' (j : S1x64.Idx) : k4_pay1 (F := Ideal) j = 0 := Ideal.ofBits_zero_f32
theorem pay2_apply' (j : S1x64.Idx) : k4_pay2 (F := Ideal) j = 0 := Ideal.ofBits_zero_f32

end PayloadFifth

/-! ## Ten runs of ten thousand rows are all the rows -/

section Regroup

/-- A sum over `a * b` consecutive naturals is the sum, over `a` runs, of the sums over each run of `b`: by induction
    on the number of runs, the last run split off. -/
theorem sum_range_runs {M : Type*} [AddCommMonoid M] (g : ℕ → M) (b : ℕ) :
    ∀ a : ℕ, ∑ n ∈ Finset.range (a * b), g n = ∑ s ∈ Finset.range a, ∑ r ∈ Finset.range b, g (s * b + r)
  | 0 => by rw [Nat.zero_mul, Finset.sum_range_zero, Finset.sum_range_zero]
  | a + 1 => by rw [Nat.succ_mul, Finset.sum_range_add, sum_range_runs g b a, Finset.sum_range_succ]

/-- A function of the rows, continued by zero past the last row, so that a row can be named by a natural number. -/
def extZero (f : Fin 100000 → EReal) (n : ℕ) : EReal := if h : n < 100000 then f ⟨n, h⟩ else 0

theorem extZero_of_lt (f : Fin 100000 → EReal) (n : ℕ) (h : n < 100000) : extZero f n = f ⟨n, h⟩ := dif_pos h

/-- The sum over all 100000 rows, regrouped as ten runs of 10000 consecutive rows: addition of extended reals is
    associative and commutative, so the grouping does not matter. -/
theorem sum_rows_runs (f : Fin 100000 → EReal) :
    ∑ n : Fin 100000, f n = ∑ s ∈ Finset.range 10, ∑ r : Fin 10000, extZero f (s * 10000 + r.val) :=
  calc ∑ n : Fin 100000, f n
      = ∑ n : Fin 100000, extZero f n.val := Finset.sum_congr rfl fun n _ => (extZero_of_lt f n.val n.isLt).symm
    _ = ∑ n ∈ Finset.range (10 * 10000), extZero f n := Fin.sum_univ_eq_sum_range (extZero f) 100000
    _ = ∑ s ∈ Finset.range 10, ∑ r ∈ Finset.range 10000, extZero f (s * 10000 + r) := sum_range_runs (extZero f) 10000 10
    _ = ∑ s ∈ Finset.range 10, ∑ r : Fin 10000, extZero f (s * 10000 + r.val) :=
        Finset.sum_congr rfl fun s _ => (Fin.sum_univ_eq_sum_range (fun r => extZero f (s * 10000 + r)) 10000).symm

end Regroup

end Body

/-! ## The second pallas_call -/

/-- Its operands as the call finds them, and its three result arrays after the call. -/
abbrev a1 (c : Dev nD) : S100000x64.Idx → EReal := V c main_call0_v29
abbrev b1 (c : Dev nD) : S1x64.Idx → EReal := V c main_call0_v30
abbrev fw1 (c : Dev nD) : S64x64.Idx → EReal := V c main_arg4
abbrev fb1 (c : Dev nD) : S1x64.Idx → EReal := V c main_call0_v31
abbrev y1 (c : Dev nD) : S100000x64.Idx → EReal := (dat1 (F := Ideal) V c).arrAt 4 cfg1.N
abbrev s1 (c : Dev nD) : S1x64.Idx → EReal := (dat1 (F := Ideal) V c).arrAt 5 cfg1.N
abbrev q1 (c : Dev nD) : S1x64.Idx → EReal := (dat1 (F := Ideal) V c).arrAt 6 cfg1.N

/-- The linear map's value at row `n`, column `d`. -/
def lin1 (c : Dev nD) (n : Fin 100000) (d : Fin 64) : EReal :=
  (∑ k : Fin 64, (a1 V c (ix2 n k) + b1 V c (ix2 (0 : Fin 1) k)) * fw1 V c (ix2 k d)) + fb1 V c (ix2 (0 : Fin 1) d)

namespace Second
open Body

/-- The blocks of the four operands at point `t`, at their literal types. -/
abbrev xb (c : Dev nD) (t : Fin cfg1.N) : Vec Ideal S10000x64 .f32 := iblk1 V c 0 t
abbrev bb (c : Dev nD) (t : Fin cfg1.N) : Vec Ideal S1x64 .f32 := iblk1 V c 1 t
abbrev wb (c : Dev nD) (t : Fin cfg1.N) : Vec Ideal S64x64 .f32 := iblk1 V c 2 t
abbrev fbb (c : Dev nD) (t : Fin cfg1.N) : Vec Ideal S1x64 .f32 := iblk1 V c 3 t

/-- The printed index maps, decided over the ten points: the input's and `y`'s block at point `t` is block `t` of
    rows, every other window's one block is at index (0, 0). -/
theorem idx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem lt_ten (t : Fin cfg1.N) : t.val < 10 := lt_of_lt_of_eq t.isLt (show cfg1.N = 10 from N_1)

/-- Row `r` of the input's block at point `t` is row `t * 10000 + r` of the input: a block's coordinate is the block
    index times the block size plus the coordinate inside the block. -/
theorem xb_apply (c : Dev nD) (t : Fin cfg1.N) (r : Fin 10000) (k : Fin 64) (h : t.val * 10000 + r.val < 100000) :
    xb V c t (ix2 r k) = a1 V c (ix2 (⟨t.val * 10000 + r.val, h⟩ : Fin 100000) k) := by
  obtain ⟨e0, e1, -⟩ := idx t
  show ((cfg1.win 0).blk t).view.read (Elt Ideal) (V c (Pipeline.arrRef spec1 0)) (ix2 r k) = _
  rw [View.read_apply]
  show V c main_call0_v29 _ = V c main_call0_v29 _
  refine congrArg _ ?_
  funext a
  apply Fin.ext
  match a with
  | ⟨0, _⟩ => show win1_0.index t (0 : Fin 2) * 10000 + 1 * r.val = t.val * 10000 + r.val; rw [e0]; omega
  | ⟨1, _⟩ => show win1_0.index t (1 : Fin 2) * 64 + 1 * k.val = k.val; rw [e1]; omega

/-- The first bias row's one block is the whole row. -/
theorem bb_apply (c : Dev nD) (t : Fin cfg1.N) (k : Fin 64) :
    bb V c t (ix2 (0 : Fin 1) k) = b1 V c (ix2 (0 : Fin 1) k) := by
  obtain ⟨-, -, e2, e3, -⟩ := idx t
  show ((cfg1.win 1).blk t).view.read (Elt Ideal) (V c (Pipeline.arrRef spec1 1)) (ix2 (0 : Fin 1) k) = _
  rw [View.read_apply]
  show V c main_call0_v30 _ = V c main_call0_v30 _
  refine congrArg _ ?_
  funext a
  apply Fin.ext
  match a with
  | ⟨0, _⟩ => show win1_1.index t (0 : Fin 2) * 1 + 1 * (0 : Fin 1).val = (0 : Fin 1).val; rw [e2]; omega
  | ⟨1, _⟩ => show win1_1.index t (1 : Fin 2) * 64 + 1 * k.val = k.val; rw [e3]; omega

/-- The weight's one block is the whole weight. -/
theorem wb_apply (c : Dev nD) (t : Fin cfg1.N) (k d : Fin 64) :
    wb V c t (ix2 k d) = fw1 V c (ix2 k d) := by
  obtain ⟨-, -, -, -, e4, e5, -⟩ := idx t
  show ((cfg1.win 2).blk t).view.read (Elt Ideal) (V c (Pipeline.arrRef spec1 2)) (ix2 k d) = _
  rw [View.read_apply]
  show V c main_arg4 _ = V c main_arg4 _
  refine congrArg _ ?_
  funext a
  apply Fin.ext
  match a with
  | ⟨0, _⟩ => show win1_2.index t (0 : Fin 2) * 64 + 1 * k.val = k.val; rw [e4]; omega
  | ⟨1, _⟩ => show win1_2.index t (1 : Fin 2) * 64 + 1 * d.val = d.val; rw [e5]; omega

/-- The second bias row's one block is the whole row. -/
theorem fbb_apply (c : Dev nD) (t : Fin cfg1.N) (d : Fin 64) :
    fbb V c t (ix2 (0 : Fin 1) d) = fb1 V c (ix2 (0 : Fin 1) d) := by
  obtain ⟨-, -, -, -, -, -, e6, e7, -⟩ := idx t
  show ((cfg1.win 3).blk t).view.read (Elt Ideal) (V c (Pipeline.arrRef spec1 3)) (ix2 (0 : Fin 1) d) = _
  rw [View.read_apply]
  show V c main_call0_v31 _ = V c main_call0_v31 _
  refine congrArg _ ?_
  funext a
  apply Fin.ext
  match a with
  | ⟨0, _⟩ => show win1_3.index t (0 : Fin 2) * 1 + 1 * (0 : Fin 1).val = (0 : Fin 1).val; rw [e6]; omega
  | ⟨1, _⟩ => show win1_3.index t (1 : Fin 2) * 64 + 1 * d.val = d.val; rw [e7]; omega

/-- The body's block of `y` at point `t`, row `r`, is the linear map's value at row `t * 10000 + r`. -/
theorem blockY (c : Dev nD) (t : Fin cfg1.N) (r : Fin 10000) (d : Fin 64) (h : t.val * 10000 + r.val < 100000) :
    k1_pay3 (xb V c t) (bb V c t) (wb V c t) (fbb V c t) (ix2 r d) = lin1 V c ⟨t.val * 10000 + r.val, h⟩ d := by
  refine (pay3_apply (xb V c t) (bb V c t) (wb V c t) (fbb V c t) r d).trans ?_
  unfold lin1
  exact congrArg₂ (· + ·) (Finset.sum_congr rfl fun k _ => congrArg₂ (· * ·)
    (congrArg₂ (· + ·) (xb_apply V c t r k h) (bb_apply V c t k)) (wb_apply V c t k d)) (fbb_apply V c t d)

/-- The same, with the row named by its number. -/
theorem blockY_ext (c : Dev nD) (t : Fin cfg1.N) (r : Fin 10000) (d : Fin 64) :
    k1_pay3 (xb V c t) (bb V c t) (wb V c t) (fbb V c t) (ix2 r d) = extZero (fun m => lin1 V c m d) (t.val * 10000 + r.val) := by
  have hN := lt_ten t
  have hrow : t.val * 10000 + r.val < 100000 := by have := r.isLt; omega
  rw [extZero_of_lt _ _ hrow]
  exact blockY V c t r d hrow

/-- At every point, first or later, the body leaves in `y`'s staging buffer its block of `y`. -/
theorem outY (c : Dev nD) (t : Fin cfg1.N) :
    (outsAt1 V c t.val t.isLt).1 = k1_pay3 (xb V c t) (bb V c t) (wb V c t) (fbb V c t) := by
  by_cases h0 : t.val % 10 = 0
  · rw [outsAt1_A V c t h0]
    dsimp only
    exact piece1_A_y (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (xb V c t) (bb V c t) (wb V c t) (fbb V c t)
  · rw [outsAt1_B V c t h0]
    dsimp only
    exact piece1_B_y (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (xb V c t) (bb V c t) (wb V c t) (fbb V c t)
      (outsAt1 V c (t.val - 1) (Nat.lt_of_le_of_lt (Nat.sub_le _ _) t.isLt)).2.1 (outsAt1 V c (t.val - 1) (Nat.lt_of_le_of_lt (Nat.sub_le _ _) t.isLt)).2.2

/-- The array `y`'s blocks are blocks of. -/
abbrev yArr (c : Dev nD) : S100000x64.Idx → EReal := fun i => lin1 V c (i 0) (i 1)

/-- What point `t` writes back to `y` is block `t` of that array. -/
theorem flushedY (c : Dev nD) (t : Fin cfg1.N) :
    (dat1 (F := Ideal) V c).flushed 4 t = ((cfg1.win 4).blk t).view.read (Elt Ideal) (yArr V c) := by
  have hN := lt_ten t
  obtain ⟨-, -, -, -, -, -, -, -, e8, e9⟩ := idx t
  show (cfg1.win 4).cut (grid1.coords t) ((dat1 (F := Ideal) V c).after 4 t) = _
  rw [after1_4, outY V c t]
  funext j
  obtain ⟨r, d, rfl⟩ : ∃ (r : Fin 10000) (d : Fin 64), j = ix2 r d := ⟨j 0, j 1, eq_ix2 j⟩
  rw [View.read_apply]
  have hrow : t.val * 10000 + r.val < 100000 := by have := r.isLt; omega
  refine (blockY V c t r d hrow).trans ?_
  show lin1 V c ⟨t.val * 10000 + r.val, hrow⟩ d
    = lin1 V c ((((cfg1.win 4).blk t).view.emb (ix2 r d)) 0) ((((cfg1.win 4).blk t).view.emb (ix2 r d)) 1)
  refine congrArg₂ (lin1 V c) (Fin.ext ?_) (Fin.ext ?_)
  · show t.val * 10000 + r.val = win1_4.index t (0 : Fin 2) * 10000 + 1 * r.val; rw [e8]; omega
  · show d.val = win1_4.index t (1 : Fin 2) * 64 + 1 * d.val; rw [e9]; omega

/-- A row is in point `t`'s block of `y` iff each coordinate is in the block's range on its axis. -/
theorem mem_blkY (t : Fin cfg1.N) (i : S100000x64.Idx) :
    i ∈ ((cfg1.win 4).blk t).view.set
      ↔ ∀ a : Fin 2, win1_4.index t a * S10000x64.size a ≤ (i a).val ∧ (i a).val < win1_4.index t a * S10000x64.size a + S10000x64.size a := by
  show i ∈ ((View.whole main_call0_v32_0).slice (win1_4.rect t)).set ↔ _
  rw [View.set_slice_whole, Rect.mem_set_unit]
  exact Iff.rfl

/-- Every point writes its block back and the ten blocks tile the rows (row `n` is in block `n / 10000`), so the
    array ends as the linear map's values. -/
theorem arrayY (c : Dev nD) : y1 V c = yArr V c :=
  (dat1 (F := Ideal) V c).arrAt_eq_of_cover 4 (yArr V c) (fun t _ => flushedY V c t) fun i => by
    have hi0 : (i 0).val < 100000 := (i 0).isLt
    have hi1 : (i 1).val < 64 := (i 1).isLt
    have hq : (i 0).val / 10000 < cfg1.N := by rw [show cfg1.N = 10 from N_1]; omega
    obtain ⟨-, -, -, -, -, -, -, -, e8, e9⟩ := idx ⟨(i 0).val / 10000, hq⟩
    refine ⟨⟨(i 0).val / 10000, hq⟩, flush1_4 _, ?_⟩
    rw [mem_blkY]
    intro a
    match a with
    | ⟨0, _⟩ =>
      show win1_4.index ⟨(i 0).val / 10000, hq⟩ (0 : Fin 2) * 10000 ≤ (i 0).val
        ∧ (i 0).val < win1_4.index ⟨(i 0).val / 10000, hq⟩ (0 : Fin 2) * 10000 + 10000
      rw [e8]; dsimp only; omega
    | ⟨1, _⟩ =>
      show win1_4.index ⟨(i 0).val / 10000, hq⟩ (1 : Fin 2) * 64 ≤ (i 1).val
        ∧ (i 1).val < win1_4.index ⟨(i 0).val / 10000, hq⟩ (1 : Fin 2) * 64 + 64
      rw [e9]; omega

/-- The same for the square. -/
theorem blockSq_ext (c : Dev nD) (t : Fin cfg1.N) (r : Fin 10000) (d : Fin 64) :
    k1_pay3 (xb V c t) (bb V c t) (wb V c t) (fbb V c t) (ix2 r d) * k1_pay3 (xb V c t) (bb V c t) (wb V c t) (fbb V c t) (ix2 r d)
      = extZero (fun m => lin1 V c m d * lin1 V c m d) (t.val * 10000 + r.val) := by
  have hN := lt_ten t
  have hrow : t.val * 10000 + r.val < 100000 := by have := r.isLt; omega
  rw [extZero_of_lt _ _ hrow, blockY V c t r d hrow]

theorem last_lt : 9 < cfg1.N := by rw [show cfg1.N = 10 from N_1]; decide

/-- THE CARRIED ROW OF SUMS. After point `n` it holds, at column `d`, the sum of the linear map's values over the rows of blocks `0 … n`: zero plus block 0's column sum at the first point, one more block's column sum at each later point. By induction on the point. -/
theorem carriedSum (c : Dev nD) (d : Fin 64) : ∀ (n : ℕ) (h : n < cfg1.N),
    (outsAt1 V c n h).2.1 (ix2 (0 : Fin 1) d)
      = ∑ s ∈ Finset.range (n + 1), ∑ r : Fin 10000, extZero (fun m => lin1 V c m d) (s * 10000 + r.val)
  | 0, h => by
    rw [outsAt1_A V c (⟨0, h⟩ : Fin cfg1.N) rfl]
    dsimp only
    refine (congrFun (piece1_A_sum (F := Ideal) c (grid1.coords (⟨0, h⟩ : Fin cfg1.N)) (ms1_0 (⟨0, h⟩ : Fin cfg1.N)) (hs1_0 (⟨0, h⟩ : Fin cfg1.N)) (ms1_1 (⟨0, h⟩ : Fin cfg1.N)) (hs1_1 (⟨0, h⟩ : Fin cfg1.N)) (ms1_2 (⟨0, h⟩ : Fin cfg1.N)) (hs1_2 (⟨0, h⟩ : Fin cfg1.N)) (ms1_3 (⟨0, h⟩ : Fin cfg1.N)) (hs1_3 (⟨0, h⟩ : Fin cfg1.N)) (ms1_4 (⟨0, h⟩ : Fin cfg1.N)) (hs1_4 (⟨0, h⟩ : Fin cfg1.N)) (ms1_5 (⟨0, h⟩ : Fin cfg1.N)) (hs1_5 (⟨0, h⟩ : Fin cfg1.N)) (ms1_6 (⟨0, h⟩ : Fin cfg1.N)) (hs1_6 (⟨0, h⟩ : Fin cfg1.N))
      ((hcond1_0 (⟨0, h⟩ : Fin cfg1.N)).mpr rfl) (xb V c (⟨0, h⟩ : Fin cfg1.N)) (bb V c (⟨0, h⟩ : Fin cfg1.N)) (wb V c (⟨0, h⟩ : Fin cfg1.N)) (fbb V c (⟨0, h⟩ : Fin cfg1.N))) (ix2 (0 : Fin 1) d)).trans ?_
    refine (pay4_apply (xb V c (⟨0, h⟩ : Fin cfg1.N)) (bb V c (⟨0, h⟩ : Fin cfg1.N)) (wb V c (⟨0, h⟩ : Fin cfg1.N)) (fbb V c (⟨0, h⟩ : Fin cfg1.N)) (k1_pay1 (F := Ideal)) d).trans ?_
    rw [pay1_apply, zero_add, Finset.sum_range_one]
    exact Finset.sum_congr rfl fun r _ => blockY_ext V c (⟨0, h⟩ : Fin cfg1.N) r d
  | n + 1, h => by
    have hN : cfg1.N = 10 := N_1
    have hB : ¬(⟨n + 1, h⟩ : Fin cfg1.N).val % 10 = 0 := by dsimp only; omega
    rw [outsAt1_B V c (⟨n + 1, h⟩ : Fin cfg1.N) hB]
    dsimp only
    refine (congrFun (piece1_B_sum (F := Ideal) c (grid1.coords (⟨n + 1, h⟩ : Fin cfg1.N)) (ms1_0 (⟨n + 1, h⟩ : Fin cfg1.N)) (hs1_0 (⟨n + 1, h⟩ : Fin cfg1.N)) (ms1_1 (⟨n + 1, h⟩ : Fin cfg1.N)) (hs1_1 (⟨n + 1, h⟩ : Fin cfg1.N)) (ms1_2 (⟨n + 1, h⟩ : Fin cfg1.N)) (hs1_2 (⟨n + 1, h⟩ : Fin cfg1.N)) (ms1_3 (⟨n + 1, h⟩ : Fin cfg1.N)) (hs1_3 (⟨n + 1, h⟩ : Fin cfg1.N)) (ms1_4 (⟨n + 1, h⟩ : Fin cfg1.N)) (hs1_4 (⟨n + 1, h⟩ : Fin cfg1.N)) (ms1_5 (⟨n + 1, h⟩ : Fin cfg1.N)) (hs1_5 (⟨n + 1, h⟩ : Fin cfg1.N)) (ms1_6 (⟨n + 1, h⟩ : Fin cfg1.N)) (hs1_6 (⟨n + 1, h⟩ : Fin cfg1.N))
      (fun hh => hB ((hcond1_0 (⟨n + 1, h⟩ : Fin cfg1.N)).mp hh)) (xb V c (⟨n + 1, h⟩ : Fin cfg1.N)) (bb V c (⟨n + 1, h⟩ : Fin cfg1.N)) (wb V c (⟨n + 1, h⟩ : Fin cfg1.N)) (fbb V c (⟨n + 1, h⟩ : Fin cfg1.N))
      (outsAt1 V c ((⟨n + 1, h⟩ : Fin cfg1.N).val - 1) (Nat.lt_of_le_of_lt (Nat.sub_le _ _) (⟨n + 1, h⟩ : Fin cfg1.N).isLt)).2.1 (outsAt1 V c ((⟨n + 1, h⟩ : Fin cfg1.N).val - 1) (Nat.lt_of_le_of_lt (Nat.sub_le _ _) (⟨n + 1, h⟩ : Fin cfg1.N).isLt)).2.2) (ix2 (0 : Fin 1) d)).trans ?_
    refine (pay4_apply (xb V c (⟨n + 1, h⟩ : Fin cfg1.N)) (bb V c (⟨n + 1, h⟩ : Fin cfg1.N)) (wb V c (⟨n + 1, h⟩ : Fin cfg1.N)) (fbb V c (⟨n + 1, h⟩ : Fin cfg1.N)) (outsAt1 V c ((⟨n + 1, h⟩ : Fin cfg1.N).val - 1) (Nat.lt_of_le_of_lt (Nat.sub_le _ _) (⟨n + 1, h⟩ : Fin cfg1.N).isLt)).2.1 d).trans ?_
    rw [Finset.sum_range_succ _ (n + 1)]
    exact congrArg₂ (· + ·) (carriedSum c d n (Nat.lt_of_succ_lt h))
      (Finset.sum_congr rfl fun r _ => blockY_ext V c (⟨n + 1, h⟩ : Fin cfg1.N) r d)

/-- THE CARRIED ROW OF SUMS OF SQUARES, likewise. -/
theorem carriedSq (c : Dev nD) (d : Fin 64) : ∀ (n : ℕ) (h : n < cfg1.N),
    (outsAt1 V c n h).2.2 (ix2 (0 : Fin 1) d)
      = ∑ s ∈ Finset.range (n + 1), ∑ r : Fin 10000, extZero (fun m => lin1 V c m d * lin1 V c m d) (s * 10000 + r.val)
  | 0, h => by
    rw [outsAt1_A V c (⟨0, h⟩ : Fin cfg1.N) rfl]
    dsimp only
    refine (congrFun (piece1_A_sumsq (F := Ideal) c (grid1.coords (⟨0, h⟩ : Fin cfg1.N)) (ms1_0 (⟨0, h⟩ : Fin cfg1.N)) (hs1_0 (⟨0, h⟩ : Fin cfg1.N)) (ms1_1 (⟨0, h⟩ : Fin cfg1.N)) (hs1_1 (⟨0, h⟩ : Fin cfg1.N)) (ms1_2 (⟨0, h⟩ : Fin cfg1.N)) (hs1_2 (⟨0, h⟩ : Fin cfg1.N)) (ms1_3 (⟨0, h⟩ : Fin cfg1.N)) (hs1_3 (⟨0, h⟩ : Fin cfg1.N)) (ms1_4 (⟨0, h⟩ : Fin cfg1.N)) (hs1_4 (⟨0, h⟩ : Fin cfg1.N)) (ms1_5 (⟨0, h⟩ : Fin cfg1.N)) (hs1_5 (⟨0, h⟩ : Fin cfg1.N)) (ms1_6 (⟨0, h⟩ : Fin cfg1.N)) (hs1_6 (⟨0, h⟩ : Fin cfg1.N))
      ((hcond1_0 (⟨0, h⟩ : Fin cfg1.N)).mpr rfl) (xb V c (⟨0, h⟩ : Fin cfg1.N)) (bb V c (⟨0, h⟩ : Fin cfg1.N)) (wb V c (⟨0, h⟩ : Fin cfg1.N)) (fbb V c (⟨0, h⟩ : Fin cfg1.N))) (ix2 (0 : Fin 1) d)).trans ?_
    refine (pay5_apply (xb V c (⟨0, h⟩ : Fin cfg1.N)) (bb V c (⟨0, h⟩ : Fin cfg1.N)) (wb V c (⟨0, h⟩ : Fin cfg1.N)) (fbb V c (⟨0, h⟩ : Fin cfg1.N)) (k1_pay2 (F := Ideal)) d).trans ?_
    rw [pay2_apply, zero_add, Finset.sum_range_one]
    exact Finset.sum_congr rfl fun r _ => blockSq_ext V c (⟨0, h⟩ : Fin cfg1.N) r d
  | n + 1, h => by
    have hN : cfg1.N = 10 := N_1
    have hB : ¬(⟨n + 1, h⟩ : Fin cfg1.N).val % 10 = 0 := by dsimp only; omega
    rw [outsAt1_B V c (⟨n + 1, h⟩ : Fin cfg1.N) hB]
    dsimp only
    refine (congrFun (piece1_B_sumsq (F := Ideal) c (grid1.coords (⟨n + 1, h⟩ : Fin cfg1.N)) (ms1_0 (⟨n + 1, h⟩ : Fin cfg1.N)) (hs1_0 (⟨n + 1, h⟩ : Fin cfg1.N)) (ms1_1 (⟨n + 1, h⟩ : Fin cfg1.N)) (hs1_1 (⟨n + 1, h⟩ : Fin cfg1.N)) (ms1_2 (⟨n + 1, h⟩ : Fin cfg1.N)) (hs1_2 (⟨n + 1, h⟩ : Fin cfg1.N)) (ms1_3 (⟨n + 1, h⟩ : Fin cfg1.N)) (hs1_3 (⟨n + 1, h⟩ : Fin cfg1.N)) (ms1_4 (⟨n + 1, h⟩ : Fin cfg1.N)) (hs1_4 (⟨n + 1, h⟩ : Fin cfg1.N)) (ms1_5 (⟨n + 1, h⟩ : Fin cfg1.N)) (hs1_5 (⟨n + 1, h⟩ : Fin cfg1.N)) (ms1_6 (⟨n + 1, h⟩ : Fin cfg1.N)) (hs1_6 (⟨n + 1, h⟩ : Fin cfg1.N))
      (fun hh => hB ((hcond1_0 (⟨n + 1, h⟩ : Fin cfg1.N)).mp hh)) (xb V c (⟨n + 1, h⟩ : Fin cfg1.N)) (bb V c (⟨n + 1, h⟩ : Fin cfg1.N)) (wb V c (⟨n + 1, h⟩ : Fin cfg1.N)) (fbb V c (⟨n + 1, h⟩ : Fin cfg1.N))
      (outsAt1 V c ((⟨n + 1, h⟩ : Fin cfg1.N).val - 1) (Nat.lt_of_le_of_lt (Nat.sub_le _ _) (⟨n + 1, h⟩ : Fin cfg1.N).isLt)).2.1 (outsAt1 V c ((⟨n + 1, h⟩ : Fin cfg1.N).val - 1) (Nat.lt_of_le_of_lt (Nat.sub_le _ _) (⟨n + 1, h⟩ : Fin cfg1.N).isLt)).2.2) (ix2 (0 : Fin 1) d)).trans ?_
    refine (pay5_apply (xb V c (⟨n + 1, h⟩ : Fin cfg1.N)) (bb V c (⟨n + 1, h⟩ : Fin cfg1.N)) (wb V c (⟨n + 1, h⟩ : Fin cfg1.N)) (fbb V c (⟨n + 1, h⟩ : Fin cfg1.N)) (outsAt1 V c ((⟨n + 1, h⟩ : Fin cfg1.N).val - 1) (Nat.lt_of_le_of_lt (Nat.sub_le _ _) (⟨n + 1, h⟩ : Fin cfg1.N).isLt)).2.2 d).trans ?_
    rw [Finset.sum_range_succ _ (n + 1)]
    exact congrArg₂ (· + ·) (carriedSq c d n (Nat.lt_of_succ_lt h))
      (Finset.sum_congr rfl fun r _ => blockSq_ext V c (⟨n + 1, h⟩ : Fin cfg1.N) r d)

/-- What the carried row of sums holds after the last point. -/
abbrev sumRow (c : Dev nD) : S1x64.Idx → EReal := (outsAt1 V c 9 last_lt).2.1

/-- Only the last point writes this row back, and the window's one block at index (0, 0) is the whole row. -/
theorem flushedSum (c : Dev nD) (t : Fin cfg1.N) (hf : (cfg1.win 5).flush t = true) :
    (dat1 (F := Ideal) V c).flushed 5 t = ((cfg1.win 5).blk t).view.read (Elt Ideal) (sumRow V c) := by
  have hN : cfg1.N = 10 := N_1
  have h9 : t.val = 9 := by have := (flush1_5 t).mp hf; have := t.isLt; omega
  obtain rfl : t = t1_9 := Fin.ext h9
  show (cfg1.win 5).cut (grid1.coords t1_9) ((dat1 (F := Ideal) V c).after 5 t1_9) = _
  rw [after1_5]
  have hz' : (fun a => win1_5.index t1_9 a * main_call0_v32_1.ty.shape.size a) = fun _ => 0 :=
    funext fun a => by fin_cases a <;> decide +kernel
  exact (Memref.read_access_unit_zero (Elt Ideal) main_call0_v32_1 hz' (fun a => by rw [congrFun hz' a]; simp) (sumRow V c)).symm

/-- So the array of sums ends as that row. -/
theorem arraySum (c : Dev nD) : s1 V c = sumRow V c :=
  (dat1 (F := Ideal) V c).arrAt_eq_of_cover 5 (sumRow V c) (flushedSum V c) fun i =>
    ⟨t1_9, (flush1_5 t1_9).mpr rfl, by
      show i ∈ ((View.whole main_call0_v32_1).slice (win1_5.rect t1_9)).set
      rw [View.set_slice_whole, Rect.mem_set_unit]
      intro a
      have h0 : (i 0 : Nat) < 1 := (i 0).isLt
      have h1 : (i 1 : Nat) < 64 := (i 1).isLt
      match a with
      | ⟨0, _⟩ =>
        show win1_5.index t1_9 0 * win1_5.size 0 ≤ (i 0 : Nat)
          ∧ (i 0 : Nat) < win1_5.index t1_9 0 * win1_5.size 0 + win1_5.xsize (grid1.coords t1_9) 0
        rw [show win1_5.index t1_9 0 * win1_5.size 0 = 0 from by decide +kernel,
          show win1_5.xsize (grid1.coords t1_9) 0 = 1 from by decide +kernel]
        omega
      | ⟨1, _⟩ =>
        show win1_5.index t1_9 1 * win1_5.size 1 ≤ (i 1 : Nat)
          ∧ (i 1 : Nat) < win1_5.index t1_9 1 * win1_5.size 1 + win1_5.xsize (grid1.coords t1_9) 1
        rw [show win1_5.index t1_9 1 * win1_5.size 1 = 0 from by decide +kernel,
          show win1_5.xsize (grid1.coords t1_9) 1 = 64 from by decide +kernel]
        omega⟩

/-- What the carried row of sums of squares holds after the last point. -/
abbrev sqRow (c : Dev nD) : S1x64.Idx → EReal := (outsAt1 V c 9 last_lt).2.2

/-- Only the last point writes this row back, and the window's one block at index (0, 0) is the whole row. -/
theorem flushedSq (c : Dev nD) (t : Fin cfg1.N) (hf : (cfg1.win 6).flush t = true) :
    (dat1 (F := Ideal) V c).flushed 6 t = ((cfg1.win 6).blk t).view.read (Elt Ideal) (sqRow V c) := by
  have hN : cfg1.N = 10 := N_1
  have h9 : t.val = 9 := by have := (flush1_6 t).mp hf; have := t.isLt; omega
  obtain rfl : t = t1_9 := Fin.ext h9
  show (cfg1.win 6).cut (grid1.coords t1_9) ((dat1 (F := Ideal) V c).after 6 t1_9) = _
  rw [after1_6]
  have hz' : (fun a => win1_6.index t1_9 a * main_call0_v32_2.ty.shape.size a) = fun _ => 0 :=
    funext fun a => by fin_cases a <;> decide +kernel
  exact (Memref.read_access_unit_zero (Elt Ideal) main_call0_v32_2 hz' (fun a => by rw [congrFun hz' a]; simp) (sqRow V c)).symm

/-- So the array of sums of squares ends as that row. -/
theorem arraySq (c : Dev nD) : q1 V c = sqRow V c :=
  (dat1 (F := Ideal) V c).arrAt_eq_of_cover 6 (sqRow V c) (flushedSq V c) fun i =>
    ⟨t1_9, (flush1_6 t1_9).mpr rfl, by
      show i ∈ ((View.whole main_call0_v32_2).slice (win1_6.rect t1_9)).set
      rw [View.set_slice_whole, Rect.mem_set_unit]
      intro a
      have h0 : (i 0 : Nat) < 1 := (i 0).isLt
      have h1 : (i 1 : Nat) < 64 := (i 1).isLt
      match a with
      | ⟨0, _⟩ =>
        show win1_6.index t1_9 0 * win1_6.size 0 ≤ (i 0 : Nat)
          ∧ (i 0 : Nat) < win1_6.index t1_9 0 * win1_6.size 0 + win1_6.xsize (grid1.coords t1_9) 0
        rw [show win1_6.index t1_9 0 * win1_6.size 0 = 0 from by decide +kernel,
          show win1_6.xsize (grid1.coords t1_9) 0 = 1 from by decide +kernel]
        omega
      | ⟨1, _⟩ =>
        show win1_6.index t1_9 1 * win1_6.size 1 ≤ (i 1 : Nat)
          ∧ (i 1 : Nat) < win1_6.index t1_9 1 * win1_6.size 1 + win1_6.xsize (grid1.coords t1_9) 1
        rw [show win1_6.index t1_9 1 * win1_6.size 1 = 0 from by decide +kernel,
          show win1_6.xsize (grid1.coords t1_9) 1 = 64 from by decide +kernel]
        omega⟩

end Second

theorem fc1_y (c : Dev nD) (n : Fin 100000) (d : Fin 64) : y1 V c (ix2 n d) = lin1 V c n d :=
  congrFun (Second.arrayY V c) (ix2 n d)

theorem fc1_sum (c : Dev nD) (d : Fin 64) : s1 V c (ix2 (0 : Fin 1) d) = ∑ n : Fin 100000, lin1 V c n d :=
  (congrFun (Second.arraySum V c) (ix2 (0 : Fin 1) d)).trans
    ((Second.carriedSum V c d 9 Second.last_lt).trans (Body.sum_rows_runs fun n => lin1 V c n d).symm)

theorem fc1_sumsq (c : Dev nD) (d : Fin 64) :
    q1 V c (ix2 (0 : Fin 1) d) = ∑ n : Fin 100000, lin1 V c n d * lin1 V c n d :=
  (congrFun (Second.arraySq V c) (ix2 (0 : Fin 1) d)).trans
    ((Second.carriedSq V c d 9 Second.last_lt).trans (Body.sum_rows_runs fun n => lin1 V c n d * lin1 V c n d).symm)

/-! ## The fifth pallas_call -/

abbrev a4 (c : Dev nD) : S100000x64.Idx → EReal := V c main_call0_v68
abbrev b4 (c : Dev nD) : S1x64.Idx → EReal := V c main_call0_v69
abbrev fw4 (c : Dev nD) : S64x64.Idx → EReal := V c main_arg10
abbrev fb4 (c : Dev nD) : S1x64.Idx → EReal := V c main_call0_v70
abbrev y4 (c : Dev nD) : S100000x64.Idx → EReal := (dat4 (F := Ideal) V c).arrAt 4 cfg4.N
abbrev s4 (c : Dev nD) : S1x64.Idx → EReal := (dat4 (F := Ideal) V c).arrAt 5 cfg4.N
abbrev q4 (c : Dev nD) : S1x64.Idx → EReal := (dat4 (F := Ideal) V c).arrAt 6 cfg4.N

def lin4 (c : Dev nD) (n : Fin 100000) (d : Fin 64) : EReal :=
  (∑ k : Fin 64, (a4 V c (ix2 n k) + b4 V c (ix2 (0 : Fin 1) k)) * fw4 V c (ix2 k d)) + fb4 V c (ix2 (0 : Fin 1) d)

namespace Fifth
open Body

/-- The blocks of the four operands at point `t`, at their literal types. -/
abbrev xb (c : Dev nD) (t : Fin cfg4.N) : Vec Ideal S10000x64 .f32 := iblk4 V c 0 t
abbrev bb (c : Dev nD) (t : Fin cfg4.N) : Vec Ideal S1x64 .f32 := iblk4 V c 1 t
abbrev wb (c : Dev nD) (t : Fin cfg4.N) : Vec Ideal S64x64 .f32 := iblk4 V c 2 t
abbrev fbb (c : Dev nD) (t : Fin cfg4.N) : Vec Ideal S1x64 .f32 := iblk4 V c 3 t

/-- The printed index maps, decided over the ten points: the input's and `y`'s block at point `t` is block `t` of
    rows, every other window's one block is at index (0, 0). -/
theorem idx : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

theorem lt_ten (t : Fin cfg4.N) : t.val < 10 := lt_of_lt_of_eq t.isLt (show cfg4.N = 10 from N_4)

/-- Row `r` of the input's block at point `t` is row `t * 10000 + r` of the input: a block's coordinate is the block
    index times the block size plus the coordinate inside the block. -/
theorem xb_apply (c : Dev nD) (t : Fin cfg4.N) (r : Fin 10000) (k : Fin 64) (h : t.val * 10000 + r.val < 100000) :
    xb V c t (ix2 r k) = a4 V c (ix2 (⟨t.val * 10000 + r.val, h⟩ : Fin 100000) k) := by
  obtain ⟨e0, e1, -⟩ := idx t
  show ((cfg4.win 0).blk t).view.read (Elt Ideal) (V c (Pipeline.arrRef spec4 0)) (ix2 r k) = _
  rw [View.read_apply]
  show V c main_call0_v68 _ = V c main_call0_v68 _
  refine congrArg _ ?_
  funext a
  apply Fin.ext
  match a with
  | ⟨0, _⟩ => show win4_0.index t (0 : Fin 2) * 10000 + 1 * r.val = t.val * 10000 + r.val; rw [e0]; omega
  | ⟨1, _⟩ => show win4_0.index t (1 : Fin 2) * 64 + 1 * k.val = k.val; rw [e1]; omega

/-- The first bias row's one block is the whole row. -/
theorem bb_apply (c : Dev nD) (t : Fin cfg4.N) (k : Fin 64) :
    bb V c t (ix2 (0 : Fin 1) k) = b4 V c (ix2 (0 : Fin 1) k) := by
  obtain ⟨-, -, e2, e3, -⟩ := idx t
  show ((cfg4.win 1).blk t).view.read (Elt Ideal) (V c (Pipeline.arrRef spec4 1)) (ix2 (0 : Fin 1) k) = _
  rw [View.read_apply]
  show V c main_call0_v69 _ = V c main_call0_v69 _
  refine congrArg _ ?_
  funext a
  apply Fin.ext
  match a with
  | ⟨0, _⟩ => show win4_1.index t (0 : Fin 2) * 1 + 1 * (0 : Fin 1).val = (0 : Fin 1).val; rw [e2]; omega
  | ⟨1, _⟩ => show win4_1.index t (1 : Fin 2) * 64 + 1 * k.val = k.val; rw [e3]; omega

/-- The weight's one block is the whole weight. -/
theorem wb_apply (c : Dev nD) (t : Fin cfg4.N) (k d : Fin 64) :
    wb V c t (ix2 k d) = fw4 V c (ix2 k d) := by
  obtain ⟨-, -, -, -, e4, e5, -⟩ := idx t
  show ((cfg4.win 2).blk t).view.read (Elt Ideal) (V c (Pipeline.arrRef spec4 2)) (ix2 k d) = _
  rw [View.read_apply]
  show V c main_arg10 _ = V c main_arg10 _
  refine congrArg _ ?_
  funext a
  apply Fin.ext
  match a with
  | ⟨0, _⟩ => show win4_2.index t (0 : Fin 2) * 64 + 1 * k.val = k.val; rw [e4]; omega
  | ⟨1, _⟩ => show win4_2.index t (1 : Fin 2) * 64 + 1 * d.val = d.val; rw [e5]; omega

/-- The second bias row's one block is the whole row. -/
theorem fbb_apply (c : Dev nD) (t : Fin cfg4.N) (d : Fin 64) :
    fbb V c t (ix2 (0 : Fin 1) d) = fb4 V c (ix2 (0 : Fin 1) d) := by
  obtain ⟨-, -, -, -, -, -, e6, e7, -⟩ := idx t
  show ((cfg4.win 3).blk t).view.read (Elt Ideal) (V c (Pipeline.arrRef spec4 3)) (ix2 (0 : Fin 1) d) = _
  rw [View.read_apply]
  show V c main_call0_v70 _ = V c main_call0_v70 _
  refine congrArg _ ?_
  funext a
  apply Fin.ext
  match a with
  | ⟨0, _⟩ => show win4_3.index t (0 : Fin 2) * 1 + 1 * (0 : Fin 1).val = (0 : Fin 1).val; rw [e6]; omega
  | ⟨1, _⟩ => show win4_3.index t (1 : Fin 2) * 64 + 1 * d.val = d.val; rw [e7]; omega

/-- The body's block of `y` at point `t`, row `r`, is the linear map's value at row `t * 10000 + r`. -/
theorem blockY (c : Dev nD) (t : Fin cfg4.N) (r : Fin 10000) (d : Fin 64) (h : t.val * 10000 + r.val < 100000) :
    k4_pay3 (xb V c t) (bb V c t) (wb V c t) (fbb V c t) (ix2 r d) = lin4 V c ⟨t.val * 10000 + r.val, h⟩ d := by
  refine (pay3_apply' (xb V c t) (bb V c t) (wb V c t) (fbb V c t) r d).trans ?_
  unfold lin4
  exact congrArg₂ (· + ·) (Finset.sum_congr rfl fun k _ => congrArg₂ (· * ·)
    (congrArg₂ (· + ·) (xb_apply V c t r k h) (bb_apply V c t k)) (wb_apply V c t k d)) (fbb_apply V c t d)

/-- The same, with the row named by its number. -/
theorem blockY_ext (c : Dev nD) (t : Fin cfg4.N) (r : Fin 10000) (d : Fin 64) :
    k4_pay3 (xb V c t) (bb V c t) (wb V c t) (fbb V c t) (ix2 r d) = extZero (fun m => lin4 V c m d) (t.val * 10000 + r.val) := by
  have hN := lt_ten t
  have hrow : t.val * 10000 + r.val < 100000 := by have := r.isLt; omega
  rw [extZero_of_lt _ _ hrow]
  exact blockY V c t r d hrow

/-- At every point, first or later, the body leaves in `y`'s staging buffer its block of `y`. -/
theorem outY (c : Dev nD) (t : Fin cfg4.N) :
    (outsAt4 V c t.val t.isLt).1 = k4_pay3 (xb V c t) (bb V c t) (wb V c t) (fbb V c t) := by
  by_cases h0 : t.val % 10 = 0
  · rw [outsAt4_A V c t h0]
    dsimp only
    exact piece4_A_y (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (xb V c t) (bb V c t) (wb V c t) (fbb V c t)
  · rw [outsAt4_B V c t h0]
    dsimp only
    exact piece4_B_y (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (xb V c t) (bb V c t) (wb V c t) (fbb V c t)
      (outsAt4 V c (t.val - 1) (Nat.lt_of_le_of_lt (Nat.sub_le _ _) t.isLt)).2.1 (outsAt4 V c (t.val - 1) (Nat.lt_of_le_of_lt (Nat.sub_le _ _) t.isLt)).2.2

/-- The array `y`'s blocks are blocks of. -/
abbrev yArr (c : Dev nD) : S100000x64.Idx → EReal := fun i => lin4 V c (i 0) (i 1)

/-- What point `t` writes back to `y` is block `t` of that array. -/
theorem flushedY (c : Dev nD) (t : Fin cfg4.N) :
    (dat4 (F := Ideal) V c).flushed 4 t = ((cfg4.win 4).blk t).view.read (Elt Ideal) (yArr V c) := by
  have hN := lt_ten t
  obtain ⟨-, -, -, -, -, -, -, -, e8, e9⟩ := idx t
  show (cfg4.win 4).cut (grid4.coords t) ((dat4 (F := Ideal) V c).after 4 t) = _
  rw [after4_4, outY V c t]
  funext j
  obtain ⟨r, d, rfl⟩ : ∃ (r : Fin 10000) (d : Fin 64), j = ix2 r d := ⟨j 0, j 1, eq_ix2 j⟩
  rw [View.read_apply]
  have hrow : t.val * 10000 + r.val < 100000 := by have := r.isLt; omega
  refine (blockY V c t r d hrow).trans ?_
  show lin4 V c ⟨t.val * 10000 + r.val, hrow⟩ d
    = lin4 V c ((((cfg4.win 4).blk t).view.emb (ix2 r d)) 0) ((((cfg4.win 4).blk t).view.emb (ix2 r d)) 1)
  refine congrArg₂ (lin4 V c) (Fin.ext ?_) (Fin.ext ?_)
  · show t.val * 10000 + r.val = win4_4.index t (0 : Fin 2) * 10000 + 1 * r.val; rw [e8]; omega
  · show d.val = win4_4.index t (1 : Fin 2) * 64 + 1 * d.val; rw [e9]; omega

/-- A row is in point `t`'s block of `y` iff each coordinate is in the block's range on its axis. -/
theorem mem_blkY (t : Fin cfg4.N) (i : S100000x64.Idx) :
    i ∈ ((cfg4.win 4).blk t).view.set
      ↔ ∀ a : Fin 2, win4_4.index t a * S10000x64.size a ≤ (i a).val ∧ (i a).val < win4_4.index t a * S10000x64.size a + S10000x64.size a := by
  show i ∈ ((View.whole main_call0_v71_0).slice (win4_4.rect t)).set ↔ _
  rw [View.set_slice_whole, Rect.mem_set_unit]
  exact Iff.rfl

/-- Every point writes its block back and the ten blocks tile the rows (row `n` is in block `n / 10000`), so the
    array ends as the linear map's values. -/
theorem arrayY (c : Dev nD) : y4 V c = yArr V c :=
  (dat4 (F := Ideal) V c).arrAt_eq_of_cover 4 (yArr V c) (fun t _ => flushedY V c t) fun i => by
    have hi0 : (i 0).val < 100000 := (i 0).isLt
    have hi1 : (i 1).val < 64 := (i 1).isLt
    have hq : (i 0).val / 10000 < cfg4.N := by rw [show cfg4.N = 10 from N_4]; omega
    obtain ⟨-, -, -, -, -, -, -, -, e8, e9⟩ := idx ⟨(i 0).val / 10000, hq⟩
    refine ⟨⟨(i 0).val / 10000, hq⟩, flush4_4 _, ?_⟩
    rw [mem_blkY]
    intro a
    match a with
    | ⟨0, _⟩ =>
      show win4_4.index ⟨(i 0).val / 10000, hq⟩ (0 : Fin 2) * 10000 ≤ (i 0).val
        ∧ (i 0).val < win4_4.index ⟨(i 0).val / 10000, hq⟩ (0 : Fin 2) * 10000 + 10000
      rw [e8]; dsimp only; omega
    | ⟨1, _⟩ =>
      show win4_4.index ⟨(i 0).val / 10000, hq⟩ (1 : Fin 2) * 64 ≤ (i 1).val
        ∧ (i 1).val < win4_4.index ⟨(i 0).val / 10000, hq⟩ (1 : Fin 2) * 64 + 64
      rw [e9]; omega

/-- The same for the square. -/
theorem blockSq_ext (c : Dev nD) (t : Fin cfg4.N) (r : Fin 10000) (d : Fin 64) :
    k4_pay3 (xb V c t) (bb V c t) (wb V c t) (fbb V c t) (ix2 r d) * k4_pay3 (xb V c t) (bb V c t) (wb V c t) (fbb V c t) (ix2 r d)
      = extZero (fun m => lin4 V c m d * lin4 V c m d) (t.val * 10000 + r.val) := by
  have hN := lt_ten t
  have hrow : t.val * 10000 + r.val < 100000 := by have := r.isLt; omega
  rw [extZero_of_lt _ _ hrow, blockY V c t r d hrow]

theorem last_lt : 9 < cfg4.N := by rw [show cfg4.N = 10 from N_4]; decide

/-- THE CARRIED ROW OF SUMS. After point `n` it holds, at column `d`, the sum of the linear map's values over the rows of blocks `0 … n`: zero plus block 0's column sum at the first point, one more block's column sum at each later point. By induction on the point. -/
theorem carriedSum (c : Dev nD) (d : Fin 64) : ∀ (n : ℕ) (h : n < cfg4.N),
    (outsAt4 V c n h).2.1 (ix2 (0 : Fin 1) d)
      = ∑ s ∈ Finset.range (n + 1), ∑ r : Fin 10000, extZero (fun m => lin4 V c m d) (s * 10000 + r.val)
  | 0, h => by
    rw [outsAt4_A V c (⟨0, h⟩ : Fin cfg4.N) rfl]
    dsimp only
    refine (congrFun (piece4_A_sum (F := Ideal) c (grid4.coords (⟨0, h⟩ : Fin cfg4.N)) (ms4_0 (⟨0, h⟩ : Fin cfg4.N)) (hs4_0 (⟨0, h⟩ : Fin cfg4.N)) (ms4_1 (⟨0, h⟩ : Fin cfg4.N)) (hs4_1 (⟨0, h⟩ : Fin cfg4.N)) (ms4_2 (⟨0, h⟩ : Fin cfg4.N)) (hs4_2 (⟨0, h⟩ : Fin cfg4.N)) (ms4_3 (⟨0, h⟩ : Fin cfg4.N)) (hs4_3 (⟨0, h⟩ : Fin cfg4.N)) (ms4_4 (⟨0, h⟩ : Fin cfg4.N)) (hs4_4 (⟨0, h⟩ : Fin cfg4.N)) (ms4_5 (⟨0, h⟩ : Fin cfg4.N)) (hs4_5 (⟨0, h⟩ : Fin cfg4.N)) (ms4_6 (⟨0, h⟩ : Fin cfg4.N)) (hs4_6 (⟨0, h⟩ : Fin cfg4.N))
      ((hcond4_0 (⟨0, h⟩ : Fin cfg4.N)).mpr rfl) (xb V c (⟨0, h⟩ : Fin cfg4.N)) (bb V c (⟨0, h⟩ : Fin cfg4.N)) (wb V c (⟨0, h⟩ : Fin cfg4.N)) (fbb V c (⟨0, h⟩ : Fin cfg4.N))) (ix2 (0 : Fin 1) d)).trans ?_
    refine (pay4_apply' (xb V c (⟨0, h⟩ : Fin cfg4.N)) (bb V c (⟨0, h⟩ : Fin cfg4.N)) (wb V c (⟨0, h⟩ : Fin cfg4.N)) (fbb V c (⟨0, h⟩ : Fin cfg4.N)) (k4_pay1 (F := Ideal)) d).trans ?_
    rw [pay1_apply', zero_add, Finset.sum_range_one]
    exact Finset.sum_congr rfl fun r _ => blockY_ext V c (⟨0, h⟩ : Fin cfg4.N) r d
  | n + 1, h => by
    have hN : cfg4.N = 10 := N_4
    have hB : ¬(⟨n + 1, h⟩ : Fin cfg4.N).val % 10 = 0 := by dsimp only; omega
    rw [outsAt4_B V c (⟨n + 1, h⟩ : Fin cfg4.N) hB]
    dsimp only
    refine (congrFun (piece4_B_sum (F := Ideal) c (grid4.coords (⟨n + 1, h⟩ : Fin cfg4.N)) (ms4_0 (⟨n + 1, h⟩ : Fin cfg4.N)) (hs4_0 (⟨n + 1, h⟩ : Fin cfg4.N)) (ms4_1 (⟨n + 1, h⟩ : Fin cfg4.N)) (hs4_1 (⟨n + 1, h⟩ : Fin cfg4.N)) (ms4_2 (⟨n + 1, h⟩ : Fin cfg4.N)) (hs4_2 (⟨n + 1, h⟩ : Fin cfg4.N)) (ms4_3 (⟨n + 1, h⟩ : Fin cfg4.N)) (hs4_3 (⟨n + 1, h⟩ : Fin cfg4.N)) (ms4_4 (⟨n + 1, h⟩ : Fin cfg4.N)) (hs4_4 (⟨n + 1, h⟩ : Fin cfg4.N)) (ms4_5 (⟨n + 1, h⟩ : Fin cfg4.N)) (hs4_5 (⟨n + 1, h⟩ : Fin cfg4.N)) (ms4_6 (⟨n + 1, h⟩ : Fin cfg4.N)) (hs4_6 (⟨n + 1, h⟩ : Fin cfg4.N))
      (fun hh => hB ((hcond4_0 (⟨n + 1, h⟩ : Fin cfg4.N)).mp hh)) (xb V c (⟨n + 1, h⟩ : Fin cfg4.N)) (bb V c (⟨n + 1, h⟩ : Fin cfg4.N)) (wb V c (⟨n + 1, h⟩ : Fin cfg4.N)) (fbb V c (⟨n + 1, h⟩ : Fin cfg4.N))
      (outsAt4 V c ((⟨n + 1, h⟩ : Fin cfg4.N).val - 1) (Nat.lt_of_le_of_lt (Nat.sub_le _ _) (⟨n + 1, h⟩ : Fin cfg4.N).isLt)).2.1 (outsAt4 V c ((⟨n + 1, h⟩ : Fin cfg4.N).val - 1) (Nat.lt_of_le_of_lt (Nat.sub_le _ _) (⟨n + 1, h⟩ : Fin cfg4.N).isLt)).2.2) (ix2 (0 : Fin 1) d)).trans ?_
    refine (pay4_apply' (xb V c (⟨n + 1, h⟩ : Fin cfg4.N)) (bb V c (⟨n + 1, h⟩ : Fin cfg4.N)) (wb V c (⟨n + 1, h⟩ : Fin cfg4.N)) (fbb V c (⟨n + 1, h⟩ : Fin cfg4.N)) (outsAt4 V c ((⟨n + 1, h⟩ : Fin cfg4.N).val - 1) (Nat.lt_of_le_of_lt (Nat.sub_le _ _) (⟨n + 1, h⟩ : Fin cfg4.N).isLt)).2.1 d).trans ?_
    rw [Finset.sum_range_succ _ (n + 1)]
    exact congrArg₂ (· + ·) (carriedSum c d n (Nat.lt_of_succ_lt h))
      (Finset.sum_congr rfl fun r _ => blockY_ext V c (⟨n + 1, h⟩ : Fin cfg4.N) r d)

/-- THE CARRIED ROW OF SUMS OF SQUARES, likewise. -/
theorem carriedSq (c : Dev nD) (d : Fin 64) : ∀ (n : ℕ) (h : n < cfg4.N),
    (outsAt4 V c n h).2.2 (ix2 (0 : Fin 1) d)
      = ∑ s ∈ Finset.range (n + 1), ∑ r : Fin 10000, extZero (fun m => lin4 V c m d * lin4 V c m d) (s * 10000 + r.val)
  | 0, h => by
    rw [outsAt4_A V c (⟨0, h⟩ : Fin cfg4.N) rfl]
    dsimp only
    refine (congrFun (piece4_A_sumsq (F := Ideal) c (grid4.coords (⟨0, h⟩ : Fin cfg4.N)) (ms4_0 (⟨0, h⟩ : Fin cfg4.N)) (hs4_0 (⟨0, h⟩ : Fin cfg4.N)) (ms4_1 (⟨0, h⟩ : Fin cfg4.N)) (hs4_1 (⟨0, h⟩ : Fin cfg4.N)) (ms4_2 (⟨0, h⟩ : Fin cfg4.N)) (hs4_2 (⟨0, h⟩ : Fin cfg4.N)) (ms4_3 (⟨0, h⟩ : Fin cfg4.N)) (hs4_3 (⟨0, h⟩ : Fin cfg4.N)) (ms4_4 (⟨0, h⟩ : Fin cfg4.N)) (hs4_4 (⟨0, h⟩ : Fin cfg4.N)) (ms4_5 (⟨0, h⟩ : Fin cfg4.N)) (hs4_5 (⟨0, h⟩ : Fin cfg4.N)) (ms4_6 (⟨0, h⟩ : Fin cfg4.N)) (hs4_6 (⟨0, h⟩ : Fin cfg4.N))
      ((hcond4_0 (⟨0, h⟩ : Fin cfg4.N)).mpr rfl) (xb V c (⟨0, h⟩ : Fin cfg4.N)) (bb V c (⟨0, h⟩ : Fin cfg4.N)) (wb V c (⟨0, h⟩ : Fin cfg4.N)) (fbb V c (⟨0, h⟩ : Fin cfg4.N))) (ix2 (0 : Fin 1) d)).trans ?_
    refine (pay5_apply' (xb V c (⟨0, h⟩ : Fin cfg4.N)) (bb V c (⟨0, h⟩ : Fin cfg4.N)) (wb V c (⟨0, h⟩ : Fin cfg4.N)) (fbb V c (⟨0, h⟩ : Fin cfg4.N)) (k4_pay2 (F := Ideal)) d).trans ?_
    rw [pay2_apply', zero_add, Finset.sum_range_one]
    exact Finset.sum_congr rfl fun r _ => blockSq_ext V c (⟨0, h⟩ : Fin cfg4.N) r d
  | n + 1, h => by
    have hN : cfg4.N = 10 := N_4
    have hB : ¬(⟨n + 1, h⟩ : Fin cfg4.N).val % 10 = 0 := by dsimp only; omega
    rw [outsAt4_B V c (⟨n + 1, h⟩ : Fin cfg4.N) hB]
    dsimp only
    refine (congrFun (piece4_B_sumsq (F := Ideal) c (grid4.coords (⟨n + 1, h⟩ : Fin cfg4.N)) (ms4_0 (⟨n + 1, h⟩ : Fin cfg4.N)) (hs4_0 (⟨n + 1, h⟩ : Fin cfg4.N)) (ms4_1 (⟨n + 1, h⟩ : Fin cfg4.N)) (hs4_1 (⟨n + 1, h⟩ : Fin cfg4.N)) (ms4_2 (⟨n + 1, h⟩ : Fin cfg4.N)) (hs4_2 (⟨n + 1, h⟩ : Fin cfg4.N)) (ms4_3 (⟨n + 1, h⟩ : Fin cfg4.N)) (hs4_3 (⟨n + 1, h⟩ : Fin cfg4.N)) (ms4_4 (⟨n + 1, h⟩ : Fin cfg4.N)) (hs4_4 (⟨n + 1, h⟩ : Fin cfg4.N)) (ms4_5 (⟨n + 1, h⟩ : Fin cfg4.N)) (hs4_5 (⟨n + 1, h⟩ : Fin cfg4.N)) (ms4_6 (⟨n + 1, h⟩ : Fin cfg4.N)) (hs4_6 (⟨n + 1, h⟩ : Fin cfg4.N))
      (fun hh => hB ((hcond4_0 (⟨n + 1, h⟩ : Fin cfg4.N)).mp hh)) (xb V c (⟨n + 1, h⟩ : Fin cfg4.N)) (bb V c (⟨n + 1, h⟩ : Fin cfg4.N)) (wb V c (⟨n + 1, h⟩ : Fin cfg4.N)) (fbb V c (⟨n + 1, h⟩ : Fin cfg4.N))
      (outsAt4 V c ((⟨n + 1, h⟩ : Fin cfg4.N).val - 1) (Nat.lt_of_le_of_lt (Nat.sub_le _ _) (⟨n + 1, h⟩ : Fin cfg4.N).isLt)).2.1 (outsAt4 V c ((⟨n + 1, h⟩ : Fin cfg4.N).val - 1) (Nat.lt_of_le_of_lt (Nat.sub_le _ _) (⟨n + 1, h⟩ : Fin cfg4.N).isLt)).2.2) (ix2 (0 : Fin 1) d)).trans ?_
    refine (pay5_apply' (xb V c (⟨n + 1, h⟩ : Fin cfg4.N)) (bb V c (⟨n + 1, h⟩ : Fin cfg4.N)) (wb V c (⟨n + 1, h⟩ : Fin cfg4.N)) (fbb V c (⟨n + 1, h⟩ : Fin cfg4.N)) (outsAt4 V c ((⟨n + 1, h⟩ : Fin cfg4.N).val - 1) (Nat.lt_of_le_of_lt (Nat.sub_le _ _) (⟨n + 1, h⟩ : Fin cfg4.N).isLt)).2.2 d).trans ?_
    rw [Finset.sum_range_succ _ (n + 1)]
    exact congrArg₂ (· + ·) (carriedSq c d n (Nat.lt_of_succ_lt h))
      (Finset.sum_congr rfl fun r _ => blockSq_ext V c (⟨n + 1, h⟩ : Fin cfg4.N) r d)

/-- What the carried row of sums holds after the last point. -/
abbrev sumRow (c : Dev nD) : S1x64.Idx → EReal := (outsAt4 V c 9 last_lt).2.1

/-- Only the last point writes this row back, and the window's one block at index (0, 0) is the whole row. -/
theorem flushedSum (c : Dev nD) (t : Fin cfg4.N) (hf : (cfg4.win 5).flush t = true) :
    (dat4 (F := Ideal) V c).flushed 5 t = ((cfg4.win 5).blk t).view.read (Elt Ideal) (sumRow V c) := by
  have hN : cfg4.N = 10 := N_4
  have h9 : t.val = 9 := by have := (flush4_5 t).mp hf; have := t.isLt; omega
  obtain rfl : t = t4_9 := Fin.ext h9
  show (cfg4.win 5).cut (grid4.coords t4_9) ((dat4 (F := Ideal) V c).after 5 t4_9) = _
  rw [after4_5]
  have hz' : (fun a => win4_5.index t4_9 a * main_call0_v71_1.ty.shape.size a) = fun _ => 0 :=
    funext fun a => by fin_cases a <;> decide +kernel
  exact (Memref.read_access_unit_zero (Elt Ideal) main_call0_v71_1 hz' (fun a => by rw [congrFun hz' a]; simp) (sumRow V c)).symm

/-- So the array of sums ends as that row. -/
theorem arraySum (c : Dev nD) : s4 V c = sumRow V c :=
  (dat4 (F := Ideal) V c).arrAt_eq_of_cover 5 (sumRow V c) (flushedSum V c) fun i =>
    ⟨t4_9, (flush4_5 t4_9).mpr rfl, by
      show i ∈ ((View.whole main_call0_v71_1).slice (win4_5.rect t4_9)).set
      rw [View.set_slice_whole, Rect.mem_set_unit]
      intro a
      have h0 : (i 0 : Nat) < 1 := (i 0).isLt
      have h1 : (i 1 : Nat) < 64 := (i 1).isLt
      match a with
      | ⟨0, _⟩ =>
        show win4_5.index t4_9 0 * win4_5.size 0 ≤ (i 0 : Nat)
          ∧ (i 0 : Nat) < win4_5.index t4_9 0 * win4_5.size 0 + win4_5.xsize (grid4.coords t4_9) 0
        rw [show win4_5.index t4_9 0 * win4_5.size 0 = 0 from by decide +kernel,
          show win4_5.xsize (grid4.coords t4_9) 0 = 1 from by decide +kernel]
        omega
      | ⟨1, _⟩ =>
        show win4_5.index t4_9 1 * win4_5.size 1 ≤ (i 1 : Nat)
          ∧ (i 1 : Nat) < win4_5.index t4_9 1 * win4_5.size 1 + win4_5.xsize (grid4.coords t4_9) 1
        rw [show win4_5.index t4_9 1 * win4_5.size 1 = 0 from by decide +kernel,
          show win4_5.xsize (grid4.coords t4_9) 1 = 64 from by decide +kernel]
        omega⟩

/-- What the carried row of sums of squares holds after the last point. -/
abbrev sqRow (c : Dev nD) : S1x64.Idx → EReal := (outsAt4 V c 9 last_lt).2.2

/-- Only the last point writes this row back, and the window's one block at index (0, 0) is the whole row. -/
theorem flushedSq (c : Dev nD) (t : Fin cfg4.N) (hf : (cfg4.win 6).flush t = true) :
    (dat4 (F := Ideal) V c).flushed 6 t = ((cfg4.win 6).blk t).view.read (Elt Ideal) (sqRow V c) := by
  have hN : cfg4.N = 10 := N_4
  have h9 : t.val = 9 := by have := (flush4_6 t).mp hf; have := t.isLt; omega
  obtain rfl : t = t4_9 := Fin.ext h9
  show (cfg4.win 6).cut (grid4.coords t4_9) ((dat4 (F := Ideal) V c).after 6 t4_9) = _
  rw [after4_6]
  have hz' : (fun a => win4_6.index t4_9 a * main_call0_v71_2.ty.shape.size a) = fun _ => 0 :=
    funext fun a => by fin_cases a <;> decide +kernel
  exact (Memref.read_access_unit_zero (Elt Ideal) main_call0_v71_2 hz' (fun a => by rw [congrFun hz' a]; simp) (sqRow V c)).symm

/-- So the array of sums of squares ends as that row. -/
theorem arraySq (c : Dev nD) : q4 V c = sqRow V c :=
  (dat4 (F := Ideal) V c).arrAt_eq_of_cover 6 (sqRow V c) (flushedSq V c) fun i =>
    ⟨t4_9, (flush4_6 t4_9).mpr rfl, by
      show i ∈ ((View.whole main_call0_v71_2).slice (win4_6.rect t4_9)).set
      rw [View.set_slice_whole, Rect.mem_set_unit]
      intro a
      have h0 : (i 0 : Nat) < 1 := (i 0).isLt
      have h1 : (i 1 : Nat) < 64 := (i 1).isLt
      match a with
      | ⟨0, _⟩ =>
        show win4_6.index t4_9 0 * win4_6.size 0 ≤ (i 0 : Nat)
          ∧ (i 0 : Nat) < win4_6.index t4_9 0 * win4_6.size 0 + win4_6.xsize (grid4.coords t4_9) 0
        rw [show win4_6.index t4_9 0 * win4_6.size 0 = 0 from by decide +kernel,
          show win4_6.xsize (grid4.coords t4_9) 0 = 1 from by decide +kernel]
        omega
      | ⟨1, _⟩ =>
        show win4_6.index t4_9 1 * win4_6.size 1 ≤ (i 1 : Nat)
          ∧ (i 1 : Nat) < win4_6.index t4_9 1 * win4_6.size 1 + win4_6.xsize (grid4.coords t4_9) 1
        rw [show win4_6.index t4_9 1 * win4_6.size 1 = 0 from by decide +kernel,
          show win4_6.xsize (grid4.coords t4_9) 1 = 64 from by decide +kernel]
        omega⟩

end Fifth

theorem fc4_y (c : Dev nD) (n : Fin 100000) (d : Fin 64) : y4 V c (ix2 n d) = lin4 V c n d :=
  congrFun (Fifth.arrayY V c) (ix2 n d)

theorem fc4_sum (c : Dev nD) (d : Fin 64) : s4 V c (ix2 (0 : Fin 1) d) = ∑ n : Fin 100000, lin4 V c n d :=
  (congrFun (Fifth.arraySum V c) (ix2 (0 : Fin 1) d)).trans
    ((Fifth.carriedSum V c d 9 Fifth.last_lt).trans (Body.sum_rows_runs fun n => lin4 V c n d).symm)

theorem fc4_sumsq (c : Dev nD) (d : Fin 64) :
    q4 V c (ix2 (0 : Fin 1) d) = ∑ n : Fin 100000, lin4 V c n d * lin4 V c n d :=
  (congrFun (Fifth.arraySq V c) (ix2 (0 : Fin 1) d)).trans
    ((Fifth.carriedSq V c d 9 Fifth.last_lt).trans (Body.sum_rows_runs fun n => lin4 V c n d * lin4 V c n d).symm)

end Cert.KernelIdeal.RegionFC

end
-- ==== Proof.KRegionBN.lean ====
/-
  THE NORMALISE-AND-RECTIFY PASS (the third and the sixth pallas_call), read off its frame at the ideal values.

  The call tiles the 100000 rows of `y` into ten blocks of 10000 rows; at every block it subtracts the mean row, multiplies
  by the inverse-deviation row, by the gain row, adds the offset row, takes the maximum with zero, and writes the block
  back. The ten blocks cover the result, so at row `n`, column `d` the result array is
  max ((((y (n,d) − μ d) · r d) · g d) + β d) 0.
-/
import proofs.«416678_j48155173322920_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«416678_j48155173322920_3_alg».proof.Proof.LibPlainRows

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.RegionBN

open Cert.KernelIdeal Cert.KernelIdeal.Gen

variable (V : (c : Dev nD) → (b : Ref sig .tc) → Buf (Elt Ideal) ((c : Thread nD τ).loc b))

/-- A whole-block access starts at offset zero on both axes. -/
theorem hz : (![0, 0] : Fin 2 → Nat) = fun _ => 0 := funext fun a => by
  match a with
  | ⟨0, _⟩ => rfl
  | ⟨1, _⟩ => rfl

/-! ## The third pallas_call -/

abbrev y2 (c : Dev nD) : S100000x64.Idx → EReal := V c main_call0_v32_0
abbrev mu2 (c : Dev nD) : S1x64.Idx → EReal := V c main_call0_v46
abbrev inv2 (c : Dev nD) : S1x64.Idx → EReal := V c main_call0_v47
abbrev g2 (c : Dev nD) : S1x64.Idx → EReal := V c main_call0_v48
abbrev bt2 (c : Dev nD) : S1x64.Idx → EReal := V c main_call0_v49
abbrev o2 (c : Dev nD) : S100000x64.Idx → EReal := (dat2 (F := Ideal) V c).arrAt 5 cfg2.N

/-! ### Region 2: the entry of the payload, the blocks as rows of the arrays, the cover -/

/-- The payload of the normalise-and-rectify body at row `r`, column `d` of its block: the block's entry minus
    the mean row's, times the inverse-deviation row's, times the gain row's, plus the offset row's, capped below
    by zero. The four rows are [1,64] blocks broadcast down the 10000 rows; the zero splat is the real zero. -/
theorem pay2_apply (x0 : Vec Ideal S10000x64 .f32) (x1 x2 x3 x4 : Vec Ideal S1x64 .f32) (r : Fin 10000) (d : Fin 64) :
    k2_pay1 x0 x1 x2 x3 x4 (ix2 r d)
      = max ((((x0 (ix2 r d) - x1 (ix2 (0 : Fin 1) d)) * x2 (ix2 (0 : Fin 1) d)) * x3 (ix2 (0 : Fin 1) d))
          + x4 (ix2 (0 : Fin 1) d)) 0 := by
  unfold k2_pay1
  simp only [shapeCast_self]
  rw [maximumf_apply, addf_apply, mulf_apply, mulf_apply, subf_apply, broadcast_apply]
  rw [broadcastTo_1b_ab_apply x1 _ r d, broadcastTo_1b_ab_apply x2 _ r d, broadcastTo_1b_ab_apply x3 _ r d,
    broadcastTo_1b_ab_apply x4 _ r d]
  show max _ (Ideal.ofBits .f32 0x00000000#32) = _
  rw [Ideal.ofBits_zero_f32]

/-- The same entry once each block's entry is known as a number. -/
theorem pay2_at (x0 : Vec Ideal S10000x64 .f32) (x1 x2 x3 x4 : Vec Ideal S1x64 .f32) (r : Fin 10000) (d : Fin 64)
    (a0 a1 a2 a3 a4 : EReal) (h0 : x0 (ix2 r d) = a0) (h1 : x1 (ix2 (0 : Fin 1) d) = a1)
    (h2 : x2 (ix2 (0 : Fin 1) d) = a2) (h3 : x3 (ix2 (0 : Fin 1) d) = a3) (h4 : x4 (ix2 (0 : Fin 1) d) = a4) :
    k2_pay1 x0 x1 x2 x3 x4 (ix2 r d) = max ((((a0 - a1) * a2) * a3) + a4) 0 := by
  rw [pay2_apply, h0, h1, h2, h3, h4]

/-- The result of the pass as one function of the five arrays the region finds: at row `n`, column `d`,
    max ((((y (n,d) − μ d) · r d) · g d) + β d) 0. -/
def G2 (c : Dev nD) : S100000x64.Idx → EReal := fun i =>
  max ((((y2 V c i - mu2 V c (ix2 (0 : Fin 1) (⟨(i 1).val, idx2_lt1 i⟩ : Fin 64)))
      * inv2 V c (ix2 (0 : Fin 1) (⟨(i 1).val, idx2_lt1 i⟩ : Fin 64)))
      * g2 V c (ix2 (0 : Fin 1) (⟨(i 1).val, idx2_lt1 i⟩ : Fin 64)))
      + bt2 V c (ix2 (0 : Fin 1) (⟨(i 1).val, idx2_lt1 i⟩ : Fin 64))) 0

theorem G2_ix2 (c : Dev nD) (n : Fin 100000) (d : Fin 64) :
    G2 V c (ix2 n d) = max ((((y2 V c (ix2 n d) - mu2 V c (ix2 (0 : Fin 1) d)) * inv2 V c (ix2 (0 : Fin 1) d))
      * g2 V c (ix2 (0 : Fin 1) d)) + bt2 V c (ix2 (0 : Fin 1) d)) 0 := rfl

/-- The printed index maps over the ten points: the two row-tiled windows sit at block (t, 0); the four row
    windows at block (0, 0). -/
theorem idx2_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `r` of the row-tiled input's block at point `t` is row `10000 t + r` of the array. -/
theorem yblk2_apply (c : Dev nD) (t : Fin cfg2.N) (r : Fin 10000) (d : Fin 64) (n : Fin 100000)
    (hn : n.val = t.val * 10000 + r.val) :
    (iblk2 V c 0 t : Vec Ideal S10000x64 .f32) (ix2 r d) = y2 V c (ix2 n d) := by
  obtain ⟨e0, e1, -⟩ := idx2_facts t
  unfold iblk2
  rw [View.read_apply]
  show V c main_call0_v32_0 _ = V c main_call0_v32_0 _
  refine congrArg (V c main_call0_v32_0) (funext fun a => Fin.ext ?_)
  match a with
  | ⟨0, _⟩ => show win2_0.index t (0 : Fin 2) * 10000 + 1 * r.val = n.val; omega
  | ⟨1, _⟩ => show win2_0.index t (1 : Fin 2) * 64 + 1 * d.val = d.val; omega

/-- Window 1's block at every point is its whole one-row array. -/
theorem row2_1_apply (c : Dev nD) (t : Fin cfg2.N) (d : Fin 64) :
    (iblk2 V c 1 t : Vec Ideal S1x64 .f32) (ix2 (0 : Fin 1) d) = mu2 V c (ix2 (0 : Fin 1) d) := by
  obtain ⟨-, -, e0, e1, e2, e3, e4, e5, e6, e7, -⟩ := idx2_facts t
  unfold iblk2
  rw [View.read_apply]
  show V c main_call0_v46 _ = V c main_call0_v46 _
  refine congrArg (V c main_call0_v46) (funext fun a => Fin.ext ?_)
  match a with
  | ⟨0, _⟩ => show win2_1.index t (0 : Fin 2) * 1 + 1 * 0 = 0; omega
  | ⟨1, _⟩ => show win2_1.index t (1 : Fin 2) * 64 + 1 * d.val = d.val; omega

/-- Window 2's block at every point is its whole one-row array. -/
theorem row2_2_apply (c : Dev nD) (t : Fin cfg2.N) (d : Fin 64) :
    (iblk2 V c 2 t : Vec Ideal S1x64 .f32) (ix2 (0 : Fin 1) d) = inv2 V c (ix2 (0 : Fin 1) d) := by
  obtain ⟨-, -, e0, e1, e2, e3, e4, e5, e6, e7, -⟩ := idx2_facts t
  unfold iblk2
  rw [View.read_apply]
  show V c main_call0_v47 _ = V c main_call0_v47 _
  refine congrArg (V c main_call0_v47) (funext fun a => Fin.ext ?_)
  match a with
  | ⟨0, _⟩ => show win2_2.index t (0 : Fin 2) * 1 + 1 * 0 = 0; omega
  | ⟨1, _⟩ => show win2_2.index t (1 : Fin 2) * 64 + 1 * d.val = d.val; omega

/-- Window 3's block at every point is its whole one-row array. -/
theorem row2_3_apply (c : Dev nD) (t : Fin cfg2.N) (d : Fin 64) :
    (iblk2 V c 3 t : Vec Ideal S1x64 .f32) (ix2 (0 : Fin 1) d) = g2 V c (ix2 (0 : Fin 1) d) := by
  obtain ⟨-, -, e0, e1, e2, e3, e4, e5, e6, e7, -⟩ := idx2_facts t
  unfold iblk2
  rw [View.read_apply]
  show V c main_call0_v48 _ = V c main_call0_v48 _
  refine congrArg (V c main_call0_v48) (funext fun a => Fin.ext ?_)
  match a with
  | ⟨0, _⟩ => show win2_3.index t (0 : Fin 2) * 1 + 1 * 0 = 0; omega
  | ⟨1, _⟩ => show win2_3.index t (1 : Fin 2) * 64 + 1 * d.val = d.val; omega

/-- Window 4's block at every point is its whole one-row array. -/
theorem row2_4_apply (c : Dev nD) (t : Fin cfg2.N) (d : Fin 64) :
    (iblk2 V c 4 t : Vec Ideal S1x64 .f32) (ix2 (0 : Fin 1) d) = bt2 V c (ix2 (0 : Fin 1) d) := by
  obtain ⟨-, -, e0, e1, e2, e3, e4, e5, e6, e7, -⟩ := idx2_facts t
  unfold iblk2
  rw [View.read_apply]
  show V c main_call0_v49 _ = V c main_call0_v49 _
  refine congrArg (V c main_call0_v49) (funext fun a => Fin.ext ?_)
  match a with
  | ⟨0, _⟩ => show win2_4.index t (0 : Fin 2) * 1 + 1 * 0 = 0; omega
  | ⟨1, _⟩ => show win2_4.index t (1 : Fin 2) * 64 + 1 * d.val = d.val; omega

/-- The body's store at point `t`, entry by entry, is `G2` at the entry's place in the array. -/
theorem blk2_eq (c : Dev nD) (t : Fin cfg2.N) (j : S10000x64.Idx) :
    k2_pay1 (iblk2 V c 0 t) (iblk2 V c 1 t) (iblk2 V c 2 t) (iblk2 V c 3 t) (iblk2 V c 4 t) j
      = G2 V c (((cfg2.win 5).blk t).view.emb j) := by
  obtain ⟨r, d, rfl⟩ : ∃ (r : Fin 10000) (d : Fin 64), j = ix2 r d := ⟨j 0, j 1, eq_ix2 j⟩
  have hN : grid2.N = 10 := N_2
  have ht : t.val < 10 := by have h : t.val < grid2.N := t.isLt; omega
  obtain ⟨n, hn⟩ : ∃ n : Fin 100000, n.val = t.val * 10000 + r.val :=
    ⟨⟨t.val * 10000 + r.val, by have := r.isLt; omega⟩, rfl⟩
  obtain ⟨-, -, -, -, -, -, -, -, -, -, e0, e1⟩ := idx2_facts t
  have he : ((cfg2.win 5).blk t).view.emb (ix2 r d) = (ix2 n d : S100000x64.Idx) := by
    funext a; apply Fin.ext
    match a with
    | ⟨0, _⟩ => show win2_5.index t (0 : Fin 2) * 10000 + 1 * r.val = n.val; omega
    | ⟨1, _⟩ => show win2_5.index t (1 : Fin 2) * 64 + 1 * d.val = d.val; omega
  rw [he, G2_ix2]
  exact pay2_at _ _ _ _ _ r d _ _ _ _ _ (yblk2_apply V c t r d n hn) (row2_1_apply V c t d)
    (row2_2_apply V c t d) (row2_3_apply V c t d) (row2_4_apply V c t d)

/-- WHAT POINT `t` WRITES BACK is block `t` of `G2`. -/
theorem flushed2_eq (c : Dev nD) (t : Fin cfg2.N) :
    (dat2 (F := Ideal) V c).flushed 5 t = ((cfg2.win 5).blk t).view.read (Elt Ideal) (G2 V c) := by
  show (cfg2.win 5).cut (grid2.coords t) ((dat2 V c).after 5 t) = _
  rw [after2_5]
  unfold out2_5
  rw [View.canon_unit_zero hz]
  simp only [View.ld_unit_zero (S := S10000x64) hz, View.ld_unit_zero (S := S1x64) hz]
  funext j
  exact blk2_eq V c t j

/-- An index of the array is in point `t`'s block iff each coordinate is in the block's range on its axis. -/
theorem mem_blk2 (t : Fin cfg2.N) (i : S100000x64.Idx) :
    i ∈ ((cfg2.win 5).blk t).view.set ↔ ∀ a : Fin 2, win2_5.index t a * S10000x64.size a ≤ (i a).val
      ∧ (i a).val < win2_5.index t a * S10000x64.size a + S10000x64.size a := by
  show i ∈ ((View.whole main_call0_v50).slice (win2_5.rect t)).set ↔ _
  rw [View.set_slice_whole, Rect.mem_set_unit]
  exact Iff.rfl

/-- Row `n` lies in the block of point `n / 10000`, and every point writes its block back: the ten blocks cover
    the array. -/
theorem cover2 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : grid2.N = 10 := N_2
  obtain ⟨t, ht⟩ : ∃ t : Fin cfg2.N, t.val = (i 0).val / 10000 :=
    ⟨⟨(i 0).val / 10000, by show (i 0).val / 10000 < grid2.N; omega⟩, rfl⟩
  obtain ⟨-, -, -, -, -, -, -, -, -, -, e0, e1⟩ := idx2_facts t
  refine ⟨t, flush2_5 t, ?_⟩
  rw [mem_blk2]
  intro a
  match a with
  | ⟨0, _⟩ =>
    show win2_5.index t (0 : Fin 2) * 10000 ≤ (i 0).val ∧ (i 0).val < win2_5.index t (0 : Fin 2) * 10000 + 10000
    omega
  | ⟨1, _⟩ =>
    show win2_5.index t (1 : Fin 2) * 64 ≤ (i 1).val ∧ (i 1).val < win2_5.index t (1 : Fin 2) * 64 + 64
    omega

/-- THE ARRAY after the pass is `G2` of the arrays the region finds. -/
theorem final2 (c : Dev nD) : (dat2 (F := Ideal) V c).arrAt 5 cfg2.N = G2 V c :=
  (dat2 (F := Ideal) V c).arrAt_eq_of_cover 5 (G2 V c) (fun t _ => flushed2_eq V c t) (cover2)

theorem bn2 (c : Dev nD) (n : Fin 100000) (d : Fin 64) :
    o2 V c (ix2 n d) = max ((((y2 V c (ix2 n d) - mu2 V c (ix2 (0 : Fin 1) d)) * inv2 V c (ix2 (0 : Fin 1) d))
      * g2 V c (ix2 (0 : Fin 1) d)) + bt2 V c (ix2 (0 : Fin 1) d)) 0 :=
  (congrFun (final2 V c) (ix2 n d)).trans (G2_ix2 V c n d)

/-! ## The sixth pallas_call -/

abbrev y5 (c : Dev nD) : S100000x64.Idx → EReal := V c main_call0_v71_0
abbrev mu5 (c : Dev nD) : S1x64.Idx → EReal := V c main_call0_v85
abbrev inv5 (c : Dev nD) : S1x64.Idx → EReal := V c main_call0_v86
abbrev g5 (c : Dev nD) : S1x64.Idx → EReal := V c main_call0_v87
abbrev bt5 (c : Dev nD) : S1x64.Idx → EReal := V c main_call0_v88
abbrev o5 (c : Dev nD) : S100000x64.Idx → EReal := (dat5 (F := Ideal) V c).arrAt 5 cfg5.N

/-! ### Region 5: the entry of the payload, the blocks as rows of the arrays, the cover -/

/-- The payload of the normalise-and-rectify body at row `r`, column `d` of its block: the block's entry minus
    the mean row's, times the inverse-deviation row's, times the gain row's, plus the offset row's, capped below
    by zero. The four rows are [1,64] blocks broadcast down the 10000 rows; the zero splat is the real zero. -/
theorem pay5_apply (x0 : Vec Ideal S10000x64 .f32) (x1 x2 x3 x4 : Vec Ideal S1x64 .f32) (r : Fin 10000) (d : Fin 64) :
    k5_pay1 x0 x1 x2 x3 x4 (ix2 r d)
      = max ((((x0 (ix2 r d) - x1 (ix2 (0 : Fin 1) d)) * x2 (ix2 (0 : Fin 1) d)) * x3 (ix2 (0 : Fin 1) d))
          + x4 (ix2 (0 : Fin 1) d)) 0 := by
  unfold k5_pay1
  simp only [shapeCast_self]
  rw [maximumf_apply, addf_apply, mulf_apply, mulf_apply, subf_apply, broadcast_apply]
  rw [broadcastTo_1b_ab_apply x1 _ r d, broadcastTo_1b_ab_apply x2 _ r d, broadcastTo_1b_ab_apply x3 _ r d,
    broadcastTo_1b_ab_apply x4 _ r d]
  show max _ (Ideal.ofBits .f32 0x00000000#32) = _
  rw [Ideal.ofBits_zero_f32]

/-- The same entry once each block's entry is known as a number. -/
theorem pay5_at (x0 : Vec Ideal S10000x64 .f32) (x1 x2 x3 x4 : Vec Ideal S1x64 .f32) (r : Fin 10000) (d : Fin 64)
    (a0 a1 a2 a3 a4 : EReal) (h0 : x0 (ix2 r d) = a0) (h1 : x1 (ix2 (0 : Fin 1) d) = a1)
    (h2 : x2 (ix2 (0 : Fin 1) d) = a2) (h3 : x3 (ix2 (0 : Fin 1) d) = a3) (h4 : x4 (ix2 (0 : Fin 1) d) = a4) :
    k5_pay1 x0 x1 x2 x3 x4 (ix2 r d) = max ((((a0 - a1) * a2) * a3) + a4) 0 := by
  rw [pay5_apply, h0, h1, h2, h3, h4]

/-- The result of the pass as one function of the five arrays the region finds: at row `n`, column `d`,
    max ((((y (n,d) − μ d) · r d) · g d) + β d) 0. -/
def G5 (c : Dev nD) : S100000x64.Idx → EReal := fun i =>
  max ((((y5 V c i - mu5 V c (ix2 (0 : Fin 1) (⟨(i 1).val, idx2_lt1 i⟩ : Fin 64)))
      * inv5 V c (ix2 (0 : Fin 1) (⟨(i 1).val, idx2_lt1 i⟩ : Fin 64)))
      * g5 V c (ix2 (0 : Fin 1) (⟨(i 1).val, idx2_lt1 i⟩ : Fin 64)))
      + bt5 V c (ix2 (0 : Fin 1) (⟨(i 1).val, idx2_lt1 i⟩ : Fin 64))) 0

theorem G5_ix2 (c : Dev nD) (n : Fin 100000) (d : Fin 64) :
    G5 V c (ix2 n d) = max ((((y5 V c (ix2 n d) - mu5 V c (ix2 (0 : Fin 1) d)) * inv5 V c (ix2 (0 : Fin 1) d))
      * g5 V c (ix2 (0 : Fin 1) d)) + bt5 V c (ix2 (0 : Fin 1) d)) 0 := rfl

/-- The printed index maps over the ten points: the two row-tiled windows sit at block (t, 0); the four row
    windows at block (0, 0). -/
theorem idx5_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Row `r` of the row-tiled input's block at point `t` is row `10000 t + r` of the array. -/
theorem yblk5_apply (c : Dev nD) (t : Fin cfg5.N) (r : Fin 10000) (d : Fin 64) (n : Fin 100000)
    (hn : n.val = t.val * 10000 + r.val) :
    (iblk5 V c 0 t : Vec Ideal S10000x64 .f32) (ix2 r d) = y5 V c (ix2 n d) := by
  obtain ⟨e0, e1, -⟩ := idx5_facts t
  unfold iblk5
  rw [View.read_apply]
  show V c main_call0_v71_0 _ = V c main_call0_v71_0 _
  refine congrArg (V c main_call0_v71_0) (funext fun a => Fin.ext ?_)
  match a with
  | ⟨0, _⟩ => show win5_0.index t (0 : Fin 2) * 10000 + 1 * r.val = n.val; omega
  | ⟨1, _⟩ => show win5_0.index t (1 : Fin 2) * 64 + 1 * d.val = d.val; omega

/-- Window 1's block at every point is its whole one-row array. -/
theorem row5_1_apply (c : Dev nD) (t : Fin cfg5.N) (d : Fin 64) :
    (iblk5 V c 1 t : Vec Ideal S1x64 .f32) (ix2 (0 : Fin 1) d) = mu5 V c (ix2 (0 : Fin 1) d) := by
  obtain ⟨-, -, e0, e1, e2, e3, e4, e5, e6, e7, -⟩ := idx5_facts t
  unfold iblk5
  rw [View.read_apply]
  show V c main_call0_v85 _ = V c main_call0_v85 _
  refine congrArg (V c main_call0_v85) (funext fun a => Fin.ext ?_)
  match a with
  | ⟨0, _⟩ => show win5_1.index t (0 : Fin 2) * 1 + 1 * 0 = 0; omega
  | ⟨1, _⟩ => show win5_1.index t (1 : Fin 2) * 64 + 1 * d.val = d.val; omega

/-- Window 2's block at every point is its whole one-row array. -/
theorem row5_2_apply (c : Dev nD) (t : Fin cfg5.N) (d : Fin 64) :
    (iblk5 V c 2 t : Vec Ideal S1x64 .f32) (ix2 (0 : Fin 1) d) = inv5 V c (ix2 (0 : Fin 1) d) := by
  obtain ⟨-, -, e0, e1, e2, e3, e4, e5, e6, e7, -⟩ := idx5_facts t
  unfold iblk5
  rw [View.read_apply]
  show V c main_call0_v86 _ = V c main_call0_v86 _
  refine congrArg (V c main_call0_v86) (funext fun a => Fin.ext ?_)
  match a with
  | ⟨0, _⟩ => show win5_2.index t (0 : Fin 2) * 1 + 1 * 0 = 0; omega
  | ⟨1, _⟩ => show win5_2.index t (1 : Fin 2) * 64 + 1 * d.val = d.val; omega

/-- Window 3's block at every point is its whole one-row array. -/
theorem row5_3_apply (c : Dev nD) (t : Fin cfg5.N) (d : Fin 64) :
    (iblk5 V c 3 t : Vec Ideal S1x64 .f32) (ix2 (0 : Fin 1) d) = g5 V c (ix2 (0 : Fin 1) d) := by
  obtain ⟨-, -, e0, e1, e2, e3, e4, e5, e6, e7, -⟩ := idx5_facts t
  unfold iblk5
  rw [View.read_apply]
  show V c main_call0_v87 _ = V c main_call0_v87 _
  refine congrArg (V c main_call0_v87) (funext fun a => Fin.ext ?_)
  match a with
  | ⟨0, _⟩ => show win5_3.index t (0 : Fin 2) * 1 + 1 * 0 = 0; omega
  | ⟨1, _⟩ => show win5_3.index t (1 : Fin 2) * 64 + 1 * d.val = d.val; omega

/-- Window 4's block at every point is its whole one-row array. -/
theorem row5_4_apply (c : Dev nD) (t : Fin cfg5.N) (d : Fin 64) :
    (iblk5 V c 4 t : Vec Ideal S1x64 .f32) (ix2 (0 : Fin 1) d) = bt5 V c (ix2 (0 : Fin 1) d) := by
  obtain ⟨-, -, e0, e1, e2, e3, e4, e5, e6, e7, -⟩ := idx5_facts t
  unfold iblk5
  rw [View.read_apply]
  show V c main_call0_v88 _ = V c main_call0_v88 _
  refine congrArg (V c main_call0_v88) (funext fun a => Fin.ext ?_)
  match a with
  | ⟨0, _⟩ => show win5_4.index t (0 : Fin 2) * 1 + 1 * 0 = 0; omega
  | ⟨1, _⟩ => show win5_4.index t (1 : Fin 2) * 64 + 1 * d.val = d.val; omega

/-- The body's store at point `t`, entry by entry, is `G5` at the entry's place in the array. -/
theorem blk5_eq (c : Dev nD) (t : Fin cfg5.N) (j : S10000x64.Idx) :
    k5_pay1 (iblk5 V c 0 t) (iblk5 V c 1 t) (iblk5 V c 2 t) (iblk5 V c 3 t) (iblk5 V c 4 t) j
      = G5 V c (((cfg5.win 5).blk t).view.emb j) := by
  obtain ⟨r, d, rfl⟩ : ∃ (r : Fin 10000) (d : Fin 64), j = ix2 r d := ⟨j 0, j 1, eq_ix2 j⟩
  have hN : grid5.N = 10 := N_5
  have ht : t.val < 10 := by have h : t.val < grid5.N := t.isLt; omega
  obtain ⟨n, hn⟩ : ∃ n : Fin 100000, n.val = t.val * 10000 + r.val :=
    ⟨⟨t.val * 10000 + r.val, by have := r.isLt; omega⟩, rfl⟩
  obtain ⟨-, -, -, -, -, -, -, -, -, -, e0, e1⟩ := idx5_facts t
  have he : ((cfg5.win 5).blk t).view.emb (ix2 r d) = (ix2 n d : S100000x64.Idx) := by
    funext a; apply Fin.ext
    match a with
    | ⟨0, _⟩ => show win5_5.index t (0 : Fin 2) * 10000 + 1 * r.val = n.val; omega
    | ⟨1, _⟩ => show win5_5.index t (1 : Fin 2) * 64 + 1 * d.val = d.val; omega
  rw [he, G5_ix2]
  exact pay5_at _ _ _ _ _ r d _ _ _ _ _ (yblk5_apply V c t r d n hn) (row5_1_apply V c t d)
    (row5_2_apply V c t d) (row5_3_apply V c t d) (row5_4_apply V c t d)

/-- WHAT POINT `t` WRITES BACK is block `t` of `G5`. -/
theorem flushed5_eq (c : Dev nD) (t : Fin cfg5.N) :
    (dat5 (F := Ideal) V c).flushed 5 t = ((cfg5.win 5).blk t).view.read (Elt Ideal) (G5 V c) := by
  show (cfg5.win 5).cut (grid5.coords t) ((dat5 V c).after 5 t) = _
  rw [after5_5]
  unfold out5_5
  rw [View.canon_unit_zero hz]
  simp only [View.ld_unit_zero (S := S10000x64) hz, View.ld_unit_zero (S := S1x64) hz]
  funext j
  exact blk5_eq V c t j

/-- An index of the array is in point `t`'s block iff each coordinate is in the block's range on its axis. -/
theorem mem_blk5 (t : Fin cfg5.N) (i : S100000x64.Idx) :
    i ∈ ((cfg5.win 5).blk t).view.set ↔ ∀ a : Fin 2, win5_5.index t a * S10000x64.size a ≤ (i a).val
      ∧ (i a).val < win5_5.index t a * S10000x64.size a + S10000x64.size a := by
  show i ∈ ((View.whole main_v0).slice (win5_5.rect t)).set ↔ _
  rw [View.set_slice_whole, Rect.mem_set_unit]
  exact Iff.rfl

/-- Row `n` lies in the block of point `n / 10000`, and every point writes its block back: the ten blocks cover
    the array. -/
theorem cover5 (i : S100000x64.Idx) :
    ∃ t : Fin cfg5.N, (cfg5.win 5).flush t = true ∧ i ∈ ((cfg5.win 5).blk t).view.set := by
  have hi0 : (i 0).val < 100000 := (i 0).isLt
  have hi1 : (i 1).val < 64 := (i 1).isLt
  have hN : grid5.N = 10 := N_5
  obtain ⟨t, ht⟩ : ∃ t : Fin cfg5.N, t.val = (i 0).val / 10000 :=
    ⟨⟨(i 0).val / 10000, by show (i 0).val / 10000 < grid5.N; omega⟩, rfl⟩
  obtain ⟨-, -, -, -, -, -, -, -, -, -, e0, e1⟩ := idx5_facts t
  refine ⟨t, flush5_5 t, ?_⟩
  rw [mem_blk5]
  intro a
  match a with
  | ⟨0, _⟩ =>
    show win5_5.index t (0 : Fin 2) * 10000 ≤ (i 0).val ∧ (i 0).val < win5_5.index t (0 : Fin 2) * 10000 + 10000
    omega
  | ⟨1, _⟩ =>
    show win5_5.index t (1 : Fin 2) * 64 ≤ (i 1).val ∧ (i 1).val < win5_5.index t (1 : Fin 2) * 64 + 64
    omega

/-- THE ARRAY after the pass is `G5` of the arrays the region finds. -/
theorem final5 (c : Dev nD) : (dat5 (F := Ideal) V c).arrAt 5 cfg5.N = G5 V c :=
  (dat5 (F := Ideal) V c).arrAt_eq_of_cover 5 (G5 V c) (fun t _ => flushed5_eq V c t) (cover5)

theorem bn5 (c : Dev nD) (n : Fin 100000) (d : Fin 64) :
    o5 V c (ix2 n d) = max ((((y5 V c (ix2 n d) - mu5 V c (ix2 (0 : Fin 1) d)) * inv5 V c (ix2 (0 : Fin 1) d))
      * g5 V c (ix2 (0 : Fin 1) d)) + bt5 V c (ix2 (0 : Fin 1) d)) 0 :=
  (congrFun (final5 V c) (ix2 n d)).trans (G5_ix2 V c n d)

end Cert.KernelIdeal.RegionBN

end
-- ==== Proof.K1a.lean ====
/-
  THE FIRST LAYER'S AGGREGATION in the kernel program, read off its frame at the ideal values: the first stretch of host
  operations (the source and target words, the normaliser, the input's rows scaled by it), the row-tiled product with the
  first weight, and the second stretch (the gather of the product's rows by source word, their segment sum by target
  word, the sum's rows scaled by the normaliser; the two bias vectors recast as rows).
-/
import proofs.«416678_j48155173322920_3_alg».proof.Proof.KDefs
import proofs.«416678_j48155173322920_3_alg».proof.Proof.KRegionMM
import proofs.«416678_j48155173322920_3_alg».proof.Proof.KRegionFC
import proofs.«416678_j48155173322920_3_alg».proof.Proof.KRegionBN
import Idealize.ShloMosaic.Lib.StableHlo.Run
import Idealize.ShloMosaic.Lib.ValueIdx

set_option maxRecDepth 16384

noncomputable section

open scoped BigOperators
open Idealize.ShloMosaic Idealize.ShloMosaic.TcCoe Idealize.ShloMosaic.ValueIdx Idealize.ShloMosaic.StableHlo Idealize.SL.Sem

namespace Cert.KernelIdeal.Val

open Cert.KernelIdeal Cert.KernelIdeal.Gen Cert.GcnSpec Cert.GcnEdges Cert.GcnHost

variable (m : (ℓ : Loc nD τ sig) → Buf (Elt Ideal) ℓ) (ρ : Dev nD → PrngReg)

namespace FirstAgg

/-! ## Reading a stretch of host operations in two parts -/

/-- The contents after two lists of operations run one after the other. -/
theorem after_append' (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => simp only [List.cons_append, after_cons, ih]

/-- A list of operations read as its first k, then the rest. -/
theorem after_split (l : List (HloOp τ sig (Elt Ideal))) (k : Nat) (W : Valuation τ sig (Elt Ideal)) :
    StableHlo.after l W = StableHlo.after (l.drop k) (StableHlo.after (l.take k) W) := by
  rw [← after_append', List.take_append_drop]

/-! ## The first stretch, from any contents -/

/-- The source words: row 0 of the edge list, then the self loops. -/
theorem stretch0_src (W : Valuation τ sig (Elt Ideal)) :
    (StableHlo.after (hostOps0 (F := Ideal)) W (Proc.devRef .tc main_call0_v3) : IVec S3300000 32)
      = srcWords hE (W (Proc.devRef .tc main_arg1)) := by
  after_results; rfl

/-- The target words: row 1 of the edge list, then the self loops. -/
theorem stretch0_dst (W : Valuation τ sig (Elt Ideal)) :
    (StableHlo.after (hostOps0 (F := Ideal)) W (Proc.devRef .tc main_call0_v6) : IVec S3300000 32)
      = dstWords hE (W (Proc.devRef .tc main_arg1)) := by
  after_results; rfl

attribute [local irreducible] Host.scatterAdd in
/-- The in-degrees, after the first thirteen operations. -/
theorem stretch0_deg (W : Valuation τ sig (Elt Ideal)) :
    (StableHlo.after ((hostOps0 (F := Ideal)).take 13) W (Proc.devRef .tc main_call0_v10) : S100000.Idx → EReal)
      = degArr hE (W (Proc.devRef .tc main_arg1)) := by
  simp only [hostOps0, List.take_succ_cons, List.take_zero]
  after_results; rfl

/-- The first thirteen operations leave the input where it was. -/
theorem stretch0_x13 (W : Valuation τ sig (Elt Ideal)) :
    (StableHlo.after ((hostOps0 (F := Ideal)).take 13) W (Proc.devRef .tc main_arg0) : S100000x64.Idx → EReal)
      = W (Proc.devRef .tc main_arg0) := by
  simp only [hostOps0, List.take_succ_cons, List.take_zero]
  after_results

/-- The last four operations: the normaliser is the inverse square root of the degrees. -/
theorem stretch0_dinv_tail (W : Valuation τ sig (Elt Ideal)) :
    (StableHlo.after ((hostOps0 (F := Ideal)).drop 13) W (Proc.devRef .tc main_call0_v11) : S100000.Idx → EReal)
      = Host.rsqrt (F := Ideal) (φ := .f32) (W (Proc.devRef .tc main_call0_v10)) := by
  simp only [hostOps0, List.drop_succ_cons, List.drop_zero]
  after_results; rfl

/-- The last four operations: the input's rows scaled by the normaliser. -/
theorem stretch0_scaled_tail (W : Valuation τ sig (Elt Ideal)) :
    (StableHlo.after ((hostOps0 (F := Ideal)).drop 13) W (Proc.devRef .tc main_call0_v14) : S100000x64.Idx → EReal)
      = mulf (F := Ideal) (φ := .f32) (W (Proc.devRef .tc main_arg0))
          (broadcastInDim S100000x64 ![0, 1] bcast_S100000x1_S100000x64_0_1
            (broadcastInDim S100000x1 ![0] bcast_S100000_S100000x1_0
              (Host.rsqrt (F := Ideal) (φ := .f32) (W (Proc.devRef .tc main_call0_v10))))) := by
  simp only [hostOps0, List.drop_succ_cons, List.drop_zero]
  after_results; rfl

/-- The normaliser is the inverse square root of the in-degrees. -/
theorem dinvArr_eq (ei : IVec S2x3200000 32) :
    dinvArr hE ei = Host.rsqrt (F := Ideal) (φ := .f32) (degArr hE ei) := rfl

/-- The normaliser after the first stretch. -/
theorem stretch0_dinv (W : Valuation τ sig (Elt Ideal)) :
    (StableHlo.after (hostOps0 (F := Ideal)) W (Proc.devRef .tc main_call0_v11) : S100000.Idx → EReal)
      = dinvArr hE (W (Proc.devRef .tc main_arg1)) := by
  rw [after_split _ 13 W, stretch0_dinv_tail, stretch0_deg, dinvArr_eq]

/-- The scaled input after the first stretch, entry by entry: the input's entry times the normaliser of its row. -/
theorem stretch0_scaled (W : Valuation τ sig (Elt Ideal)) (n : Fin 100000) (k : Fin 64) :
    (StableHlo.after (hostOps0 (F := Ideal)) W (Proc.devRef .tc main_call0_v14) : S100000x64.Idx → EReal) (ix2 n k)
      = toMat (W (Proc.devRef .tc main_arg0)) n k * dinvArr hE (W (Proc.devRef .tc main_arg1)) (ix1 n) := by
  rw [after_split _ 13 W, stretch0_scaled_tail, scaleRows_apply hK, stretch0_x13, stretch0_deg, dinvArr_eq]
  rfl

/-! ## What stays put across a segment -/

/-- The buffers the later segments read and never write: the two word arrays, the normaliser, the twelve parameters. -/
abbrev liveRefs : List (Ref sig .tc) :=
  [main_call0_v3, main_call0_v6, main_call0_v11, main_arg2, main_arg3, main_arg4, main_arg5, main_arg6, main_arg7,
    main_arg8, main_arg9, main_arg10, main_arg11, main_arg12, main_arg13]

/-- If a boundary's contents agree with an earlier boundary's on those buffers, what held there holds here. -/
theorem live_transport (c : Dev nD) {W W' : Valuation τ sig (Elt Ideal)} (h : Live m c W)
    (hk : ∀ b ∈ liveRefs, W' (Proc.devRef .tc b) = W (Proc.devRef .tc b)) : Live m c W' where
  src := (hk main_call0_v3 (by decide)).trans h.src
  dst := (hk main_call0_v6 (by decide)).trans h.dst
  dinv := (hk main_call0_v11 (by decide)).trans h.dinv
  w1 := (hk main_arg2 (by decide)).trans h.w1
  b1 := (hk main_arg3 (by decide)).trans h.b1
  fw1 := (hk main_arg4 (by decide)).trans h.fw1
  fb1 := (hk main_arg5 (by decide)).trans h.fb1
  g1 := (hk main_arg6 (by decide)).trans h.g1
  bt1 := (hk main_arg7 (by decide)).trans h.bt1
  w2 := (hk main_arg8 (by decide)).trans h.w2
  b2 := (hk main_arg9 (by decide)).trans h.b2
  fw2 := (hk main_arg10 (by decide)).trans h.fw2
  fb2 := (hk main_arg11 (by decide)).trans h.fb2
  g2 := (hk main_arg12 (by decide)).trans h.g2
  bt2 := (hk main_arg13 (by decide)).trans h.bt2

/-- The first stretch writes none of the parameters. -/
theorem stretch0_keep (W : Valuation τ sig (Elt Ideal)) :
    ∀ b ∈ [main_arg2, main_arg3, main_arg4, main_arg5, main_arg6, main_arg7, main_arg8, main_arg9, main_arg10,
        main_arg11, main_arg12, main_arg13],
      StableHlo.after (hostOps0 (F := Ideal)) W (Proc.devRef .tc b) = W (Proc.devRef .tc b) :=
  List.forall_iff_forall_mem.mp (by
    simp only [List.Forall]
    repeat' apply And.intro
    all_goals after_results)

/-- The second stretch writes none of the words, the normaliser and the parameters. -/
theorem stretch1_keep (W : Valuation τ sig (Elt Ideal)) :
    ∀ b ∈ liveRefs, StableHlo.after (hostOps1 (F := Ideal)) W (Proc.devRef .tc b) = W (Proc.devRef .tc b) :=
  List.forall_iff_forall_mem.mp (by
    simp only [liveRefs, List.Forall]
    repeat' apply And.intro
    all_goals after_results)

/-! ## The boundaries up to the first product's exit -/

/-- After the first stretch: the words, the normaliser, and the parameters as launched. -/
theorem live1 (c : Dev nD) : Live m c (W1 m ρ c) where
  src := stretch0_src (W0 m ρ c)
  dst := stretch0_dst (W0 m ρ c)
  dinv := stretch0_dinv (W0 m ρ c)
  w1 := stretch0_keep (W0 m ρ c) main_arg2 (by decide)
  b1 := stretch0_keep (W0 m ρ c) main_arg3 (by decide)
  fw1 := stretch0_keep (W0 m ρ c) main_arg4 (by decide)
  fb1 := stretch0_keep (W0 m ρ c) main_arg5 (by decide)
  g1 := stretch0_keep (W0 m ρ c) main_arg6 (by decide)
  bt1 := stretch0_keep (W0 m ρ c) main_arg7 (by decide)
  w2 := stretch0_keep (W0 m ρ c) main_arg8 (by decide)
  b2 := stretch0_keep (W0 m ρ c) main_arg9 (by decide)
  fw2 := stretch0_keep (W0 m ρ c) main_arg10 (by decide)
  fb2 := stretch0_keep (W0 m ρ c) main_arg11 (by decide)
  g2 := stretch0_keep (W0 m ρ c) main_arg12 (by decide)
  bt2 := stretch0_keep (W0 m ρ c) main_arg13 (by decide)

/-- The first product writes its result array only: its weight is an input window, the rest it does not touch. -/
theorem cross0 (c : Dev nD) : ∀ b ∈ liveRefs, W2 m ρ c (Proc.devRef .tc b) = W1 m ρ c (Proc.devRef .tc b) :=
  List.forall_iff_forall_mem.mp
    ⟨W2_of_ne m ρ c _ (by decide), W2_of_ne m ρ c _ (by decide), W2_of_ne m ρ c _ (by decide),
      (W2_arr m ρ c 1).trans (((dat0 (V1 m ρ) c).arrAt_in 1 rfl _).trans (A_eq0 (V1 m ρ) c 1)),
      W2_of_ne m ρ c _ (by decide), W2_of_ne m ρ c _ (by decide), W2_of_ne m ρ c _ (by decide),
      W2_of_ne m ρ c _ (by decide), W2_of_ne m ρ c _ (by decide), W2_of_ne m ρ c _ (by decide),
      W2_of_ne m ρ c _ (by decide), W2_of_ne m ρ c _ (by decide), W2_of_ne m ρ c _ (by decide),
      W2_of_ne m ρ c _ (by decide), W2_of_ne m ρ c _ (by decide)⟩

/-- At the first product's exit everything is still in place. -/
theorem live2 (c : Dev nD) : Live m c (W2 m ρ c) := live_transport m c (live1 m ρ c) (cross0 m ρ c)

/-- The first product over any entry contents whose left operand is a matrix with scaled rows and whose right operand
    is a given weight. -/
theorem prod_of (V : (c : Dev nD) → (b : Ref sig .tc) → Buf (Elt Ideal) ((c : Thread nD τ).loc b)) (c : Dev nD)
    (X : Mat NN DD) (dv : Fin 100000 → EReal) (Wt : Mat DD DD)
    (hl : ∀ n k, RegionMM.lhs0 V c (ix2 n k) = X n k * dv n) (hr : ∀ k d, RegionMM.rhs0 V c (ix2 k d) = Wt k d)
    (n : Fin 100000) (d : Fin 64) :
    RegionMM.res0 V c (ix2 n d) = ∑ k : Fin 64, (X n k * dv n) * Wt k d :=
  (RegionMM.matmul0 V c n d).trans (Finset.sum_congr rfl fun k _ => by rw [hl, hr])

/-- The first product's result at its exit: the scaled input times the first weight. -/
theorem prod_entry (c : Dev nD) (n : Fin 100000) (d : Fin 64) :
    (W2 m ρ c (Proc.devRef .tc main_call0_v15) : S100000x64.Idx → EReal) (ix2 n d)
      = ∑ k : Fin 64, (toMat (xA m c) n k * dinvArr hE (eiA m c) (ix1 n)) * toMatD (w1A m c) k d := by
  have h : (W2 m ρ c (Proc.devRef .tc main_call0_v15) : S100000x64.Idx → EReal) = RegionMM.res0 (V1 m ρ) c :=
    W2_arr m ρ c 2
  rw [h]
  exact prod_of (V1 m ρ) c (toMat (xA m c)) (fun n => dinvArr hE (eiA m c) (ix1 n)) (toMatD (w1A m c))
    (fun n k => stretch0_scaled (W0 m ρ c) n k) (fun k d => congrFun (live1 m ρ c).w1 (ix2 k d)) n d

/-! ## The second stretch, from any contents: the gather, the segment sum, the scaling -/

attribute [local irreducible] Host.gather in
/-- The first nine operations: the product's rows gathered by the wrapped source words. -/
theorem stretch1_gathered (W : Valuation τ sig (Elt Ideal)) :
    (StableHlo.after (((hostOps1 (F := Ideal)).take 14).take 9) W (Proc.devRef .tc main_call0_v22) : S3300000x64.Idx → EReal)
      = Host.gather (⟨[1], [0], [], [], [0], 1, ![1, 64], hK.gdr⟩ : GatherDims SND SE1 SED)
          (W (Proc.devRef .tc main_call0_v15) : S100000x64.Idx → EReal)
          (col hE (wrapWords hE (W (Proc.devRef .tc main_call0_v3)))) := by
  simp only [hostOps1, List.take_succ_cons, List.take_zero]
  after_results; rfl

/-- The first nine operations leave the target words where they were. -/
theorem stretch1_dst9 (W : Valuation τ sig (Elt Ideal)) :
    (StableHlo.after (((hostOps1 (F := Ideal)).take 14).take 9) W (Proc.devRef .tc main_call0_v6) : IVec S3300000 32)
      = W (Proc.devRef .tc main_call0_v6) := by
  simp only [hostOps1, List.take_succ_cons, List.take_zero]
  after_results

attribute [local irreducible] Host.scatterAdd in
/-- The next five operations: the gathered rows, recast, summed by target word into the zero array. -/
theorem stretch1_summed (W : Valuation τ sig (Elt Ideal)) :
    (StableHlo.after (((hostOps1 (F := Ideal)).take 14).drop 9) W (Proc.devRef .tc main_call0_v26) : S100000x64.Idx → EReal)
      = Host.scatterAdd (F := Ideal) (⟨[1], [0], [0], 1, hK.sdr⟩ : ScatterDims SND SE1 SED)
          (broadcastInDim SND ![] hK.b0ND (constant (F := Ideal) S0 .f32 0x00000000#32))
          (col hE (W (Proc.devRef .tc main_call0_v6)))
          (extf .f32 (W (Proc.devRef .tc main_call0_v22) : FVec Ideal S3300000x64 .bf16) bitsLt_bf16_f32) := by
  simp only [hostOps1, List.take_succ_cons, List.take_zero, List.drop_succ_cons, List.drop_zero]
  after_results; rfl

/-- The first fourteen operations leave the normaliser where it was. -/
theorem stretch1_dinv14 (W : Valuation τ sig (Elt Ideal)) :
    (StableHlo.after ((hostOps1 (F := Ideal)).take 14) W (Proc.devRef .tc main_call0_v11) : S100000.Idx → EReal)
      = W (Proc.devRef .tc main_call0_v11) := by
  simp only [hostOps1, List.take_succ_cons, List.take_zero]
  after_results

/-- The last five operations: the sum's rows scaled by the normaliser. -/
theorem stretch1_scaled_tail (W : Valuation τ sig (Elt Ideal)) :
    (StableHlo.after ((hostOps1 (F := Ideal)).drop 14) W (Proc.devRef .tc main_call0_v29) : S100000x64.Idx → EReal)
      = mulf (F := Ideal) (φ := .f32) (W (Proc.devRef .tc main_call0_v26))
          (broadcastInDim S100000x64 ![0, 1] bcast_S100000x1_S100000x64_0_1
            (broadcastInDim S100000x1 ![0] bcast_S100000_S100000x1_0 (W (Proc.devRef .tc main_call0_v11)))) := by
  simp only [hostOps1, List.drop_succ_cons, List.drop_zero]
  after_results; rfl

/-- The aggregation after the second stretch, entry by entry, from any contents holding source words s, target words t,
    normaliser dv and product P: the rows of P read at the wrapped source words, summed over the edges whose target
    word is the node, the sum scaled by the node's normaliser. -/
theorem stretch1_agg (W : Valuation τ sig (Elt Ideal)) (s t : IVec S3300000 32) (dv : S100000.Idx → EReal)
    (P : S100000x64.Idx → EReal)
    (hs : (W (Proc.devRef .tc main_call0_v3) : IVec S3300000 32) = s)
    (ht : (W (Proc.devRef .tc main_call0_v6) : IVec S3300000 32) = t)
    (hd : (W (Proc.devRef .tc main_call0_v11) : S100000.Idx → EReal) = dv)
    (hP : (W (Proc.devRef .tc main_call0_v15) : S100000x64.Idx → EReal) = P)
    (n : Fin 100000) (d : Fin 64) :
    (StableHlo.after (hostOps1 (F := Ideal)) W (Proc.devRef .tc main_call0_v29) : S100000x64.Idx → EReal) (ix2 n d)
      = (∑ e ∈ Finset.univ.filter (fun e : Fin 3300000 => (col hE t (ix2 e (0 : Fin 1))).toInt = (n.val : ℤ)),
            P (ix2 (rowOf (col hE (wrapWords hE s)) e) d)) * dv (ix1 n) := by
  subst hs ht hd hP
  rw [after_split _ 14 W, stretch1_scaled_tail, scaleRows_apply hK, stretch1_dinv14]
  rw [after_split _ 9 W, stretch1_summed, segmentSum_apply hK, stretch1_dst9, stretch1_gathered]
  have scale : ∀ A A' B : EReal, A = A' → A * B = A' * B := fun _ _ _ h => by rw [h]
  refine scale _ _ _ ?_
  refine Finset.sum_congr rfl fun e _ => ?_
  exact (extf_apply (φ := .bf16) (ψ := .f32) _ bitsLt_bf16_f32 (ix2 e d)).trans (gatherRows_apply hK (φ := .bf16) _ _ e d)

/-- The first bias recast as a row. -/
theorem stretch1_bias (W : Valuation τ sig (Elt Ideal)) :
    (StableHlo.after (hostOps1 (F := Ideal)) W (Proc.devRef .tc main_call0_v30) : S1x64.Idx → EReal)
      = shapeCast S1x64 (W (Proc.devRef .tc main_arg3) : S64.Idx → EReal) shapeCasts_S64_S1x64 := by
  after_results; rfl

/-- The linear map's bias recast as a row. -/
theorem stretch1_fbias (W : Valuation τ sig (Elt Ideal)) :
    (StableHlo.after (hostOps1 (F := Ideal)) W (Proc.devRef .tc main_call0_v31) : S1x64.Idx → EReal)
      = shapeCast S1x64 (W (Proc.devRef .tc main_arg5) : S64.Idx → EReal) shapeCasts_S64_S1x64 := by
  after_results; rfl

end FirstAgg

open FirstAgg

/-! ## The boundary after the second stretch -/

/-- After the second stretch (boundary `W3`): the words, the normaliser and the parameters in place; the linear map's
    input holds arrangement K's aggregation of the input, and its two bias rows hold the biases. -/
theorem first_agg (c : Dev nD) :
    Live m c (W3 m ρ c)
      ∧ (∀ (n : Fin 100000) (d : Fin 64), (W3 m ρ c (Proc.devRef .tc main_call0_v29) : S100000x64.Idx → EReal) (ix2 n d)
            = aggK (G m c) (toMat (xA m c)) (toMatD (w1A m c)) n d)
      ∧ (∀ k : Fin 64, (W3 m ρ c (Proc.devRef .tc main_call0_v30) : S1x64.Idx → EReal) (ix2 (0 : Fin 1) k) = toRow (b1A m c) k)
      ∧ (∀ k : Fin 64, (W3 m ρ c (Proc.devRef .tc main_call0_v31) : S1x64.Idx → EReal) (ix2 (0 : Fin 1) k) = toRow (fb1A m c) k) := by
  have L2 := live2 m ρ c
  refine ⟨live_transport m c L2 (stretch1_keep (W2 m ρ c)), fun n d => ?_, fun k => ?_, fun k => ?_⟩
  · have hP : (W2 m ρ c (Proc.devRef .tc main_call0_v15) : S100000x64.Idx → EReal)
        = fun i => ∑ k : Fin 64, (toMat (xA m c) (i 0) k * dinvArr hE (eiA m c) (ix1 (i 0))) * toMatD (w1A m c) k (i 1) := by
      funext i
      obtain ⟨r, q, rfl⟩ : ∃ (r : Fin 100000) (q : Fin 64), i = ix2 r q := ⟨i 0, i 1, eq_ix2 i⟩
      exact prod_entry m ρ c r q
    refine (stretch1_agg (W2 m ρ c) _ _ _ _ L2.src L2.dst L2.dinv hP n d).trans ?_
    unfold aggK segSum mm
    have scale : ∀ A A' B B' : EReal, A = A' → B = B' → A * B = A' * B' := fun _ _ _ _ h h' => by rw [h, h']
    refine scale _ _ _ _ (Finset.sum_congr rfl fun e _ => rfl) rfl
  · rw [show (W3 m ρ c (Proc.devRef .tc main_call0_v30) : S1x64.Idx → EReal) = _ from stretch1_bias (W2 m ρ c),
      rowCast_apply hK]
    exact congrFun L2.b1 (ix1 k)
  · rw [show (W3 m ρ c (Proc.devRef .tc main_call0_v31) : S1x64.Idx → EReal) = _ from stretch1_fbias (W2 m ρ c),
      rowCast_apply hK]
    exact congrFun L2.fb1 (ix1 k)

end Cert.KernelIdeal.Val

end
-- ==== Proof.K1b.lean ====
/-
  THE FIRST LAYER'S LINEAR MAP AND NORMALISATION in the kernel program, read off its frame at the ideal values, from the
  state the aggregation leaves: the linear map with its column sums (the second pallas_call), the third stretch of host
  operations (the mean, the clamped variance, the inverse deviation; the gain and offset recast as rows), and the
  normalise-and-rectify pass (the third pallas_call).
-/
import proofs.«416678_j48155173322920_3_alg».proof.Proof.KDefs
import proofs.«416678_j48155173322920_3_alg».proof.Proof.KRegionMM
import proofs.«416678_j48155173322920_3_alg».proof.Proof.KRegionFC
import proofs.«416678_j48155173322920_3_alg».proof.Proof.KRegionBN
import Idealize.ShloMosaic.Lib.StableHlo.Run
import Idealize.ShloMosaic.Lib.ValueIdx

set_option maxRecDepth 16384

noncomputable section

open scoped BigOperators
open Idealize.ShloMosaic Idealize.ShloMosaic.TcCoe Idealize.ShloMosaic.ValueIdx Idealize.ShloMosaic.StableHlo Idealize.SL.Sem

namespace Cert.KernelIdeal.Val

open Cert.KernelIdeal Cert.KernelIdeal.Gen Cert.GcnSpec Cert.GcnEdges Cert.GcnHost

variable (m : (ℓ : Loc nD τ sig) → Buf (Elt Ideal) ℓ) (ρ : Dev nD → PrngReg)

namespace FirstBN

/-! ## The third stretch of host operations, over any contents `W` -/

section Stretch
variable (W : Valuation τ sig (Elt Ideal))

/-- The column-sum row and the column-sum-of-squares row as the stretch finds them. -/
abbrev sumRow : S1x64.Idx → EReal := W (Proc.devRef .tc main_call0_v32_1)
abbrev sqRow : S1x64.Idx → EReal := W (Proc.devRef .tc main_call0_v32_2)

/-- A constant spread over 64 entries. -/
abbrev splat (b : BitVec 32) : FVec Ideal S64 .f32 := broadcastInDim S64 ![] bcast_S_S64 (constant (F := Ideal) S_ .f32 b)

/-- The mean vector: the column sums divided by the count. -/
def meanVec : FVec Ideal S64 .f32 :=
  Host.divf (F := Ideal) (φ := .f32) (shapeCast S64 (sumRow W) shapeCasts_S1x64_S64) (splat 0x47C35000#32)

/-- The inverse-deviation vector: the inverse square root of the clamped variance plus the offset. -/
def invVec : FVec Ideal S64 .f32 :=
  Host.rsqrt (F := Ideal) (φ := .f32) (addf (F := Ideal) (φ := .f32) (maximumf (F := Ideal) (φ := .f32) (subf (F := Ideal) (φ := .f32)
    (Host.divf (F := Ideal) (φ := .f32) (shapeCast S64 (sqRow W) shapeCasts_S1x64_S64) (splat 0x47C35000#32))
    (mulf (F := Ideal) (φ := .f32) (meanVec W) (meanVec W))) (splat 0x00000000#32)) (splat 0x3727C5AC#32))

theorem read_mean : (StableHlo.after (hostOps2 (F := Ideal)) W (Proc.devRef .tc main_call0_v46) : S1x64.Idx → EReal)
    = shapeCast S1x64 (meanVec W) shapeCasts_S64_S1x64 := by
  after_results; rfl

theorem read_inv : (StableHlo.after (hostOps2 (F := Ideal)) W (Proc.devRef .tc main_call0_v47) : S1x64.Idx → EReal)
    = shapeCast S1x64 (invVec W) shapeCasts_S64_S1x64 := by
  after_results; rfl

theorem read_gain : (StableHlo.after (hostOps2 (F := Ideal)) W (Proc.devRef .tc main_call0_v48) : S1x64.Idx → EReal)
    = shapeCast S1x64 (W (Proc.devRef .tc main_arg6) : S64.Idx → EReal) shapeCasts_S64_S1x64 := by
  after_results; rfl

theorem read_offset : (StableHlo.after (hostOps2 (F := Ideal)) W (Proc.devRef .tc main_call0_v49) : S1x64.Idx → EReal)
    = shapeCast S1x64 (W (Proc.devRef .tc main_arg7) : S64.Idx → EReal) shapeCasts_S64_S1x64 := by
  after_results; rfl

theorem keep_y : (StableHlo.after (hostOps2 (F := Ideal)) W (Proc.devRef .tc main_call0_v32_0) : S100000x64.Idx → EReal)
    = W (Proc.devRef .tc main_call0_v32_0) := by
  after_results

/-! ### Entry by entry -/

theorem splat_apply (b : BitVec 32) (k : Fin 64) : splat b (ix1 k) = Ideal.ofBits .f32 b := splat64_apply hK b k

theorem meanVec_apply (d : Fin 64) : meanVec W (ix1 d) = Ideal.div (sumRow W (ix2 (0 : Fin 1) d)) cN := by
  show Ideal.div (shapeCast S64 (sumRow W) shapeCasts_S1x64_S64 (ix1 d)) (splat 0x47C35000#32 (ix1 d)) = _
  rw [vecCast_apply hK, splat_apply]

theorem invVec_apply (d : Fin 64) :
    invVec W (ix1 d) = Ideal.rsqrt (max (Ideal.div (sqRow W (ix2 (0 : Fin 1) d)) cN
      - Ideal.div (sumRow W (ix2 (0 : Fin 1) d)) cN * Ideal.div (sumRow W (ix2 (0 : Fin 1) d)) cN) 0 + eps) := by
  show Ideal.rsqrt (max (Ideal.div (shapeCast S64 (sqRow W) shapeCasts_S1x64_S64 (ix1 d)) (splat 0x47C35000#32 (ix1 d))
      - meanVec W (ix1 d) * meanVec W (ix1 d)) (splat 0x00000000#32 (ix1 d)) + splat 0x3727C5AC#32 (ix1 d)) = _
  rw [vecCast_apply hK, splat_apply, splat_apply, splat_apply, Ideal.ofBits_zero_f32, meanVec_apply]

theorem mean_entry (d : Fin 64) :
    (StableHlo.after (hostOps2 (F := Ideal)) W (Proc.devRef .tc main_call0_v46) : S1x64.Idx → EReal) (ix2 (0 : Fin 1) d)
      = Ideal.div (sumRow W (ix2 (0 : Fin 1) d)) cN := by
  rw [read_mean, rowCast_apply hK, meanVec_apply]

theorem inv_entry (d : Fin 64) :
    (StableHlo.after (hostOps2 (F := Ideal)) W (Proc.devRef .tc main_call0_v47) : S1x64.Idx → EReal) (ix2 (0 : Fin 1) d)
      = Ideal.rsqrt (max (Ideal.div (sqRow W (ix2 (0 : Fin 1) d)) cN
        - Ideal.div (sumRow W (ix2 (0 : Fin 1) d)) cN * Ideal.div (sumRow W (ix2 (0 : Fin 1) d)) cN) 0 + eps) := by
  rw [read_inv, rowCast_apply hK, invVec_apply]

theorem gain_entry (d : Fin 64) :
    (StableHlo.after (hostOps2 (F := Ideal)) W (Proc.devRef .tc main_call0_v48) : S1x64.Idx → EReal) (ix2 (0 : Fin 1) d)
      = (W (Proc.devRef .tc main_arg6) : S64.Idx → EReal) (ix1 d) := by
  rw [read_gain, rowCast_apply hK]

theorem offset_entry (d : Fin 64) :
    (StableHlo.after (hostOps2 (F := Ideal)) W (Proc.devRef .tc main_call0_v49) : S1x64.Idx → EReal) (ix2 (0 : Fin 1) d)
      = (W (Proc.devRef .tc main_arg7) : S64.Idx → EReal) (ix1 d) := by
  rw [read_offset, rowCast_apply hK]

end Stretch

end FirstBN

namespace FirstBN

/-! ## What stays put through the second pallas_call, the third stretch and the third pallas_call -/

/-- The third stretch writes none of the words, the normaliser or the parameters. -/
theorem live_stretch (c : Dev nD) (W : Valuation τ sig (Elt Ideal)) (h : Live m c W) :
    Live m c (StableHlo.after (hostOps2 (F := Ideal)) W) where
  src := (show (StableHlo.after (hostOps2 (F := Ideal)) W (Proc.devRef .tc main_call0_v3) : IVec S3300000 32) = W (Proc.devRef .tc main_call0_v3) by after_results).trans h.src
  dst := (show (StableHlo.after (hostOps2 (F := Ideal)) W (Proc.devRef .tc main_call0_v6) : IVec S3300000 32) = W (Proc.devRef .tc main_call0_v6) by after_results).trans h.dst
  dinv := (show (StableHlo.after (hostOps2 (F := Ideal)) W (Proc.devRef .tc main_call0_v11) : S100000.Idx → EReal) = W (Proc.devRef .tc main_call0_v11) by after_results).trans h.dinv
  w1 := (show (StableHlo.after (hostOps2 (F := Ideal)) W (Proc.devRef .tc main_arg2) : S64x64.Idx → EReal) = W (Proc.devRef .tc main_arg2) by after_results).trans h.w1
  b1 := (show (StableHlo.after (hostOps2 (F := Ideal)) W (Proc.devRef .tc main_arg3) : S64.Idx → EReal) = W (Proc.devRef .tc main_arg3) by after_results).trans h.b1
  fw1 := (show (StableHlo.after (hostOps2 (F := Ideal)) W (Proc.devRef .tc main_arg4) : S64x64.Idx → EReal) = W (Proc.devRef .tc main_arg4) by after_results).trans h.fw1
  fb1 := (show (StableHlo.after (hostOps2 (F := Ideal)) W (Proc.devRef .tc main_arg5) : S64.Idx → EReal) = W (Proc.devRef .tc main_arg5) by after_results).trans h.fb1
  g1 := (show (StableHlo.after (hostOps2 (F := Ideal)) W (Proc.devRef .tc main_arg6) : S64.Idx → EReal) = W (Proc.devRef .tc main_arg6) by after_results).trans h.g1
  bt1 := (show (StableHlo.after (hostOps2 (F := Ideal)) W (Proc.devRef .tc main_arg7) : S64.Idx → EReal) = W (Proc.devRef .tc main_arg7) by after_results).trans h.bt1
  w2 := (show (StableHlo.after (hostOps2 (F := Ideal)) W (Proc.devRef .tc main_arg8) : S64x64.Idx → EReal) = W (Proc.devRef .tc main_arg8) by after_results).trans h.w2
  b2 := (show (StableHlo.after (hostOps2 (F := Ideal)) W (Proc.devRef .tc main_arg9) : S64.Idx → EReal) = W (Proc.devRef .tc main_arg9) by after_results).trans h.b2
  fw2 := (show (StableHlo.after (hostOps2 (F := Ideal)) W (Proc.devRef .tc main_arg10) : S64x64.Idx → EReal) = W (Proc.devRef .tc main_arg10) by after_results).trans h.fw2
  fb2 := (show (StableHlo.after (hostOps2 (F := Ideal)) W (Proc.devRef .tc main_arg11) : S64.Idx → EReal) = W (Proc.devRef .tc main_arg11) by after_results).trans h.fb2
  g2 := (show (StableHlo.after (hostOps2 (F := Ideal)) W (Proc.devRef .tc main_arg12) : S64.Idx → EReal) = W (Proc.devRef .tc main_arg12) by after_results).trans h.g2
  bt2 := (show (StableHlo.after (hostOps2 (F := Ideal)) W (Proc.devRef .tc main_arg13) : S64.Idx → EReal) = W (Proc.devRef .tc main_arg13) by after_results).trans h.bt2

/-- The second pallas_call's windows are none of them but the linear map's weight, which it only reads. -/
theorem live_region1 (c : Dev nD) (h : Live m c (W3 m ρ c)) : Live m c (W4 m ρ c) where
  src := (W4_of_ne m ρ c main_call0_v3 (by decide)).trans h.src
  dst := (W4_of_ne m ρ c main_call0_v6 (by decide)).trans h.dst
  dinv := (W4_of_ne m ρ c main_call0_v11 (by decide)).trans h.dinv
  w1 := (W4_of_ne m ρ c main_arg2 (by decide)).trans h.w1
  b1 := (W4_of_ne m ρ c main_arg3 (by decide)).trans h.b1
  fw1 := ((W4_arr m ρ c 2).trans (((dat1 (V3 m ρ) c).arrAt_in 2 rfl _).trans (A_eq1 (V3 m ρ) c 2))).trans h.fw1
  fb1 := (W4_of_ne m ρ c main_arg5 (by decide)).trans h.fb1
  g1 := (W4_of_ne m ρ c main_arg6 (by decide)).trans h.g1
  bt1 := (W4_of_ne m ρ c main_arg7 (by decide)).trans h.bt1
  w2 := (W4_of_ne m ρ c main_arg8 (by decide)).trans h.w2
  b2 := (W4_of_ne m ρ c main_arg9 (by decide)).trans h.b2
  fw2 := (W4_of_ne m ρ c main_arg10 (by decide)).trans h.fw2
  fb2 := (W4_of_ne m ρ c main_arg11 (by decide)).trans h.fb2
  g2 := (W4_of_ne m ρ c main_arg12 (by decide)).trans h.g2
  bt2 := (W4_of_ne m ρ c main_arg13 (by decide)).trans h.bt2

/-- Nor are the third pallas_call's. -/
theorem live_region2 (c : Dev nD) (h : Live m c (W5 m ρ c)) : Live m c (W6 m ρ c) where
  src := (W6_of_ne m ρ c main_call0_v3 (by decide)).trans h.src
  dst := (W6_of_ne m ρ c main_call0_v6 (by decide)).trans h.dst
  dinv := (W6_of_ne m ρ c main_call0_v11 (by decide)).trans h.dinv
  w1 := (W6_of_ne m ρ c main_arg2 (by decide)).trans h.w1
  b1 := (W6_of_ne m ρ c main_arg3 (by decide)).trans h.b1
  fw1 := (W6_of_ne m ρ c main_arg4 (by decide)).trans h.fw1
  fb1 := (W6_of_ne m ρ c main_arg5 (by decide)).trans h.fb1
  g1 := (W6_of_ne m ρ c main_arg6 (by decide)).trans h.g1
  bt1 := (W6_of_ne m ρ c main_arg7 (by decide)).trans h.bt1
  w2 := (W6_of_ne m ρ c main_arg8 (by decide)).trans h.w2
  b2 := (W6_of_ne m ρ c main_arg9 (by decide)).trans h.b2
  fw2 := (W6_of_ne m ρ c main_arg10 (by decide)).trans h.fw2
  fb2 := (W6_of_ne m ρ c main_arg11 (by decide)).trans h.fb2
  g2 := (W6_of_ne m ρ c main_arg12 (by decide)).trans h.g2
  bt2 := (W6_of_ne m ρ c main_arg13 (by decide)).trans h.bt2

end FirstBN

namespace FirstBN

/-! ## The second pallas_call, from the boundary before it to the boundary after it -/

section Regions
variable (c : Dev nD)

/-- The linear map's value as the pallas_call states it is the specification's, once the input holds `A` and the
    bias rows and the weight hold the parameters. -/
theorem lin_eq (A : Mat NN DD)
    (hfw : (W3 m ρ c (Proc.devRef .tc main_arg4) : S64x64.Idx → EReal) = fw1A m c)
    (hA : ∀ (n : Fin 100000) (d : Fin 64), (W3 m ρ c (Proc.devRef .tc main_call0_v29) : S100000x64.Idx → EReal) (ix2 n d) = A n d)
    (hb : ∀ k : Fin 64, (W3 m ρ c (Proc.devRef .tc main_call0_v30) : S1x64.Idx → EReal) (ix2 (0 : Fin 1) k) = toRow (b1A m c) k)
    (hfb : ∀ k : Fin 64, (W3 m ρ c (Proc.devRef .tc main_call0_v31) : S1x64.Idx → EReal) (ix2 (0 : Fin 1) k) = toRow (fb1A m c) k)
    (n : Fin 100000) (d : Fin 64) :
    RegionFC.lin1 (V3 m ρ) c n d = fc A (toRow (b1A m c)) (toMatD (fw1A m c)) (toRow (fb1A m c)) n d := by
  unfold RegionFC.lin1 fc
  refine congrArg₂ (· + ·) (Finset.sum_congr rfl fun k _ => ?_) (hfb d)
  exact congrArg₂ (· * ·) (congrArg₂ (· + ·) (hA n k) (hb k)) (congrFun hfw (ix2 k d))

variable (Y : Mat NN DD) (hY : ∀ (n : Fin 100000) (d : Fin 64), RegionFC.lin1 (V3 m ρ) c n d = Y n d)
include hY

/-- The linear map's array after the second pallas_call. -/
theorem y_entry (n : Fin 100000) (d : Fin 64) :
    (W4 m ρ c (Proc.devRef .tc main_call0_v32_0) : S100000x64.Idx → EReal) (ix2 n d) = Y n d := by
  have h : (W4 m ρ c (Proc.devRef .tc main_call0_v32_0) : S100000x64.Idx → EReal) = RegionFC.y1 (V3 m ρ) c := W4_arr m ρ c 4
  exact (congrFun h (ix2 n d)).trans ((RegionFC.fc1_y (V3 m ρ) c n d).trans (hY n d))

/-- Its column sums. -/
theorem sum_entry (d : Fin 64) :
    (W4 m ρ c (Proc.devRef .tc main_call0_v32_1) : S1x64.Idx → EReal) (ix2 (0 : Fin 1) d) = colSum Y d := by
  have h : (W4 m ρ c (Proc.devRef .tc main_call0_v32_1) : S1x64.Idx → EReal) = RegionFC.s1 (V3 m ρ) c := W4_arr m ρ c 5
  refine (congrFun h (ix2 (0 : Fin 1) d)).trans ((RegionFC.fc1_sum (V3 m ρ) c d).trans ?_)
  unfold colSum
  exact Finset.sum_congr rfl fun n _ => hY n d

/-- The column sums of its squares. -/
theorem sumsq_entry (d : Fin 64) :
    (W4 m ρ c (Proc.devRef .tc main_call0_v32_2) : S1x64.Idx → EReal) (ix2 (0 : Fin 1) d)
      = colSum (fun n d' => Y n d' * Y n d') d := by
  have h : (W4 m ρ c (Proc.devRef .tc main_call0_v32_2) : S1x64.Idx → EReal) = RegionFC.q1 (V3 m ρ) c := W4_arr m ρ c 6
  refine (congrFun h (ix2 (0 : Fin 1) d)).trans ((RegionFC.fc1_sumsq (V3 m ρ) c d).trans ?_)
  unfold colSum
  exact Finset.sum_congr rfl fun n _ => by rw [hY n d]

omit hY

/-! ## The third pallas_call -/

/-- The result array after the third pallas_call, from the entries of its five inputs at the boundary before it. -/
theorem out_entry (mu inv g bt : Row DD)
    (hy : ∀ (n : Fin 100000) (d : Fin 64), (W5 m ρ c (Proc.devRef .tc main_call0_v32_0) : S100000x64.Idx → EReal) (ix2 n d) = Y n d)
    (hmu : ∀ d : Fin 64, (W5 m ρ c (Proc.devRef .tc main_call0_v46) : S1x64.Idx → EReal) (ix2 (0 : Fin 1) d) = mu d)
    (hinv : ∀ d : Fin 64, (W5 m ρ c (Proc.devRef .tc main_call0_v47) : S1x64.Idx → EReal) (ix2 (0 : Fin 1) d) = inv d)
    (hg : ∀ d : Fin 64, (W5 m ρ c (Proc.devRef .tc main_call0_v48) : S1x64.Idx → EReal) (ix2 (0 : Fin 1) d) = g d)
    (hbt : ∀ d : Fin 64, (W5 m ρ c (Proc.devRef .tc main_call0_v49) : S1x64.Idx → EReal) (ix2 (0 : Fin 1) d) = bt d)
    (n : Fin 100000) (d : Fin 64) :
    (W6 m ρ c (Proc.devRef .tc main_call0_v50) : S100000x64.Idx → EReal) (ix2 n d) = normRelu Y mu inv g bt n d := by
  have h : (W6 m ρ c (Proc.devRef .tc main_call0_v50) : S100000x64.Idx → EReal) = RegionBN.o2 (V5 m ρ) c := W6_arr m ρ c 5
  refine (congrFun h (ix2 n d)).trans ((RegionBN.bn2 (V5 m ρ) c n d).trans ?_)
  unfold normRelu
  exact congrArg₂ max (congrArg₂ (· + ·) (congrArg₂ (· * ·) (congrArg₂ (· * ·) (congrArg₂ (· - ·) (hy n d) (hmu d)) (hinv d))
    (hg d)) (hbt d)) rfl

end Regions

end FirstBN

/-- From a boundary `W3` whose linear-map input holds `A` and whose bias rows hold the biases: after the third
    pallas_call (boundary `W6`) everything is still in place and the result array holds arrangement K's normalised,
    rectified linear map of `A`. -/
theorem first_bn (c : Dev nD) (A : Mat NN DD) (hL : Live m c (W3 m ρ c))
    (hA : ∀ (n : Fin 100000) (d : Fin 64), (W3 m ρ c (Proc.devRef .tc main_call0_v29) : S100000x64.Idx → EReal) (ix2 n d) = A n d)
    (hb : ∀ k : Fin 64, (W3 m ρ c (Proc.devRef .tc main_call0_v30) : S1x64.Idx → EReal) (ix2 (0 : Fin 1) k) = toRow (b1A m c) k)
    (hfb : ∀ k : Fin 64, (W3 m ρ c (Proc.devRef .tc main_call0_v31) : S1x64.Idx → EReal) (ix2 (0 : Fin 1) k) = toRow (fb1A m c) k) :
    Live m c (W6 m ρ c)
      ∧ ∀ (n : Fin 100000) (d : Fin 64), (W6 m ρ c (Proc.devRef .tc main_call0_v50) : S100000x64.Idx → EReal) (ix2 n d)
          = bnK cN eps (fc A (toRow (b1A m c)) (toMatD (fw1A m c)) (toRow (fb1A m c))) (toRow (g1A m c)) (toRow (bt1A m c)) n d := by
  have hY := FirstBN.lin_eq m ρ c A hL.fw1 hA hb hfb
  have hL4 : Live m c (W4 m ρ c) := FirstBN.live_region1 m ρ c hL
  have hL5 : Live m c (W5 m ρ c) := FirstBN.live_stretch m c (W4 m ρ c) hL4
  refine ⟨FirstBN.live_region2 m ρ c hL5, fun n d => ?_⟩
  unfold bnK
  refine FirstBN.out_entry m ρ c _ _ _ _ _ (fun n d => ?_) (fun d => ?_) (fun d => ?_) (fun d => ?_) (fun d => ?_) n d
  · exact (congrFun (FirstBN.keep_y (W4 m ρ c)) (ix2 n d)).trans (FirstBN.y_entry m ρ c _ hY n d)
  · refine (FirstBN.mean_entry (W4 m ρ c) d).trans ?_
    unfold meanOf
    exact congrArg (fun s => Ideal.div s cN) (FirstBN.sum_entry m ρ c _ hY d)
  · refine (FirstBN.inv_entry (W4 m ρ c) d).trans ?_
    unfold varK meanOf
    rw [show FirstBN.sumRow (W4 m ρ c) (ix2 (0 : Fin 1) d) = _ from FirstBN.sum_entry m ρ c _ hY d,
      show FirstBN.sqRow (W4 m ρ c) (ix2 (0 : Fin 1) d) = _ from FirstBN.sumsq_entry m ρ c _ hY d]
  · refine (FirstBN.gain_entry (W4 m ρ c) d).trans ?_
    exact congrFun hL4.g1 (ix1 d)
  · refine (FirstBN.offset_entry (W4 m ρ c) d).trans ?_
    exact congrFun hL4.bt1 (ix1 d)

end Cert.KernelIdeal.Val

end
-- ==== Proof.KLayer1.lean ====
/-
  THE FIRST LAYER of the kernel program: its aggregation, then its linear map and normalisation.
-/
import proofs.«416678_j48155173322920_3_alg».proof.Proof.K1a
import proofs.«416678_j48155173322920_3_alg».proof.Proof.K1b

noncomputable section

open Idealize.ShloMosaic Idealize.ShloMosaic.TcCoe Idealize.ShloMosaic.ValueIdx Idealize.SL.Sem

namespace Cert.KernelIdeal.Val

open Cert.KernelIdeal Cert.KernelIdeal.Gen Cert.GcnSpec Cert.GcnEdges Cert.GcnHost

variable (m : (ℓ : Loc nD τ sig) → Buf (Elt Ideal) ℓ) (ρ : Dev nD → PrngReg)

/-- THE FIRST LAYER: after the third pallas_call (boundary `W6`) its result array holds the first layer's output, and
    the words, the normaliser and the parameters are in place. -/
theorem layer1 (c : Dev nD) :
    Live m c (W6 m ρ c) ∧
      ∀ (n : Fin 100000) (d : Fin 64),
        (W6 m ρ c (Proc.devRef .tc main_call0_v50) : S100000x64.Idx → EReal) (ix2 n d) = out1 m c n d := by
  obtain ⟨hL, hA, hb, hfb⟩ := first_agg m ρ c
  exact first_bn m ρ c _ hL hA hb hfb

end Cert.KernelIdeal.Val

end
-- ==== Proof.K2a.lean ====
/-
  THE SECOND LAYER'S AGGREGATION in the kernel program, read off its frame at the ideal values, from the state the first
  layer leaves: the fourth stretch of host operations (the first layer's output, its rows scaled by the normaliser), the
  row-tiled product with the second weight, and the fifth stretch (the gather of the product's rows by source word, their
  segment sum by target word, the sum's rows scaled by the normaliser; the two bias vectors recast as rows).
-/
import proofs.«416678_j48155173322920_3_alg».proof.Proof.KDefs
import proofs.«416678_j48155173322920_3_alg».proof.Proof.KRegionMM
import proofs.«416678_j48155173322920_3_alg».proof.Proof.KRegionFC
import proofs.«416678_j48155173322920_3_alg».proof.Proof.KRegionBN
import Idealize.ShloMosaic.Lib.StableHlo.Run
import Idealize.ShloMosaic.Lib.ValueIdx

set_option maxRecDepth 16384

noncomputable section

open scoped BigOperators
open Idealize.ShloMosaic Idealize.ShloMosaic.TcCoe Idealize.ShloMosaic.ValueIdx Idealize.ShloMosaic.StableHlo Idealize.SL.Sem

namespace Cert.KernelIdeal.Val

open Cert.KernelIdeal Cert.KernelIdeal.Gen Cert.GcnSpec Cert.GcnEdges Cert.GcnHost

variable (m : (ℓ : Loc nD τ sig) → Buf (Elt Ideal) ℓ) (ρ : Dev nD → PrngReg)

namespace SecondAgg

local macro "keep_field " f:term : tactic => `(tactic| (refine Eq.trans ?_ $f; after_results))

/-- The fourth stretch scales the rows of the first layer's output by the normaliser. -/
theorem stage3 (W : Valuation τ sig (Elt Ideal)) :
    (StableHlo.after (hostOps3 (F := Ideal)) W (Proc.devRef .tc main_call0_v53) : S100000x64.Idx → EReal)
      = mulf (F := Ideal) (φ := .f32) (W (Proc.devRef .tc main_call0_v50))
          (broadcastInDim S100000x64 ![0, 1] bcast_S100000x1_S100000x64_0_1
            (broadcastInDim S100000x1 ![0] bcast_S100000_S100000x1_0 (W (Proc.devRef .tc main_call0_v11)))) := by
  after_results; rfl

/-- The fourth stretch writes none of the words, the normaliser or the parameters. -/
theorem live3 (c : Dev nD) (W : Valuation τ sig (Elt Ideal)) (hL : Live m c W) :
    Live m c (StableHlo.after (hostOps3 (F := Ideal)) W) where
  src := by keep_field hL.src
  dst := by keep_field hL.dst
  dinv := by keep_field hL.dinv
  w1 := by keep_field hL.w1
  b1 := by keep_field hL.b1
  fw1 := by keep_field hL.fw1
  fb1 := by keep_field hL.fb1
  g1 := by keep_field hL.g1
  bt1 := by keep_field hL.bt1
  w2 := by keep_field hL.w2
  b2 := by keep_field hL.b2
  fw2 := by keep_field hL.fw2
  fb2 := by keep_field hL.fb2
  g2 := by keep_field hL.g2
  bt2 := by keep_field hL.bt2

/-- After the fourth stretch the left operand of the second product holds the first layer's output, each row scaled
    by its node's normaliser. -/
theorem v53_entry (c : Dev nD) (X1 : Mat NN DD) (W : Valuation τ sig (Elt Ideal)) (hL : Live m c W)
    (hX : ∀ (n : Fin 100000) (d : Fin 64), (W (Proc.devRef .tc main_call0_v50) : S100000x64.Idx → EReal) (ix2 n d) = X1 n d)
    (n : Fin 100000) (k : Fin 64) :
    (StableHlo.after (hostOps3 (F := Ideal)) W (Proc.devRef .tc main_call0_v53) : S100000x64.Idx → EReal) (ix2 n k)
      = X1 n k * dinvArr hE (eiA m c) (ix1 n) := by
  rw [stage3, scaleRows_apply hK, hX, hL.dinv]

/-- The second product leaves the words, the normaliser and the parameters alone: its weight is an input it only reads. -/
theorem live8 (c : Dev nD) (hL : Live m c (W7 m ρ c)) : Live m c (W8 m ρ c) where
  src := (W8_of_ne m ρ c main_call0_v3 (by decide)).trans hL.src
  dst := (W8_of_ne m ρ c main_call0_v6 (by decide)).trans hL.dst
  dinv := (W8_of_ne m ρ c main_call0_v11 (by decide)).trans hL.dinv
  w1 := (W8_of_ne m ρ c main_arg2 (by decide)).trans hL.w1
  b1 := (W8_of_ne m ρ c main_arg3 (by decide)).trans hL.b1
  fw1 := (W8_of_ne m ρ c main_arg4 (by decide)).trans hL.fw1
  fb1 := (W8_of_ne m ρ c main_arg5 (by decide)).trans hL.fb1
  g1 := (W8_of_ne m ρ c main_arg6 (by decide)).trans hL.g1
  bt1 := (W8_of_ne m ρ c main_arg7 (by decide)).trans hL.bt1
  w2 := ((W8_arr m ρ c 1).trans (((dat3 (V7 m ρ) c).arrAt_in 1 rfl _).trans (A_eq3 (V7 m ρ) c 1))).trans hL.w2
  b2 := (W8_of_ne m ρ c main_arg9 (by decide)).trans hL.b2
  fw2 := (W8_of_ne m ρ c main_arg10 (by decide)).trans hL.fw2
  fb2 := (W8_of_ne m ρ c main_arg11 (by decide)).trans hL.fb2
  g2 := (W8_of_ne m ρ c main_arg12 (by decide)).trans hL.g2
  bt2 := (W8_of_ne m ρ c main_arg13 (by decide)).trans hL.bt2

/-- After the second product its result array holds, at (n, d), the sum over k of the scaled output (n, k) times the
    second weight (k, d). -/
theorem v54_entry (c : Dev nD) (X1 : Mat NN DD) (hL : Live m c (W6 m ρ c))
    (hX : ∀ (n : Fin 100000) (d : Fin 64), (W6 m ρ c (Proc.devRef .tc main_call0_v50) : S100000x64.Idx → EReal) (ix2 n d) = X1 n d)
    (n : Fin 100000) (d : Fin 64) :
    (W8 m ρ c (Proc.devRef .tc main_call0_v54) : S100000x64.Idx → EReal) (ix2 n d)
      = ∑ k : Fin 64, (X1 n k * dinvArr hE (eiA m c) (ix1 n)) * w2A m c (ix2 k d) := by
  have e1 : (W8 m ρ c (Proc.devRef .tc main_call0_v54) : S100000x64.Idx → EReal) = RegionMM.res3 (V7 m ρ) c :=
    W8_arr m ρ c 2
  refine (congrFun e1 (ix2 n d)).trans ((RegionMM.matmul3 (V7 m ρ) c n d).trans ?_)
  refine Finset.sum_congr rfl fun k _ => ?_
  have hl : RegionMM.lhs3 (V7 m ρ) c (ix2 n k) = X1 n k * dinvArr hE (eiA m c) (ix1 n) :=
    v53_entry m c X1 (W6 m ρ c) hL hX n k
  have hr : RegionMM.rhs3 (V7 m ρ) c = w2A m c := (live3 m c (W6 m ρ c) hL).w2
  rw [hl, hr]

/-! Contents at a literal reference are contents at its type: the two transports are the identity. -/
theorem toBuf_id (r : Ref sig .tc) (p1 : r.ty = r.ty) (p2 : r.space ≠ .host) (p3 : r.isScoped = false)
    (v : r.ty.Contents (Elt Ideal)) : (StableHlo.TRef.mk r p1 p2 p3 : StableHlo.TRef sig r.ty).toBuf v = v := rfl
theorem ofBuf_id (r : Ref sig .tc) (p1 : r.ty = r.ty) (p2 : r.space ≠ .host) (p3 : r.isScoped = false)
    (v : r.ty.Contents (Elt Ideal)) : (StableHlo.TRef.mk r p1 p2 p3 : StableHlo.TRef sig r.ty).ofBuf v = v := rfl

/-- The words as one column, and a wrapped word, as the operations are printed. -/
theorem col_printed (s : IVec S3300000 32) :
    broadcastInDim S3300000x1 ![0] bcast_S3300000_S3300000x1_0 s = col hE s := rfl
theorem wrap_printed (s : IVec S3300000 32) :
    select (cmpi .slt s (broadcastInDim S3300000 ![] bcast_S_S3300000 (constantI S_ 32 0#32)))
      (addi s (broadcastInDim S3300000 ![] bcast_S_S3300000 (constantI S_ 32 100000#32))) s = wrapWords hE s := rfl

/-- After the fifth stretch the linear map's input holds, at (n, d): the sum, over the edges whose target word is n, of
    the product's entry (row of the wrapped source word, d), times node n's normaliser. -/
theorem v68_entry (W : Valuation τ sig (Elt Ideal)) (s t : IVec S3300000 32) (H : Fin 100000 → Fin 64 → EReal)
    (dv : S100000.Idx → EReal)
    (hs : (W (Proc.devRef .tc main_call0_v3) : IVec S3300000 32) = s)
    (ht : (W (Proc.devRef .tc main_call0_v6) : IVec S3300000 32) = t)
    (hH : ∀ (r : Fin 100000) (d : Fin 64), (W (Proc.devRef .tc main_call0_v54) : S100000x64.Idx → EReal) (ix2 r d) = H r d)
    (hdv : (W (Proc.devRef .tc main_call0_v11) : S100000.Idx → EReal) = dv)
    (n : Fin 100000) (d : Fin 64) :
    (StableHlo.after (hostOps4 (F := Ideal)) W (Proc.devRef .tc main_call0_v68) : S100000x64.Idx → EReal) (ix2 n d)
      = (∑ e ∈ Finset.univ.filter (fun e : Fin 3300000 => (col hE t (ix2 e (0 : Fin 1))).toInt = (n.val : ℤ)),
          H (rowOf (col hE (wrapWords hE s)) e) d) * dv (ix1 n) := by
  after_results_simp
  repeat rw [toBuf_id]
  repeat rw [ofBuf_id]
  rw [hs, ht, hdv, wrap_printed, col_printed, col_printed, scaleRows_apply hK]
  unfold scatter_S100000x64_S3300000x1_S3300000x64_1_0_0_1
  rw [segmentSum_apply hK]
  refine congrArg (· * dv (ix1 n)) ?_
  refine Finset.sum_congr rfl fun e _ => ?_
  show Host.gather gather_S100000x64_S3300000x1_S3300000x64_1_0_n_n_0_1_164
    (W (Proc.devRef .tc main_call0_v54) : S100000x64.Idx → EReal) (col hE (wrapWords hE s)) (ix2 e d) = _
  unfold gather_S100000x64_S3300000x1_S3300000x64_1_0_n_n_0_1_164
  exact (gatherRows_apply hK (φ := .bf16) _ _ e d).trans (hH _ d)

/-- The fifth stretch recasts the second layer's two bias vectors as rows. -/
theorem stage4_b (W : Valuation τ sig (Elt Ideal)) :
    (StableHlo.after (hostOps4 (F := Ideal)) W (Proc.devRef .tc main_call0_v69) : S1x64.Idx → EReal)
      = shapeCast S1x64 (W (Proc.devRef .tc main_arg9) : S64.Idx → EReal) shapeCasts_S64_S1x64 := by
  after_results; rfl
theorem stage4_fb (W : Valuation τ sig (Elt Ideal)) :
    (StableHlo.after (hostOps4 (F := Ideal)) W (Proc.devRef .tc main_call0_v70) : S1x64.Idx → EReal)
      = shapeCast S1x64 (W (Proc.devRef .tc main_arg11) : S64.Idx → EReal) shapeCasts_S64_S1x64 := by
  after_results; rfl

/-- Column k of a bias row is entry k of the bias vector. -/
theorem v69_entry (W : Valuation τ sig (Elt Ideal)) (b : S64.Idx → EReal)
    (hb : (W (Proc.devRef .tc main_arg9) : S64.Idx → EReal) = b) (k : Fin 64) :
    (StableHlo.after (hostOps4 (F := Ideal)) W (Proc.devRef .tc main_call0_v69) : S1x64.Idx → EReal) (ix2 (0 : Fin 1) k)
      = b (ix1 k) := by
  rw [stage4_b, hb]
  exact rowCast_apply hK b k
theorem v70_entry (W : Valuation τ sig (Elt Ideal)) (b : S64.Idx → EReal)
    (hb : (W (Proc.devRef .tc main_arg11) : S64.Idx → EReal) = b) (k : Fin 64) :
    (StableHlo.after (hostOps4 (F := Ideal)) W (Proc.devRef .tc main_call0_v70) : S1x64.Idx → EReal) (ix2 (0 : Fin 1) k)
      = b (ix1 k) := by
  rw [stage4_fb, hb]
  exact rowCast_apply hK b k

local macro "keep_field4 " f:term : tactic => `(tactic| (refine Eq.trans ?_ $f; after_results_simp))

/-- The fifth stretch writes none of the words, the normaliser or the parameters. -/
theorem live4 (c : Dev nD) (W : Valuation τ sig (Elt Ideal)) (hL : Live m c W) :
    Live m c (StableHlo.after (hostOps4 (F := Ideal)) W) where
  src := by keep_field4 hL.src
  dst := by keep_field4 hL.dst
  dinv := by keep_field4 hL.dinv
  w1 := by keep_field4 hL.w1
  b1 := by keep_field4 hL.b1
  fw1 := by keep_field4 hL.fw1
  fb1 := by keep_field4 hL.fb1
  g1 := by keep_field4 hL.g1
  bt1 := by keep_field4 hL.bt1
  w2 := by keep_field4 hL.w2
  b2 := by keep_field4 hL.b2
  fw2 := by keep_field4 hL.fw2
  fb2 := by keep_field4 hL.fb2
  g2 := by keep_field4 hL.g2
  bt2 := by keep_field4 hL.bt2

end SecondAgg

open SecondAgg

/-- From a boundary `W6` whose third result array holds `X1`: after the fifth stretch (boundary `W9`) everything is
    still in place; the linear map's input holds arrangement K's aggregation of `X1`, its bias rows the biases. -/
theorem second_agg (c : Dev nD) (X1 : Mat NN DD) (hL : Live m c (W6 m ρ c))
    (hX : ∀ (n : Fin 100000) (d : Fin 64), (W6 m ρ c (Proc.devRef .tc main_call0_v50) : S100000x64.Idx → EReal) (ix2 n d) = X1 n d) :
    Live m c (W9 m ρ c)
      ∧ (∀ (n : Fin 100000) (d : Fin 64), (W9 m ρ c (Proc.devRef .tc main_call0_v68) : S100000x64.Idx → EReal) (ix2 n d)
            = aggK (G m c) X1 (toMatD (w2A m c)) n d)
      ∧ (∀ k : Fin 64, (W9 m ρ c (Proc.devRef .tc main_call0_v69) : S1x64.Idx → EReal) (ix2 (0 : Fin 1) k) = toRow (b2A m c) k)
      ∧ (∀ k : Fin 64, (W9 m ρ c (Proc.devRef .tc main_call0_v70) : S1x64.Idx → EReal) (ix2 (0 : Fin 1) k) = toRow (fb2A m c) k) := by
  have hL7 : Live m c (W7 m ρ c) := live3 m c (W6 m ρ c) hL
  have hL8 : Live m c (W8 m ρ c) := live8 m ρ c hL7
  refine ⟨live4 m c (W8 m ρ c) hL8, fun n d => ?_, fun k => ?_, fun k => ?_⟩
  · show @Eq EReal _ _
    refine (v68_entry (W8 m ρ c) _ _
      (fun r d' => ∑ k : Fin 64, (X1 r k * dinvArr hE (eiA m c) (ix1 r)) * w2A m c (ix2 k d')) _
      hL8.src hL8.dst (v54_entry m ρ c X1 hL hX) hL8.dinv n d).trans ?_
    unfold aggK segSum mm
    refine congrArg₂ (· * ·) (Finset.sum_congr rfl fun e _ => ?_) rfl
    rfl
  · exact v69_entry (W8 m ρ c) _ hL8.b2 k
  · exact v70_entry (W8 m ρ c) _ hL8.fb2 k

end Cert.KernelIdeal.Val

end
-- ==== Proof.K2b.lean ====
/-
  THE SECOND LAYER'S LINEAR MAP AND NORMALISATION in the kernel program, read off its frame at the ideal values, from the
  state the second aggregation leaves: the linear map with its column sums (the fifth pallas_call), the sixth stretch of
  host operations (the mean, the clamped variance, the inverse deviation; the gain and offset recast as rows), and the
  normalise-and-rectify pass into the result buffer (the sixth pallas_call).
-/
import proofs.«416678_j48155173322920_3_alg».proof.Proof.KDefs
import proofs.«416678_j48155173322920_3_alg».proof.Proof.KRegionMM
import proofs.«416678_j48155173322920_3_alg».proof.Proof.KRegionFC
import proofs.«416678_j48155173322920_3_alg».proof.Proof.KRegionBN
import Idealize.ShloMosaic.Lib.StableHlo.Run
import Idealize.ShloMosaic.Lib.ValueIdx

set_option maxRecDepth 16384

noncomputable section

open scoped BigOperators
open Idealize.ShloMosaic Idealize.ShloMosaic.TcCoe Idealize.ShloMosaic.ValueIdx Idealize.ShloMosaic.StableHlo Idealize.SL.Sem

namespace Cert.KernelIdeal.Val

open Cert.KernelIdeal Cert.KernelIdeal.Gen Cert.GcnSpec Cert.GcnEdges Cert.GcnHost

variable (m : (ℓ : Loc nD τ sig) → Buf (Elt Ideal) ℓ) (ρ : Dev nD → PrngReg)

/-! ### The sixth stretch of host operations, entry by entry -/

/-- The host's division at an entry. -/
theorem hostDivf_apply {s : Shape} (a b : FVec Ideal s .f32) (i : s.Idx) :
    Host.divf (F := Ideal) (φ := .f32) a b i = Ideal.div (a i) (b i) := rfl

/-- The mean as the stretch prints it: the row of column sums recast as a vector, divided by the count. -/
def meanP (s : S1x64.Idx → EReal) : S64.Idx → EReal :=
  Host.divf (F := Ideal) (φ := .f32) (shapeCast S64 s shapeCasts_S1x64_S64)
    (broadcastInDim S64 ![] bcast_S_S64 (constant S_ .f32 0x47C35000#32))

/-- The inverse deviation as the stretch prints it: the mean of squares less the squared mean, clamped at zero, the
    offset added, the inverse square root taken. -/
def invP (s q : S1x64.Idx → EReal) : S64.Idx → EReal :=
  Host.rsqrt (F := Ideal) (φ := .f32)
    (addf (maximumf (subf (Host.divf (F := Ideal) (φ := .f32) (shapeCast S64 q shapeCasts_S1x64_S64)
        (broadcastInDim S64 ![] bcast_S_S64 (constant S_ .f32 0x47C35000#32))) (mulf (meanP s) (meanP s)))
      (broadcastInDim S64 ![] bcast_S_S64 (constant S_ .f32 0x00000000#32)))
      (broadcastInDim S64 ![] bcast_S_S64 (constant S_ .f32 0x3727C5AC#32)))

theorem meanP_apply (s : S1x64.Idx → EReal) (k : Fin 64) :
    meanP s (ix1 k) = Ideal.div (s (ix2 (0 : Fin 1) k)) cN := by
  unfold meanP
  rw [hostDivf_apply, vecCast_apply hK, splat64_apply hK]

theorem invP_apply (s q : S1x64.Idx → EReal) (k : Fin 64) :
    invP s q (ix1 k)
      = Ideal.rsqrt (max (Ideal.div (q (ix2 (0 : Fin 1) k)) cN
          - Ideal.div (s (ix2 (0 : Fin 1) k)) cN * Ideal.div (s (ix2 (0 : Fin 1) k)) cN) 0 + eps) := by
  unfold invP
  rw [hostRsqrt_apply, addf_apply, maximumf_apply, subf_apply, mulf_apply, hostDivf_apply, meanP_apply,
    vecCast_apply hK, splat64_apply hK, splat64_apply hK, splat64_apply hK, Ideal.ofBits_zero_f32]

/-- The stretch leaves the linear map's output where it was. -/
theorem s5_keep (W : Valuation τ sig (Elt Ideal)) :
    (StableHlo.after (hostOps5 (F := Ideal)) W (Proc.devRef .tc main_call0_v71_0) : S100000x64.Idx → EReal)
      = W (Proc.devRef .tc main_call0_v71_0) := by
  after_results

theorem s5_mean (W : Valuation τ sig (Elt Ideal)) :
    (StableHlo.after (hostOps5 (F := Ideal)) W (Proc.devRef .tc main_call0_v85) : S1x64.Idx → EReal)
      = shapeCast S1x64 (meanP (W (Proc.devRef .tc main_call0_v71_1))) shapeCasts_S64_S1x64 := by
  after_results; rfl

theorem s5_inv (W : Valuation τ sig (Elt Ideal)) :
    (StableHlo.after (hostOps5 (F := Ideal)) W (Proc.devRef .tc main_call0_v86) : S1x64.Idx → EReal)
      = shapeCast S1x64 (invP (W (Proc.devRef .tc main_call0_v71_1)) (W (Proc.devRef .tc main_call0_v71_2)))
          shapeCasts_S64_S1x64 := by
  after_results; rfl

theorem s5_gain (W : Valuation τ sig (Elt Ideal)) :
    (StableHlo.after (hostOps5 (F := Ideal)) W (Proc.devRef .tc main_call0_v87) : S1x64.Idx → EReal)
      = shapeCast S1x64 (W (Proc.devRef .tc main_arg12) : S64.Idx → EReal) shapeCasts_S64_S1x64 := by
  after_results; rfl

theorem s5_offset (W : Valuation τ sig (Elt Ideal)) :
    (StableHlo.after (hostOps5 (F := Ideal)) W (Proc.devRef .tc main_call0_v88) : S1x64.Idx → EReal)
      = shapeCast S1x64 (W (Proc.devRef .tc main_arg13) : S64.Idx → EReal) shapeCasts_S64_S1x64 := by
  after_results; rfl

/-! ### The stretch's results from the column sums -/

theorem s5_mean_entry (W : Valuation τ sig (Elt Ideal)) (Y : Mat NN DD)
    (hs : ∀ d : Fin 64, (W (Proc.devRef .tc main_call0_v71_1) : S1x64.Idx → EReal) (ix2 (0 : Fin 1) d) = colSum Y d)
    (d : Fin 64) :
    (StableHlo.after (hostOps5 (F := Ideal)) W (Proc.devRef .tc main_call0_v85) : S1x64.Idx → EReal) (ix2 (0 : Fin 1) d)
      = meanOf cN Y d := by
  rw [s5_mean, rowCast_apply hK, meanP_apply, hs]
  rfl

theorem s5_inv_entry (W : Valuation τ sig (Elt Ideal)) (Y : Mat NN DD)
    (hs : ∀ d : Fin 64, (W (Proc.devRef .tc main_call0_v71_1) : S1x64.Idx → EReal) (ix2 (0 : Fin 1) d) = colSum Y d)
    (hq : ∀ d : Fin 64, (W (Proc.devRef .tc main_call0_v71_2) : S1x64.Idx → EReal) (ix2 (0 : Fin 1) d)
      = colSum (fun n d' => Y n d' * Y n d') d)
    (d : Fin 64) :
    (StableHlo.after (hostOps5 (F := Ideal)) W (Proc.devRef .tc main_call0_v86) : S1x64.Idx → EReal) (ix2 (0 : Fin 1) d)
      = Ideal.rsqrt (varK cN Y d + eps) := by
  rw [s5_inv, rowCast_apply hK, invP_apply, hs, hq]
  rfl

theorem s5_gain_entry (W : Valuation τ sig (Elt Ideal)) (d : Fin 64) :
    (StableHlo.after (hostOps5 (F := Ideal)) W (Proc.devRef .tc main_call0_v87) : S1x64.Idx → EReal) (ix2 (0 : Fin 1) d)
      = (W (Proc.devRef .tc main_arg12) : S64.Idx → EReal) (ix1 d) := by
  rw [s5_gain, rowCast_apply hK]

theorem s5_offset_entry (W : Valuation τ sig (Elt Ideal)) (d : Fin 64) :
    (StableHlo.after (hostOps5 (F := Ideal)) W (Proc.devRef .tc main_call0_v88) : S1x64.Idx → EReal) (ix2 (0 : Fin 1) d)
      = (W (Proc.devRef .tc main_arg13) : S64.Idx → EReal) (ix1 d) := by
  rw [s5_offset, rowCast_apply hK]

/-! ### The two pallas_calls, over any entry contents -/

/-- The fifth pallas_call's linear map is the specification's, once its operands are named. -/
theorem lin4_eq_fc (V : (c : Dev nD) → (b : Ref sig .tc) → Buf (Elt Ideal) ((c : Thread nD τ).loc b)) (c : Dev nD)
    (A : Mat NN DD) (b : Row DD) (fw : Mat DD DD) (fb : Row DD)
    (hA : ∀ (n : Fin 100000) (k : Fin 64), RegionFC.a4 V c (ix2 n k) = A n k)
    (hb : ∀ k : Fin 64, RegionFC.b4 V c (ix2 (0 : Fin 1) k) = b k)
    (hfw : ∀ k d : Fin 64, RegionFC.fw4 V c (ix2 k d) = fw k d)
    (hfb : ∀ d : Fin 64, RegionFC.fb4 V c (ix2 (0 : Fin 1) d) = fb d) (n : Fin 100000) (d : Fin 64) :
    RegionFC.lin4 V c n d = fc A b fw fb n d := by
  unfold RegionFC.lin4 fc
  simp only [hA, hb, hfw, hfb]

/-- The sixth pallas_call's output is the specification's normalise-and-rectify, once its operands are named. -/
theorem bn5_eq_bnK (V : (c : Dev nD) → (b : Ref sig .tc) → Buf (Elt Ideal) ((c : Thread nD τ).loc b)) (c : Dev nD)
    (Y : Mat NN DD) (g bt : Row DD)
    (hy : ∀ (n : Fin 100000) (d : Fin 64), RegionBN.y5 V c (ix2 n d) = Y n d)
    (hmu : ∀ d : Fin 64, RegionBN.mu5 V c (ix2 (0 : Fin 1) d) = meanOf cN Y d)
    (hinv : ∀ d : Fin 64, RegionBN.inv5 V c (ix2 (0 : Fin 1) d) = Ideal.rsqrt (varK cN Y d + eps))
    (hg : ∀ d : Fin 64, RegionBN.g5 V c (ix2 (0 : Fin 1) d) = g d)
    (hbt : ∀ d : Fin 64, RegionBN.bt5 V c (ix2 (0 : Fin 1) d) = bt d) (n : Fin 100000) (d : Fin 64) :
    RegionBN.o5 V c (ix2 n d) = bnK cN eps Y g bt n d := by
  rw [RegionBN.bn5, hy, hmu, hinv, hg, hbt]
  rfl

/-! ### Through the fifth pallas_call -/

theorem r4_y (c : Dev nD) (n : Fin 100000) (d : Fin 64) :
    (W10 m ρ c (Proc.devRef .tc main_call0_v71_0) : S100000x64.Idx → EReal) (ix2 n d) = RegionFC.lin4 (V9 m ρ) c n d :=
  (congrFun (W10_arr m ρ c 4) (ix2 n d)).trans (RegionFC.fc4_y (V9 m ρ) c n d)

theorem r4_sum (c : Dev nD) (d : Fin 64) :
    (W10 m ρ c (Proc.devRef .tc main_call0_v71_1) : S1x64.Idx → EReal) (ix2 (0 : Fin 1) d)
      = ∑ n : Fin 100000, RegionFC.lin4 (V9 m ρ) c n d :=
  (congrFun (W10_arr m ρ c 5) (ix2 (0 : Fin 1) d)).trans (RegionFC.fc4_sum (V9 m ρ) c d)

theorem r4_sumsq (c : Dev nD) (d : Fin 64) :
    (W10 m ρ c (Proc.devRef .tc main_call0_v71_2) : S1x64.Idx → EReal) (ix2 (0 : Fin 1) d)
      = ∑ n : Fin 100000, RegionFC.lin4 (V9 m ρ) c n d * RegionFC.lin4 (V9 m ρ) c n d :=
  (congrFun (W10_arr m ρ c 6) (ix2 (0 : Fin 1) d)).trans (RegionFC.fc4_sumsq (V9 m ρ) c d)

theorem r4_gain (c : Dev nD) :
    W10 m ρ c (Proc.devRef .tc main_arg12) = W9 m ρ c (Proc.devRef .tc main_arg12) :=
  W10_of_ne m ρ c main_arg12 (by decide)

theorem r4_offset (c : Dev nD) :
    W10 m ρ c (Proc.devRef .tc main_arg13) = W9 m ρ c (Proc.devRef .tc main_arg13) :=
  W10_of_ne m ρ c main_arg13 (by decide)

/-- From a boundary `W9` whose linear-map input holds `A` and whose bias rows hold the biases: after the sixth
    pallas_call (boundary `W12`) the result buffer holds arrangement K's normalised, rectified linear map of `A`. -/
theorem second_bn (c : Dev nD) (A : Mat NN DD) (hL : Live m c (W9 m ρ c))
    (hA : ∀ (n : Fin 100000) (d : Fin 64), (W9 m ρ c (Proc.devRef .tc main_call0_v68) : S100000x64.Idx → EReal) (ix2 n d) = A n d)
    (hb : ∀ k : Fin 64, (W9 m ρ c (Proc.devRef .tc main_call0_v69) : S1x64.Idx → EReal) (ix2 (0 : Fin 1) k) = toRow (b2A m c) k)
    (hfb : ∀ k : Fin 64, (W9 m ρ c (Proc.devRef .tc main_call0_v70) : S1x64.Idx → EReal) (ix2 (0 : Fin 1) k) = toRow (fb2A m c) k) :
    ∀ (n : Fin 100000) (d : Fin 64), (W12 m ρ c (Proc.devRef .tc main_v0) : S100000x64.Idx → EReal) (ix2 n d)
        = bnK cN eps (fc A (toRow (b2A m c)) (toMatD (fw2A m c)) (toRow (fb2A m c))) (toRow (g2A m c)) (toRow (bt2A m c)) n d := by
  intro n d
  have hlin : ∀ (n : Fin 100000) (d : Fin 64), RegionFC.lin4 (V9 m ρ) c n d
      = fc A (toRow (b2A m c)) (toMatD (fw2A m c)) (toRow (fb2A m c)) n d :=
    lin4_eq_fc (V9 m ρ) c A _ _ _ hA hb (fun k d => congrFun hL.fw2 (ix2 k d)) hfb
  generalize fc A (toRow (b2A m c)) (toMatD (fw2A m c)) (toRow (fb2A m c)) = Y at hlin ⊢
  have hy : ∀ (n : Fin 100000) (d : Fin 64),
      (W10 m ρ c (Proc.devRef .tc main_call0_v71_0) : S100000x64.Idx → EReal) (ix2 n d) = Y n d :=
    fun n d => (r4_y m ρ c n d).trans (hlin n d)
  have hs : ∀ d : Fin 64,
      (W10 m ρ c (Proc.devRef .tc main_call0_v71_1) : S1x64.Idx → EReal) (ix2 (0 : Fin 1) d) = colSum Y d := fun d =>
    (r4_sum m ρ c d).trans (show (∑ n : Fin 100000, RegionFC.lin4 (V9 m ρ) c n d) = colSum Y d from
      Finset.sum_congr rfl fun n _ => hlin n d)
  have hq : ∀ d : Fin 64,
      (W10 m ρ c (Proc.devRef .tc main_call0_v71_2) : S1x64.Idx → EReal) (ix2 (0 : Fin 1) d)
        = colSum (fun n d' => Y n d' * Y n d') d := fun d =>
    (r4_sumsq m ρ c d).trans (show (∑ n : Fin 100000, RegionFC.lin4 (V9 m ρ) c n d * RegionFC.lin4 (V9 m ρ) c n d)
        = colSum (fun n d' => Y n d' * Y n d') d from
      Finset.sum_congr rfl fun n _ => congrArg₂ (· * ·) (hlin n d) (hlin n d))
  have hg : ∀ d : Fin 64,
      (W10 m ρ c (Proc.devRef .tc main_arg12) : S64.Idx → EReal) (ix1 d) = toRow (g2A m c) d := fun d => by
    rw [r4_gain, hL.g2]
    rfl
  have hbt : ∀ d : Fin 64,
      (W10 m ρ c (Proc.devRef .tc main_arg13) : S64.Idx → EReal) (ix1 d) = toRow (bt2A m c) d := fun d => by
    rw [r4_offset, hL.bt2]
    rfl
  refine (congrFun (W12_arr m ρ c 5) (ix2 n d)).trans ?_
  exact bn5_eq_bnK (V11 m ρ) c Y _ _
    (fun n d => (congrFun (s5_keep (W10 m ρ c)) (ix2 n d)).trans (hy n d))
    (s5_mean_entry (W10 m ρ c) Y hs)
    (s5_inv_entry (W10 m ρ c) Y hs hq)
    (fun d => (s5_gain_entry (W10 m ρ c) d).trans (hg d))
    (fun d => (s5_offset_entry (W10 m ρ c) d).trans (hbt d)) n d

end Cert.KernelIdeal.Val

end
-- ==== Proof.KLayer2.lean ====
/-
  THE SECOND LAYER of the kernel program: its aggregation, then its linear map and normalisation.
-/
import proofs.«416678_j48155173322920_3_alg».proof.Proof.K2a
import proofs.«416678_j48155173322920_3_alg».proof.Proof.K2b

noncomputable section

open Idealize.ShloMosaic Idealize.ShloMosaic.TcCoe Idealize.ShloMosaic.ValueIdx Idealize.SL.Sem

namespace Cert.KernelIdeal.Val

open Cert.KernelIdeal Cert.KernelIdeal.Gen Cert.GcnSpec Cert.GcnEdges Cert.GcnHost

variable (m : (ℓ : Loc nD τ sig) → Buf (Elt Ideal) ℓ) (ρ : Dev nD → PrngReg)

/-- THE SECOND LAYER: from a boundary `W6` in that state, after the sixth pallas_call (boundary `W12`) the result
    buffer holds the second layer's output of the first layer's. -/
theorem layer2 (c : Dev nD) (X1 : Mat NN DD) (hL : Live m c (W6 m ρ c))
    (hX : ∀ (n : Fin 100000) (d : Fin 64),
      (W6 m ρ c (Proc.devRef .tc main_call0_v50) : S100000x64.Idx → EReal) (ix2 n d) = X1 n d) :
    ∀ (n : Fin 100000) (d : Fin 64),
      (W12 m ρ c (Proc.devRef .tc main_v0) : S100000x64.Idx → EReal) (ix2 n d)
        = layerK (G m c) cN eps X1 (toMatD (w2A m c)) (toRow (b2A m c)) (toMatD (fw2A m c)) (toRow (fb2A m c))
            (toRow (g2A m c)) (toRow (bt2A m c)) n d := by
  obtain ⟨hL9, hA, hb, hfb⟩ := second_agg m ρ c X1 hL hX
  exact second_bn m ρ c _ hL9 hA hb hfb

end Cert.KernelIdeal.Val

end
-- ==== Proof.KValue.lean ====
/-
  THE KERNEL PROGRAM'S RESULT BUFFER after the run: the second layer of arrangement K applied to the first.
-/
import proofs.«416678_j48155173322920_3_alg».proof.Proof.KLayer1
import proofs.«416678_j48155173322920_3_alg».proof.Proof.KLayer2

noncomputable section

open Idealize.ShloMosaic Idealize.ShloMosaic.TcCoe Idealize.ShloMosaic.ValueIdx Idealize.SL.Sem

namespace Cert.KernelIdeal.Val

open Cert.KernelIdeal Cert.KernelIdeal.Gen Cert.GcnSpec Cert.GcnEdges Cert.GcnHost

variable (m : (ℓ : Loc nD τ sig) → Buf (Elt Ideal) ℓ) (ρ : Dev nD → PrngReg)

/-- THE RESULT BUFFER after the run: the second layer's output, entry by entry. -/
theorem kernel_value (c : Dev nD) :
    (W12 m ρ c (Proc.devRef .tc main_v0) : S100000x64.Idx → EReal) = fun i => out2 m c (i 0) (i 1) := by
  funext i
  obtain ⟨hL, hX⟩ := layer1 m ρ c
  rw [eq_ix2 i]
  exact layer2 m ρ c (out1 m c) hL hX (i 0) (i 1)

end Cert.KernelIdeal.Val

end
-- ==== Proof.RDefs.lean ====
/-
  THE REFERENCE PROGRAM'S RESULT: what it is to be (two layers of arrangement R over the graph of the edge list).
-/
import proofs.«416678_j48155173322920_3_alg».proof.Proof.Gen.ReferenceIdeal
import proofs.«416678_j48155173322920_3_alg».proof.Proof.GcnSpec
import proofs.«416678_j48155173322920_3_alg».proof.Proof.GcnEdges
import proofs.«416678_j48155173322920_3_alg».proof.Proof.GcnHost

noncomputable section

open Idealize.ShloMosaic Idealize.ShloMosaic.ValueIdx

namespace Cert.ReferenceIdeal.RefVal

open Cert.ReferenceIdeal Cert.ReferenceIdeal.Gen Cert.GcnSpec Cert.GcnEdges Cert.GcnHost

/-- The program's shape facts, as the shared modules take them. -/
theorem hE : Cert.GcnEdges.Facts :=
  ⟨Gen.slices_S2x3200000_S1x3200000_0_0, Gen.slices_S2x3200000_S1x3200000_1_0, Gen.shapeCasts_S1x3200000_S3200000,
    Gen.concatenates_S3200000_S100000_S3300000_d0, Gen.bcast_S_S3300000, Gen.bcast_S_S100000, Gen.bcast_S3300000_S3300000x1_0,
    Gen.scatter_S100000_S3300000x1_S3300000_n_0_0_1_wf⟩

theorem hK : Cert.GcnHost.Facts := ⟨by decide, by decide, by decide, by decide, by decide, by decide, by decide, by decide⟩

/-- The first layer's output, in arrangement R. -/
def out1 (x0 : S100000x64.Idx → EReal) (x1 : IVec S2x3200000 32) (x2 : S64x64.Idx → EReal) (x3 : S64.Idx → EReal) (x4 : S64x64.Idx → EReal) (x5 : S64.Idx → EReal) (x6 : S64.Idx → EReal) (x7 : S64.Idx → EReal) : Mat NN DD :=
  layerR (graph hE x1) cN eps (toMat x0) (toMatD x2) (toRow x3) (toMatD x4) (toRow x5) (toRow x6) (toRow x7)

end Cert.ReferenceIdeal.RefVal

end
-- ==== Proof.R1b.lean ====
/-
  THE FIRST LAYER'S LINEAR MAP AND NORMALISATION in the reference program, one operation at a time, from the aggregation:
  the bias, the linear map and its bias, the column mean, the mean of the squared deviations, the normalisation by the
  inverse deviation, the gain, the offset and the rectifier.
-/
import proofs.«416678_j48155173322920_3_alg».proof.Proof.Gen.ReferenceIdeal.Read
import proofs.«416678_j48155173322920_3_alg».proof.Proof.RDefs
import proofs.«416678_j48155173322920_3_alg».proof.Proof.LibPlainRows
import Idealize.ShloMosaic.Lib.ValueIdx
import Idealize.ShloMosaic.Lib.Pipeline.Value

noncomputable section

open scoped BigOperators
open Idealize.ShloMosaic Idealize.ShloMosaic.ValueIdx

namespace Cert.ReferenceIdeal.RefVal

open Cert.ReferenceIdeal Cert.ReferenceIdeal.Gen Cert.ReferenceIdeal.Read Cert.GcnSpec Cert.GcnEdges Cert.GcnHost

namespace FirstNorm

/-- The aggregation plus the bias row. -/
theorem biased_at (x0 : S100000x64.Idx → EReal) (x1 : IVec S2x3200000 32) (x2 : S64x64.Idx → EReal) (x3 : S64.Idx → EReal)
    (A : Mat NN DD)
    (hA : ∀ (n : Fin 100000) (d : Fin 64), val_main_v40 (F := Ideal) x0 x1 x2 (ix2 n d) = A n d) (n : Fin 100000) (k : Fin 64) :
    val_main_v43 (F := Ideal) x0 x1 x2 x3 (ix2 n k) = A n k + toRow x3 k := by
  rw [val_main_v43_apply, hA, val_main_v42_apply, val_main_v41_apply, show idx_main_v41 (idx_main_v42 (ix2 n k)) = ix1 k from funext fun a => Fin.ext (by match a with | ⟨0, _⟩ => rfl)]
  rfl

/-- The linear map: a product with the whole 64 x 64 weight, contracted over the columns. -/
theorem mapped_at (x0 : S100000x64.Idx → EReal) (x1 : IVec S2x3200000 32) (x2 : S64x64.Idx → EReal) (x3 : S64.Idx → EReal) (x4 : S64x64.Idx → EReal)
    (A : Mat NN DD)
    (hA : ∀ (n : Fin 100000) (d : Fin 64), val_main_v40 (F := Ideal) x0 x1 x2 (ix2 n d) = A n d) (n : Fin 100000) (d : Fin 64) :
    val_main_v44 (F := Ideal) x0 x1 x2 x3 x4 (ix2 n d) = ∑ k : Fin 64, (A n k + toRow x3 k) * toMatD x4 k d := by
  rw [val_main_v44_apply]
  refine Finset.sum_congr rfl fun k _ => ?_
  rw [show lidx_main_v44 (ix2 n d) k = ix2 n k from funext fun a => Fin.ext (by match a with | ⟨0, _⟩ => rfl | ⟨1, _⟩ => rfl),
    show ridx_main_v44 (ix2 n d) k = ix2 k d from funext fun a => Fin.ext (by match a with | ⟨0, _⟩ => rfl | ⟨1, _⟩ => rfl),
    biased_at x0 x1 x2 x3 A hA n k]
  rfl

/-- With the second bias row: the linear map's value. -/
theorem lin_at (x0 : S100000x64.Idx → EReal) (x1 : IVec S2x3200000 32) (x2 : S64x64.Idx → EReal) (x3 : S64.Idx → EReal) (x4 : S64x64.Idx → EReal) (x5 : S64.Idx → EReal)
    (A : Mat NN DD)
    (hA : ∀ (n : Fin 100000) (d : Fin 64), val_main_v40 (F := Ideal) x0 x1 x2 (ix2 n d) = A n d) (n : Fin 100000) (d : Fin 64) :
    val_main_v47 (F := Ideal) x0 x1 x2 x3 x4 x5 (ix2 n d) = (fc A (toRow x3) (toMatD x4) (toRow x5)) n d := by
  rw [val_main_v47_apply, mapped_at x0 x1 x2 x3 x4 A hA n d, val_main_v46_apply, val_main_v45_apply, show idx_main_v45 (idx_main_v46 (ix2 n d)) = ix1 d from funext fun a => Fin.ext (by match a with | ⟨0, _⟩ => rfl)]
  rfl

/-- The column sum over the 100000 rows, from the zero initial value. -/
theorem colsum_at (x0 : S100000x64.Idx → EReal) (x1 : IVec S2x3200000 32) (x2 : S64x64.Idx → EReal) (x3 : S64.Idx → EReal) (x4 : S64x64.Idx → EReal) (x5 : S64.Idx → EReal)
    (A : Mat NN DD)
    (hA : ∀ (n : Fin 100000) (d : Fin 64), val_main_v40 (F := Ideal) x0 x1 x2 (ix2 n d) = A n d) (d : Fin 64) :
    val_main_v48 (F := Ideal) x0 x1 x2 x3 x4 x5 (ix1 d) = colSum (fc A (toRow x3) (toMatD x4) (toRow x5)) d := by
  rw [val_main_v48_apply]
  have hz : (val_main_cst_7 (F := Ideal)) (Shape.Idx.first h_S_) = 0 := Ideal.ofBits_zero_f32
  rw [hz, zero_add]
  unfold colSum
  refine Finset.sum_congr rfl fun k _ => ?_
  rw [show idx_main_v48 (ix1 d) k = ix2 k d from funext fun a => Fin.ext (by match a with | ⟨0, _⟩ => rfl | ⟨1, _⟩ => rfl)]
  exact lin_at x0 x1 x2 x3 x4 x5 A hA k d

/-- The column mean: the column sum divided by the count. -/
theorem mean_at (x0 : S100000x64.Idx → EReal) (x1 : IVec S2x3200000 32) (x2 : S64x64.Idx → EReal) (x3 : S64.Idx → EReal) (x4 : S64x64.Idx → EReal) (x5 : S64.Idx → EReal)
    (A : Mat NN DD)
    (hA : ∀ (n : Fin 100000) (d : Fin 64), val_main_v40 (F := Ideal) x0 x1 x2 (ix2 n d) = A n d) (d : Fin 64) :
    val_main_v50 (F := Ideal) x0 x1 x2 x3 x4 x5 (ix1 d) = meanOf cN (fc A (toRow x3) (toMatD x4) (toRow x5)) d := by
  rw [val_main_v50_apply, colsum_at x0 x1 x2 x3 x4 x5 A hA d, val_main_v49_apply]
  rfl

/-- The deviation from the column mean (as the variance takes it). -/
theorem dev_at (x0 : S100000x64.Idx → EReal) (x1 : IVec S2x3200000 32) (x2 : S64x64.Idx → EReal) (x3 : S64.Idx → EReal) (x4 : S64x64.Idx → EReal) (x5 : S64.Idx → EReal)
    (A : Mat NN DD)
    (hA : ∀ (n : Fin 100000) (d : Fin 64), val_main_v40 (F := Ideal) x0 x1 x2 (ix2 n d) = A n d) (n : Fin 100000) (d : Fin 64) :
    val_main_v53 (F := Ideal) x0 x1 x2 x3 x4 x5 (ix2 n d) = (fc A (toRow x3) (toMatD x4) (toRow x5)) n d - meanOf cN (fc A (toRow x3) (toMatD x4) (toRow x5)) d := by
  rw [val_main_v53_apply, lin_at x0 x1 x2 x3 x4 x5 A hA n d, val_main_v52_apply, val_main_v51_apply, show idx_main_v51 (idx_main_v52 (ix2 n d)) = ix1 d from funext fun a => Fin.ext (by match a with | ⟨0, _⟩ => rfl),
    mean_at x0 x1 x2 x3 x4 x5 A hA d]
  rfl

/-- The squared deviation. -/
theorem devsq_at (x0 : S100000x64.Idx → EReal) (x1 : IVec S2x3200000 32) (x2 : S64x64.Idx → EReal) (x3 : S64.Idx → EReal) (x4 : S64x64.Idx → EReal) (x5 : S64.Idx → EReal)
    (A : Mat NN DD)
    (hA : ∀ (n : Fin 100000) (d : Fin 64), val_main_v40 (F := Ideal) x0 x1 x2 (ix2 n d) = A n d) (n : Fin 100000) (d : Fin 64) :
    val_main_v54 (F := Ideal) x0 x1 x2 x3 x4 x5 (ix2 n d) = ((fc A (toRow x3) (toMatD x4) (toRow x5)) n d - meanOf cN (fc A (toRow x3) (toMatD x4) (toRow x5)) d) * ((fc A (toRow x3) (toMatD x4) (toRow x5)) n d - meanOf cN (fc A (toRow x3) (toMatD x4) (toRow x5)) d) := by
  rw [val_main_v54_apply, dev_at x0 x1 x2 x3 x4 x5 A hA n d]
  rfl

/-- The mean of the squared deviations: the variance. -/
theorem var_at (x0 : S100000x64.Idx → EReal) (x1 : IVec S2x3200000 32) (x2 : S64x64.Idx → EReal) (x3 : S64.Idx → EReal) (x4 : S64x64.Idx → EReal) (x5 : S64.Idx → EReal)
    (A : Mat NN DD)
    (hA : ∀ (n : Fin 100000) (d : Fin 64), val_main_v40 (F := Ideal) x0 x1 x2 (ix2 n d) = A n d) (d : Fin 64) :
    val_main_v57 (F := Ideal) x0 x1 x2 x3 x4 x5 (ix1 d) = varR cN (fc A (toRow x3) (toMatD x4) (toRow x5)) d := by
  rw [val_main_v57_apply, val_main_v55_apply]
  have hz : (val_main_cst_9 (F := Ideal)) (Shape.Idx.first h_S_) = 0 := Ideal.ofBits_zero_f32
  rw [hz, zero_add, val_main_v56_apply]
  unfold varR colSum
  refine congrArg₂ Ideal.div (Finset.sum_congr rfl fun k _ => ?_) rfl
  rw [show idx_main_v55 (ix1 d) k = ix2 k d from funext fun a => Fin.ext (by match a with | ⟨0, _⟩ => rfl | ⟨1, _⟩ => rfl)]
  exact devsq_at x0 x1 x2 x3 x4 x5 A hA k d

/-- The deviation from the column mean (as the normalisation takes it). -/
theorem centred_at (x0 : S100000x64.Idx → EReal) (x1 : IVec S2x3200000 32) (x2 : S64x64.Idx → EReal) (x3 : S64.Idx → EReal) (x4 : S64x64.Idx → EReal) (x5 : S64.Idx → EReal)
    (A : Mat NN DD)
    (hA : ∀ (n : Fin 100000) (d : Fin 64), val_main_v40 (F := Ideal) x0 x1 x2 (ix2 n d) = A n d) (n : Fin 100000) (d : Fin 64) :
    val_main_v60 (F := Ideal) x0 x1 x2 x3 x4 x5 (ix2 n d) = (fc A (toRow x3) (toMatD x4) (toRow x5)) n d - meanOf cN (fc A (toRow x3) (toMatD x4) (toRow x5)) d := by
  rw [val_main_v60_apply, lin_at x0 x1 x2 x3 x4 x5 A hA n d, val_main_v59_apply, val_main_v58_apply, show idx_main_v58 (idx_main_v59 (ix2 n d)) = ix1 d from funext fun a => Fin.ext (by match a with | ⟨0, _⟩ => rfl),
    mean_at x0 x1 x2 x3 x4 x5 A hA d]
  rfl

/-- The inverse deviation: the inverse square root of the variance plus the offset. -/
theorem inv_at (x0 : S100000x64.Idx → EReal) (x1 : IVec S2x3200000 32) (x2 : S64x64.Idx → EReal) (x3 : S64.Idx → EReal) (x4 : S64x64.Idx → EReal) (x5 : S64.Idx → EReal)
    (A : Mat NN DD)
    (hA : ∀ (n : Fin 100000) (d : Fin 64), val_main_v40 (F := Ideal) x0 x1 x2 (ix2 n d) = A n d) (d : Fin 64) :
    val_main_v63 (F := Ideal) x0 x1 x2 x3 x4 x5 (ix1 d) = Ideal.rsqrt (varR cN (fc A (toRow x3) (toMatD x4) (toRow x5)) d + eps) := by
  rw [val_main_v63_apply, val_main_v62_apply, var_at x0 x1 x2 x3 x4 x5 A hA d, val_main_v61_apply]
  rfl

/-- Centred and scaled. -/
theorem scaled_at (x0 : S100000x64.Idx → EReal) (x1 : IVec S2x3200000 32) (x2 : S64x64.Idx → EReal) (x3 : S64.Idx → EReal) (x4 : S64x64.Idx → EReal) (x5 : S64.Idx → EReal)
    (A : Mat NN DD)
    (hA : ∀ (n : Fin 100000) (d : Fin 64), val_main_v40 (F := Ideal) x0 x1 x2 (ix2 n d) = A n d) (n : Fin 100000) (d : Fin 64) :
    val_main_v66 (F := Ideal) x0 x1 x2 x3 x4 x5 (ix2 n d) = ((fc A (toRow x3) (toMatD x4) (toRow x5)) n d - meanOf cN (fc A (toRow x3) (toMatD x4) (toRow x5)) d) * Ideal.rsqrt (varR cN (fc A (toRow x3) (toMatD x4) (toRow x5)) d + eps) := by
  rw [val_main_v66_apply, centred_at x0 x1 x2 x3 x4 x5 A hA n d, val_main_v65_apply, val_main_v64_apply, show idx_main_v64 (idx_main_v65 (ix2 n d)) = ix1 d from funext fun a => Fin.ext (by match a with | ⟨0, _⟩ => rfl),
    inv_at x0 x1 x2 x3 x4 x5 A hA d]
  rfl

/-- With the gain. -/
theorem gained_at (x0 : S100000x64.Idx → EReal) (x1 : IVec S2x3200000 32) (x2 : S64x64.Idx → EReal) (x3 : S64.Idx → EReal) (x4 : S64x64.Idx → EReal) (x5 : S64.Idx → EReal) (x6 : S64.Idx → EReal)
    (A : Mat NN DD)
    (hA : ∀ (n : Fin 100000) (d : Fin 64), val_main_v40 (F := Ideal) x0 x1 x2 (ix2 n d) = A n d) (n : Fin 100000) (d : Fin 64) :
    val_main_v69 (F := Ideal) x0 x1 x2 x3 x4 x5 x6 (ix2 n d)
      = (((fc A (toRow x3) (toMatD x4) (toRow x5)) n d - meanOf cN (fc A (toRow x3) (toMatD x4) (toRow x5)) d) * Ideal.rsqrt (varR cN (fc A (toRow x3) (toMatD x4) (toRow x5)) d + eps)) * toRow x6 d := by
  rw [val_main_v69_apply, scaled_at x0 x1 x2 x3 x4 x5 A hA n d, val_main_v68_apply, val_main_v67_apply, show idx_main_v67 (idx_main_v68 (ix2 n d)) = ix1 d from funext fun a => Fin.ext (by match a with | ⟨0, _⟩ => rfl)]
  rfl

/-- With the offset. -/
theorem shifted_at (x0 : S100000x64.Idx → EReal) (x1 : IVec S2x3200000 32) (x2 : S64x64.Idx → EReal) (x3 : S64.Idx → EReal) (x4 : S64x64.Idx → EReal) (x5 : S64.Idx → EReal) (x6 : S64.Idx → EReal) (x7 : S64.Idx → EReal)
    (A : Mat NN DD)
    (hA : ∀ (n : Fin 100000) (d : Fin 64), val_main_v40 (F := Ideal) x0 x1 x2 (ix2 n d) = A n d) (n : Fin 100000) (d : Fin 64) :
    val_main_v72 (F := Ideal) x0 x1 x2 x3 x4 x5 x6 x7 (ix2 n d)
      = ((((fc A (toRow x3) (toMatD x4) (toRow x5)) n d - meanOf cN (fc A (toRow x3) (toMatD x4) (toRow x5)) d) * Ideal.rsqrt (varR cN (fc A (toRow x3) (toMatD x4) (toRow x5)) d + eps)) * toRow x6 d) + toRow x7 d := by
  rw [val_main_v72_apply, gained_at x0 x1 x2 x3 x4 x5 x6 A hA n d, val_main_v71_apply, val_main_v70_apply, show idx_main_v70 (idx_main_v71 (ix2 n d)) = ix1 d from funext fun a => Fin.ext (by match a with | ⟨0, _⟩ => rfl)]
  rfl

end FirstNorm

/-- Whatever the aggregation holds, entry by entry, the first rectifier's result is arrangement R's normalised, rectified
    linear map of it. -/
theorem rbn1 (x0 : S100000x64.Idx → EReal) (x1 : IVec S2x3200000 32) (x2 : S64x64.Idx → EReal) (x3 : S64.Idx → EReal) (x4 : S64x64.Idx → EReal) (x5 : S64.Idx → EReal) (x6 : S64.Idx → EReal) (x7 : S64.Idx → EReal)
    (A : Mat NN DD)
    (hA : ∀ (n : Fin 100000) (d : Fin 64), val_main_v40 (F := Ideal) x0 x1 x2 (ix2 n d) = A n d)
    (n : Fin 100000) (d : Fin 64) :
    val_main_v73 (F := Ideal) x0 x1 x2 x3 x4 x5 x6 x7 (ix2 n d)
      = bnR cN eps (fc A (toRow x3) (toMatD x4) (toRow x5)) (toRow x6) (toRow x7) n d := by
  rw [val_main_v73_apply, FirstNorm.shifted_at x0 x1 x2 x3 x4 x5 x6 x7 A hA n d, val_main_call0_v0_apply]
  have hz : (val_main_call0_cst (F := Ideal)) (idx_main_call0_v0 (ix2 n d)) = 0 := Ideal.ofBits_zero_f32
  rw [hz]
  rfl

end Cert.ReferenceIdeal.RefVal

end
-- ==== Proof.LibGatherVec.lean ====
/-
  A GATHER OF SINGLE ELEMENTS OF A VECTOR, READ AT AN INDEX.

  A gather of an operand `[N]` at start indices `[E, 1]` with no offset axis, collapsed operand axis 0, start index map
  `[0]`, the index vector on axis 1 of the start indices and slices of one element produces a result `[E]`. The operand
  index for the result index `e` is the word `idx (e, 0)` read signed, as a natural number, clamped to `N − 1`: there is
  no batching axis and the one operand axis is collapsed, so nothing is added to the clamped start.
-/
import Idealize.ShloMosaic.PureOps.Ideal
import Idealize.ShloMosaic.Lib.ValueIdx

noncomputable section

open Idealize.ShloMosaic Idealize.ShloMosaic.ValueIdx

namespace Cert.LibGatherVec

/-- The dimension numbers of an element gather from a vector: operand `[N]`, one start-index word per result element
    in `[E, 1]`, result `[E]`. -/
abbrev vecDims {N E : Nat}
    (wf : GatherDims.WF (⟨1, ![N]⟩ : Shape) (⟨2, ![E, 1]⟩ : Shape) (⟨1, ![E]⟩ : Shape) [] [0] [] [0] [] 1 ![1]) :
    GatherDims (⟨1, ![N]⟩ : Shape) (⟨2, ![E, 1]⟩ : Shape) (⟨1, ![E]⟩ : Shape) where
  offsetDims := []
  collapsedSliceDims := [0]
  operandBatchingDims := []
  startIndicesBatchingDims := []
  startIndexMap := [0]
  indexVectorDim := 1
  sliceSizes := ![1]
  wf := wf

/-- THE ELEMENT GATHER READ AT `e`: the operand at the start-index word of `e`, read signed and clamped into
    `[0, N − 1]`. -/
theorem gather_vec_apply {α : Type} {N E w : Nat} (hN : 0 < N)
    (wf : GatherDims.WF (⟨1, ![N]⟩ : Shape) (⟨2, ![E, 1]⟩ : Shape) (⟨1, ![E]⟩ : Shape) [] [0] [] [0] [] 1 ![1])
    (x : (⟨1, ![N]⟩ : Shape).Idx → α) (idx : IVec (⟨2, ![E, 1]⟩ : Shape) w) (e : Fin E) :
    Host.gather (vecDims wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecDims wf).start (ix1 e) idx 0 + (vecDims wf).batchCoord (ix1 e) 0 + (vecDims wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims wf).startIndexMap from List.mem_singleton.mpr rfl)]
  have hsi : (vecDims wf).siIdx (ix1 e) ⟨List.idxOf (0 : Fin 1) (vecDims wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.LibGatherVec

end
-- ==== Proof.RLayer1.lean ====
/-
  THE FIRST LAYER of the reference program, one operation at a time: the source and target words, the in-degrees and their
  inverse square roots, the product with the first weight, the messages normalised on their edges and summed by target
  word, the bias, the linear map, the column mean and the mean of squared deviations, the normalisation and the rectifier.
-/
import proofs.«416678_j48155173322920_3_alg».proof.Proof.Gen.ReferenceIdeal.Read
import proofs.«416678_j48155173322920_3_alg».proof.Proof.RDefs
import proofs.«416678_j48155173322920_3_alg».proof.Proof.R1b
import proofs.«416678_j48155173322920_3_alg».proof.Proof.LibGatherRows
import proofs.«416678_j48155173322920_3_alg».proof.Proof.LibGatherVec
import proofs.«416678_j48155173322920_3_alg».proof.Proof.LibScatterSum
import proofs.«416678_j48155173322920_3_alg».proof.Proof.LibPlainRows
import Idealize.ShloMosaic.Lib.ValueIdx
import Idealize.ShloMosaic.Lib.Pipeline.Value

noncomputable section

open scoped BigOperators
open Idealize.ShloMosaic Idealize.ShloMosaic.ValueIdx

namespace Cert.ReferenceIdeal.RefVal

open Cert.ReferenceIdeal Cert.ReferenceIdeal.Gen Cert.ReferenceIdeal.Read Cert.GcnSpec Cert.GcnEdges Cert.GcnHost

namespace Layer1

/-! ### The word buffers and the normaliser are the shared definitions -/

section Words
variable (x1 : IVec S2x3200000 32)

/-- The source words. -/
theorem v3_eq : val_main_v3 (F := Ideal) x1 = srcWords hE x1 := by
  unfold val_main_v3 val_main_v2 val_main_v1 val_main_v0 srcWords
  rfl

/-- The target words. -/
theorem v6_eq : val_main_v6 (F := Ideal) x1 = dstWords hE x1 := by
  unfold val_main_v6 val_main_v5 val_main_v4 val_main_v0 dstWords
  rfl

/-- The target words as a column (the in-degree scatter's indices). -/
theorem v9_eq : val_main_v9 (F := Ideal) x1 = col hE (dstWords hE x1) := by
  unfold val_main_v9 col
  rw [v6_eq]

/-- The target words as a column (the segment sum's indices). -/
theorem v39_eq : val_main_v39 (F := Ideal) x1 = col hE (dstWords hE x1) := by
  unfold val_main_v39 col
  rw [v6_eq]

/-- The in-degrees. -/
theorem v10_eq : val_main_v10 (F := Ideal) x1 = degArr hE x1 := by
  unfold val_main_v10 degArr
  rw [v9_eq]
  unfold val_main_v8 val_main_v7 val_main_cst_0 val_main_cst scatter_S100000_S3300000x1_S3300000_n_0_0_1
  rfl

/-- The normaliser. -/
theorem v11_eq : val_main_v11 (F := Ideal) x1 = dinvArr hE x1 := by
  unfold val_main_v11 dinvArr
  rw [v10_eq]

/-- The wrapped source words, as the normaliser's gather reads them. -/
theorem v17_eq : val_main_v17 (F := Ideal) x1 = wrapWords hE (srcWords hE x1) := by
  unfold val_main_v17 val_main_v14 val_main_v16 val_main_v13 val_main_v15 val_main_c val_main_c_1 wrapWords
  rw [v3_eq]

theorem v18_eq : val_main_v18 (F := Ideal) x1 = col hE (wrapWords hE (srcWords hE x1)) := by
  unfold val_main_v18 col
  rw [v17_eq]

/-- The wrapped target words. -/
theorem v24_eq : val_main_v24 (F := Ideal) x1 = wrapWords hE (dstWords hE x1) := by
  unfold val_main_v24 val_main_v21 val_main_v23 val_main_v20 val_main_v22 val_main_c_2 val_main_c_3 wrapWords
  rw [v6_eq]

theorem v25_eq : val_main_v25 (F := Ideal) x1 = col hE (wrapWords hE (dstWords hE x1)) := by
  unfold val_main_v25 col
  rw [v24_eq]

/-- The wrapped source words, as the gather of the product's rows reads them. -/
theorem v33_eq : val_main_v33 (F := Ideal) x1 = wrapWords hE (srcWords hE x1) := by
  unfold val_main_v33 val_main_v30 val_main_v32 val_main_v29 val_main_v31 val_main_c_4 val_main_c_5 wrapWords
  rw [v3_eq]

theorem v34_eq : val_main_v34 (F := Ideal) x1 = col hE (wrapWords hE (srcWords hE x1)) := by
  unfold val_main_v34 col
  rw [v33_eq]

end Words

/-! ### The index functions of the layout operations, at coordinates -/

theorem idx28 (e : Fin 3300000) : idx_main_v28 (ix2 e (0 : Fin 1)) = ix1 e :=
  funext fun a => Fin.ext (by match a with | ⟨0, _⟩ => rfl)
theorem idx36 (e : Fin 3300000) (d : Fin 64) : idx_main_v36 (ix2 e d) = ix2 e (0 : Fin 1) :=
  funext fun a => Fin.ext (by match a with | ⟨0, _⟩ => rfl | ⟨1, _⟩ => rfl)
theorem lidx12 (n : Fin 100000) (d k : Fin 64) : lidx_main_v12 (ix2 n d) k = ix2 n k :=
  funext fun a => Fin.ext (by match a with | ⟨0, _⟩ => rfl | ⟨1, _⟩ => rfl)
theorem ridx12 (n : Fin 100000) (d k : Fin 64) : ridx_main_v12 (ix2 n d) k = ix2 k d :=
  funext fun a => Fin.ext (by match a with | ⟨0, _⟩ => rfl | ⟨1, _⟩ => rfl)

/-! ### The two gathers and the segment sum at the program's own records -/

/-- The element gather of a vector of 100000 entries by one word per edge reads the entry of the row of that word. -/
theorem gatherVec_read (x : (⟨S100000, .f32⟩ : BufTy).Contents (Elt Ideal)) (idx : IVec S3300000x1 32) (e : Fin 3300000) :
    Host.gather gather_S100000_S3300000x1_S3300000_n_0_n_n_0_1_1 x idx (ix1 e) = x (ix1 (rowOf idx e)) := by
  unfold gather_S100000_S3300000x1_S3300000_n_0_n_n_0_1_1
  exact Cert.LibGatherVec.gather_vec_apply (by decide) _ x idx e

/-- The gather of whole rows by one word per edge reads the row of that word. -/
theorem gatherRows_read (x : (⟨S100000x64, .f32⟩ : BufTy).Contents (Elt Ideal)) (idx : IVec S3300000x1 32)
    (e : Fin 3300000) (d : Fin 64) :
    Host.gather gather_S100000x64_S3300000x1_S3300000x64_1_0_n_n_0_1_164 x idx (ix2 e d) = x (ix2 (rowOf idx e) d) := by
  unfold gather_S100000x64_S3300000x1_S3300000x64_1_0_n_n_0_1_164
  exact gatherRows_apply hK (φ := .f32) x idx e d

/-- The segment sum into the zero array: the sum of the update rows whose word is the node. -/
theorem segSum_read (idx : IVec S3300000x1 32) (upd : (⟨S3300000x64, .f32⟩ : BufTy).Contents (Elt Ideal))
    (n : Fin 100000) (d : Fin 64) :
    Host.scatterAdd (F := Ideal) (φ := .f32) scatter_S100000x64_S3300000x1_S3300000x64_1_0_0_1 (val_main_v38 (F := Ideal)) idx upd (ix2 n d)
      = ∑ e ∈ Finset.univ.filter (fun e : Fin 3300000 => (idx (ix2 e (0 : Fin 1))).toInt = (n.val : ℤ)), upd (ix2 e d) := by
  unfold scatter_S100000x64_S3300000x1_S3300000x64_1_0_0_1 val_main_v38 val_main_cst_6
  exact segmentSum_apply hK idx upd n d

/-! ### The edge coefficients -/

section Coef
variable (x1 : IVec S2x3200000 32)

/-- The normaliser at the source row of an edge. -/
theorem v19_entry (e : Fin 3300000) :
    val_main_v19 (F := Ideal) x1 (ix1 e) = (graph hE x1).dinv ((graph hE x1).src e) := by
  unfold val_main_v19
  rw [v11_eq, v18_eq, gatherVec_read]
  rfl

/-- The normaliser at the target row of an edge. -/
theorem v26_entry (e : Fin 3300000) :
    val_main_v26 (F := Ideal) x1 (ix1 e) = (graph hE x1).dinv ((graph hE x1).dstRow e) := by
  unfold val_main_v26
  rw [v11_eq, v25_eq, gatherVec_read]
  rfl

/-- The coefficient of an edge: the product of the two normalisers. -/
theorem v27_entry (e : Fin 3300000) :
    val_main_v27 (F := Ideal) x1 (ix1 e)
      = (graph hE x1).dinv ((graph hE x1).src e) * (graph hE x1).dinv ((graph hE x1).dstRow e) := by
  rw [val_main_v27_apply, v19_entry, v26_entry]
  rfl

/-- The coefficient laid along the edge's row. -/
theorem v36_entry (e : Fin 3300000) (d : Fin 64) :
    val_main_v36 (F := Ideal) x1 (ix2 e d)
      = (graph hE x1).dinv ((graph hE x1).src e) * (graph hE x1).dinv ((graph hE x1).dstRow e) := by
  rw [val_main_v36_apply, idx36, val_main_v28_apply, idx28, v27_entry]

end Coef

/-! ### The product with the first weight, the messages and their sum -/

section Agg
variable (x0 : S100000x64.Idx → EReal) (x1 : IVec S2x3200000 32) (x2 : S64x64.Idx → EReal)

/-- The product with the first weight. -/
theorem v12_entry (n : Fin 100000) (d : Fin 64) :
    val_main_v12 (F := Ideal) x0 x2 (ix2 n d) = mm (toMat x0) (toMatD x2) n d := by
  rw [val_main_v12_apply]
  unfold mm toMat toMatD
  refine Finset.sum_congr rfl fun k _ => ?_
  rw [lidx12, ridx12]

/-- The product's row at the source row of an edge. -/
theorem v35_entry (e : Fin 3300000) (d : Fin 64) :
    val_main_v35 (F := Ideal) x0 x1 x2 (ix2 e d) = mm (toMat x0) (toMatD x2) ((graph hE x1).src e) d := by
  unfold val_main_v35
  rw [gatherRows_read, v34_eq, v12_entry]
  rfl

/-- The message of an edge. -/
theorem v37_entry (e : Fin 3300000) (d : Fin 64) :
    val_main_v37 (F := Ideal) x0 x1 x2 (ix2 e d)
      = ((graph hE x1).dinv ((graph hE x1).src e) * (graph hE x1).dinv ((graph hE x1).dstRow e))
          * mm (toMat x0) (toMatD x2) ((graph hE x1).src e) d := by
  rw [val_main_v37_apply, v36_entry, v35_entry]
  rfl

/-- The aggregation: the messages summed by target word. -/
theorem v40_entry (n : Fin 100000) (d : Fin 64) :
    val_main_v40 (F := Ideal) x0 x1 x2 (ix2 n d) = aggR (graph hE x1) (toMat x0) (toMatD x2) n d := by
  unfold val_main_v40
  rw [segSum_read, v39_eq]
  unfold aggR segSum
  refine Finset.sum_congr rfl fun e _ => ?_
  rw [v37_entry]

end Agg

end Layer1

/-- THE FIRST LAYER: the rectifier's result (the buffer the second layer reads) is arrangement R's first layer. -/
theorem rlayer1 (x0 : S100000x64.Idx → EReal) (x1 : IVec S2x3200000 32) (x2 : S64x64.Idx → EReal) (x3 : S64.Idx → EReal) (x4 : S64x64.Idx → EReal) (x5 : S64.Idx → EReal) (x6 : S64.Idx → EReal) (x7 : S64.Idx → EReal)
    (n : Fin 100000) (d : Fin 64) :
    val_main_v73 (F := Ideal) x0 x1 x2 x3 x4 x5 x6 x7 (ix2 n d) = out1 x0 x1 x2 x3 x4 x5 x6 x7 n d := by
  unfold out1 layerR
  exact rbn1 x0 x1 x2 x3 x4 x5 x6 x7 _ (fun n d => Layer1.v40_entry x0 x1 x2 n d) n d

end Cert.ReferenceIdeal.RefVal

end
-- ==== Proof.R2b.lean ====
/-
  THE SECOND LAYER'S LINEAR MAP AND NORMALISATION in the reference program, one operation at a time, from the second
  aggregation: the bias, the linear map and its bias, the column mean, the mean of the squared deviations, the
  normalisation by the inverse deviation, the gain, the offset and the rectifier.
-/
import proofs.«416678_j48155173322920_3_alg».proof.Proof.Gen.ReferenceIdeal.Read
import proofs.«416678_j48155173322920_3_alg».proof.Proof.RDefs
import proofs.«416678_j48155173322920_3_alg».proof.Proof.LibPlainRows
import Idealize.ShloMosaic.Lib.ValueIdx
import Idealize.ShloMosaic.Lib.Pipeline.Value

noncomputable section

open scoped BigOperators
open Idealize.ShloMosaic Idealize.ShloMosaic.ValueIdx

namespace Cert.ReferenceIdeal.RefVal

open Cert.ReferenceIdeal Cert.ReferenceIdeal.Gen Cert.ReferenceIdeal.Read Cert.GcnSpec Cert.GcnEdges Cert.GcnHost

namespace SecondBN

/-! ## The operations after the second aggregation, one entry at a time -/

section
variable (x0 : S100000x64.Idx → EReal) (x1 : IVec S2x3200000 32) (x2 : S64x64.Idx → EReal) (x3 : S64.Idx → EReal)
  (x4 : S64x64.Idx → EReal) (x5 : S64.Idx → EReal) (x6 : S64.Idx → EReal) (x7 : S64.Idx → EReal)
  (x8 : S64x64.Idx → EReal) (x9 : S64.Idx → EReal) (x10 : S64x64.Idx → EReal) (x11 : S64.Idx → EReal)
  (x12 : S64.Idx → EReal) (x13 : S64.Idx → EReal)

/-- The zero word is the real zero. -/
theorem zeroWord : (FloatOps.ofBits .f32 0x00000000#32 : Ideal .f32) = 0 := Ideal.ofBits_zero_f32

/-- The bias vector laid along every row. -/
theorem biasRow (n : Fin 100000) (d : Fin 64) : val_main_v104 (F := Ideal) x9 (ix2 n d) = toRow x9 d := by
  unfold val_main_v104 val_main_v103
  exact PlainRows.rowBroadcast_apply (x9) _ _ n d

/-- The linear map's bias vector laid along every row. -/
theorem mapBiasRow (n : Fin 100000) (d : Fin 64) : val_main_v108 (F := Ideal) x11 (ix2 n d) = toRow x11 d := by
  unfold val_main_v108 val_main_v107
  exact PlainRows.rowBroadcast_apply (x11) _ _ n d

/-- The gain vector laid along every row. -/
theorem gainRow (n : Fin 100000) (d : Fin 64) : val_main_v130 (F := Ideal) x12 (ix2 n d) = toRow x12 d := by
  unfold val_main_v130 val_main_v129
  exact PlainRows.rowBroadcast_apply (x12) _ _ n d

/-- The offset vector laid along every row. -/
theorem offsetRow (n : Fin 100000) (d : Fin 64) : val_main_v133 (F := Ideal) x13 (ix2 n d) = toRow x13 d := by
  unfold val_main_v133 val_main_v132
  exact PlainRows.rowBroadcast_apply (x13) _ _ n d

/-! ### The linear map -/

section Linear
variable (A : Mat NN DD)
  (hA : ∀ (n : Fin 100000) (d : Fin 64), val_main_v102 (F := Ideal) x0 x1 x2 x3 x4 x5 x6 x7 x8 (ix2 n d) = A n d)
include hA

/-- The aggregation plus the bias row. -/
theorem biased (n : Fin 100000) (k : Fin 64) : val_main_v105 (F := Ideal) x0 x1 x2 x3 x4 x5 x6 x7 x8 x9 (ix2 n k) = A n k + toRow x9 k := by
  rw [val_main_v105_apply, hA, biasRow]
  rfl

/-- Its product with the linear map's weight. -/
theorem mapped (n : Fin 100000) (d : Fin 64) :
    val_main_v106 (F := Ideal) x0 x1 x2 x3 x4 x5 x6 x7 x8 x9 x10 (ix2 n d) = ∑ k : Fin 64, (A n k + toRow x9 k) * toMatD x10 k d := by
  rw [val_main_v106_apply]
  refine Finset.sum_congr rfl fun k _ => ?_
  have hl : lidx_main_v106 (ix2 n d) k = ix2 n k :=
    funext fun a => Fin.ext (by match a with | ⟨0, _⟩ => rfl | ⟨1, _⟩ => rfl)
  have hr : ridx_main_v106 (ix2 n d) k = ix2 k d :=
    funext fun a => Fin.ext (by match a with | ⟨0, _⟩ => rfl | ⟨1, _⟩ => rfl)
  rw [hl, hr, biased x0 x1 x2 x3 x4 x5 x6 x7 x8 x9 A hA]
  rfl

/-- THE LINEAR MAP of the aggregation, its bias added. -/
theorem linear (n : Fin 100000) (d : Fin 64) :
    val_main_v109 (F := Ideal) x0 x1 x2 x3 x4 x5 x6 x7 x8 x9 x10 x11 (ix2 n d) = fc A (toRow x9) (toMatD x10) (toRow x11) n d := by
  rw [val_main_v109_apply, mapped x0 x1 x2 x3 x4 x5 x6 x7 x8 x9 x10 A hA, mapBiasRow]
  rfl

end Linear

/-! ### The statistics and the normalisation, for whatever the linear map holds -/

section Stats
variable (Y : Mat NN DD)
  (hY : ∀ (n : Fin 100000) (d : Fin 64), val_main_v109 (F := Ideal) x0 x1 x2 x3 x4 x5 x6 x7 x8 x9 x10 x11 (ix2 n d) = Y n d)
include hY

/-- The column sums. -/
theorem sums (d : Fin 64) : val_main_v110 (F := Ideal) x0 x1 x2 x3 x4 x5 x6 x7 x8 x9 x10 x11 (ix1 d) = colSum Y d := by
  rw [val_main_v110_apply, val_main_cst_19_apply, zeroWord, zero_add]
  unfold colSum
  refine Finset.sum_congr rfl fun k _ => ?_
  have hi : idx_main_v110 (ix1 d) k = ix2 k d :=
    funext fun a => Fin.ext (by match a with | ⟨0, _⟩ => rfl | ⟨1, _⟩ => rfl)
  rw [hi, hY]

/-- The column means. -/
theorem mean (d : Fin 64) : val_main_v112 (F := Ideal) x0 x1 x2 x3 x4 x5 x6 x7 x8 x9 x10 x11 (ix1 d) = meanOf cN Y d := by
  rw [val_main_v112_apply, sums x0 x1 x2 x3 x4 x5 x6 x7 x8 x9 x10 x11 Y hY, val_main_v111_apply, val_main_cst_20_apply]
  rfl

/-- The means laid along every row (for the deviations). -/
theorem meanRowA (n : Fin 100000) (d : Fin 64) : val_main_v114 (F := Ideal) x0 x1 x2 x3 x4 x5 x6 x7 x8 x9 x10 x11 (ix2 n d) = meanOf cN Y d := by
  unfold val_main_v114 val_main_v113
  exact (PlainRows.rowBroadcast_apply (val_main_v112 (F := Ideal) x0 x1 x2 x3 x4 x5 x6 x7 x8 x9 x10 x11) _ _ n d).trans (mean x0 x1 x2 x3 x4 x5 x6 x7 x8 x9 x10 x11 Y hY d)

/-- The means laid along every row (for the centring). -/
theorem meanRowB (n : Fin 100000) (d : Fin 64) : val_main_v121 (F := Ideal) x0 x1 x2 x3 x4 x5 x6 x7 x8 x9 x10 x11 (ix2 n d) = meanOf cN Y d := by
  unfold val_main_v121 val_main_v120
  exact (PlainRows.rowBroadcast_apply (val_main_v112 (F := Ideal) x0 x1 x2 x3 x4 x5 x6 x7 x8 x9 x10 x11) _ _ n d).trans (mean x0 x1 x2 x3 x4 x5 x6 x7 x8 x9 x10 x11 Y hY d)

/-- The squared deviations. -/
theorem sqDev (n : Fin 100000) (d : Fin 64) :
    val_main_v116 (F := Ideal) x0 x1 x2 x3 x4 x5 x6 x7 x8 x9 x10 x11 (ix2 n d) = (Y n d - meanOf cN Y d) * (Y n d - meanOf cN Y d) := by
  rw [val_main_v116_apply, val_main_v115_apply, hY, meanRowA x0 x1 x2 x3 x4 x5 x6 x7 x8 x9 x10 x11 Y hY]
  rfl

/-- The mean of the squared deviations. -/
theorem variance (d : Fin 64) : val_main_v119 (F := Ideal) x0 x1 x2 x3 x4 x5 x6 x7 x8 x9 x10 x11 (ix1 d) = varR cN Y d := by
  rw [val_main_v119_apply, val_main_v117_apply, val_main_cst_21_apply, zeroWord, zero_add, val_main_v118_apply,
    val_main_cst_22_apply]
  unfold varR colSum
  refine congrArg (fun s => Ideal.div s cN) (Finset.sum_congr rfl fun k _ => ?_)
  have hi : idx_main_v117 (ix1 d) k = ix2 k d :=
    funext fun a => Fin.ext (by match a with | ⟨0, _⟩ => rfl | ⟨1, _⟩ => rfl)
  rw [hi, sqDev x0 x1 x2 x3 x4 x5 x6 x7 x8 x9 x10 x11 Y hY]

/-- The inverse deviation. -/
theorem invDev (d : Fin 64) : val_main_v125 (F := Ideal) x0 x1 x2 x3 x4 x5 x6 x7 x8 x9 x10 x11 (ix1 d) = Ideal.rsqrt (varR cN Y d + eps) := by
  rw [val_main_v125_apply, val_main_v124_apply, variance x0 x1 x2 x3 x4 x5 x6 x7 x8 x9 x10 x11 Y hY, val_main_v123_apply, val_main_cst_23_apply]
  rfl

/-- The inverse deviations laid along every row. -/
theorem invRow (n : Fin 100000) (d : Fin 64) : val_main_v127 (F := Ideal) x0 x1 x2 x3 x4 x5 x6 x7 x8 x9 x10 x11 (ix2 n d) = Ideal.rsqrt (varR cN Y d + eps) := by
  unfold val_main_v127 val_main_v126
  exact (PlainRows.rowBroadcast_apply (val_main_v125 (F := Ideal) x0 x1 x2 x3 x4 x5 x6 x7 x8 x9 x10 x11) _ _ n d).trans (invDev x0 x1 x2 x3 x4 x5 x6 x7 x8 x9 x10 x11 Y hY d)

/-- THE RESULT: centred, scaled, with gain and offset, rectified. -/
theorem rectified (n : Fin 100000) (d : Fin 64) :
    val_main_v135 (F := Ideal) x0 x1 x2 x3 x4 x5 x6 x7 x8 x9 x10 x11 x12 x13 (ix2 n d)
      = normRelu Y (meanOf cN Y) (fun d => Ideal.rsqrt (varR cN Y d + eps)) (toRow x12) (toRow x13) n d := by
  rw [val_main_v135_apply, val_main_v134_apply, val_main_v131_apply, val_main_v128_apply, val_main_v122_apply, hY,
    meanRowB x0 x1 x2 x3 x4 x5 x6 x7 x8 x9 x10 x11 Y hY, invRow x0 x1 x2 x3 x4 x5 x6 x7 x8 x9 x10 x11 Y hY, gainRow, offsetRow, val_main_call1_v0_apply,
    val_main_call1_cst_apply, zeroWord]
  rfl

end Stats

end

end SecondBN

/-- Whatever the second aggregation holds, entry by entry, the program's result is arrangement R's normalised, rectified
    linear map of it. -/
theorem rbn2 (x0 : S100000x64.Idx → EReal) (x1 : IVec S2x3200000 32) (x2 : S64x64.Idx → EReal) (x3 : S64.Idx → EReal) (x4 : S64x64.Idx → EReal) (x5 : S64.Idx → EReal) (x6 : S64.Idx → EReal) (x7 : S64.Idx → EReal)
    (x8 : S64x64.Idx → EReal) (x9 : S64.Idx → EReal) (x10 : S64x64.Idx → EReal) (x11 : S64.Idx → EReal) (x12 : S64.Idx → EReal) (x13 : S64.Idx → EReal)
    (A : Mat NN DD)
    (hA : ∀ (n : Fin 100000) (d : Fin 64), val_main_v102 (F := Ideal) x0 x1 x2 x3 x4 x5 x6 x7 x8 (ix2 n d) = A n d)
    (n : Fin 100000) (d : Fin 64) :
    val_main_v135 (F := Ideal) x0 x1 x2 x3 x4 x5 x6 x7 x8 x9 x10 x11 x12 x13 (ix2 n d)
      = bnR cN eps (fc A (toRow x9) (toMatD x10) (toRow x11)) (toRow x12) (toRow x13) n d := by
  unfold bnR
  exact SecondBN.rectified x0 x1 x2 x3 x4 x5 x6 x7 x8 x9 x10 x11 x12 x13 _
    (SecondBN.linear x0 x1 x2 x3 x4 x5 x6 x7 x8 x9 x10 x11 A hA) n d

end Cert.ReferenceIdeal.RefVal

end
-- ==== Proof.RLayer2.lean ====
/-
  THE SECOND LAYER of the reference program, from the first layer's output. The aggregation is read here one operation
  at a time: the product with the second weight, the normaliser gathered by source word and by target word, their
  product as the edge's coefficient, the product's rows gathered by source word, the messages, and their sum by target
  word into the zero array. What follows the aggregation (the bias, the linear map, the column mean and the mean of
  squared deviations, the normalisation and the rectifier) is read in the module imported for it, and joined here.
-/
import proofs.«416678_j48155173322920_3_alg».proof.Proof.Gen.ReferenceIdeal.Read
import proofs.«416678_j48155173322920_3_alg».proof.Proof.RDefs
import proofs.«416678_j48155173322920_3_alg».proof.Proof.R2b
import proofs.«416678_j48155173322920_3_alg».proof.Proof.LibGatherRows
import proofs.«416678_j48155173322920_3_alg».proof.Proof.LibGatherVec
import proofs.«416678_j48155173322920_3_alg».proof.Proof.LibScatterSum
import proofs.«416678_j48155173322920_3_alg».proof.Proof.LibPlainRows
import Idealize.ShloMosaic.Lib.ValueIdx
import Idealize.ShloMosaic.Lib.Pipeline.Value

noncomputable section

open scoped BigOperators
open Idealize.ShloMosaic Idealize.ShloMosaic.ValueIdx

namespace Cert.ReferenceIdeal.RefVal

open Cert.ReferenceIdeal Cert.ReferenceIdeal.Gen Cert.ReferenceIdeal.Read Cert.GcnSpec Cert.GcnEdges Cert.GcnHost

namespace Agg2

variable (x0 : S100000x64.Idx → EReal) (x1 : IVec S2x3200000 32) (x2 : S64x64.Idx → EReal) (x3 : S64.Idx → EReal)
  (x4 : S64x64.Idx → EReal) (x5 : S64.Idx → EReal) (x6 : S64.Idx → EReal) (x7 : S64.Idx → EReal) (x8 : S64x64.Idx → EReal)
  (X1 : Mat NN DD)

/-! ### The word buffers are the graph's -/

/-- The source words: row 0 of the edge list, then the self loops. -/
theorem v3_eq : val_main_v3 (F := Ideal) x1 = srcWords hE x1 := by
  unfold val_main_v3 val_main_v2 val_main_v1 val_main_v0 srcWords; rfl

/-- The target words: row 1 of the edge list, then the self loops. -/
theorem v6_eq : val_main_v6 (F := Ideal) x1 = dstWords hE x1 := by
  unfold val_main_v6 val_main_v5 val_main_v4 val_main_v0 dstWords; rfl

/-- The normaliser: the inverse square root of the in-degree. -/
theorem v11_eq : val_main_v11 (F := Ideal) x1 = dinvArr hE x1 := by
  unfold val_main_v11 val_main_v10 val_main_v9 val_main_v8 val_main_v7 val_main_cst val_main_cst_0 dinvArr degArr col
  rw [v6_eq]; rfl

/-- The wrapped source words, as the normaliser's gather takes them. -/
theorem v79_eq : val_main_v79 (F := Ideal) x1 = wrapWords hE (srcWords hE x1) := by
  unfold val_main_v79 val_main_v76 val_main_v78 val_main_v75 val_main_v77 val_main_c_12 val_main_c_13 wrapWords
  rw [v3_eq]

theorem v80_eq : val_main_v80 (F := Ideal) x1 = col hE (wrapWords hE (srcWords hE x1)) := by
  unfold val_main_v80 col; rw [v79_eq]

/-- The wrapped target words. -/
theorem v86_eq : val_main_v86 (F := Ideal) x1 = wrapWords hE (dstWords hE x1) := by
  unfold val_main_v86 val_main_v83 val_main_v85 val_main_v82 val_main_v84 val_main_c_14 val_main_c_15 wrapWords
  rw [v6_eq]

theorem v87_eq : val_main_v87 (F := Ideal) x1 = col hE (wrapWords hE (dstWords hE x1)) := by
  unfold val_main_v87 col; rw [v86_eq]

/-- The wrapped source words again, as the row gather takes them. -/
theorem v95_eq : val_main_v95 (F := Ideal) x1 = wrapWords hE (srcWords hE x1) := by
  unfold val_main_v95 val_main_v92 val_main_v94 val_main_v91 val_main_v93 val_main_c_16 val_main_c_17 wrapWords
  rw [v3_eq]

theorem v96_eq : val_main_v96 (F := Ideal) x1 = col hE (wrapWords hE (srcWords hE x1)) := by
  unfold val_main_v96 col; rw [v95_eq]

/-- The raw target words as a column, the segment sum's indices. -/
theorem v101_eq : val_main_v101 (F := Ideal) x1 = col hE (dstWords hE x1) := by
  unfold val_main_v101 col; rw [v6_eq]

/-! ### The printed gathers and the printed segment sum, at variable operands -/

/-- The element gather the program prints, at edge e: the operand at the row its index word names. -/
theorem gatherVec_printed (dv : S100000.Idx → EReal) (idx : IVec S3300000x1 32) (e : Fin 3300000) :
    Host.gather gather_S100000_S3300000x1_S3300000_n_0_n_n_0_1_1 dv idx (ix1 e) = dv (ix1 (rowOf idx e)) := by
  unfold gather_S100000_S3300000x1_S3300000_n_0_n_n_0_1_1
  exact Cert.LibGatherVec.gather_vec_apply (by decide) _ dv idx e

/-- The row gather the program prints, at (e, d): the operand's row named by the index word of e, column d. -/
theorem gatherRows_printed (y : S100000x64.Idx → EReal) (idx : IVec S3300000x1 32) (e : Fin 3300000) (d : Fin 64) :
    Host.gather gather_S100000x64_S3300000x1_S3300000x64_1_0_n_n_0_1_164 y idx (ix2 e d) = y (ix2 (rowOf idx e) d) := by
  unfold gather_S100000x64_S3300000x1_S3300000x64_1_0_n_n_0_1_164
  exact gatherRows_apply (φ := .f32) hK y idx e d

/-- The segment sum the program prints, into its zero array, at (n, d): the sum of the update rows whose index
    word, signed, is n. -/
theorem segmentSum_printed (idx : IVec S3300000x1 32) (upd : S3300000x64.Idx → EReal) (n : Fin 100000) (d : Fin 64) :
    Host.scatterAdd (F := Ideal) (φ := .f32) scatter_S100000x64_S3300000x1_S3300000x64_1_0_0_1 (val_main_v100 (F := Ideal)) idx upd (ix2 n d)
      = ∑ e ∈ Finset.univ.filter (fun e : Fin 3300000 => (idx (ix2 e (0 : Fin 1))).toInt = (n.val : ℤ)), upd (ix2 e d) := by
  unfold scatter_S100000x64_S3300000x1_S3300000x64_1_0_0_1 val_main_v100 val_main_cst_18
  exact segmentSum_apply hK idx upd n d

/-! ### The coefficient of an edge -/

/-- The normaliser gathered by source word, at edge e. -/
theorem v81_entry (e : Fin 3300000) :
    val_main_v81 (F := Ideal) x1 (ix1 e) = dinvArr hE x1 (ix1 (rowOf (col hE (wrapWords hE (srcWords hE x1))) e)) := by
  unfold val_main_v81
  rw [v11_eq, v80_eq, gatherVec_printed]

/-- The normaliser gathered by target word, at edge e. -/
theorem v88_entry (e : Fin 3300000) :
    val_main_v88 (F := Ideal) x1 (ix1 e) = dinvArr hE x1 (ix1 (rowOf (col hE (wrapWords hE (dstWords hE x1))) e)) := by
  unfold val_main_v88
  rw [v11_eq, v87_eq, gatherVec_printed]

/-- The coefficient laid along the row of edge e: the product of the two normalisers. -/
theorem v98_entry (e : Fin 3300000) (d : Fin 64) :
    val_main_v98 (F := Ideal) x1 (ix2 e d) = dinvArr hE x1 (ix1 (rowOf (col hE (wrapWords hE (srcWords hE x1))) e)) * dinvArr hE x1 (ix1 (rowOf (col hE (wrapWords hE (dstWords hE x1))) e)) := by
  rw [val_main_v98_apply, val_main_v90_apply]
  have hi : idx_main_v90 (idx_main_v98 (ix2 e d)) = ix1 e :=
    funext fun a => Fin.ext (by match a with | ⟨0, _⟩ => rfl)
  rw [hi, val_main_v89_apply, v81_entry, v88_entry]; rfl

/-! ### The product with the second weight, its gathered rows, the messages and their segment sum -/

/-- The product of the first layer's output with the second weight, at (n, d). -/
theorem v74_entry (hX : ∀ (n : Fin 100000) (d : Fin 64), val_main_v73 (F := Ideal) x0 x1 x2 x3 x4 x5 x6 x7 (ix2 n d) = X1 n d) (n : Fin 100000) (d : Fin 64) :
    val_main_v74 (F := Ideal) x0 x1 x2 x3 x4 x5 x6 x7 x8 (ix2 n d) = ∑ k : Fin 64, X1 n k * x8 (ix2 k d) := by
  rw [val_main_v74_apply]
  refine Finset.sum_congr rfl fun k _ => ?_
  have el : lidx_main_v74 (ix2 n d) k = ix2 n k :=
    funext fun a => Fin.ext (by match a with | ⟨0, _⟩ => rfl | ⟨1, _⟩ => rfl)
  have er : ridx_main_v74 (ix2 n d) k = ix2 k d :=
    funext fun a => Fin.ext (by match a with | ⟨0, _⟩ => rfl | ⟨1, _⟩ => rfl)
  rw [el, er, hX]

/-- The product's row gathered by the source word of edge e. -/
theorem v97_entry (hX : ∀ (n : Fin 100000) (d : Fin 64), val_main_v73 (F := Ideal) x0 x1 x2 x3 x4 x5 x6 x7 (ix2 n d) = X1 n d) (e : Fin 3300000) (d : Fin 64) :
    val_main_v97 (F := Ideal) x0 x1 x2 x3 x4 x5 x6 x7 x8 (ix2 e d) = ∑ k : Fin 64, X1 (rowOf (col hE (wrapWords hE (srcWords hE x1))) e) k * x8 (ix2 k d) := by
  unfold val_main_v97
  rw [v96_eq, gatherRows_printed, v74_entry x0 x1 x2 x3 x4 x5 x6 x7 x8 X1 hX]

/-- The message of edge e: its coefficient times the gathered row. -/
theorem v99_entry (hX : ∀ (n : Fin 100000) (d : Fin 64), val_main_v73 (F := Ideal) x0 x1 x2 x3 x4 x5 x6 x7 (ix2 n d) = X1 n d) (e : Fin 3300000) (d : Fin 64) :
    val_main_v99 (F := Ideal) x0 x1 x2 x3 x4 x5 x6 x7 x8 (ix2 e d)
      = (dinvArr hE x1 (ix1 (rowOf (col hE (wrapWords hE (srcWords hE x1))) e)) * dinvArr hE x1 (ix1 (rowOf (col hE (wrapWords hE (dstWords hE x1))) e))) * ∑ k : Fin 64, X1 (rowOf (col hE (wrapWords hE (srcWords hE x1))) e) k * x8 (ix2 k d) := by
  rw [val_main_v99_apply, v98_entry, v97_entry x0 x1 x2 x3 x4 x5 x6 x7 x8 X1 hX]; rfl

/-- THE AGGREGATION: the messages summed by target word are arrangement R's aggregation of the first layer's output. -/
theorem v102_entry (hX : ∀ (n : Fin 100000) (d : Fin 64), val_main_v73 (F := Ideal) x0 x1 x2 x3 x4 x5 x6 x7 (ix2 n d) = X1 n d) (n : Fin 100000) (d : Fin 64) :
    val_main_v102 (F := Ideal) x0 x1 x2 x3 x4 x5 x6 x7 x8 (ix2 n d) = aggR (graph hE x1) X1 (toMatD x8) n d := by
  unfold val_main_v102
  rw [v101_eq, segmentSum_printed]
  unfold aggR segSum mm graph toMatD
  dsimp only
  refine Finset.sum_congr rfl fun e _ => ?_
  rw [v99_entry x0 x1 x2 x3 x4 x5 x6 x7 x8 X1 hX]

end Agg2

/-- THE SECOND LAYER: whatever the first layer's output is, entry by entry, the program's result is arrangement R's
    layer of it. -/
theorem rlayer2 (x0 : S100000x64.Idx → EReal) (x1 : IVec S2x3200000 32) (x2 : S64x64.Idx → EReal) (x3 : S64.Idx → EReal) (x4 : S64x64.Idx → EReal) (x5 : S64.Idx → EReal) (x6 : S64.Idx → EReal) (x7 : S64.Idx → EReal)
    (x8 : S64x64.Idx → EReal) (x9 : S64.Idx → EReal) (x10 : S64x64.Idx → EReal) (x11 : S64.Idx → EReal) (x12 : S64.Idx → EReal) (x13 : S64.Idx → EReal)
    (X1 : Mat NN DD)
    (hX : ∀ (n : Fin 100000) (d : Fin 64), val_main_v73 (F := Ideal) x0 x1 x2 x3 x4 x5 x6 x7 (ix2 n d) = X1 n d)
    (n : Fin 100000) (d : Fin 64) :
    val_main_v135 (F := Ideal) x0 x1 x2 x3 x4 x5 x6 x7 x8 x9 x10 x11 x12 x13 (ix2 n d)
      = layerR (graph hE x1) cN eps X1 (toMatD x8) (toRow x9) (toMatD x10) (toRow x11) (toRow x12) (toRow x13) n d := by
  unfold layerR
  exact rbn2 x0 x1 x2 x3 x4 x5 x6 x7 x8 x9 x10 x11 x12 x13 (aggR (graph hE x1) X1 (toMatD x8))
    (fun n d => Agg2.v102_entry x0 x1 x2 x3 x4 x5 x6 x7 x8 X1 hX n d) n d

end Cert.ReferenceIdeal.RefVal

end
-- ==== Proof.RefValue.lean ====
/-
  THE REFERENCE PROGRAM'S RESULT: the second layer of arrangement R applied to the first.
-/
import proofs.«416678_j48155173322920_3_alg».proof.Proof.RLayer1
import proofs.«416678_j48155173322920_3_alg».proof.Proof.RLayer2

noncomputable section

open Idealize.ShloMosaic Idealize.ShloMosaic.ValueIdx

namespace Cert.ReferenceIdeal.RefVal

open Cert.ReferenceIdeal Cert.ReferenceIdeal.Gen Cert.ReferenceIdeal.Read Cert.GcnSpec Cert.GcnEdges Cert.GcnHost

/-- THE RESULT: the second layer's output of the first layer's, entry by entry. -/
theorem ref_value (x0 : S100000x64.Idx → EReal) (x1 : IVec S2x3200000 32) (x2 : S64x64.Idx → EReal) (x3 : S64.Idx → EReal) (x4 : S64x64.Idx → EReal) (x5 : S64.Idx → EReal) (x6 : S64.Idx → EReal) (x7 : S64.Idx → EReal)
    (x8 : S64x64.Idx → EReal) (x9 : S64.Idx → EReal) (x10 : S64x64.Idx → EReal) (x11 : S64.Idx → EReal) (x12 : S64.Idx → EReal) (x13 : S64.Idx → EReal) :
    val_main_v135 (F := Ideal) x0 x1 x2 x3 x4 x5 x6 x7 x8 x9 x10 x11 x12 x13
      = fun i => layerR (graph hE x1) cN eps (out1 x0 x1 x2 x3 x4 x5 x6 x7) (toMatD x8) (toRow x9) (toMatD x10) (toRow x11)
          (toRow x12) (toRow x13) (i 0) (i 1) := by
  funext i
  rw [eq_ix2 i]
  exact rlayer2 x0 x1 x2 x3 x4 x5 x6 x7 x8 x9 x10 x11 x12 x13 _ (rlayer1 x0 x1 x2 x3 x4 x5 x6 x7) (i 0) (i 1)

end Cert.ReferenceIdeal.RefVal

end
-- ==== Proof.PreReal.lean ====
/-
  FINITENESS DECODED. The precondition is one printed predicate of the fourteen argument arrays: for each of the thirteen
  float arrays, "every entry's absolute value is below +∞", all conjoined into one bit. That bit being one says every
  entry of every float array is a real number: an extended real whose absolute value is below +∞ is neither +∞ nor −∞.
-/
import proofs.«416678_j48155173322920_3_alg».proof.Proof.Gen.Pre_finite_inputs
import Idealize.ShloMosaic.PureOps.Ideal.Laws
import Idealize.ShloMosaic.Lib.ValueIdx
import Idealize.ShloMosaic.Lib.ReduceAll

noncomputable section

open Idealize.ShloMosaic Idealize.ShloMosaic.ValueIdx

namespace Cert.Pre_finite_inputs.Decode

open Cert.Pre_finite_inputs

/-- A rank-0 shape has one index. -/
instance : Subsingleton S_.Idx := ⟨fun a b => funext fun d => d.elim0⟩

/-- The 32-bit pattern `0x7F800000` denotes +∞. -/
theorem ofBits_inf : Ideal.ofBits .f32 0x7F800000#32 = (⊤ : EReal) := by
  simp [Ideal.ofBits, Ideal.ieee]

/-- An extended real whose absolute value `max x (-x)` is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One block of the predicate over an arbitrary shape: if "all entries of |x| are below the broadcast +∞" reduces to
    the bit one, then every entry of `x` is a real number. -/
theorem real_of_block {s : Shape} {axes : List (Fin s.rank)} (hb : S_.BroadcastsInDim s (![] : Fin 0 → Fin s.rank))
    (hr : s.ReducesTo axes S_) (hu : 0 < S_.numel) (x : s.Idx → EReal)
    (e : Host.reduce IntOp.andi
          (cmpf .olt (Host.absf (F := Ideal) (φ := .f32) x)
            (broadcastInDim s ![] hb (constant (F := Ideal) S_ .f32 0x7F800000#32)))
          (constantI S_ 1 1#1) hr hu ix0 = 1#1) :
    ∀ i, ∃ r : ℝ, x i = (r : EReal) := by
  intro i
  have hi : Ideal.cmp .olt (max (x i) (-(x i))) (Ideal.ofBits .f32 0x7F800000#32) = 1#1 :=
    Host.reduce_andi_all _ _ hr hu ix0 e i
  rw [ofBits_inf] at hi
  refine real_of_abs_lt_top _ ?_
  by_contra hn
  simp [Ideal.cmp, hn] at hi

/-- A conjunction of two one-bit arrays is one at an index only if both are. -/
theorem both_of_andi {s : Shape} (a b : IVec s 1) (i : s.Idx) (h : andi a b i = 1#1) : a i = 1#1 ∧ b i = 1#1 :=
  IntOp.andi_eq_one.1 h

/-- The precondition's bit is one only if every entry of every float argument is a real number. -/
theorem reals_of_finite (x0 : S100000x64.Idx → EReal) (x1 : IVec S2x3200000 32)
    (x2 : S64x64.Idx → EReal) (x3 : S64.Idx → EReal) (x4 : S64x64.Idx → EReal) (x5 : S64.Idx → EReal) (x6 : S64.Idx → EReal) (x7 : S64.Idx → EReal) (x8 : S64x64.Idx → EReal) (x9 : S64.Idx → EReal) (x10 : S64x64.Idx → EReal) (x11 : S64.Idx → EReal) (x12 : S64.Idx → EReal) (x13 : S64.Idx → EReal)
    (h : fn (F := Ideal) x0 x1 x2 x3 x4 x5 x6 x7 x8 x9 x10 x11 x12 x13 = (fun _ => 1#1)) :
    (∀ i, ∃ r : ℝ, x0 i = (r : EReal))
    ∧ (∀ i, ∃ r : ℝ, x2 i = (r : EReal))
    ∧ (∀ i, ∃ r : ℝ, x3 i = (r : EReal))
    ∧ (∀ i, ∃ r : ℝ, x4 i = (r : EReal))
    ∧ (∀ i, ∃ r : ℝ, x5 i = (r : EReal))
    ∧ (∀ i, ∃ r : ℝ, x6 i = (r : EReal))
    ∧ (∀ i, ∃ r : ℝ, x7 i = (r : EReal))
    ∧ (∀ i, ∃ r : ℝ, x8 i = (r : EReal))
    ∧ (∀ i, ∃ r : ℝ, x9 i = (r : EReal))
    ∧ (∀ i, ∃ r : ℝ, x10 i = (r : EReal))
    ∧ (∀ i, ∃ r : ℝ, x11 i = (r : EReal))
    ∧ (∀ i, ∃ r : ℝ, x12 i = (r : EReal))
    ∧ (∀ i, ∃ r : ℝ, x13 i = (r : EReal)) := by
  have h0 := congrFun h ix0
  dsimp only [fn, fn_part1, fn_part2, fn_part3] at h0
  obtain ⟨h0, e13⟩ := both_of_andi _ _ _ h0
  obtain ⟨h0, e12⟩ := both_of_andi _ _ _ h0
  obtain ⟨h0, e11⟩ := both_of_andi _ _ _ h0
  obtain ⟨h0, e10⟩ := both_of_andi _ _ _ h0
  obtain ⟨h0, e9⟩ := both_of_andi _ _ _ h0
  obtain ⟨h0, e8⟩ := both_of_andi _ _ _ h0
  obtain ⟨h0, e7⟩ := both_of_andi _ _ _ h0
  obtain ⟨h0, e6⟩ := both_of_andi _ _ _ h0
  obtain ⟨h0, e5⟩ := both_of_andi _ _ _ h0
  obtain ⟨h0, e4⟩ := both_of_andi _ _ _ h0
  obtain ⟨h0, e3⟩ := both_of_andi _ _ _ h0
  obtain ⟨e0, e2⟩ := both_of_andi _ _ _ h0
  exact ⟨real_of_block _ _ _ x0 e0, real_of_block _ _ _ x2 e2, real_of_block _ _ _ x3 e3, real_of_block _ _ _ x4 e4,
    real_of_block _ _ _ x5 e5, real_of_block _ _ _ x6 e6, real_of_block _ _ _ x7 e7, real_of_block _ _ _ x8 e8,
    real_of_block _ _ _ x9 e9, real_of_block _ _ _ x10 e10, real_of_block _ _ _ x11 e11, real_of_block _ _ _ x12 e12,
    real_of_block _ _ _ x13 e13⟩

end Cert.Pre_finite_inputs.Decode

end
-- ==== Proof.lean ====
/-
  THE CLAIM. Both programs are two graph-convolution layers, each followed by a linear map, a batch normalisation over the
  100000 nodes and a rectifier, on the graph the edge list spells (one self loop added per node).

  The reference normalises every message on its edge by the inverse square roots of the degrees of its two ends, sums the
  messages by target node, and takes the variance as the mean of the squared deviations. The kernel scales the input's rows
  by the inverse square root of the degree before the product with the weight, sums the unscaled gathered rows by target
  node, scales the node's sum afterwards, and takes the variance as the mean of the squares minus the squared mean, clamped
  at zero; its sums over the nodes are accumulated block by block. Every float input is finite, so every quantity is a real
  number: a real factor moves in and out of a finite sum, the two variances are one non-negative number, the degree is at
  least one because of the self loop, and the variance plus its positive offset has a real inverse square root. Hence the
  first layers agree, the first layer's output is real, and the second layers agree.

  The kernel's result is read off its run segment by segment, the reference's off its run operation by operation; the two
  frames of the kernel programs are their generated frames, the reference's frame is its run with the result dropped, and
  the ideal pass rewrote nothing.
-/
import proofs.«416678_j48155173322920_3_alg».proof.Defs
import proofs.«416678_j48155173322920_3_alg».proof.Proof.Gen.Kernel
import proofs.«416678_j48155173322920_3_alg».proof.Proof.Gen.Kernel.Skeleton
import proofs.«416678_j48155173322920_3_alg».proof.Proof.Gen.Kernel.Launch
import proofs.«416678_j48155173322920_3_alg».proof.Proof.Gen.Kernel.Points
import proofs.«416678_j48155173322920_3_alg».proof.Proof.Gen.Kernel.Frame
import proofs.«416678_j48155173322920_3_alg».proof.Proof.Gen.KernelIdeal
import proofs.«416678_j48155173322920_3_alg».proof.Proof.Gen.KernelIdeal.Skeleton
import proofs.«416678_j48155173322920_3_alg».proof.Proof.Gen.KernelIdeal.Launch
import proofs.«416678_j48155173322920_3_alg».proof.Proof.Gen.KernelIdeal.Points
import proofs.«416678_j48155173322920_3_alg».proof.Proof.Gen.KernelIdeal.Frame
import proofs.«416678_j48155173322920_3_alg».proof.Proof.Gen.ReferenceIdeal
import proofs.«416678_j48155173322920_3_alg».proof.Proof.Gen.ReferenceIdeal.Run
import proofs.«416678_j48155173322920_3_alg».proof.Proof.Gen.ReferenceIdeal.Read
import proofs.«416678_j48155173322920_3_alg».proof.Proof.Gen.Pre_finite_inputs
import proofs.«416678_j48155173322920_3_alg».proof.Proof.KRun
import proofs.«416678_j48155173322920_3_alg».proof.Proof.KValue
import proofs.«416678_j48155173322920_3_alg».proof.Proof.RefValue
import proofs.«416678_j48155173322920_3_alg».proof.Proof.PreReal
import Idealize.ShloMosaic.Adequacy
import Idealize.ShloMosaic.Init

noncomputable section

namespace Cert.Proof

open Idealize.ShloMosaic Idealize.ShloMosaic.ValueIdx Idealize.SL.Sem
open Cert.GcnSpec Cert.GcnEdges Cert.GcnHost

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- An array of real entries, read by coordinates, is a matrix of real entries. -/
theorem real2_toMat (x : SND.Idx → EReal) (h : ∀ i, ∃ r : ℝ, x i = (r : EReal)) : Real2 (toMat x) := fun i j => h (ix2 i j)
theorem real2_toMatD (x : (⟨2, ![64, 64]⟩ : Shape).Idx → EReal) (h : ∀ i, ∃ r : ℝ, x i = (r : EReal)) : Real2 (toMatD x) :=
  fun i j => h (ix2 i j)
theorem real1_toRow (x : SD.Idx → EReal) (h : ∀ i, ∃ r : ℝ, x i = (r : EReal)) : Real1 (toRow x) := fun j => h (ix1 j)

/-- The two arrangements of the two layers agree on finite arguments. -/
theorem layers_agree (H : Cert.GcnEdges.Facts) (x0 : SND.Idx → EReal) (x1 : IVec S2P 32)
    (x2 : (⟨2, ![64, 64]⟩ : Shape).Idx → EReal) (x3 : SD.Idx → EReal) (x4 : (⟨2, ![64, 64]⟩ : Shape).Idx → EReal)
    (x5 x6 x7 : SD.Idx → EReal) (x8 : (⟨2, ![64, 64]⟩ : Shape).Idx → EReal) (x9 : SD.Idx → EReal)
    (x10 : (⟨2, ![64, 64]⟩ : Shape).Idx → EReal) (x11 x12 x13 : SD.Idx → EReal)
    (h : Cert.Pre_finite_inputs.fn (F := Ideal) x0 x1 x2 x3 x4 x5 x6 x7 x8 x9 x10 x11 x12 x13 = (fun _ => 1#1)) :
    layerR (graph H x1) cN eps (layerR (graph H x1) cN eps (toMat x0) (toMatD x2) (toRow x3) (toMatD x4) (toRow x5) (toRow x6) (toRow x7))
        (toMatD x8) (toRow x9) (toMatD x10) (toRow x11) (toRow x12) (toRow x13)
      = layerK (graph H x1) cN eps (layerK (graph H x1) cN eps (toMat x0) (toMatD x2) (toRow x3) (toMatD x4) (toRow x5) (toRow x6) (toRow x7))
        (toMatD x8) (toRow x9) (toMatD x10) (toRow x11) (toRow x12) (toRow x13) := by
  obtain ⟨r0, r2, r3, r4, r5, r6, r7, r8, r9, r10, r11, -, -⟩ :=
    Cert.Pre_finite_inputs.Decode.reals_of_finite x0 x1 x2 x3 x4 x5 x6 x7 x8 x9 x10 x11 x12 x13 h
  exact two_eq (graph H x1) (graph_ok H x1) cN eps consts_ok (toMat x0) (toMatD x2) (toRow x3) (toMatD x4) (toRow x5)
    (toRow x6) (toRow x7) (toMatD x8) (toRow x9) (toMatD x10) (toRow x11) (toRow x12) (toRow x13)
    (real2_toMat x0 r0) (real2_toMatD x2 r2) (real1_toRow x3 r3) (real2_toMatD x4 r4) (real1_toRow x5 r5) (real1_toRow x6 r6)
    (real1_toRow x7 r7) (real2_toMatD x8 r8) (real1_toRow x9 r9) (real2_toMatD x10 r10) (real1_toRow x11 r11)

/-- At the ideal values the kernel's result buffer ends at arrangement K's two layers of its arguments, the reference's at
    arrangement R's two layers of arguments that agree with them: one array. -/
theorem algebraic : Cert.algebraic_KernelIdeal_ReferenceIdeal := by
  intro m ρ m' ρ' hpre hagree
  refine ⟨fun c => (fun i => Cert.KernelIdeal.Val.out2 m c (i 0) (i 1) : Cert.KernelIdeal.S100000x64.Idx → EReal), ?_, ?_⟩
  · exact (θ_run Cert.KernelIdeal.defs _ _).mono
      (fun r h c => ⟨((h c).1).trans (Cert.KernelIdeal.Val.kernel_value m ρ c), (h c).2⟩)
      (Cert.KernelIdeal.Gen.run_result (F := Ideal) m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9, a10, a11, a12, a13⟩ := hagree c
    rw [(h c).1, Cert.ReferenceIdeal.Read.val_main_v135_eq, Cert.ReferenceIdeal.RefVal.ref_value,
      a0, a1, a2, a3, a4, a5, a6, a7, a8, a9, a10, a11, a12, a13]
    funext i
    exact congrFun (congrFun (layers_agree Cert.KernelIdeal.Val.hE _ _ _ _ _ _ _ _ _ _ _ _ _ _ (hpre c)) (i 0)) (i 1)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
